-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S2048x8192 : Shape := ⟨2, ![2048, 8192]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel

variable [Facts]

def fn {F : FTy → Type} [FloatOps F] (main_arg0 : FVec F S2048x8192 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  main_v3
-- ==== Kernel.lean ====
abbrev S2048x1024 : Shape := ⟨2, ![2048, 1024]⟩
abbrev S2x2048 : Shape := ⟨2, ![2, 2048]⟩
abbrev S7x2x2048 : Shape := ⟨3, ![7, 2, 2048]⟩
abbrev S7 : Shape := ⟨1, ![7]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S1 : Shape := ⟨1, ![1]⟩
abbrev S1x2x2048 : Shape := ⟨3, ![1, 2, 2048]⟩
abbrev S1x2048 : Shape := ⟨2, ![1, 2048]⟩
abbrev S7x1x2048 : Shape := ⟨3, ![7, 1, 2048]⟩
abbrev S1x1x2048 : Shape := ⟨3, ![1, 1, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S2x2048, .f32⟩
  | .local _ .vmem, ⟨3, _⟩ => ⟨S7x2x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_35 : BitVec 32 := 1#32
  let v47 : BitVec 32 := Scalar.addi v2 c1_i32_35
  let c8_i32_36 : BitVec 32 := 8#32
  let v48 : BitVec 32 := Scalar.remsi v47 c8_i32_36
  let c1_i32_40 : BitVec 32 := 1#32
  let v49 : BitVec 32 := Scalar.muli v48 c1_i32_40
  let v50 : BitVec 32 := Scalar.addi c0_i32_41 v49
  v50.toNat
def k0_dev9 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v57 : BitVec 32 := Scalar.addi v2 c2_i32_44
  let c8_i32_45 : BitVec 32 := 8#32
  let v58 : BitVec 32 := Scalar.remsi v57 c8_i32_45
  let c1_i32_49 : BitVec 32 := 1#32
  let v59 : BitVec 32 := Scalar.muli v58 c1_i32_49
  let v60 : BitVec 32 := Scalar.addi c0_i32_50 v59
  v60.toNat
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_53 : BitVec 32 := 3#32
  let v67 : BitVec 32 := Scalar.addi v2 c3_i32_53
  let c8_i32_54 : BitVec 32 := 8#32
  let v68 : BitVec 32 := Scalar.remsi v67 c8_i32_54
  let c1_i32_58 : BitVec 32 := 1#32
  let v69 : BitVec 32 := Scalar.muli v68 c1_i32_58
  let v70 : BitVec 32 := Scalar.addi c0_i32_59 v69
  v70.toNat
def k0_dev11 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_62 : BitVec 32 := 4#32
  let v77 : BitVec 32 := Scalar.addi v2 c4_i32_62
  let c8_i32_63 : BitVec 32 := 8#32
  let v78 : BitVec 32 := Scalar.remsi v77 c8_i32_63
  let c1_i32_67 : BitVec 32 := 1#32
  let v79 : BitVec 32 := Scalar.muli v78 c1_i32_67
  let v80 : BitVec 32 := Scalar.addi c0_i32_68 v79
  v80.toNat
def k0_dev12 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_71 : BitVec 32 := 5#32
  let v87 : BitVec 32 := Scalar.addi v2 c5_i32_71
  let c8_i32_72 : BitVec 32 := 8#32
  let v88 : BitVec 32 := Scalar.remsi v87 c8_i32_72
  let c1_i32_76 : BitVec 32 := 1#32
  let v89 : BitVec 32 := Scalar.muli v88 c1_i32_76
  let v90 : BitVec 32 := Scalar.addi c0_i32_77 v89
  v90.toNat
def k0_dev13 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_80 : BitVec 32 := 6#32
  let v97 : BitVec 32 := Scalar.addi v2 c6_i32_80
  let c8_i32_81 : BitVec 32 := 8#32
  let v98 : BitVec 32 := Scalar.remsi v97 c8_i32_81
  let c1_i32_85 : BitVec 32 := 1#32
  let v99 : BitVec 32 := Scalar.muli v98 c1_i32_85
  let v100 : BitVec 32 := Scalar.addi c0_i32_86 v99
  v100.toNat
def k0_dev14 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_89 : BitVec 32 := 7#32
  let v107 : BitVec 32 := Scalar.addi v2 c7_i32_89
  let c8_i32_90 : BitVec 32 := 8#32
  let v108 : BitVec 32 := Scalar.remsi v107 c8_i32_90
  let c1_i32_94 : BitVec 32 := 1#32
  let v109 : BitVec 32 := Scalar.muli v108 c1_i32_94
  let v110 : BitVec 32 := Scalar.addi c0_i32_95 v109
  v110.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S2048 : S2048x1024.Reduces [1] S2048
  shapeCasts_S2048_S2048x1 : S2048.ShapeCasts S2048x1
  broadcasts_S2048x1_S2048x1024 : S2048x1.Broadcasts S2048x1024
  concatenates_S2048x1_S2048x1_S2048x2_d1 : Shape.Concatenates [S2048x1, S2048x1] S2048x2 1
  transposes_S2048x2_p1_0_S2x2048 : S2048x2.Transposes [1, 0] S2x2048
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  hamt_7 : (7#32 : BitVec 32).msb = false
  inb_S7_S1_0 : ∀ a, (![0] : Fin 1 → Nat) a + S1.size a ≤ S7.size a
  squeezes_S1_S_ : S1.Squeezes S_
  inb_S7x2x2048_S1x2x2048_0_0_0 : ∀ a, (![0, 0, 0] : Fin 3 → Nat) a + S1x2x2048.size a ≤ S7x2x2048.size a
  squeezes_S1x2x2048_S2x2048 : S1x2x2048.Squeezes S2x2048
  inb_S7_S1_1 : ∀ a, (![1] : Fin 1 → Nat) a + S1.size a ≤ S7.size a
  inb_S7x2x2048_S1x2x2048_1_0_0 : ∀ a, (![1, 0, 0] : Fin 3 → Nat) a + S1x2x2048.size a ≤ S7x2x2048.size a
  inb_S7_S1_2 : ∀ a, (![2] : Fin 1 → Nat) a + S1.size a ≤ S7.size a
  inb_S7x2x2048_S1x2x2048_2_0_0 : ∀ a, (![2, 0, 0] : Fin 3 → Nat) a + S1x2x2048.size a ≤ S7x2x2048.size a
  inb_S7_S1_3 : ∀ a, (![3] : Fin 1 → Nat) a + S1.size a ≤ S7.size a
  inb_S7x2x2048_S1x2x2048_3_0_0 : ∀ a, (![3, 0, 0] : Fin 3 → Nat) a + S1x2x2048.size a ≤ S7x2x2048.size a
  inb_S7_S1_4 : ∀ a, (![4] : Fin 1 → Nat) a + S1.size a ≤ S7.size a
  inb_S7x2x2048_S1x2x2048_4_0_0 : ∀ a, (![4, 0, 0] : Fin 3 → Nat) a + S1x2x2048.size a ≤ S7x2x2048.size a
  inb_S7_S1_5 : ∀ a, (![5] : Fin 1 → Nat) a + S1.size a ≤ S7.size a
  inb_S7x2x2048_S1x2x2048_5_0_0 : ∀ a, (![5, 0, 0] : Fin 3 → Nat) a + S1x2x2048.size a ≤ S7x2x2048.size a
  inb_S7_S1_6 : ∀ a, (![6] : Fin 1 → Nat) a + S1.size a ≤ S7.size a
  inb_S7x2x2048_S1x2x2048_6_0_0 : ∀ a, (![6, 0, 0] : Fin 3 → Nat) a + S1x2x2048.size a ≤ S7x2x2048.size a
  inb_S2x2048_S1x2048_0_0 : ∀ a, (![0, 0] : Fin 2 → Nat) a + S1x2048.size a ≤ S2x2048.size a
  h_S1x2048 : 0 < S1x2048.numel
  inb_S2x2048_S1x2048_1_0 : ∀ a, (![1, 0] : Fin 2 → Nat) a + S1x2048.size a ≤ S2x2048.size a
  inb_S7x2x2048_S7x1x2048_0_0_0 : ∀ a, (![0, 0, 0] : Fin 3 → Nat) a + S7x1x2048.size a ≤ S7x2x2048.size a
  h_S7x1x2048 : 0 < S7x1x2048.numel
  inb_S7x2x2048_S7x1x2048_0_1_0 : ∀ a, (![0, 1, 0] : Fin 3 → Nat) a + S7x1x2048.size a ≤ S7x2x2048.size a
  reduces_S7x1x2048_S1x2048 : S7x1x2048.Reduces [0] S1x2048
  shapeCasts_S1x2048_S1x1x2048 : S1x2048.ShapeCasts S1x1x2048
  broadcasts_S1x1x2048_S7x1x2048 : S1x1x2048.Broadcasts S7x1x2048
  transposes_S1x2048_p1_0_S2048x1 : S1x2048.Transposes [1, 0] S2048x1
  hcc0_scratch2 : 2 + S7.numel ≤ 16
  hcc0_scratch3 : 9 + S7.numel ≤ 16
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch2 : DmaSems sig S7 := SemArray.consecutive 2 S7 hcc0_scratch2
abbrev cc0_scratch3 : DmaSems sig S7 := SemArray.consecutive 9 S7 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x8192 : Shape := ⟨2, ![2048, 8192]⟩
abbrev S_ : Shape := ⟨0, ![]⟩
abbrev S2048 : Shape := ⟨1, ![2048]⟩
abbrev S2048x1 : Shape := ⟨2, ![2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x8192, .f32⟩
  | .hbm, ⟨11, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S2048x8192_S2048_d1 : S2048x8192.ReducesTo [1] S2048
  h_S_ : 0 < S_.numel
  bcast_S2048_S2048x1_0 : S2048.BroadcastsInDim S2048x1 (![0] : Fin 1 → Fin S2048x1.rank)
  bcast_S2048x1_S2048x8192_0_1 : S2048x1.BroadcastsInDim S2048x8192 (![0, 1] : Fin 2 → Fin S2048x8192.rank)

variable [Facts₀]

class Facts : Prop extends Facts₀ where

variable [Facts]
-- ==== Proof.KernelHand.Proto.lean ====
/-
# The protocol of the column-sharded softmax on eight devices

Every device c holds block c (1024 columns) of a 2048 x 8192 array. It computes its block's row maxima m_c and
the row sums s_c of exp (x - m_c), writes exp (x - m_c) to its result block and the pair (m_c, s_c), transposed
to 2 x 2048, to its statistics buffer. It tells each of its seven peers (at ring distance o = 1 .. 7) that it has
entered, on their barrier semaphore, waits for seven such units on its own, then copies its statistics into slot
o - 1 of the landing buffer of the peer at distance o, waits for its seven departures and seven arrivals, and
rescales its result block by exp (m_c - M) / S, with M the maximum and S the rescaled sum over all eight devices.

Cells, per device: the barrier cell (seven duties of one unit each in round 0), seven send cells and seven receive
cells (one duty each, the copy's credit).
-/
import proofs.«900602_g7700000000000603_dist_softmax_colshard_i_m2048_n1024_v7x_i8_f32_1_alg».proof.Proof.Gen.Kernel
import proofs.«900602_g7700000000000603_dist_softmax_colshard_i_m2048_n1024_v7x_i8_f32_1_alg».proof.Proof.Gen.Kernel.Skeleton
import proofs.«900602_g7700000000000603_dist_softmax_colshard_i_m2048_n1024_v7x_i8_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by Fin 7) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peers -/

/-- The device at ring distance o after c. -/
def pr (c : Dev nD) (o : ℕ) : Dev nD := ⟨(c.val + o) % 8, Nat.mod_lt _ (by decide)⟩

theorem pr_pr (c : Dev nD) (a b : ℕ) : pr (pr c a) b = pr c (a + b) := by
  apply Fin.ext; show ((c.val + a) % 8 + b) % 8 = (c.val + (a + b)) % 8; omega
theorem pr_eight (c : Dev nD) : pr c 8 = c := by
  apply Fin.ext; show (c.val + 8) % 8 = c.val; have : c.val < 8 := c.isLt; omega
theorem pr_zero (c : Dev nD) : pr c 0 = c := by
  apply Fin.ext; show (c.val + 0) % 8 = c.val; have : c.val < 8 := c.isLt; omega
theorem pr_inj (o : ℕ) : Function.Injective (fun c : Dev nD => pr c o) := by
  intro a b h; have := congrArg Fin.val h; apply Fin.ext
  have ha : a.val < 8 := a.isLt; have hb : b.val < 8 := b.isLt
  change (a.val + o) % 8 = (b.val + o) % 8 at this; omega

/-- The kernel's device_id chains: signal o and copy o both name the device at distance o. -/
theorem dev1_eq (c : Dev nD) : (⟨k0_dev1 c, k0_dev1_lt c⟩ : Dev nD) = pr c 1 := Fin.ext (k0_dev1_eq c)
theorem dev2_eq (c : Dev nD) : (⟨k0_dev2 c, k0_dev2_lt c⟩ : Dev nD) = pr c 2 := Fin.ext (k0_dev2_eq c)
theorem dev3_eq (c : Dev nD) : (⟨k0_dev3 c, k0_dev3_lt c⟩ : Dev nD) = pr c 3 := Fin.ext (k0_dev3_eq c)
theorem dev4_eq (c : Dev nD) : (⟨k0_dev4 c, k0_dev4_lt c⟩ : Dev nD) = pr c 4 := Fin.ext (k0_dev4_eq c)
theorem dev5_eq (c : Dev nD) : (⟨k0_dev5 c, k0_dev5_lt c⟩ : Dev nD) = pr c 5 := Fin.ext (k0_dev5_eq c)
theorem dev6_eq (c : Dev nD) : (⟨k0_dev6 c, k0_dev6_lt c⟩ : Dev nD) = pr c 6 := Fin.ext (k0_dev6_eq c)
theorem dev7_eq (c : Dev nD) : (⟨k0_dev7 c, k0_dev7_lt c⟩ : Dev nD) = pr c 7 := Fin.ext (k0_dev7_eq c)
theorem dev8_eq (c : Dev nD) : (⟨k0_dev8 c, k0_dev8_lt c⟩ : Dev nD) = pr c 1 := Fin.ext (k0_dev8_eq c)
theorem dev9_eq (c : Dev nD) : (⟨k0_dev9 c, k0_dev9_lt c⟩ : Dev nD) = pr c 2 := Fin.ext (k0_dev9_eq c)
theorem dev10_eq (c : Dev nD) : (⟨k0_dev10 c, k0_dev10_lt c⟩ : Dev nD) = pr c 3 := Fin.ext (k0_dev10_eq c)
theorem dev11_eq (c : Dev nD) : (⟨k0_dev11 c, k0_dev11_lt c⟩ : Dev nD) = pr c 4 := Fin.ext (k0_dev11_eq c)
theorem dev12_eq (c : Dev nD) : (⟨k0_dev12 c, k0_dev12_lt c⟩ : Dev nD) = pr c 5 := Fin.ext (k0_dev12_eq c)
theorem dev13_eq (c : Dev nD) : (⟨k0_dev13 c, k0_dev13_lt c⟩ : Dev nD) = pr c 6 := Fin.ext (k0_dev13_eq c)
theorem dev14_eq (c : Dev nD) : (⟨k0_dev14 c, k0_dev14_lt c⟩ : Dev nD) = pr c 7 := Fin.ext (k0_dev14_eq c)

/-! ## The memrefs and the semaphores -/

abbrev xM : Memref sig .tc .vmem S2048x1024 .f32 := Memref.whole cc0_stg0_0
abbrev oM : Memref sig .tc .vmem S2048x1024 .f32 := Memref.whole cc0_stg1_0
/-- The statistics buffer (row 0 the maxima, row 1 the sums) and the landing buffer of seven such. -/
abbrev sM : Memref sig .tc .vmem S2x2048 .f32 := Memref.whole cc0_scratch0
abbrev cM : Memref sig .tc .vmem S7x2x2048 .f32 := Memref.whole cc0_scratch1

abbrev slot0 : Memref sig .tc .vmem S2x2048 .f32 :=
  (cM.slice (Rect.unit (s := S7x2x2048) ![0, 0, 0] S1x2x2048.size inb_S7x2x2048_S1x2x2048_0_0_0) (fun _ => rfl)).squeeze S2x2048 squeezes_S1x2x2048_S2x2048
abbrev slot1 : Memref sig .tc .vmem S2x2048 .f32 :=
  (cM.slice (Rect.unit (s := S7x2x2048) ![1, 0, 0] S1x2x2048.size inb_S7x2x2048_S1x2x2048_1_0_0) (fun _ => rfl)).squeeze S2x2048 squeezes_S1x2x2048_S2x2048
abbrev slot2 : Memref sig .tc .vmem S2x2048 .f32 :=
  (cM.slice (Rect.unit (s := S7x2x2048) ![2, 0, 0] S1x2x2048.size inb_S7x2x2048_S1x2x2048_2_0_0) (fun _ => rfl)).squeeze S2x2048 squeezes_S1x2x2048_S2x2048
abbrev slot3 : Memref sig .tc .vmem S2x2048 .f32 :=
  (cM.slice (Rect.unit (s := S7x2x2048) ![3, 0, 0] S1x2x2048.size inb_S7x2x2048_S1x2x2048_3_0_0) (fun _ => rfl)).squeeze S2x2048 squeezes_S1x2x2048_S2x2048
abbrev slot4 : Memref sig .tc .vmem S2x2048 .f32 :=
  (cM.slice (Rect.unit (s := S7x2x2048) ![4, 0, 0] S1x2x2048.size inb_S7x2x2048_S1x2x2048_4_0_0) (fun _ => rfl)).squeeze S2x2048 squeezes_S1x2x2048_S2x2048
abbrev slot5 : Memref sig .tc .vmem S2x2048 .f32 :=
  (cM.slice (Rect.unit (s := S7x2x2048) ![5, 0, 0] S1x2x2048.size inb_S7x2x2048_S1x2x2048_5_0_0) (fun _ => rfl)).squeeze S2x2048 squeezes_S1x2x2048_S2x2048
abbrev slot6 : Memref sig .tc .vmem S2x2048 .f32 :=
  (cM.slice (Rect.unit (s := S7x2x2048) ![6, 0, 0] S1x2x2048.size inb_S7x2x2048_S1x2x2048_6_0_0) (fun _ => rfl)).squeeze S2x2048 squeezes_S1x2x2048_S2x2048
/-- Slot k of the landing buffer. -/
abbrev slotM : Fin 7 → Memref sig .tc .vmem S2x2048 .f32 := fun
  | 0 => slot0
  | 1 => slot1
  | 2 => slot2
  | 3 => slot3
  | 4 => slot4
  | 5 => slot5
  | 6 => slot6

abbrev barS : Sem sig := (SemArray.scalar (sig.barrier 0 rfl) : Sems sig S_).sem
abbrev snd0 : DmaSem sig := ((cc0_scratch2.slice (Rect.unit (s := S7) ![0] S1.size inb_S7_S1_0)).squeeze S_ squeezes_S1_S_).sem
abbrev rcv0 : DmaSem sig := ((cc0_scratch3.slice (Rect.unit (s := S7) ![0] S1.size inb_S7_S1_0)).squeeze S_ squeezes_S1_S_).sem
abbrev snd1 : DmaSem sig := ((cc0_scratch2.slice (Rect.unit (s := S7) ![1] S1.size inb_S7_S1_1)).squeeze S_ squeezes_S1_S_).sem
abbrev rcv1 : DmaSem sig := ((cc0_scratch3.slice (Rect.unit (s := S7) ![1] S1.size inb_S7_S1_1)).squeeze S_ squeezes_S1_S_).sem
abbrev snd2 : DmaSem sig := ((cc0_scratch2.slice (Rect.unit (s := S7) ![2] S1.size inb_S7_S1_2)).squeeze S_ squeezes_S1_S_).sem
abbrev rcv2 : DmaSem sig := ((cc0_scratch3.slice (Rect.unit (s := S7) ![2] S1.size inb_S7_S1_2)).squeeze S_ squeezes_S1_S_).sem
abbrev snd3 : DmaSem sig := ((cc0_scratch2.slice (Rect.unit (s := S7) ![3] S1.size inb_S7_S1_3)).squeeze S_ squeezes_S1_S_).sem
abbrev rcv3 : DmaSem sig := ((cc0_scratch3.slice (Rect.unit (s := S7) ![3] S1.size inb_S7_S1_3)).squeeze S_ squeezes_S1_S_).sem
abbrev snd4 : DmaSem sig := ((cc0_scratch2.slice (Rect.unit (s := S7) ![4] S1.size inb_S7_S1_4)).squeeze S_ squeezes_S1_S_).sem
abbrev rcv4 : DmaSem sig := ((cc0_scratch3.slice (Rect.unit (s := S7) ![4] S1.size inb_S7_S1_4)).squeeze S_ squeezes_S1_S_).sem
abbrev snd5 : DmaSem sig := ((cc0_scratch2.slice (Rect.unit (s := S7) ![5] S1.size inb_S7_S1_5)).squeeze S_ squeezes_S1_S_).sem
abbrev rcv5 : DmaSem sig := ((cc0_scratch3.slice (Rect.unit (s := S7) ![5] S1.size inb_S7_S1_5)).squeeze S_ squeezes_S1_S_).sem
abbrev snd6 : DmaSem sig := ((cc0_scratch2.slice (Rect.unit (s := S7) ![6] S1.size inb_S7_S1_6)).squeeze S_ squeezes_S1_S_).sem
abbrev rcv6 : DmaSem sig := ((cc0_scratch3.slice (Rect.unit (s := S7) ![6] S1.size inb_S7_S1_6)).squeeze S_ squeezes_S1_S_).sem
abbrev sndS : Fin 7 → DmaSem sig := fun
  | 0 => snd0
  | 1 => snd1
  | 2 => snd2
  | 3 => snd3
  | 4 => snd4
  | 5 => snd5
  | 6 => snd6
abbrev rcvS : Fin 7 → DmaSem sig := fun
  | 0 => rcv0
  | 1 => rcv1
  | 2 => rcv2
  | 3 => rcv3
  | 4 => rcv4
  | 5 => rcv5
  | 6 => rcv6

theorem sndS_val (k : Fin 7) : (sndS k).val = 2 + k.val := by fin_cases k <;> rfl
theorem rcvS_val (k : Fin 7) : (rcvS k).val = 9 + k.val := by fin_cases k <;> rfl

abbrev barCell (c : Dev nD) : GSem nD τ sig := ((c : Thread nD τ), .reg barS)
abbrev sendCell (c : Dev nD) (k : Fin 7) : GSem nD τ sig := ((c : Thread nD τ), .dma (sndS k))
abbrev recvCell (c : Dev nD) (k : Fin 7) : GSem nD τ sig := ((c : Thread nD τ), .dma (rcvS k))

/-- A copy's credit: the same for every slot (and for the statistics buffer, of the same shape). -/
abbrev N : ℕ := (slot0 : Memref sig .tc .vmem S2x2048 .f32).view.dmaCredit
theorem N_pos : 0 < N := View.dmaCredit_pos _ (by decide)

end Cert.Kernel.Hand

end
-- ==== Proof.KernelHand.Sched.lean ====
/-
# The schedule: what each signal and each copy hands the cell's owner

Round 0 only. Device y's barrier cell has seven duties of one unit; duty j is paid by the device pr y (j + 1), the
target of y's copy number j, and hands y that device's landing slot j (at some contents) together with the fact that
the slot's receive cell has reached round 0: exactly what y's copy into it needs. A send cell's one duty returns the
share of the statistics buffer lent to the copy; a receive cell's one duty hands its owner the landing slot holding
the sender's statistics.
-/
import proofs.«900602_g7700000000000603_dist_softmax_colshard_i_m2048_n1024_v7x_i8_f32_1_alg».proof.Proof.KernelHand.Proto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device c's block of x as the kernel finds it in its staging buffer. -/
def xblk (c : Dev nD) : (cc0_stg0_0 : Ref sig .tc).ty.Contents (Elt F) :=
  (win0_0.blk (0 : Fin 1)).view.read (Elt F) (m ((c : Thread nD τ).loc main_arg0))

/-- Its statistics: row 0 the row maxima of its block, row 1 the row sums of exp (x - max). -/
def stats (c : Dev nD) : (cc0_scratch0 : Ref sig .tc).ty.Contents (Elt F) := k0_pay5 (xblk m c)

/-- exp (x - max) over its block: what the first store leaves in the result's staging buffer. -/
def eblk (c : Dev nD) : (cc0_stg1_0 : Ref sig .tc).ty.Contents (Elt F) := k0_pay4 (xblk m c)

/-- The landing buffer of device c once all seven copies have landed: slot k holds the statistics of the device
    whose copy number k is addressed to c, the device at distance 7 - k after c. -/
def commAll (c : Dev nD) : (cc0_scratch1 : Ref sig .tc).ty.Contents (Elt F) := fun i =>
  stats m (pr c (7 - (i 0).val)) (fun a => match a with
    | ⟨0, _⟩ => ⟨(i 1).val, (i 1).isLt⟩
    | ⟨1, _⟩ => ⟨(i 2).val, (i 2).isLt⟩)

/-! ## What the closing loads read, and the result -/

/-- Row 0 (the maxima) and row 1 (the sums) of a statistics buffer, as the closing loads read them. -/
def row0 (f : (cc0_scratch0 : Ref sig .tc).ty.Contents (Elt F)) : Vec F S1x2048 .f32 :=
  (sM : Memref sig .tc .vmem S2x2048 .f32).view.readAt (Elt F) (Rect.unit (s := S2x2048) ![0, 0] S1x2048.size inb_S2x2048_S1x2048_0_0).toLoadRect f
def row1 (f : (cc0_scratch0 : Ref sig .tc).ty.Contents (Elt F)) : Vec F S1x2048 .f32 :=
  (sM : Memref sig .tc .vmem S2x2048 .f32).view.readAt (Elt F) (Rect.unit (s := S2x2048) ![1, 0] S1x2048.size inb_S2x2048_S1x2048_1_0).toLoadRect f
/-- The seven landed maxima and the seven landed sums, as the closing loads read them off the landing buffer. -/
def colM (g : (cc0_scratch1 : Ref sig .tc).ty.Contents (Elt F)) : Vec F S7x1x2048 .f32 :=
  (cM : Memref sig .tc .vmem S7x2x2048 .f32).view.readAt (Elt F) (Rect.unit (s := S7x2x2048) ![0, 0, 0] S7x1x2048.size inb_S7x2x2048_S7x1x2048_0_0_0).toLoadRect g
def colS (g : (cc0_scratch1 : Ref sig .tc).ty.Contents (Elt F)) : Vec F S7x1x2048 .f32 :=
  (cM : Memref sig .tc .vmem S7x2x2048 .f32).view.readAt (Elt F) (Rect.unit (s := S7x2x2048) ![0, 1, 0] S7x1x2048.size inb_S7x2x2048_S7x1x2048_0_1_0).toLoadRect g

/-- The kernel's result on device c: exp (x - m_c) rescaled by exp (m_c - M) / S, from its own statistics and the
    seven landed ones. -/
def outAt (c : Dev nD) : (cc0_stg1_0 : Ref sig .tc).ty.Contents (Elt F) :=
  k0_pay1 (row0 (stats m c)) (row1 (stats m c)) (colM (commAll m c)) (colS (commAll m c)) (eblk m c)

/-! ## Shares of the statistics buffer lent to the seven copies -/

/-- What is left of the full share after k halvings to the right. -/
def rsh : ℕ → PosShare TreeShare
  | 0 => fullShare
  | n + 1 => (rsh n).right
/-- Copy k borrows the left half of what is left after k halvings; the last one takes the rest. -/
def qs (k : Fin 7) : PosShare TreeShare := if k.val < 6 then (rsh k.val).left else rsh 6

/-! ## The points-to assertions -/

/-- Slot k of device c's landing buffer, at the whole buffer's contents f. -/
def slotPts (c : Dev nD) (k : Fin 7) (f : Buf (Elt F) ((c : Thread nD τ).loc cc0_scratch1)) : sProp 𝕄 := match k with
  | 0 => (slot0 : Memref sig .tc .vmem S2x2048 .f32).view.loc (c : Thread nD τ) ↦[(slot0 : Memref sig .tc .vmem S2x2048 .f32).view.set]{fullShare} f
  | 1 => (slot1 : Memref sig .tc .vmem S2x2048 .f32).view.loc (c : Thread nD τ) ↦[(slot1 : Memref sig .tc .vmem S2x2048 .f32).view.set]{fullShare} f
  | 2 => (slot2 : Memref sig .tc .vmem S2x2048 .f32).view.loc (c : Thread nD τ) ↦[(slot2 : Memref sig .tc .vmem S2x2048 .f32).view.set]{fullShare} f
  | 3 => (slot3 : Memref sig .tc .vmem S2x2048 .f32).view.loc (c : Thread nD τ) ↦[(slot3 : Memref sig .tc .vmem S2x2048 .f32).view.set]{fullShare} f
  | 4 => (slot4 : Memref sig .tc .vmem S2x2048 .f32).view.loc (c : Thread nD τ) ↦[(slot4 : Memref sig .tc .vmem S2x2048 .f32).view.set]{fullShare} f
  | 5 => (slot5 : Memref sig .tc .vmem S2x2048 .f32).view.loc (c : Thread nD τ) ↦[(slot5 : Memref sig .tc .vmem S2x2048 .f32).view.set]{fullShare} f
  | 6 => (slot6 : Memref sig .tc .vmem S2x2048 .f32).view.loc (c : Thread nD τ) ↦[(slot6 : Memref sig .tc .vmem S2x2048 .f32).view.set]{fullShare} f

/-- A share of device c's statistics buffer at its statistics. -/
def statsPts (c : Dev nD) (q : PosShare TreeShare) : sProp 𝕄 :=
  (sM : Memref sig .tc .vmem S2x2048 .f32).view.loc (c : Thread nD τ) ↦[(sM : Memref sig .tc .vmem S2x2048 .f32).view.set]{q} stats m c

omit [FloatOps F] in
instance slotPts_storable (c : Dev nD) (k : Fin 7) (f) : BI.Storable (upEmb : UEmb _ 𝕄) (slotPts (F := F) c k f) := by
  unfold slotPts; fin_cases k <;> infer_instance
instance statsPts_storable (c : Dev nD) (q) : BI.Storable (upEmb : UEmb _ 𝕄) (statsPts (F := F) m c q) := by unfold statsPts; infer_instance

/-! ## The schedule -/

/-- What duty j of y's barrier cell hands y. -/
def barPay (y : Dev nD) (j : Fin 7) : sProp 𝕄 :=
  iprop((∃ f, slotPts (pr y (j.val + 1)) j f) ∗ reached ER (recvCell (pr y (j.val + 1)) j) 0)
/-- What the one duty of receive cell k hands its owner c: slot k rewritten by the copy of the statistics of the device
    at distance 7 - k after c, over whatever the slot held (the form the copy's rule leaves; Landing restates it at
    commAll). -/
def recvPay (c : Dev nD) (k : Fin 7) : sProp 𝕄 := match k with
  | 0 => iprop(∃ fd : Buf (Elt F) ((c : Thread nD τ).loc cc0_scratch1), (slot0 : Memref sig .tc .vmem S2x2048 .f32).view.loc (c : Thread nD τ) ↦[(slot0 : Memref sig .tc .vmem S2x2048 .f32).view.set]{fullShare}
      ((slot0 : Memref sig .tc .vmem S2x2048 .f32).view.write (Elt F) fd ((sM : Memref sig .tc .vmem S2x2048 .f32).view.read (Elt F) (stats m (pr c 7))) Finset.univ))
  | 1 => iprop(∃ fd : Buf (Elt F) ((c : Thread nD τ).loc cc0_scratch1), (slot1 : Memref sig .tc .vmem S2x2048 .f32).view.loc (c : Thread nD τ) ↦[(slot1 : Memref sig .tc .vmem S2x2048 .f32).view.set]{fullShare}
      ((slot1 : Memref sig .tc .vmem S2x2048 .f32).view.write (Elt F) fd ((sM : Memref sig .tc .vmem S2x2048 .f32).view.read (Elt F) (stats m (pr c 6))) Finset.univ))
  | 2 => iprop(∃ fd : Buf (Elt F) ((c : Thread nD τ).loc cc0_scratch1), (slot2 : Memref sig .tc .vmem S2x2048 .f32).view.loc (c : Thread nD τ) ↦[(slot2 : Memref sig .tc .vmem S2x2048 .f32).view.set]{fullShare}
      ((slot2 : Memref sig .tc .vmem S2x2048 .f32).view.write (Elt F) fd ((sM : Memref sig .tc .vmem S2x2048 .f32).view.read (Elt F) (stats m (pr c 5))) Finset.univ))
  | 3 => iprop(∃ fd : Buf (Elt F) ((c : Thread nD τ).loc cc0_scratch1), (slot3 : Memref sig .tc .vmem S2x2048 .f32).view.loc (c : Thread nD τ) ↦[(slot3 : Memref sig .tc .vmem S2x2048 .f32).view.set]{fullShare}
      ((slot3 : Memref sig .tc .vmem S2x2048 .f32).view.write (Elt F) fd ((sM : Memref sig .tc .vmem S2x2048 .f32).view.read (Elt F) (stats m (pr c 4))) Finset.univ))
  | 4 => iprop(∃ fd : Buf (Elt F) ((c : Thread nD τ).loc cc0_scratch1), (slot4 : Memref sig .tc .vmem S2x2048 .f32).view.loc (c : Thread nD τ) ↦[(slot4 : Memref sig .tc .vmem S2x2048 .f32).view.set]{fullShare}
      ((slot4 : Memref sig .tc .vmem S2x2048 .f32).view.write (Elt F) fd ((sM : Memref sig .tc .vmem S2x2048 .f32).view.read (Elt F) (stats m (pr c 3))) Finset.univ))
  | 5 => iprop(∃ fd : Buf (Elt F) ((c : Thread nD τ).loc cc0_scratch1), (slot5 : Memref sig .tc .vmem S2x2048 .f32).view.loc (c : Thread nD τ) ↦[(slot5 : Memref sig .tc .vmem S2x2048 .f32).view.set]{fullShare}
      ((slot5 : Memref sig .tc .vmem S2x2048 .f32).view.write (Elt F) fd ((sM : Memref sig .tc .vmem S2x2048 .f32).view.read (Elt F) (stats m (pr c 2))) Finset.univ))
  | 6 => iprop(∃ fd : Buf (Elt F) ((c : Thread nD τ).loc cc0_scratch1), (slot6 : Memref sig .tc .vmem S2x2048 .f32).view.loc (c : Thread nD τ) ↦[(slot6 : Memref sig .tc .vmem S2x2048 .f32).view.set]{fullShare}
      ((slot6 : Memref sig .tc .vmem S2x2048 .f32).view.write (Elt F) fd ((sM : Memref sig .tc .vmem S2x2048 .f32).view.read (Elt F) (stats m (pr c 1))) Finset.univ))
def sendPay (c : Dev nD) (k : Fin 7) : sProp 𝕄 := statsPts m c (qs k)

/-- The slot a DMA semaphore of the two scratch arrays serves: sends are 2 .. 8, receives 9 .. 15. -/
def slotOf (q : DmaSem sig) : Fin 7 := ⟨(q.val + 5) % 7, Nat.mod_lt _ (by decide)⟩

theorem slotOf_snd (k : Fin 7) : slotOf (sndS k) = k := by fin_cases k <;> rfl
theorem slotOf_rcv (k : Fin 7) : slotOf (rcvS k) = k := by fin_cases k <;> rfl

def softRd : Rounds.Schedule (GSem nD τ sig) (Fin 7) 𝕄 where
  duties g r :=
    if r = 0 ∧ g.1.2 = .tc then
      (match g.2 with
        | .reg s => if s = barS then Finset.univ else ∅
        | .dma q => if 2 ≤ q.val then {0} else ∅)
    else ∅
  unitless _ := False
  amount g _ _ := match g.2 with
    | .reg _ => 1
    | .dma _ => N
  payload g _ d := match g.2 with
    | .reg s => if s = barS then barPay g.1.1 d else iprop(emp)
    | .dma q => if 9 ≤ q.val then recvPay m g.1.1 (slotOf q) else if 2 ≤ q.val then sendPay m g.1.1 (slotOf q) else iprop(emp)
  amount_pos g _ _ _ := by
    rcases hg : g.2 with s | q
    · simp only [hg]; exact Nat.one_pos
    · simp only [hg]; exact N_pos

instance softRd_payload_storable (g : GSem nD τ sig) (r : ℕ) (d : Fin 7) :
    BI.Storable (upEmb : UEmb _ 𝕄) ((softRd (F := F) m).payload g r d) := by
  show BI.Storable upEmb (match g.2 with
    | .reg s => if s = barS then barPay g.1.1 d else iprop(emp)
    | .dma q => if 9 ≤ q.val then recvPay m g.1.1 (slotOf q) else if 2 ≤ q.val then sendPay m g.1.1 (slotOf q) else iprop(emp))
  unfold barPay sendPay
  (repeat' split) <;> first | infer_instance | (unfold recvPay; split <;> infer_instance)

end Cert.Kernel.Hand

end
-- ==== Proof.KernelHand.Tables.lean ====
/-
# The schedule's tables, entry by entry

Each cell's duties, amounts, expected units and payloads in round 0, stated with the table entry on the left and,
for the payloads, the assertion itself on the right, one statement per slot.
-/
import proofs.«900602_g7700000000000603_dist_softmax_colshard_i_m2048_n1024_v7x_i8_f32_1_alg».proof.Proof.KernelHand.Sched

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Tables
variable (c : Dev nD)

omit [FloatOps F] in
theorem sndS_two_le (k : Fin 7) : 2 ≤ (sndS k).val := by rw [sndS_val]; omega
omit [FloatOps F] in
theorem rcvS_nine_le (k : Fin 7) : 9 ≤ (rcvS k).val := by rw [rcvS_val]; omega
omit [FloatOps F] in
theorem sndS_lt_nine (k : Fin 7) : ¬ 9 ≤ (sndS k).val := by rw [sndS_val]; have := k.isLt; omega

theorem duties_bar : (softRd (F := F) m).duties (barCell c) 0 = Finset.univ := by
  show (if (0 : ℕ) = 0 ∧ (Dev.tc c : Thread nD τ).2 = .tc then (if barS = barS then Finset.univ else ∅) else ∅) = _
  rw [if_pos ⟨rfl, rfl⟩, if_pos rfl]
theorem duties_send (k : Fin 7) : (softRd (F := F) m).duties (sendCell c k) 0 = {0} := by
  show (if (0 : ℕ) = 0 ∧ (Dev.tc c : Thread nD τ).2 = .tc then (if 2 ≤ (sndS k).val then ({0} : Finset (Fin 7)) else ∅) else ∅) = _
  rw [if_pos ⟨rfl, rfl⟩, if_pos (sndS_two_le k)]
theorem duties_recv (k : Fin 7) : (softRd (F := F) m).duties (recvCell c k) 0 = {0} := by
  show (if (0 : ℕ) = 0 ∧ (Dev.tc c : Thread nD τ).2 = .tc then (if 2 ≤ (rcvS k).val then ({0} : Finset (Fin 7)) else ∅) else ∅) = _
  rw [if_pos ⟨rfl, rfl⟩, if_pos (le_trans (by decide) (rcvS_nine_le k))]
theorem duties_later (g : GSem nD τ sig) : ∀ r, 1 ≤ r → (softRd (F := F) m).duties g r = ∅ :=
  fun r hr => by
    show (if r = 0 ∧ g.1.2 = .tc then _ else ∅) = _
    rw [if_neg fun h => by omega]

theorem amount_bar (d : Fin 7) : (softRd (F := F) m).amount (barCell c) 0 d = 1 := rfl
theorem amount_send (k : Fin 7) (d : Fin 7) : (softRd (F := F) m).amount (sendCell c k) 0 d = N := rfl
theorem amount_recv (k : Fin 7) (d : Fin 7) : (softRd (F := F) m).amount (recvCell c k) 0 d = N := rfl

theorem expect_bar : (softRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send (k : Fin 7) : (softRd (F := F) m).expect (sendCell c k) 0 = N := by
  unfold Schedule.expect Schedule.amountOf; rw [duties_send, Finset.sum_singleton, amount_send]
theorem expect_recv (k : Fin 7) : (softRd (F := F) m).expect (recvCell c k) 0 = N := by
  unfold Schedule.expect Schedule.amountOf; rw [duties_recv, Finset.sum_singleton, amount_recv]

theorem payload_bar (j : Fin 7) : (softRd (F := F) m).payload (barCell c) 0 j = barPay c j := by
  show (if barS = barS then barPay c j else iprop(emp)) = _
  rw [if_pos rfl]
theorem payload_send (k : Fin 7) (d : Fin 7) : (softRd (F := F) m).payload (sendCell c k) 0 d = sendPay m c k := by
  show (if 9 ≤ (sndS k).val then recvPay m c (slotOf (sndS k)) else if 2 ≤ (sndS k).val then sendPay m c (slotOf (sndS k)) else iprop(emp)) = _
  rw [if_neg (sndS_lt_nine k), if_pos (sndS_two_le k), slotOf_snd]
theorem payload_recv (k : Fin 7) (d : Fin 7) : (softRd (F := F) m).payload (recvCell c k) 0 d = recvPay m c k := by
  show (if 9 ≤ (rcvS k).val then recvPay m c (slotOf (rcvS k)) else _) = _
  rw [if_pos (rcvS_nine_le k), slotOf_rcv]

end Tables

end Cert.Kernel.Hand

end
-- ==== Proof.KernelHand.Ghost.lean ====
/-
# What a device holds when its body starts, and the proof data of the launch

The fifteen cells of a device by number (0 the barrier cell, 1 + k send cell k, 8 + k receive cell k); the
invariants a device's body opens (its own fifteen, the barrier cells of its seven peers, and of each peer the one
receive cell its copy credits); its positions, the rounds it knows reached and the tokens of the duties it pays;
what it owes at launch (a unit to each peer's barrier cell, a copy's credit to one receive cell of each); the
levels (barrier cells below receive cells, everything else at the bottom).
-/
import proofs.«900602_g7700000000000603_dist_softmax_colshard_i_m2048_n1024_v7x_i8_f32_1_alg».proof.Proof.KernelHand.Tables

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells by number -/

abbrev csem : Fin 15 → SemLoc sig := fun
  | 0 => .reg barS
  | 1 => .dma snd0
  | 2 => .dma snd1
  | 3 => .dma snd2
  | 4 => .dma snd3
  | 5 => .dma snd4
  | 6 => .dma snd5
  | 7 => .dma snd6
  | 8 => .dma rcv0
  | 9 => .dma rcv1
  | 10 => .dma rcv2
  | 11 => .dma rcv3
  | 12 => .dma rcv4
  | 13 => .dma rcv5
  | 14 => .dma rcv6
abbrev kcell (ck : Dev nD × Fin 15) : GSem nD τ sig := ((ck.1 : Thread nD τ), csem ck.2)

/-- The kernel's own (scoped) semaphores as the launch theorem indexes them: the seven send, the seven receive. -/
abbrev osem : Fin 14 → SemLoc sig := fun
  | 0 => .dma snd0
  | 1 => .dma snd1
  | 2 => .dma snd2
  | 3 => .dma snd3
  | 4 => .dma snd4
  | 5 => .dma snd5
  | 6 => .dma snd6
  | 7 => .dma rcv0
  | 8 => .dma rcv1
  | 9 => .dma rcv2
  | 10 => .dma rcv3
  | 11 => .dma rcv4
  | 12 => .dma rcv5
  | 13 => .dma rcv6

/-! ## The two scratch buffers whole -/

def statsWhole (c : Dev nD) (f : Buf (Elt F) ((c : Thread nD τ).loc cc0_scratch0)) : sProp 𝕄 :=
  (((c : Thread nD τ).loc cc0_scratch0) ↦{fullShare} f : sProp 𝕄)
def commWhole (c : Dev nD) (f : Buf (Elt F) ((c : Thread nD τ).loc cc0_scratch1)) : sProp 𝕄 :=
  (((c : Thread nD τ).loc cc0_scratch1) ↦{fullShare} f : sProp 𝕄)

/-! ## The invariants, the ghost state, the start -/

variable (K : Dev nD × Fin 15 → ℕ)

/-- The cells' invariants device c's body opens, under the names K the launch allocated them at. -/
def invs (c : Dev nD) : sProp 𝕄 :=
  iprop(cellInv ER (softRd m) (K (c, 0)) (((c : Dev nD) : Thread nD τ), SemLoc.reg barS)
    ∗ cellInv ER (softRd m) (K (c, 1)) (((c : Dev nD) : Thread nD τ), SemLoc.dma snd0)
    ∗ cellInv ER (softRd m) (K (c, 2)) (((c : Dev nD) : Thread nD τ), SemLoc.dma snd1)
    ∗ cellInv ER (softRd m) (K (c, 3)) (((c : Dev nD) : Thread nD τ), SemLoc.dma snd2)
    ∗ cellInv ER (softRd m) (K (c, 4)) (((c : Dev nD) : Thread nD τ), SemLoc.dma snd3)
    ∗ cellInv ER (softRd m) (K (c, 5)) (((c : Dev nD) : Thread nD τ), SemLoc.dma snd4)
    ∗ cellInv ER (softRd m) (K (c, 6)) (((c : Dev nD) : Thread nD τ), SemLoc.dma snd5)
    ∗ cellInv ER (softRd m) (K (c, 7)) (((c : Dev nD) : Thread nD τ), SemLoc.dma snd6)
    ∗ cellInv ER (softRd m) (K (c, 8)) (((c : Dev nD) : Thread nD τ), SemLoc.dma rcv0)
    ∗ cellInv ER (softRd m) (K (c, 9)) (((c : Dev nD) : Thread nD τ), SemLoc.dma rcv1)
    ∗ cellInv ER (softRd m) (K (c, 10)) (((c : Dev nD) : Thread nD τ), SemLoc.dma rcv2)
    ∗ cellInv ER (softRd m) (K (c, 11)) (((c : Dev nD) : Thread nD τ), SemLoc.dma rcv3)
    ∗ cellInv ER (softRd m) (K (c, 12)) (((c : Dev nD) : Thread nD τ), SemLoc.dma rcv4)
    ∗ cellInv ER (softRd m) (K (c, 13)) (((c : Dev nD) : Thread nD τ), SemLoc.dma rcv5)
    ∗ cellInv ER (softRd m) (K (c, 14)) (((c : Dev nD) : Thread nD τ), SemLoc.dma rcv6)
    ∗ cellInv ER (softRd m) (K (pr c 1, 0)) (((pr c 1 : Dev nD) : Thread nD τ), SemLoc.reg barS)
    ∗ cellInv ER (softRd m) (K (pr c 2, 0)) (((pr c 2 : Dev nD) : Thread nD τ), SemLoc.reg barS)
    ∗ cellInv ER (softRd m) (K (pr c 3, 0)) (((pr c 3 : Dev nD) : Thread nD τ), SemLoc.reg barS)
    ∗ cellInv ER (softRd m) (K (pr c 4, 0)) (((pr c 4 : Dev nD) : Thread nD τ), SemLoc.reg barS)
    ∗ cellInv ER (softRd m) (K (pr c 5, 0)) (((pr c 5 : Dev nD) : Thread nD τ), SemLoc.reg barS)
    ∗ cellInv ER (softRd m) (K (pr c 6, 0)) (((pr c 6 : Dev nD) : Thread nD τ), SemLoc.reg barS)
    ∗ cellInv ER (softRd m) (K (pr c 7, 0)) (((pr c 7 : Dev nD) : Thread nD τ), SemLoc.reg barS)
    ∗ cellInv ER (softRd m) (K (pr c 1, 8)) (((pr c 1 : Dev nD) : Thread nD τ), SemLoc.dma rcv0)
    ∗ cellInv ER (softRd m) (K (pr c 2, 9)) (((pr c 2 : Dev nD) : Thread nD τ), SemLoc.dma rcv1)
    ∗ cellInv ER (softRd m) (K (pr c 3, 10)) (((pr c 3 : Dev nD) : Thread nD τ), SemLoc.dma rcv2)
    ∗ cellInv ER (softRd m) (K (pr c 4, 11)) (((pr c 4 : Dev nD) : Thread nD τ), SemLoc.dma rcv3)
    ∗ cellInv ER (softRd m) (K (pr c 5, 12)) (((pr c 5 : Dev nD) : Thread nD τ), SemLoc.dma rcv4)
    ∗ cellInv ER (softRd m) (K (pr c 6, 13)) (((pr c 6 : Dev nD) : Thread nD τ), SemLoc.dma rcv5)
    ∗ cellInv ER (softRd m) (K (pr c 7, 14)) (((pr c 7 : Dev nD) : Thread nD τ), SemLoc.dma rcv6))

instance invs_persistent (c : Dev nD) : BI.Persistent (invs m K c) := by unfold invs; infer_instance

/-- Its positions at round 0 of its fifteen cells. -/
def positions (c : Dev nD) : sProp 𝕄 :=
  iprop(atPos ER (((c : Dev nD) : Thread nD τ), SemLoc.reg barS) 0 ∅ 0
    ∗ atPos ER (((c : Dev nD) : Thread nD τ), SemLoc.dma snd0) 0 ∅ 0
    ∗ atPos ER (((c : Dev nD) : Thread nD τ), SemLoc.dma snd1) 0 ∅ 0
    ∗ atPos ER (((c : Dev nD) : Thread nD τ), SemLoc.dma snd2) 0 ∅ 0
    ∗ atPos ER (((c : Dev nD) : Thread nD τ), SemLoc.dma snd3) 0 ∅ 0
    ∗ atPos ER (((c : Dev nD) : Thread nD τ), SemLoc.dma snd4) 0 ∅ 0
    ∗ atPos ER (((c : Dev nD) : Thread nD τ), SemLoc.dma snd5) 0 ∅ 0
    ∗ atPos ER (((c : Dev nD) : Thread nD τ), SemLoc.dma snd6) 0 ∅ 0
    ∗ atPos ER (((c : Dev nD) : Thread nD τ), SemLoc.dma rcv0) 0 ∅ 0
    ∗ atPos ER (((c : Dev nD) : Thread nD τ), SemLoc.dma rcv1) 0 ∅ 0
    ∗ atPos ER (((c : Dev nD) : Thread nD τ), SemLoc.dma rcv2) 0 ∅ 0
    ∗ atPos ER (((c : Dev nD) : Thread nD τ), SemLoc.dma rcv3) 0 ∅ 0
    ∗ atPos ER (((c : Dev nD) : Thread nD τ), SemLoc.dma rcv4) 0 ∅ 0
    ∗ atPos ER (((c : Dev nD) : Thread nD τ), SemLoc.dma rcv5) 0 ∅ 0
    ∗ atPos ER (((c : Dev nD) : Thread nD τ), SemLoc.dma rcv6) 0 ∅ 0)

/-- Round 0 reached: of the cells it pays (peers' barrier cells, peers' receive cells, its own send cells) and of its
    own receive cells (which it tells its peers of). -/
def reacheds (c : Dev nD) : sProp 𝕄 :=
  iprop(reached ER (((pr c 1 : Dev nD) : Thread nD τ), SemLoc.reg barS) 0
    ∗ reached ER (((pr c 2 : Dev nD) : Thread nD τ), SemLoc.reg barS) 0
    ∗ reached ER (((pr c 3 : Dev nD) : Thread nD τ), SemLoc.reg barS) 0
    ∗ reached ER (((pr c 4 : Dev nD) : Thread nD τ), SemLoc.reg barS) 0
    ∗ reached ER (((pr c 5 : Dev nD) : Thread nD τ), SemLoc.reg barS) 0
    ∗ reached ER (((pr c 6 : Dev nD) : Thread nD τ), SemLoc.reg barS) 0
    ∗ reached ER (((pr c 7 : Dev nD) : Thread nD τ), SemLoc.reg barS) 0
    ∗ reached ER (((pr c 1 : Dev nD) : Thread nD τ), SemLoc.dma rcv0) 0
    ∗ reached ER (((pr c 2 : Dev nD) : Thread nD τ), SemLoc.dma rcv1) 0
    ∗ reached ER (((pr c 3 : Dev nD) : Thread nD τ), SemLoc.dma rcv2) 0
    ∗ reached ER (((pr c 4 : Dev nD) : Thread nD τ), SemLoc.dma rcv3) 0
    ∗ reached ER (((pr c 5 : Dev nD) : Thread nD τ), SemLoc.dma rcv4) 0
    ∗ reached ER (((pr c 6 : Dev nD) : Thread nD τ), SemLoc.dma rcv5) 0
    ∗ reached ER (((pr c 7 : Dev nD) : Thread nD τ), SemLoc.dma rcv6) 0
    ∗ reached ER (((c : Dev nD) : Thread nD τ), SemLoc.dma snd0) 0
    ∗ reached ER (((c : Dev nD) : Thread nD τ), SemLoc.dma snd1) 0
    ∗ reached ER (((c : Dev nD) : Thread nD τ), SemLoc.dma snd2) 0
    ∗ reached ER (((c : Dev nD) : Thread nD τ), SemLoc.dma snd3) 0
    ∗ reached ER (((c : Dev nD) : Thread nD τ), SemLoc.dma snd4) 0
    ∗ reached ER (((c : Dev nD) : Thread nD τ), SemLoc.dma snd5) 0
    ∗ reached ER (((c : Dev nD) : Thread nD τ), SemLoc.dma snd6) 0
    ∗ reached ER (((c : Dev nD) : Thread nD τ), SemLoc.dma rcv0) 0
    ∗ reached ER (((c : Dev nD) : Thread nD τ), SemLoc.dma rcv1) 0
    ∗ reached ER (((c : Dev nD) : Thread nD τ), SemLoc.dma rcv2) 0
    ∗ reached ER (((c : Dev nD) : Thread nD τ), SemLoc.dma rcv3) 0
    ∗ reached ER (((c : Dev nD) : Thread nD τ), SemLoc.dma rcv4) 0
    ∗ reached ER (((c : Dev nD) : Thread nD τ), SemLoc.dma rcv5) 0
    ∗ reached ER (((c : Dev nD) : Thread nD τ), SemLoc.dma rcv6) 0)

instance reacheds_persistent (c : Dev nD) : BI.Persistent (reacheds (F := F) c) := by unfold reacheds; infer_instance

/-- The tokens of the duties it pays: on the barrier cell of the peer at distance o the duty 7 - o; on that peer's
    receive cell o - 1 the one duty; on each of its own send cells the one duty. -/
def payToks (c : Dev nD) : sProp 𝕄 :=
  iprop(dutyTok ER (((pr c 1 : Dev nD) : Thread nD τ), SemLoc.reg barS) 0 (6 : Fin 7)
    ∗ dutyTok ER (((pr c 2 : Dev nD) : Thread nD τ), SemLoc.reg barS) 0 (5 : Fin 7)
    ∗ dutyTok ER (((pr c 3 : Dev nD) : Thread nD τ), SemLoc.reg barS) 0 (4 : Fin 7)
    ∗ dutyTok ER (((pr c 4 : Dev nD) : Thread nD τ), SemLoc.reg barS) 0 (3 : Fin 7)
    ∗ dutyTok ER (((pr c 5 : Dev nD) : Thread nD τ), SemLoc.reg barS) 0 (2 : Fin 7)
    ∗ dutyTok ER (((pr c 6 : Dev nD) : Thread nD τ), SemLoc.reg barS) 0 (1 : Fin 7)
    ∗ dutyTok ER (((pr c 7 : Dev nD) : Thread nD τ), SemLoc.reg barS) 0 (0 : Fin 7)
    ∗ dutyTok ER (((pr c 1 : Dev nD) : Thread nD τ), SemLoc.dma rcv0) 0 (0 : Fin 7)
    ∗ dutyTok ER (((pr c 2 : Dev nD) : Thread nD τ), SemLoc.dma rcv1) 0 (0 : Fin 7)
    ∗ dutyTok ER (((pr c 3 : Dev nD) : Thread nD τ), SemLoc.dma rcv2) 0 (0 : Fin 7)
    ∗ dutyTok ER (((pr c 4 : Dev nD) : Thread nD τ), SemLoc.dma rcv3) 0 (0 : Fin 7)
    ∗ dutyTok ER (((pr c 5 : Dev nD) : Thread nD τ), SemLoc.dma rcv4) 0 (0 : Fin 7)
    ∗ dutyTok ER (((pr c 6 : Dev nD) : Thread nD τ), SemLoc.dma rcv5) 0 (0 : Fin 7)
    ∗ dutyTok ER (((pr c 7 : Dev nD) : Thread nD τ), SemLoc.dma rcv6) 0 (0 : Fin 7)
    ∗ dutyTok ER (((c : Dev nD) : Thread nD τ), SemLoc.dma snd0) 0 (0 : Fin 7)
    ∗ dutyTok ER (((c : Dev nD) : Thread nD τ), SemLoc.dma snd1) 0 (0 : Fin 7)
    ∗ dutyTok ER (((c : Dev nD) : Thread nD τ), SemLoc.dma snd2) 0 (0 : Fin 7)
    ∗ dutyTok ER (((c : Dev nD) : Thread nD τ), SemLoc.dma snd3) 0 (0 : Fin 7)
    ∗ dutyTok ER (((c : Dev nD) : Thread nD τ), SemLoc.dma snd4) 0 (0 : Fin 7)
    ∗ dutyTok ER (((c : Dev nD) : Thread nD τ), SemLoc.dma snd5) 0 (0 : Fin 7)
    ∗ dutyTok ER (((c : Dev nD) : Thread nD τ), SemLoc.dma snd6) 0 (0 : Fin 7))

def ghost (c : Dev nD) : sProp 𝕄 := iprop(invs m K c ∗ positions c ∗ reacheds c ∗ payToks c)

/-- The credit dealt at launch: seven units on its barrier cell, a copy's credit on each receive cell. -/
def creds (c : Dev nD) : sProp 𝕄 :=
  iprop(cred (tallyAt (((c : Dev nD) : Thread nD τ), SemLoc.reg barS) () 7)
    ∗ cred (tallyAt (((c : Dev nD) : Thread nD τ), SemLoc.dma rcv0) () N)
    ∗ cred (tallyAt (((c : Dev nD) : Thread nD τ), SemLoc.dma rcv1) () N)
    ∗ cred (tallyAt (((c : Dev nD) : Thread nD τ), SemLoc.dma rcv2) () N)
    ∗ cred (tallyAt (((c : Dev nD) : Thread nD τ), SemLoc.dma rcv3) () N)
    ∗ cred (tallyAt (((c : Dev nD) : Thread nD τ), SemLoc.dma rcv4) () N)
    ∗ cred (tallyAt (((c : Dev nD) : Thread nD τ), SemLoc.dma rcv5) () N)
    ∗ cred (tallyAt (((c : Dev nD) : Thread nD τ), SemLoc.dma rcv6) () N))

/-! ## What a device owes at launch; the levels -/

/-- The copies' credits: to receive cell k of the peer at distance k + 1. -/
def owedCopies (c : Dev nD) : CellTallies nD τ sig Unit :=
  tallyAt (((pr c 1 : Dev nD) : Thread nD τ), SemLoc.dma rcv0) () N + tallyAt (((pr c 2 : Dev nD) : Thread nD τ), SemLoc.dma rcv1) () N + tallyAt (((pr c 3 : Dev nD) : Thread nD τ), SemLoc.dma rcv2) () N + tallyAt (((pr c 4 : Dev nD) : Thread nD τ), SemLoc.dma rcv3) () N + tallyAt (((pr c 5 : Dev nD) : Thread nD τ), SemLoc.dma rcv4) () N + tallyAt (((pr c 6 : Dev nD) : Thread nD τ), SemLoc.dma rcv5) () N + tallyAt (((pr c 7 : Dev nD) : Thread nD τ), SemLoc.dma rcv6) () N
/-- With the seven barrier units. -/
def O₀ (c : Dev nD) : CellTallies nD τ sig Unit :=
  owedCopies c + tallyAt (((pr c 7 : Dev nD) : Thread nD τ), SemLoc.reg barS) () 1 + tallyAt (((pr c 6 : Dev nD) : Thread nD τ), SemLoc.reg barS) () 1 + tallyAt (((pr c 5 : Dev nD) : Thread nD τ), SemLoc.reg barS) () 1 + tallyAt (((pr c 4 : Dev nD) : Thread nD τ), SemLoc.reg barS) () 1 + tallyAt (((pr c 3 : Dev nD) : Thread nD τ), SemLoc.reg barS) () 1 + tallyAt (((pr c 2 : Dev nD) : Thread nD τ), SemLoc.reg barS) () 1 + tallyAt (((pr c 1 : Dev nD) : Thread nD τ), SemLoc.reg barS) () 1

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- What device c's body starts from. -/
def start (c : Dev nD) : sProp 𝕄 := iprop((∃ K, ghost m K c) ∗ creds c ∗ levAts L lv)

def Φ₀ (c : Dev nD) : sProp 𝕄 := iprop(start m c ∗ (∃ f, statsWhole c f) ∗ (∃ f, commWhole c f))
/-- After the point: the two scratch buffers whole again, the fourteen own cells at zero, closed. -/
def Φ₁ (c : Dev nD) : sProp 𝕄 :=
  iprop((∃ f, statsWhole c f)
    ∗ (∃ f, commWhole c f)
    ∗ semVal (((c : Dev nD) : Thread nD τ), SemLoc.dma snd0) 0
    ∗ semVal (((c : Dev nD) : Thread nD τ), SemLoc.dma snd1) 0
    ∗ semVal (((c : Dev nD) : Thread nD τ), SemLoc.dma snd2) 0
    ∗ semVal (((c : Dev nD) : Thread nD τ), SemLoc.dma snd3) 0
    ∗ semVal (((c : Dev nD) : Thread nD τ), SemLoc.dma snd4) 0
    ∗ semVal (((c : Dev nD) : Thread nD τ), SemLoc.dma snd5) 0
    ∗ semVal (((c : Dev nD) : Thread nD τ), SemLoc.dma snd6) 0
    ∗ semVal (((c : Dev nD) : Thread nD τ), SemLoc.dma rcv0) 0
    ∗ semVal (((c : Dev nD) : Thread nD τ), SemLoc.dma rcv1) 0
    ∗ semVal (((c : Dev nD) : Thread nD τ), SemLoc.dma rcv2) 0
    ∗ semVal (((c : Dev nD) : Thread nD τ), SemLoc.dma rcv3) 0
    ∗ semVal (((c : Dev nD) : Thread nD τ), SemLoc.dma rcv4) 0
    ∗ semVal (((c : Dev nD) : Thread nD τ), SemLoc.dma rcv5) 0
    ∗ semVal (((c : Dev nD) : Thread nD τ), SemLoc.dma rcv6) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Hand

end
-- ==== Proof.KernelHand.Bufs.lean ====
/-
# Cutting the landing buffer into its seven slots and the statistics buffer into seven shares, and back

The landing buffer of 7 x 2 x 2048 words is the disjoint union of its seven slots of 2 x 2048; a points-to of the whole
buffer is the seven slots' points-tos at the same contents. The statistics buffer is lent to the seven copies by
shares: the full share is the seven shares qs 0 .. qs 6. A slot rewritten by a copy of the statistics s holds, on the
slot, s: the landing restated at the contents commAll.
-/
import proofs.«900602_g7700000000000603_dist_softmax_colshard_i_m2048_n1024_v7x_i8_f32_1_alg».proof.Proof.KernelHand.Ghost

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The seven slots' element sets -/

/-- A slot's element set is the unit rectangle of a slot's size at its offset. -/
theorem slot_view_set (k : ℕ) (inb : ∀ a, (![k, 0, 0] : Fin 3 → Nat) a + S1x2x2048.size a ≤ S7x2x2048.size a) :
    (((cM : Memref sig .tc .vmem S7x2x2048 .f32).slice (Rect.unit (s := S7x2x2048) ![k, 0, 0] S1x2x2048.size inb)
        (fun _ => rfl)).squeeze S2x2048 squeezes_S1x2x2048_S2x2048).view.set
      = (Rect.unit (s := S7x2x2048) ![k, 0, 0] S1x2x2048.size inb).set :=
  (View.set_reshape _ _).trans (View.set_slice_whole cc0_scratch1 _)

/-- An index of the landing buffer lies in the unit rectangle of a slot's size at [k, 0, 0] exactly when its first
    coordinate is k: the other two coordinates run over their whole axes. -/
theorem mem_slotRect {k : ℕ} {inb : ∀ a, (![k, 0, 0] : Fin 3 → Nat) a + S1x2x2048.size a ≤ S7x2x2048.size a}
    {i : S7x2x2048.Idx} :
    i ∈ (Rect.unit (s := S7x2x2048) ![k, 0, 0] S1x2x2048.size inb).set ↔ (i 0).val = k := by
  rw [Rect.mem_set_unit]
  constructor
  · intro h
    have h0 := h 0
    change k ≤ (i 0).val ∧ (i 0).val < k + 1 at h0
    omega
  · intro h a
    fin_cases a
    · change k ≤ (i 0).val ∧ (i 0).val < k + 1
      omega
    · have h1 : (i 1).val < 2 := (i 1).isLt
      change 0 ≤ (i 1).val ∧ (i 1).val < 0 + 2
      omega
    · have h2 : (i 2).val < 2048 := (i 2).isLt
      change 0 ≤ (i 2).val ∧ (i 2).val < 0 + 2048
      omega

/-- Membership in a slot's element set, as a condition on the first coordinate. -/
theorem mem_slot {k : ℕ} {inb : ∀ a, (![k, 0, 0] : Fin 3 → Nat) a + S1x2x2048.size a ≤ S7x2x2048.size a}
    {i : (cc0_scratch1 : Ref sig .tc).ty.Idx} :
    i ∈ (((cM : Memref sig .tc .vmem S7x2x2048 .f32).slice (Rect.unit (s := S7x2x2048) ![k, 0, 0] S1x2x2048.size inb)
        (fun _ => rfl)).squeeze S2x2048 squeezes_S1x2x2048_S2x2048).view.set ↔ (i 0).val = k := by
  rw [slot_view_set]; exact mem_slotRect

omit [FloatOps F] in
/-- A buffer whose elements fall into seven classes 0 .. 6, each class an element set: the whole buffer's points-to is
    the seven sets' points-tos at the same contents. -/
theorem pointsTo_seven_fibres {ℓ : Loc nD τ sig} (p : Idx ℓ → ℕ) (hp : ∀ i, p i < 7)
    {A0 A1 A2 A3 A4 A5 A6 : Finset (Idx ℓ)}
    (h0 : ∀ i, i ∈ A0 ↔ p i = 0) (h1 : ∀ i, i ∈ A1 ↔ p i = 1) (h2 : ∀ i, i ∈ A2 ↔ p i = 2)
    (h3 : ∀ i, i ∈ A3 ↔ p i = 3) (h4 : ∀ i, i ∈ A4 ↔ p i = 4) (h5 : ∀ i, i ∈ A5 ↔ p i = 5)
    (h6 : ∀ i, i ∈ A6 ↔ p i = 6) (q : PosShare TreeShare) (f : Buf (Elt F) ℓ) :
    (ℓ ↦{q} f : sProp 𝕄) = iprop((ℓ ↦[A6]{q} f) ∗ (ℓ ↦[A5]{q} f) ∗ (ℓ ↦[A4]{q} f) ∗ (ℓ ↦[A3]{q} f) ∗ (ℓ ↦[A2]{q} f)
      ∗ (ℓ ↦[A1]{q} f) ∗ ℓ ↦[A0]{q} f) := by
  have hcov : (Finset.univ : Finset (Idx ℓ)) = A6 ∪ (A5 ∪ (A4 ∪ (A3 ∪ (A2 ∪ (A1 ∪ A0))))) := by
    ext i
    simp only [Finset.mem_univ, Finset.mem_union, h0, h1, h2, h3, h4, h5, h6, true_iff]
    have := hp i
    omega
  have d6 : Disjoint A6 (A5 ∪ (A4 ∪ (A3 ∪ (A2 ∪ (A1 ∪ A0))))) := by
    rw [Finset.disjoint_left]; intro i hi hj
    simp only [Finset.mem_union, h0, h1, h2, h3, h4, h5, h6] at hi hj
    omega
  have d5 : Disjoint A5 (A4 ∪ (A3 ∪ (A2 ∪ (A1 ∪ A0)))) := by
    rw [Finset.disjoint_left]; intro i hi hj
    simp only [Finset.mem_union, h0, h1, h2, h3, h4, h5, h6] at hi hj
    omega
  have d4 : Disjoint A4 (A3 ∪ (A2 ∪ (A1 ∪ A0))) := by
    rw [Finset.disjoint_left]; intro i hi hj
    simp only [Finset.mem_union, h0, h1, h2, h3, h4, h5, h6] at hi hj
    omega
  have d3 : Disjoint A3 (A2 ∪ (A1 ∪ A0)) := by
    rw [Finset.disjoint_left]; intro i hi hj
    simp only [Finset.mem_union, h0, h1, h2, h3, h4, h5, h6] at hi hj
    omega
  have d2 : Disjoint A2 (A1 ∪ A0) := by
    rw [Finset.disjoint_left]; intro i hi hj
    simp only [Finset.mem_union, h0, h1, h2, h3, h4, h5, h6] at hi hj
    omega
  have d1 : Disjoint A1 A0 := by
    rw [Finset.disjoint_left]; intro i hi hj
    simp only [h0, h1] at hi hj
    omega
  have un : ∀ {I J : Finset (Idx ℓ)}, Disjoint I J →
      (ℓ ↦[I ∪ J]{q} f : sProp 𝕄) = iprop((ℓ ↦[I]{q} f) ∗ ℓ ↦[J]{q} f) := fun h =>
    BI.equiv_iff.mp ⟨(pointsTo_union h).1, (pointsTo_union h).2⟩
  rw [hcov, un d6, un d5, un d4, un d3, un d2, un d1]

/-! ## A slot rewritten by a copy -/

omit [FloatOps F] in
/-- A slot rewritten whole by a copy of a statistics buffer s holds, at an index i of the slot, s at the index's last
    two coordinates: i is the slot's element under the index y of those two coordinates. -/
theorem slot_write_apply (k : ℕ) (inb : ∀ a, (![k, 0, 0] : Fin 3 → Nat) a + S1x2x2048.size a ≤ S7x2x2048.size a)
    (fd : (cc0_scratch1 : Ref sig .tc).ty.Contents (Elt F)) (s : (cc0_scratch0 : Ref sig .tc).ty.Contents (Elt F))
    (i : (cc0_scratch1 : Ref sig .tc).ty.Idx) (y : (cc0_scratch0 : Ref sig .tc).ty.Idx)
    (h0 : (i 0).val = k) (h1 : (y 0).val = (i 1).val) (h2 : (y 1).val = (i 2).val) :
    (((cM : Memref sig .tc .vmem S7x2x2048 .f32).slice (Rect.unit (s := S7x2x2048) ![k, 0, 0] S1x2x2048.size inb)
        (fun _ => rfl)).squeeze S2x2048 squeezes_S1x2x2048_S2x2048).view.write (Elt F) fd
        ((sM : Memref sig .tc .vmem S2x2048 .f32).view.read (Elt F) s) Finset.univ i = s y := by
  have he : (((cM : Memref sig .tc .vmem S7x2x2048 .f32).slice (Rect.unit (s := S7x2x2048) ![k, 0, 0] S1x2x2048.size inb)
        (fun _ => rfl)).squeeze S2x2048 squeezes_S1x2x2048_S2x2048).view.emb y = i := by
    funext a; apply Fin.ext
    show ((Rect.unit (s := S7x2x2048) ![k, 0, 0] S1x2x2048.size inb).emb
      (Shape.reshapeEquiv squeezes_S1x2x2048_S2x2048.numel_eq y) a : ℕ) = (i a).val
    rw [Shape.reshapeEquiv_cons_one (n := 2) (d := ![2, 2048]) _ y, Rect.emb_apply]
    fin_cases a
    · show k + 1 * 0 = (i 0).val
      omega
    · show 0 + 1 * (y 0).val = (i 1).val
      omega
    · show 0 + 1 * (y 1).val = (i 2).val
      omega
  rw [← he, View.write_emb_of_mem _ _ (Finset.mem_univ _)]
  rfl

/-! ## The seven shares -/

theorem qs_zero : qs 0 = (rsh 0).left := if_pos (by decide)
theorem qs_one : qs 1 = (rsh 1).left := if_pos (by decide)
theorem qs_two : qs 2 = (rsh 2).left := if_pos (by decide)
theorem qs_three : qs 3 = (rsh 3).left := if_pos (by decide)
theorem qs_four : qs 4 = (rsh 4).left := if_pos (by decide)
theorem qs_five : qs 5 = (rsh 5).left := if_pos (by decide)
theorem qs_six : qs 6 = rsh 6 := if_neg (by decide)

omit [FloatOps F] in
/-- One halving: what is left after n halvings is its left half together with what is left after n + 1. -/
theorem pointsTo_rsh (ℓ : Loc nD τ sig) (I : Finset (Idx ℓ)) (f : Buf (Elt F) ℓ) (n : ℕ) :
    (ℓ ↦[I]{rsh n} f : sProp 𝕄) = iprop((ℓ ↦[I]{(rsh n).left} f) ∗ ℓ ↦[I]{rsh (n + 1)} f) :=
  have h : (ℓ ↦[I]{rsh n} f : sProp 𝕄) ⊣⊢ iprop((ℓ ↦[I]{(rsh n).left} f) ∗ ℓ ↦[I]{(rsh n).right} f) :=
    pointsTo_share (PosShare.mem_left_op_right (rsh n))
  BI.equiv_iff.mp ⟨h.1, h.2⟩

omit [FloatOps F] in
/-- The full share of any element set is the seven shares qs 0 .. qs 6 of it. -/
theorem pointsTo_seven_shares (ℓ : Loc nD τ sig) (I : Finset (Idx ℓ)) (f : Buf (Elt F) ℓ) :
    (ℓ ↦[I]{fullShare} f : sProp 𝕄) = iprop((ℓ ↦[I]{qs 0} f) ∗ (ℓ ↦[I]{qs 1} f) ∗ (ℓ ↦[I]{qs 2} f) ∗ (ℓ ↦[I]{qs 3} f)
      ∗ (ℓ ↦[I]{qs 4} f) ∗ (ℓ ↦[I]{qs 5} f) ∗ ℓ ↦[I]{qs 6} f) := by
  rw [qs_zero, qs_one, qs_two, qs_three, qs_four, qs_five, qs_six]
  show (ℓ ↦[I]{rsh 0} f : sProp 𝕄) = _
  rw [pointsTo_rsh ℓ I f 0, pointsTo_rsh ℓ I f 1, pointsTo_rsh ℓ I f 2, pointsTo_rsh ℓ I f 3, pointsTo_rsh ℓ I f 4,
    pointsTo_rsh ℓ I f 5]

omit [FloatOps F] in
/-- The statistics buffer's view is the whole buffer. -/
theorem sM_set : (sM : Memref sig .tc .vmem S2x2048 .f32).view.set = Finset.univ := View.set_whole cc0_scratch0

omit [FloatOps F] in
/-- The whole landing buffer is its seven slots (listed last slot first, the order the signals hand them out). -/
theorem comm_split (c : Dev nD) (f : Buf (Elt F) ((c : Thread nD τ).loc cc0_scratch1)) :
    commWhole c f ⊢ (iprop(((slot6 : Memref sig .tc .vmem S2x2048 .f32).view.loc ((c : Dev nD) : Thread nD τ) ↦[(slot6 : Memref sig .tc .vmem S2x2048 .f32).view.set]{fullShare} f)
      ∗ ((slot5 : Memref sig .tc .vmem S2x2048 .f32).view.loc ((c : Dev nD) : Thread nD τ) ↦[(slot5 : Memref sig .tc .vmem S2x2048 .f32).view.set]{fullShare} f)
      ∗ ((slot4 : Memref sig .tc .vmem S2x2048 .f32).view.loc ((c : Dev nD) : Thread nD τ) ↦[(slot4 : Memref sig .tc .vmem S2x2048 .f32).view.set]{fullShare} f)
      ∗ ((slot3 : Memref sig .tc .vmem S2x2048 .f32).view.loc ((c : Dev nD) : Thread nD τ) ↦[(slot3 : Memref sig .tc .vmem S2x2048 .f32).view.set]{fullShare} f)
      ∗ ((slot2 : Memref sig .tc .vmem S2x2048 .f32).view.loc ((c : Dev nD) : Thread nD τ) ↦[(slot2 : Memref sig .tc .vmem S2x2048 .f32).view.set]{fullShare} f)
      ∗ ((slot1 : Memref sig .tc .vmem S2x2048 .f32).view.loc ((c : Dev nD) : Thread nD τ) ↦[(slot1 : Memref sig .tc .vmem S2x2048 .f32).view.set]{fullShare} f)
      ∗ ((slot0 : Memref sig .tc .vmem S2x2048 .f32).view.loc ((c : Dev nD) : Thread nD τ) ↦[(slot0 : Memref sig .tc .vmem S2x2048 .f32).view.set]{fullShare} f)) : sProp 𝕄) := by
  unfold commWhole
  exact Entails.of_eq (pointsTo_seven_fibres (ℓ := ((c : Dev nD) : Thread nD τ).loc cc0_scratch1)
    (fun i => (i 0).val) (fun i => (i 0).isLt)
    (A0 := (slot0 : Memref sig .tc .vmem S2x2048 .f32).view.set) (A1 := (slot1 : Memref sig .tc .vmem S2x2048 .f32).view.set)
    (A2 := (slot2 : Memref sig .tc .vmem S2x2048 .f32).view.set) (A3 := (slot3 : Memref sig .tc .vmem S2x2048 .f32).view.set)
    (A4 := (slot4 : Memref sig .tc .vmem S2x2048 .f32).view.set) (A5 := (slot5 : Memref sig .tc .vmem S2x2048 .f32).view.set)
    (A6 := (slot6 : Memref sig .tc .vmem S2x2048 .f32).view.set)
    (fun i => mem_slot) (fun i => mem_slot) (fun i => mem_slot) (fun i => mem_slot) (fun i => mem_slot)
    (fun i => mem_slot) (fun i => mem_slot) fullShare f)

omit [FloatOps F] in
/-- Seven slots at one contents are the whole landing buffer. -/
theorem comm_join (c : Dev nD) (f : Buf (Elt F) ((c : Thread nD τ).loc cc0_scratch1)) :
    (iprop(((slot0 : Memref sig .tc .vmem S2x2048 .f32).view.loc ((c : Dev nD) : Thread nD τ) ↦[(slot0 : Memref sig .tc .vmem S2x2048 .f32).view.set]{fullShare} f)
      ∗ ((slot1 : Memref sig .tc .vmem S2x2048 .f32).view.loc ((c : Dev nD) : Thread nD τ) ↦[(slot1 : Memref sig .tc .vmem S2x2048 .f32).view.set]{fullShare} f)
      ∗ ((slot2 : Memref sig .tc .vmem S2x2048 .f32).view.loc ((c : Dev nD) : Thread nD τ) ↦[(slot2 : Memref sig .tc .vmem S2x2048 .f32).view.set]{fullShare} f)
      ∗ ((slot3 : Memref sig .tc .vmem S2x2048 .f32).view.loc ((c : Dev nD) : Thread nD τ) ↦[(slot3 : Memref sig .tc .vmem S2x2048 .f32).view.set]{fullShare} f)
      ∗ ((slot4 : Memref sig .tc .vmem S2x2048 .f32).view.loc ((c : Dev nD) : Thread nD τ) ↦[(slot4 : Memref sig .tc .vmem S2x2048 .f32).view.set]{fullShare} f)
      ∗ ((slot5 : Memref sig .tc .vmem S2x2048 .f32).view.loc ((c : Dev nD) : Thread nD τ) ↦[(slot5 : Memref sig .tc .vmem S2x2048 .f32).view.set]{fullShare} f)
      ∗ ((slot6 : Memref sig .tc .vmem S2x2048 .f32).view.loc ((c : Dev nD) : Thread nD τ) ↦[(slot6 : Memref sig .tc .vmem S2x2048 .f32).view.set]{fullShare} f)) : sProp 𝕄) ⊢ commWhole c f := by
  unfold commWhole
  have hlt : ∀ i : Idx (((c : Dev nD) : Thread nD τ).loc cc0_scratch1), (i 0).val < 7 := fun i => (i 0).isLt
  exact Entails.of_eq (pointsTo_seven_fibres (ℓ := ((c : Dev nD) : Thread nD τ).loc cc0_scratch1)
    (fun i => 6 - (i 0).val) (fun i => by omega)
    (A0 := (slot6 : Memref sig .tc .vmem S2x2048 .f32).view.set) (A1 := (slot5 : Memref sig .tc .vmem S2x2048 .f32).view.set)
    (A2 := (slot4 : Memref sig .tc .vmem S2x2048 .f32).view.set) (A3 := (slot3 : Memref sig .tc .vmem S2x2048 .f32).view.set)
    (A4 := (slot2 : Memref sig .tc .vmem S2x2048 .f32).view.set) (A5 := (slot1 : Memref sig .tc .vmem S2x2048 .f32).view.set)
    (A6 := (slot0 : Memref sig .tc .vmem S2x2048 .f32).view.set)
    (fun i => mem_slot.trans (by have := hlt i; omega)) (fun i => mem_slot.trans (by have := hlt i; omega))
    (fun i => mem_slot.trans (by have := hlt i; omega)) (fun i => mem_slot.trans (by have := hlt i; omega))
    (fun i => mem_slot.trans (by have := hlt i; omega)) (fun i => mem_slot.trans (by have := hlt i; omega))
    (fun i => mem_slot.trans (by have := hlt i; omega)) fullShare f).symm

omit [FloatOps F] in
/-- The full share of the statistics buffer is the seven shares lent to the copies. -/
theorem stats_split (c : Dev nD) (f : Buf (Elt F) ((c : Thread nD τ).loc cc0_scratch0)) :
    statsWhole c f ⊢ (iprop(((sM : Memref sig .tc .vmem S2x2048 .f32).view.loc ((c : Dev nD) : Thread nD τ) ↦[(sM : Memref sig .tc .vmem S2x2048 .f32).view.set]{qs 0} f)
      ∗ ((sM : Memref sig .tc .vmem S2x2048 .f32).view.loc ((c : Dev nD) : Thread nD τ) ↦[(sM : Memref sig .tc .vmem S2x2048 .f32).view.set]{qs 1} f)
      ∗ ((sM : Memref sig .tc .vmem S2x2048 .f32).view.loc ((c : Dev nD) : Thread nD τ) ↦[(sM : Memref sig .tc .vmem S2x2048 .f32).view.set]{qs 2} f)
      ∗ ((sM : Memref sig .tc .vmem S2x2048 .f32).view.loc ((c : Dev nD) : Thread nD τ) ↦[(sM : Memref sig .tc .vmem S2x2048 .f32).view.set]{qs 3} f)
      ∗ ((sM : Memref sig .tc .vmem S2x2048 .f32).view.loc ((c : Dev nD) : Thread nD τ) ↦[(sM : Memref sig .tc .vmem S2x2048 .f32).view.set]{qs 4} f)
      ∗ ((sM : Memref sig .tc .vmem S2x2048 .f32).view.loc ((c : Dev nD) : Thread nD τ) ↦[(sM : Memref sig .tc .vmem S2x2048 .f32).view.set]{qs 5} f)
      ∗ ((sM : Memref sig .tc .vmem S2x2048 .f32).view.loc ((c : Dev nD) : Thread nD τ) ↦[(sM : Memref sig .tc .vmem S2x2048 .f32).view.set]{qs 6} f)) : sProp 𝕄) := by
  unfold statsWhole
  rw [sM_set]
  exact Entails.of_eq (pointsTo_seven_shares _ _ f)

omit [FloatOps F] in
theorem stats_join (c : Dev nD) (f : Buf (Elt F) ((c : Thread nD τ).loc cc0_scratch0)) :
    (iprop(((sM : Memref sig .tc .vmem S2x2048 .f32).view.loc ((c : Dev nD) : Thread nD τ) ↦[(sM : Memref sig .tc .vmem S2x2048 .f32).view.set]{qs 0} f)
      ∗ ((sM : Memref sig .tc .vmem S2x2048 .f32).view.loc ((c : Dev nD) : Thread nD τ) ↦[(sM : Memref sig .tc .vmem S2x2048 .f32).view.set]{qs 1} f)
      ∗ ((sM : Memref sig .tc .vmem S2x2048 .f32).view.loc ((c : Dev nD) : Thread nD τ) ↦[(sM : Memref sig .tc .vmem S2x2048 .f32).view.set]{qs 2} f)
      ∗ ((sM : Memref sig .tc .vmem S2x2048 .f32).view.loc ((c : Dev nD) : Thread nD τ) ↦[(sM : Memref sig .tc .vmem S2x2048 .f32).view.set]{qs 3} f)
      ∗ ((sM : Memref sig .tc .vmem S2x2048 .f32).view.loc ((c : Dev nD) : Thread nD τ) ↦[(sM : Memref sig .tc .vmem S2x2048 .f32).view.set]{qs 4} f)
      ∗ ((sM : Memref sig .tc .vmem S2x2048 .f32).view.loc ((c : Dev nD) : Thread nD τ) ↦[(sM : Memref sig .tc .vmem S2x2048 .f32).view.set]{qs 5} f)
      ∗ ((sM : Memref sig .tc .vmem S2x2048 .f32).view.loc ((c : Dev nD) : Thread nD τ) ↦[(sM : Memref sig .tc .vmem S2x2048 .f32).view.set]{qs 6} f)) : sProp 𝕄) ⊢ statsWhole c f := by
  unfold statsWhole
  rw [sM_set]
  exact Entails.of_eq (pointsTo_seven_shares _ _ f).symm

/-- What receive cell k hands its owner, restated: slot k at the contents commAll. -/
theorem landed (c : Dev nD) (k : Fin 7) : recvPay m c k ⊢ slotPts c k (commAll m c) := by
  have key : ∀ (j : ℕ) (inb : ∀ a, (![j, 0, 0] : Fin 3 → Nat) a + S1x2x2048.size a ≤ S7x2x2048.size a) (o : ℕ)
      (ho : 7 - j = o) (fd : Buf (Elt F) (((c : Dev nD) : Thread nD τ).loc cc0_scratch1)),
      ((((cM : Memref sig .tc .vmem S7x2x2048 .f32).slice (Rect.unit (s := S7x2x2048) ![j, 0, 0] S1x2x2048.size inb)
          (fun _ => rfl)).squeeze S2x2048 squeezes_S1x2x2048_S2x2048).view.loc ((c : Dev nD) : Thread nD τ)
        ↦[(((cM : Memref sig .tc .vmem S7x2x2048 .f32).slice (Rect.unit (s := S7x2x2048) ![j, 0, 0] S1x2x2048.size inb)
          (fun _ => rfl)).squeeze S2x2048 squeezes_S1x2x2048_S2x2048).view.set]{fullShare}
          ((((cM : Memref sig .tc .vmem S7x2x2048 .f32).slice (Rect.unit (s := S7x2x2048) ![j, 0, 0] S1x2x2048.size inb)
            (fun _ => rfl)).squeeze S2x2048 squeezes_S1x2x2048_S2x2048).view.write (Elt F) fd
            ((sM : Memref sig .tc .vmem S2x2048 .f32).view.read (Elt F) (stats m (pr c o))) Finset.univ) : sProp 𝕄)
        = ((((cM : Memref sig .tc .vmem S7x2x2048 .f32).slice (Rect.unit (s := S7x2x2048) ![j, 0, 0] S1x2x2048.size inb)
          (fun _ => rfl)).squeeze S2x2048 squeezes_S1x2x2048_S2x2048).view.loc ((c : Dev nD) : Thread nD τ)
        ↦[(((cM : Memref sig .tc .vmem S7x2x2048 .f32).slice (Rect.unit (s := S7x2x2048) ![j, 0, 0] S1x2x2048.size inb)
          (fun _ => rfl)).squeeze S2x2048 squeezes_S1x2x2048_S2x2048).view.set]{fullShare} commAll m c) := by
    intro j inb o ho fd
    refine pointsTo_congr fun i hi => ?_
    have h0 : (i 0).val = j := mem_slot.mp hi
    show _ = stats m (pr c (7 - (i 0).val)) _
    rw [h0, ho]
    exact slot_write_apply j inb fd _ i _ h0 rfl rfl
  fin_cases k
  · exact exists_elim fun fd => Entails.of_eq (key 0 _ 7 rfl fd)
  · exact exists_elim fun fd => Entails.of_eq (key 1 _ 6 rfl fd)
  · exact exists_elim fun fd => Entails.of_eq (key 2 _ 5 rfl fd)
  · exact exists_elim fun fd => Entails.of_eq (key 3 _ 4 rfl fd)
  · exact exists_elim fun fd => Entails.of_eq (key 4 _ 3 rfl fd)
  · exact exists_elim fun fd => Entails.of_eq (key 5 _ 2 rfl fd)
  · exact exists_elim fun fd => Entails.of_eq (key 6 _ 1 rfl fd)

end Cert.Kernel.Hand

end
-- ==== Proof.KernelHand.Body.lean ====
/-
# One device's body, stepped from what it holds at the start to what it leaves
-/
import proofs.«900602_g7700000000000603_dist_softmax_colshard_i_m2048_n1024_v7x_i8_f32_1_alg».proof.Proof.KernelHand.Bufs
import proofs.«900602_g7700000000000603_dist_softmax_colshard_i_m2048_n1024_v7x_i8_f32_1_alg».proof.Proof.Gen.Kernel.Points

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic

local notation "𝕄" => MT nD τ sig Unit (Elt F) ℕ UU ℕ

variable (m : (ℓ : Loc nD τ sig) → Buf (Elt F) ℓ) (ρ : Dev nD → PrngReg)

/-! ## The schedule's tables at each slot, as the run reads them -/

theorem duties_bar' (c : Dev nD) : (softRd (F := F) m).duties (((c : Dev nD) : Thread nD τ), SemLoc.reg barS) 0 = {0, 1, 2, 3, 4, 5, 6} := by
  rw [duties_bar]; decide
theorem amount_bar' (c : Dev nD) (d : Fin 7) : (softRd (F := F) m).amount (((c : Dev nD) : Thread nD τ), SemLoc.reg barS) 0 d = 1 := rfl
theorem expect_bar' (c : Dev nD) : (softRd (F := F) m).expect (((c : Dev nD) : Thread nD τ), SemLoc.reg barS) 0 = 7 := expect_bar m c
theorem duties_snd0 (c : Dev nD) : (softRd (F := F) m).duties (((c : Dev nD) : Thread nD τ), SemLoc.dma snd0) 0 = {0} := duties_send m c 0
theorem duties_snd1 (c : Dev nD) : (softRd (F := F) m).duties (((c : Dev nD) : Thread nD τ), SemLoc.dma snd1) 0 = {0} := duties_send m c 1
theorem duties_snd2 (c : Dev nD) : (softRd (F := F) m).duties (((c : Dev nD) : Thread nD τ), SemLoc.dma snd2) 0 = {0} := duties_send m c 2
theorem duties_snd3 (c : Dev nD) : (softRd (F := F) m).duties (((c : Dev nD) : Thread nD τ), SemLoc.dma snd3) 0 = {0} := duties_send m c 3
theorem duties_snd4 (c : Dev nD) : (softRd (F := F) m).duties (((c : Dev nD) : Thread nD τ), SemLoc.dma snd4) 0 = {0} := duties_send m c 4
theorem duties_snd5 (c : Dev nD) : (softRd (F := F) m).duties (((c : Dev nD) : Thread nD τ), SemLoc.dma snd5) 0 = {0} := duties_send m c 5
theorem duties_snd6 (c : Dev nD) : (softRd (F := F) m).duties (((c : Dev nD) : Thread nD τ), SemLoc.dma snd6) 0 = {0} := duties_send m c 6
theorem duties_rcv0 (c : Dev nD) : (softRd (F := F) m).duties (((c : Dev nD) : Thread nD τ), SemLoc.dma rcv0) 0 = {0} := duties_recv m c 0
theorem duties_rcv1 (c : Dev nD) : (softRd (F := F) m).duties (((c : Dev nD) : Thread nD τ), SemLoc.dma rcv1) 0 = {0} := duties_recv m c 1
theorem duties_rcv2 (c : Dev nD) : (softRd (F := F) m).duties (((c : Dev nD) : Thread nD τ), SemLoc.dma rcv2) 0 = {0} := duties_recv m c 2
theorem duties_rcv3 (c : Dev nD) : (softRd (F := F) m).duties (((c : Dev nD) : Thread nD τ), SemLoc.dma rcv3) 0 = {0} := duties_recv m c 3
theorem duties_rcv4 (c : Dev nD) : (softRd (F := F) m).duties (((c : Dev nD) : Thread nD τ), SemLoc.dma rcv4) 0 = {0} := duties_recv m c 4
theorem duties_rcv5 (c : Dev nD) : (softRd (F := F) m).duties (((c : Dev nD) : Thread nD τ), SemLoc.dma rcv5) 0 = {0} := duties_recv m c 5
theorem duties_rcv6 (c : Dev nD) : (softRd (F := F) m).duties (((c : Dev nD) : Thread nD τ), SemLoc.dma rcv6) 0 = {0} := duties_recv m c 6
theorem amount_snd0 (c : Dev nD) (d : Fin 7) : (softRd (F := F) m).amount (((c : Dev nD) : Thread nD τ), SemLoc.dma snd0) 0 d = N := rfl
theorem amount_snd1 (c : Dev nD) (d : Fin 7) : (softRd (F := F) m).amount (((c : Dev nD) : Thread nD τ), SemLoc.dma snd1) 0 d = N := rfl
theorem amount_snd2 (c : Dev nD) (d : Fin 7) : (softRd (F := F) m).amount (((c : Dev nD) : Thread nD τ), SemLoc.dma snd2) 0 d = N := rfl
theorem amount_snd3 (c : Dev nD) (d : Fin 7) : (softRd (F := F) m).amount (((c : Dev nD) : Thread nD τ), SemLoc.dma snd3) 0 d = N := rfl
theorem amount_snd4 (c : Dev nD) (d : Fin 7) : (softRd (F := F) m).amount (((c : Dev nD) : Thread nD τ), SemLoc.dma snd4) 0 d = N := rfl
theorem amount_snd5 (c : Dev nD) (d : Fin 7) : (softRd (F := F) m).amount (((c : Dev nD) : Thread nD τ), SemLoc.dma snd5) 0 d = N := rfl
theorem amount_snd6 (c : Dev nD) (d : Fin 7) : (softRd (F := F) m).amount (((c : Dev nD) : Thread nD τ), SemLoc.dma snd6) 0 d = N := rfl
theorem amount_rcv0 (c : Dev nD) (d : Fin 7) : (softRd (F := F) m).amount (((c : Dev nD) : Thread nD τ), SemLoc.dma rcv0) 0 d = N := rfl
theorem amount_rcv1 (c : Dev nD) (d : Fin 7) : (softRd (F := F) m).amount (((c : Dev nD) : Thread nD τ), SemLoc.dma rcv1) 0 d = N := rfl
theorem amount_rcv2 (c : Dev nD) (d : Fin 7) : (softRd (F := F) m).amount (((c : Dev nD) : Thread nD τ), SemLoc.dma rcv2) 0 d = N := rfl
theorem amount_rcv3 (c : Dev nD) (d : Fin 7) : (softRd (F := F) m).amount (((c : Dev nD) : Thread nD τ), SemLoc.dma rcv3) 0 d = N := rfl
theorem amount_rcv4 (c : Dev nD) (d : Fin 7) : (softRd (F := F) m).amount (((c : Dev nD) : Thread nD τ), SemLoc.dma rcv4) 0 d = N := rfl
theorem amount_rcv5 (c : Dev nD) (d : Fin 7) : (softRd (F := F) m).amount (((c : Dev nD) : Thread nD τ), SemLoc.dma rcv5) 0 d = N := rfl
theorem amount_rcv6 (c : Dev nD) (d : Fin 7) : (softRd (F := F) m).amount (((c : Dev nD) : Thread nD τ), SemLoc.dma rcv6) 0 d = N := rfl
theorem expect_snd0 (c : Dev nD) : (softRd (F := F) m).expect (((c : Dev nD) : Thread nD τ), SemLoc.dma snd0) 0 = N := expect_send m c 0
theorem expect_snd1 (c : Dev nD) : (softRd (F := F) m).expect (((c : Dev nD) : Thread nD τ), SemLoc.dma snd1) 0 = N := expect_send m c 1
theorem expect_snd2 (c : Dev nD) : (softRd (F := F) m).expect (((c : Dev nD) : Thread nD τ), SemLoc.dma snd2) 0 = N := expect_send m c 2
theorem expect_snd3 (c : Dev nD) : (softRd (F := F) m).expect (((c : Dev nD) : Thread nD τ), SemLoc.dma snd3) 0 = N := expect_send m c 3
theorem expect_snd4 (c : Dev nD) : (softRd (F := F) m).expect (((c : Dev nD) : Thread nD τ), SemLoc.dma snd4) 0 = N := expect_send m c 4
theorem expect_snd5 (c : Dev nD) : (softRd (F := F) m).expect (((c : Dev nD) : Thread nD τ), SemLoc.dma snd5) 0 = N := expect_send m c 5
theorem expect_snd6 (c : Dev nD) : (softRd (F := F) m).expect (((c : Dev nD) : Thread nD τ), SemLoc.dma snd6) 0 = N := expect_send m c 6
theorem expect_rcv0 (c : Dev nD) : (softRd (F := F) m).expect (((c : Dev nD) : Thread nD τ), SemLoc.dma rcv0) 0 = N := expect_recv m c 0
theorem expect_rcv1 (c : Dev nD) : (softRd (F := F) m).expect (((c : Dev nD) : Thread nD τ), SemLoc.dma rcv1) 0 = N := expect_recv m c 1
theorem expect_rcv2 (c : Dev nD) : (softRd (F := F) m).expect (((c : Dev nD) : Thread nD τ), SemLoc.dma rcv2) 0 = N := expect_recv m c 2
theorem expect_rcv3 (c : Dev nD) : (softRd (F := F) m).expect (((c : Dev nD) : Thread nD τ), SemLoc.dma rcv3) 0 = N := expect_recv m c 3
theorem expect_rcv4 (c : Dev nD) : (softRd (F := F) m).expect (((c : Dev nD) : Thread nD τ), SemLoc.dma rcv4) 0 = N := expect_recv m c 4
theorem expect_rcv5 (c : Dev nD) : (softRd (F := F) m).expect (((c : Dev nD) : Thread nD τ), SemLoc.dma rcv5) 0 = N := expect_recv m c 5
theorem expect_rcv6 (c : Dev nD) : (softRd (F := F) m).expect (((c : Dev nD) : Thread nD τ), SemLoc.dma rcv6) 0 = N := expect_recv m c 6
theorem payload_sig1 (c : Dev nD) : (softRd (F := F) m).payload (((pr c 1 : Dev nD) : Thread nD τ), SemLoc.reg barS) 0 (6 : Fin 7)
    = iprop((∃ f, ((slot6 : Memref sig .tc .vmem S2x2048 .f32).view.loc ((c : Dev nD) : Thread nD τ) ↦[(slot6 : Memref sig .tc .vmem S2x2048 .f32).view.set]{fullShare} f)) ∗ reached ER (((c : Dev nD) : Thread nD τ), SemLoc.dma rcv6) 0) := by
  rw [payload_bar]; unfold barPay
  rw [show pr (pr c 1) ((6 : Fin 7).val + 1) = c from by rw [pr_pr]; exact pr_eight c]
  rfl
theorem payload_sig2 (c : Dev nD) : (softRd (F := F) m).payload (((pr c 2 : Dev nD) : Thread nD τ), SemLoc.reg barS) 0 (5 : Fin 7)
    = iprop((∃ f, ((slot5 : Memref sig .tc .vmem S2x2048 .f32).view.loc ((c : Dev nD) : Thread nD τ) ↦[(slot5 : Memref sig .tc .vmem S2x2048 .f32).view.set]{fullShare} f)) ∗ reached ER (((c : Dev nD) : Thread nD τ), SemLoc.dma rcv5) 0) := by
  rw [payload_bar]; unfold barPay
  rw [show pr (pr c 2) ((5 : Fin 7).val + 1) = c from by rw [pr_pr]; exact pr_eight c]
  rfl
theorem payload_sig3 (c : Dev nD) : (softRd (F := F) m).payload (((pr c 3 : Dev nD) : Thread nD τ), SemLoc.reg barS) 0 (4 : Fin 7)
    = iprop((∃ f, ((slot4 : Memref sig .tc .vmem S2x2048 .f32).view.loc ((c : Dev nD) : Thread nD τ) ↦[(slot4 : Memref sig .tc .vmem S2x2048 .f32).view.set]{fullShare} f)) ∗ reached ER (((c : Dev nD) : Thread nD τ), SemLoc.dma rcv4) 0) := by
  rw [payload_bar]; unfold barPay
  rw [show pr (pr c 3) ((4 : Fin 7).val + 1) = c from by rw [pr_pr]; exact pr_eight c]
  rfl
theorem payload_sig4 (c : Dev nD) : (softRd (F := F) m).payload (((pr c 4 : Dev nD) : Thread nD τ), SemLoc.reg barS) 0 (3 : Fin 7)
    = iprop((∃ f, ((slot3 : Memref sig .tc .vmem S2x2048 .f32).view.loc ((c : Dev nD) : Thread nD τ) ↦[(slot3 : Memref sig .tc .vmem S2x2048 .f32).view.set]{fullShare} f)) ∗ reached ER (((c : Dev nD) : Thread nD τ), SemLoc.dma rcv3) 0) := by
  rw [payload_bar]; unfold barPay
  rw [show pr (pr c 4) ((3 : Fin 7).val + 1) = c from by rw [pr_pr]; exact pr_eight c]
  rfl
theorem payload_sig5 (c : Dev nD) : (softRd (F := F) m).payload (((pr c 5 : Dev nD) : Thread nD τ), SemLoc.reg barS) 0 (2 : Fin 7)
    = iprop((∃ f, ((slot2 : Memref sig .tc .vmem S2x2048 .f32).view.loc ((c : Dev nD) : Thread nD τ) ↦[(slot2 : Memref sig .tc .vmem S2x2048 .f32).view.set]{fullShare} f)) ∗ reached ER (((c : Dev nD) : Thread nD τ), SemLoc.dma rcv2) 0) := by
  rw [payload_bar]; unfold barPay
  rw [show pr (pr c 5) ((2 : Fin 7).val + 1) = c from by rw [pr_pr]; exact pr_eight c]
  rfl
theorem payload_sig6 (c : Dev nD) : (softRd (F := F) m).payload (((pr c 6 : Dev nD) : Thread nD τ), SemLoc.reg barS) 0 (1 : Fin 7)
    = iprop((∃ f, ((slot1 : Memref sig .tc .vmem S2x2048 .f32).view.loc ((c : Dev nD) : Thread nD τ) ↦[(slot1 : Memref sig .tc .vmem S2x2048 .f32).view.set]{fullShare} f)) ∗ reached ER (((c : Dev nD) : Thread nD τ), SemLoc.dma rcv1) 0) := by
  rw [payload_bar]; unfold barPay
  rw [show pr (pr c 6) ((1 : Fin 7).val + 1) = c from by rw [pr_pr]; exact pr_eight c]
  rfl
theorem payload_sig7 (c : Dev nD) : (softRd (F := F) m).payload (((pr c 7 : Dev nD) : Thread nD τ), SemLoc.reg barS) 0 (0 : Fin 7)
    = iprop((∃ f, ((slot0 : Memref sig .tc .vmem S2x2048 .f32).view.loc ((c : Dev nD) : Thread nD τ) ↦[(slot0 : Memref sig .tc .vmem S2x2048 .f32).view.set]{fullShare} f)) ∗ reached ER (((c : Dev nD) : Thread nD τ), SemLoc.dma rcv0) 0) := by
  rw [payload_bar]; unfold barPay
  rw [show pr (pr c 7) ((0 : Fin 7).val + 1) = c from by rw [pr_pr]; exact pr_eight c]
  rfl
theorem payload_snd0 (c : Dev nD) (d : Fin 7) : (softRd (F := F) m).payload (((c : Dev nD) : Thread nD τ), SemLoc.dma snd0) 0 d = ((sM : Memref sig .tc .vmem S2x2048 .f32).view.loc ((c : Dev nD) : Thread nD τ) ↦[(sM : Memref sig .tc .vmem S2x2048 .f32).view.set]{qs 0} stats m c) :=
  payload_send m c 0 d
theorem payload_snd1 (c : Dev nD) (d : Fin 7) : (softRd (F := F) m).payload (((c : Dev nD) : Thread nD τ), SemLoc.dma snd1) 0 d = ((sM : Memref sig .tc .vmem S2x2048 .f32).view.loc ((c : Dev nD) : Thread nD τ) ↦[(sM : Memref sig .tc .vmem S2x2048 .f32).view.set]{qs 1} stats m c) :=
  payload_send m c 1 d
theorem payload_snd2 (c : Dev nD) (d : Fin 7) : (softRd (F := F) m).payload (((c : Dev nD) : Thread nD τ), SemLoc.dma snd2) 0 d = ((sM : Memref sig .tc .vmem S2x2048 .f32).view.loc ((c : Dev nD) : Thread nD τ) ↦[(sM : Memref sig .tc .vmem S2x2048 .f32).view.set]{qs 2} stats m c) :=
  payload_send m c 2 d
theorem payload_snd3 (c : Dev nD) (d : Fin 7) : (softRd (F := F) m).payload (((c : Dev nD) : Thread nD τ), SemLoc.dma snd3) 0 d = ((sM : Memref sig .tc .vmem S2x2048 .f32).view.loc ((c : Dev nD) : Thread nD τ) ↦[(sM : Memref sig .tc .vmem S2x2048 .f32).view.set]{qs 3} stats m c) :=
  payload_send m c 3 d
theorem payload_snd4 (c : Dev nD) (d : Fin 7) : (softRd (F := F) m).payload (((c : Dev nD) : Thread nD τ), SemLoc.dma snd4) 0 d = ((sM : Memref sig .tc .vmem S2x2048 .f32).view.loc ((c : Dev nD) : Thread nD τ) ↦[(sM : Memref sig .tc .vmem S2x2048 .f32).view.set]{qs 4} stats m c) :=
  payload_send m c 4 d
theorem payload_snd5 (c : Dev nD) (d : Fin 7) : (softRd (F := F) m).payload (((c : Dev nD) : Thread nD τ), SemLoc.dma snd5) 0 d = ((sM : Memref sig .tc .vmem S2x2048 .f32).view.loc ((c : Dev nD) : Thread nD τ) ↦[(sM : Memref sig .tc .vmem S2x2048 .f32).view.set]{qs 5} stats m c) :=
  payload_send m c 5 d
theorem payload_snd6 (c : Dev nD) (d : Fin 7) : (softRd (F := F) m).payload (((c : Dev nD) : Thread nD τ), SemLoc.dma snd6) 0 d = ((sM : Memref sig .tc .vmem S2x2048 .f32).view.loc ((c : Dev nD) : Thread nD τ) ↦[(sM : Memref sig .tc .vmem S2x2048 .f32).view.set]{qs 6} stats m c) :=
  payload_send m c 6 d
theorem payload_rcvTo0 (c : Dev nD) (d : Fin 7) : (softRd (F := F) m).payload (((pr c 1 : Dev nD) : Thread nD τ), SemLoc.dma rcv0) 0 d
    = iprop(∃ fd : Buf (Elt F) ((((pr c 1 : Dev nD) : Thread nD τ)).loc cc0_scratch1), (slot0 : Memref sig .tc .vmem S2x2048 .f32).view.loc ((pr c 1 : Dev nD) : Thread nD τ) ↦[(slot0 : Memref sig .tc .vmem S2x2048 .f32).view.set]{fullShare}
      ((slot0 : Memref sig .tc .vmem S2x2048 .f32).view.write (Elt F) fd ((sM : Memref sig .tc .vmem S2x2048 .f32).view.read (Elt F) (stats m c)) Finset.univ)) := by
  refine (payload_recv m (pr c 1) 0 d).trans ?_
  show iprop(∃ fd : Buf (Elt F) ((((pr c 1 : Dev nD) : Thread nD τ)).loc cc0_scratch1), (slot0 : Memref sig .tc .vmem S2x2048 .f32).view.loc ((pr c 1 : Dev nD) : Thread nD τ) ↦[(slot0 : Memref sig .tc .vmem S2x2048 .f32).view.set]{fullShare}
      ((slot0 : Memref sig .tc .vmem S2x2048 .f32).view.write (Elt F) fd ((sM : Memref sig .tc .vmem S2x2048 .f32).view.read (Elt F) (stats m (pr (pr c 1) 7))) Finset.univ)) = _
  rw [show pr (pr c 1) 7 = c from by rw [pr_pr]; exact pr_eight c]
theorem payload_rcvTo1 (c : Dev nD) (d : Fin 7) : (softRd (F := F) m).payload (((pr c 2 : Dev nD) : Thread nD τ), SemLoc.dma rcv1) 0 d
    = iprop(∃ fd : Buf (Elt F) ((((pr c 2 : Dev nD) : Thread nD τ)).loc cc0_scratch1), (slot1 : Memref sig .tc .vmem S2x2048 .f32).view.loc ((pr c 2 : Dev nD) : Thread nD τ) ↦[(slot1 : Memref sig .tc .vmem S2x2048 .f32).view.set]{fullShare}
      ((slot1 : Memref sig .tc .vmem S2x2048 .f32).view.write (Elt F) fd ((sM : Memref sig .tc .vmem S2x2048 .f32).view.read (Elt F) (stats m c)) Finset.univ)) := by
  refine (payload_recv m (pr c 2) 1 d).trans ?_
  show iprop(∃ fd : Buf (Elt F) ((((pr c 2 : Dev nD) : Thread nD τ)).loc cc0_scratch1), (slot1 : Memref sig .tc .vmem S2x2048 .f32).view.loc ((pr c 2 : Dev nD) : Thread nD τ) ↦[(slot1 : Memref sig .tc .vmem S2x2048 .f32).view.set]{fullShare}
      ((slot1 : Memref sig .tc .vmem S2x2048 .f32).view.write (Elt F) fd ((sM : Memref sig .tc .vmem S2x2048 .f32).view.read (Elt F) (stats m (pr (pr c 2) 6))) Finset.univ)) = _
  rw [show pr (pr c 2) 6 = c from by rw [pr_pr]; exact pr_eight c]
theorem payload_rcvTo2 (c : Dev nD) (d : Fin 7) : (softRd (F := F) m).payload (((pr c 3 : Dev nD) : Thread nD τ), SemLoc.dma rcv2) 0 d
    = iprop(∃ fd : Buf (Elt F) ((((pr c 3 : Dev nD) : Thread nD τ)).loc cc0_scratch1), (slot2 : Memref sig .tc .vmem S2x2048 .f32).view.loc ((pr c 3 : Dev nD) : Thread nD τ) ↦[(slot2 : Memref sig .tc .vmem S2x2048 .f32).view.set]{fullShare}
      ((slot2 : Memref sig .tc .vmem S2x2048 .f32).view.write (Elt F) fd ((sM : Memref sig .tc .vmem S2x2048 .f32).view.read (Elt F) (stats m c)) Finset.univ)) := by
  refine (payload_recv m (pr c 3) 2 d).trans ?_
  show iprop(∃ fd : Buf (Elt F) ((((pr c 3 : Dev nD) : Thread nD τ)).loc cc0_scratch1), (slot2 : Memref sig .tc .vmem S2x2048 .f32).view.loc ((pr c 3 : Dev nD) : Thread nD τ) ↦[(slot2 : Memref sig .tc .vmem S2x2048 .f32).view.set]{fullShare}
      ((slot2 : Memref sig .tc .vmem S2x2048 .f32).view.write (Elt F) fd ((sM : Memref sig .tc .vmem S2x2048 .f32).view.read (Elt F) (stats m (pr (pr c 3) 5))) Finset.univ)) = _
  rw [show pr (pr c 3) 5 = c from by rw [pr_pr]; exact pr_eight c]
theorem payload_rcvTo3 (c : Dev nD) (d : Fin 7) : (softRd (F := F) m).payload (((pr c 4 : Dev nD) : Thread nD τ), SemLoc.dma rcv3) 0 d
    = iprop(∃ fd : Buf (Elt F) ((((pr c 4 : Dev nD) : Thread nD τ)).loc cc0_scratch1), (slot3 : Memref sig .tc .vmem S2x2048 .f32).view.loc ((pr c 4 : Dev nD) : Thread nD τ) ↦[(slot3 : Memref sig .tc .vmem S2x2048 .f32).view.set]{fullShare}
      ((slot3 : Memref sig .tc .vmem S2x2048 .f32).view.write (Elt F) fd ((sM : Memref sig .tc .vmem S2x2048 .f32).view.read (Elt F) (stats m c)) Finset.univ)) := by
  refine (payload_recv m (pr c 4) 3 d).trans ?_
  show iprop(∃ fd : Buf (Elt F) ((((pr c 4 : Dev nD) : Thread nD τ)).loc cc0_scratch1), (slot3 : Memref sig .tc .vmem S2x2048 .f32).view.loc ((pr c 4 : Dev nD) : Thread nD τ) ↦[(slot3 : Memref sig .tc .vmem S2x2048 .f32).view.set]{fullShare}
      ((slot3 : Memref sig .tc .vmem S2x2048 .f32).view.write (Elt F) fd ((sM : Memref sig .tc .vmem S2x2048 .f32).view.read (Elt F) (stats m (pr (pr c 4) 4))) Finset.univ)) = _
  rw [show pr (pr c 4) 4 = c from by rw [pr_pr]; exact pr_eight c]
theorem payload_rcvTo4 (c : Dev nD) (d : Fin 7) : (softRd (F := F) m).payload (((pr c 5 : Dev nD) : Thread nD τ), SemLoc.dma rcv4) 0 d
    = iprop(∃ fd : Buf (Elt F) ((((pr c 5 : Dev nD) : Thread nD τ)).loc cc0_scratch1), (slot4 : Memref sig .tc .vmem S2x2048 .f32).view.loc ((pr c 5 : Dev nD) : Thread nD τ) ↦[(slot4 : Memref sig .tc .vmem S2x2048 .f32).view.set]{fullShare}
      ((slot4 : Memref sig .tc .vmem S2x2048 .f32).view.write (Elt F) fd ((sM : Memref sig .tc .vmem S2x2048 .f32).view.read (Elt F) (stats m c)) Finset.univ)) := by
  refine (payload_recv m (pr c 5) 4 d).trans ?_
  show iprop(∃ fd : Buf (Elt F) ((((pr c 5 : Dev nD) : Thread nD τ)).loc cc0_scratch1), (slot4 : Memref sig .tc .vmem S2x2048 .f32).view.loc ((pr c 5 : Dev nD) : Thread nD τ) ↦[(slot4 : Memref sig .tc .vmem S2x2048 .f32).view.set]{fullShare}
      ((slot4 : Memref sig .tc .vmem S2x2048 .f32).view.write (Elt F) fd ((sM : Memref sig .tc .vmem S2x2048 .f32).view.read (Elt F) (stats m (pr (pr c 5) 3))) Finset.univ)) = _
  rw [show pr (pr c 5) 3 = c from by rw [pr_pr]; exact pr_eight c]
theorem payload_rcvTo5 (c : Dev nD) (d : Fin 7) : (softRd (F := F) m).payload (((pr c 6 : Dev nD) : Thread nD τ), SemLoc.dma rcv5) 0 d
    = iprop(∃ fd : Buf (Elt F) ((((pr c 6 : Dev nD) : Thread nD τ)).loc cc0_scratch1), (slot5 : Memref sig .tc .vmem S2x2048 .f32).view.loc ((pr c 6 : Dev nD) : Thread nD τ) ↦[(slot5 : Memref sig .tc .vmem S2x2048 .f32).view.set]{fullShare}
      ((slot5 : Memref sig .tc .vmem S2x2048 .f32).view.write (Elt F) fd ((sM : Memref sig .tc .vmem S2x2048 .f32).view.read (Elt F) (stats m c)) Finset.univ)) := by
  refine (payload_recv m (pr c 6) 5 d).trans ?_
  show iprop(∃ fd : Buf (Elt F) ((((pr c 6 : Dev nD) : Thread nD τ)).loc cc0_scratch1), (slot5 : Memref sig .tc .vmem S2x2048 .f32).view.loc ((pr c 6 : Dev nD) : Thread nD τ) ↦[(slot5 : Memref sig .tc .vmem S2x2048 .f32).view.set]{fullShare}
      ((slot5 : Memref sig .tc .vmem S2x2048 .f32).view.write (Elt F) fd ((sM : Memref sig .tc .vmem S2x2048 .f32).view.read (Elt F) (stats m (pr (pr c 6) 2))) Finset.univ)) = _
  rw [show pr (pr c 6) 2 = c from by rw [pr_pr]; exact pr_eight c]
theorem payload_rcvTo6 (c : Dev nD) (d : Fin 7) : (softRd (F := F) m).payload (((pr c 7 : Dev nD) : Thread nD τ), SemLoc.dma rcv6) 0 d
    = iprop(∃ fd : Buf (Elt F) ((((pr c 7 : Dev nD) : Thread nD τ)).loc cc0_scratch1), (slot6 : Memref sig .tc .vmem S2x2048 .f32).view.loc ((pr c 7 : Dev nD) : Thread nD τ) ↦[(slot6 : Memref sig .tc .vmem S2x2048 .f32).view.set]{fullShare}
      ((slot6 : Memref sig .tc .vmem S2x2048 .f32).view.write (Elt F) fd ((sM : Memref sig .tc .vmem S2x2048 .f32).view.read (Elt F) (stats m c)) Finset.univ)) := by
  refine (payload_recv m (pr c 7) 6 d).trans ?_
  show iprop(∃ fd : Buf (Elt F) ((((pr c 7 : Dev nD) : Thread nD τ)).loc cc0_scratch1), (slot6 : Memref sig .tc .vmem S2x2048 .f32).view.loc ((pr c 7 : Dev nD) : Thread nD τ) ↦[(slot6 : Memref sig .tc .vmem S2x2048 .f32).view.set]{fullShare}
      ((slot6 : Memref sig .tc .vmem S2x2048 .f32).view.write (Elt F) fd ((sM : Memref sig .tc .vmem S2x2048 .f32).view.read (Elt F) (stats m (pr (pr c 7) 1))) Finset.univ)) = _
  rw [show pr (pr c 7) 1 = c from by rw [pr_pr]; exact pr_eight c]

attribute [local sl_rounds] duties_bar' amount_bar' expect_bar' duties_snd0 duties_rcv0 amount_snd0 amount_rcv0 expect_snd0 expect_rcv0 payload_snd0 payload_rcvTo0 duties_snd1 duties_rcv1 amount_snd1 amount_rcv1 expect_snd1 expect_rcv1 payload_snd1 payload_rcvTo1 duties_snd2 duties_rcv2 amount_snd2 amount_rcv2 expect_snd2 expect_rcv2 payload_snd2 payload_rcvTo2 duties_snd3 duties_rcv3 amount_snd3 amount_rcv3 expect_snd3 expect_rcv3 payload_snd3 payload_rcvTo3 duties_snd4 duties_rcv4 amount_snd4 amount_rcv4 expect_snd4 expect_rcv4 payload_snd4 payload_rcvTo4 duties_snd5 duties_rcv5 amount_snd5 amount_rcv5 expect_snd5 expect_rcv5 payload_snd5 payload_rcvTo5 duties_snd6 duties_rcv6 amount_snd6 amount_rcv6 expect_snd6 expect_rcv6 payload_snd6 payload_rcvTo6 payload_sig1 payload_sig2 payload_sig3 payload_sig4 payload_sig5 payload_sig6 payload_sig7
attribute [local sl_canon] dev1_eq dev2_eq dev3_eq dev4_eq dev5_eq dev6_eq dev7_eq dev8_eq dev9_eq dev10_eq dev11_eq dev12_eq dev13_eq dev14_eq

/-! ## The body -/

omit [FloatOps F] in
theorem tallyAt_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h

omit [FloatOps F] in
/-- At its barrier wait a device owes only its seven copies' credits: receive cells, above its barrier cell. -/
theorem mayWait_bar (c : Dev nD) :
    (levAts L lv : sProp 𝕄) ⊢ MayWait (c : Thread nD τ) (.reg barS) ()
      (tallyAt (((pr c 1 : Dev nD) : Thread nD τ), SemLoc.dma rcv0) () N + tallyAt (((pr c 2 : Dev nD) : Thread nD τ), SemLoc.dma rcv1) () N + tallyAt (((pr c 3 : Dev nD) : Thread nD τ), SemLoc.dma rcv2) () N + tallyAt (((pr c 4 : Dev nD) : Thread nD τ), SemLoc.dma rcv3) () N + tallyAt (((pr c 5 : Dev nD) : Thread nD τ), SemLoc.dma rcv4) () N + tallyAt (((pr c 6 : Dev nD) : Thread nD τ), SemLoc.dma rcv5) () N + tallyAt (((pr c 7 : Dev nD) : Thread nD τ), SemLoc.dma rcv6) () N) :=
  Pipeline.mayWait_of_levAts (by rw [L_tc]; exact Finset.mem_singleton_self _) (fun g i hg => by
    repeat' (rcases Pipeline.add_pos_cases hg with hg | hg)
    all_goals (obtain ⟨rfl, rfl⟩ := Pipeline.tallyAt_pos hg; exact ⟨by rw [L_tc]; exact Finset.mem_singleton_self _, by show (1 : ℕ) < 2; decide⟩))

omit [FloatOps F] in
theorem hz2 : (![0, 0] : Fin 2 → Nat) = fun _ => 0 := funext fun a => by fin_cases a <;> rfl

abbrev rX : Rect S2048x1024 := Rect.unit (s := S2048x1024) ![0, 0] S2048x1024.size inb_S2048x1024_S2048x1024_0_0
abbrev rS : Rect S2x2048 := Rect.unit (s := S2x2048) ![0, 0] S2x2048.size inb_S2x2048_S2x2048_0_0

omit [FloatOps F] in
/-- A load of the whole block reads the buffer's contents. -/
theorem read_x (f : (cc0_stg0_0 : Ref sig .tc).ty.Contents (Elt F)) :
    (Memref.whole cc0_stg0_0 : Memref sig .tc .vmem S2048x1024 .f32).view.readAt (Elt F) rX.toLoadRect f = f :=
  Memref.readAt_unit_zero (Elt F) cc0_stg0_0 hz2 _ f
omit [FloatOps F] in
theorem read_o (f : (cc0_stg1_0 : Ref sig .tc).ty.Contents (Elt F)) :
    (Memref.whole cc0_stg1_0 : Memref sig .tc .vmem S2048x1024 .f32).view.readAt (Elt F) rX.toLoadRect f = f :=
  Memref.readAt_unit_zero (Elt F) cc0_stg1_0 hz2 _ f
omit [FloatOps F] in
/-- One store of a whole buffer leaves the stored value, whatever it held. -/
theorem out_written (f w : (cc0_stg1_0 : Ref sig .tc).ty.Contents (Elt F)) :
    (Memref.whole cc0_stg1_0 : Memref sig .tc .vmem S2048x1024 .f32).view.writes (Elt F) f [⟨rX, w⟩] = w := by
  rw [View.writes_singleton]; exact Memref.write_access_unit_zero_univ (Elt F) cc0_stg1_0 hz2 _ f w
omit [FloatOps F] in
theorem stats_written (f w : (cc0_scratch0 : Ref sig .tc).ty.Contents (Elt F)) :
    (Memref.whole cc0_scratch0 : Memref sig .tc .vmem S2x2048 .f32).view.writes (Elt F) f [⟨rS, w⟩] = w := by
  rw [View.writes_singleton]; exact Memref.write_access_unit_zero_univ (Elt F) cc0_scratch0 hz2 _ f w

omit [FloatOps F] in
theorem barPay_0 (c : Dev nD) : barPay (F := F) c (0 : Fin 7)
    = iprop((∃ f, ((slot0 : Memref sig .tc .vmem S2x2048 .f32).view.loc ((pr c 1 : Dev nD) : Thread nD τ) ↦[(slot0 : Memref sig .tc .vmem S2x2048 .f32).view.set]{fullShare} f)) ∗ reached ER (((pr c 1 : Dev nD) : Thread nD τ), SemLoc.dma rcv0) 0) := rfl
omit [FloatOps F] in
theorem barPay_1 (c : Dev nD) : barPay (F := F) c (1 : Fin 7)
    = iprop((∃ f, ((slot1 : Memref sig .tc .vmem S2x2048 .f32).view.loc ((pr c 2 : Dev nD) : Thread nD τ) ↦[(slot1 : Memref sig .tc .vmem S2x2048 .f32).view.set]{fullShare} f)) ∗ reached ER (((pr c 2 : Dev nD) : Thread nD τ), SemLoc.dma rcv1) 0) := rfl
omit [FloatOps F] in
theorem barPay_2 (c : Dev nD) : barPay (F := F) c (2 : Fin 7)
    = iprop((∃ f, ((slot2 : Memref sig .tc .vmem S2x2048 .f32).view.loc ((pr c 3 : Dev nD) : Thread nD τ) ↦[(slot2 : Memref sig .tc .vmem S2x2048 .f32).view.set]{fullShare} f)) ∗ reached ER (((pr c 3 : Dev nD) : Thread nD τ), SemLoc.dma rcv2) 0) := rfl
omit [FloatOps F] in
theorem barPay_3 (c : Dev nD) : barPay (F := F) c (3 : Fin 7)
    = iprop((∃ f, ((slot3 : Memref sig .tc .vmem S2x2048 .f32).view.loc ((pr c 4 : Dev nD) : Thread nD τ) ↦[(slot3 : Memref sig .tc .vmem S2x2048 .f32).view.set]{fullShare} f)) ∗ reached ER (((pr c 4 : Dev nD) : Thread nD τ), SemLoc.dma rcv3) 0) := rfl
omit [FloatOps F] in
theorem barPay_4 (c : Dev nD) : barPay (F := F) c (4 : Fin 7)
    = iprop((∃ f, ((slot4 : Memref sig .tc .vmem S2x2048 .f32).view.loc ((pr c 5 : Dev nD) : Thread nD τ) ↦[(slot4 : Memref sig .tc .vmem S2x2048 .f32).view.set]{fullShare} f)) ∗ reached ER (((pr c 5 : Dev nD) : Thread nD τ), SemLoc.dma rcv4) 0) := rfl
omit [FloatOps F] in
theorem barPay_5 (c : Dev nD) : barPay (F := F) c (5 : Fin 7)
    = iprop((∃ f, ((slot5 : Memref sig .tc .vmem S2x2048 .f32).view.loc ((pr c 6 : Dev nD) : Thread nD τ) ↦[(slot5 : Memref sig .tc .vmem S2x2048 .f32).view.set]{fullShare} f)) ∗ reached ER (((pr c 6 : Dev nD) : Thread nD τ), SemLoc.dma rcv5) 0) := rfl
omit [FloatOps F] in
theorem barPay_6 (c : Dev nD) : barPay (F := F) c (6 : Fin 7)
    = iprop((∃ f, ((slot6 : Memref sig .tc .vmem S2x2048 .f32).view.loc ((pr c 7 : Dev nD) : Thread nD τ) ↦[(slot6 : Memref sig .tc .vmem S2x2048 .f32).view.set]{fullShare} f)) ∗ reached ER (((pr c 7 : Dev nD) : Thread nD τ), SemLoc.dma rcv6) 0) := rfl

section Body

variable (K : Dev nD × Fin 15 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds c ∗ levAts L lv ∗ (∃ f, statsWhole c f) ∗ (∃ f, commWhole c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xblk m c) ∗ stg c cc0_stg1_0 (outAt m c))

omit [FloatOps F] in
/-- A whole buffer's points-to, spelt through the whole memref's view. -/
theorem wholePts_eq (c : Dev nD) (b : Ref sig .tc) (f : Buf (Elt F) ((c : Thread nD τ).loc b)) :
    ((Memref.whole b : Memref sig .tc b.space b.ty.shape b.ty.elt).view.loc (c : Thread nD τ) ↦[(Memref.whole b : Memref sig .tc b.space b.ty.shape b.ty.elt).view.set]{fullShare} f : sProp 𝕄)
      = (((c : Thread nD τ).loc b) ↦{fullShare} f : sProp 𝕄) := by
  rw [View.set_whole]

/-- Owing nothing, under any waits, is what the point leaves owed. -/
theorem owesAt_last (c : Dev nD) (W' : Waits sig Unit) :
    (owes (c : Thread nD τ) 0 W' : sProp 𝕄) ⊢ (dats m ρ 0 c).owesAt () t₀.succ := by
  unfold Dat.owesAt Pipeline.owesWithin
  rw [show (dats m ρ 0 c).owed t₀.succ = 0 from rfl]
  iintro HO
  iexists W'
  isplitr; · ipureintro; exact fun _ _ => Or.inl trivial
  iexact HO

theorem fetch_0 (t : Fin cfg0.N) : (cfg0.win (0 : Fin 2)).fetch t = true := by rw [fin_N t]; rfl

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs positions reacheds payToks creds
  iintro ⟨⟨⟨⟨⟨#HIb, #HIs0, #HIs1, #HIs2, #HIs3, #HIs4, #HIs5, #HIs6, #HIr0, #HIr1, #HIr2, #HIr3, #HIr4, #HIr5, #HIr6, #HIpb1, #HIpb2, #HIpb3, #HIpb4, #HIpb5, #HIpb6, #HIpb7, #HIpr0, #HIpr1, #HIpr2, #HIpr3, #HIpr4, #HIpr5, #HIpr6⟩, ⟨Hab, Has0, Has1, Has2, Has3, Has4, Has5, Has6, Har0, Har1, Har2, Har3, Har4, Har5, Har6⟩, ⟨#Hrpb1, #Hrpb2, #Hrpb3, #Hrpb4, #Hrpb5, #Hrpb6, #Hrpb7, #Hrpr0, #Hrpr1, #Hrpr2, #Hrpr3, #Hrpr4, #Hrpr5, #Hrpr6, #Hrs0, #Hrs1, #Hrs2, #Hrs3, #Hrs4, #Hrs5, #Hrs6, #Hrr0, #Hrr1, #Hrr2, #Hrr3, #Hrr4, #Hrr5, #Hrr6⟩, ⟨Htb1, Htb2, Htb3, Htb4, Htb5, Htb6, Htb7, Htr0, Htr1, Htr2, Htr3, Htr4, Htr5, Htr6, Hts0, Hts1, Hts2, Hts3, Hts4, Hts5, Hts6⟩⟩, ⟨Hcb, Hcr0, Hcr1, Hcr2, Hcr3, Hcr4, Hcr5, Hcr6⟩, #Hlev, ⟨%fs0, Hst⟩, ⟨%fc0, Hcm⟩⟩, Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ owedCopies statsWhole
  ihave Hsl := (comm_split c fc0) $$ Hcm
  icases Hsl with ⟨Hsl6, Hsl5, Hsl4, Hsl3, Hsl2, Hsl1, Hsl0⟩
  ihave Hx' := (Entails.of_eq (wholePts_eq c cc0_stg0_0 (xblk m c)).symm) $$ Hx
  ihave Hout' := (Entails.of_eq (wholePts_eq c cc0_stg1_0 g1).symm) $$ Hout
  ihave Hst' := (Entails.of_eq (wholePts_eq c cc0_scratch0 fs0).symm) $$ Hst
  have hmw := mayWait_bar (F := F) c
  sl_unfold [cc0_body]
  sl_exec
  -- the statistics are stored; the barrier's seven units are in: the peers' landing slots come with them
  rw [stats_written, out_written, read_x, show k0_pay5 (xblk m c) = stats m c from rfl, show k0_pay4 (xblk m c) = eblk m c from rfl]
  ihave Hst := (Entails.of_eq (show _ = statsWhole (F := F) c (stats m c) from wholePts_eq c cc0_scratch0 (stats m c))) $$ Hst'
  ihave Hq := (stats_split c (stats m c)) $$ Hst
  icases Hq with ⟨Hq0, Hq1, Hq2, Hq3, Hq4, Hq5, Hq6⟩
  rw [payload_bar m c (0 : Fin 7), payload_bar m c (1 : Fin 7), payload_bar m c (2 : Fin 7), payload_bar m c (3 : Fin 7), payload_bar m c (4 : Fin 7), payload_bar m c (5 : Fin 7), payload_bar m c (6 : Fin 7)]
  ihave Hc := (Entails.of_eq (show _ = (iprop(barPay c (0 : Fin 7) ∗ barPay c (1 : Fin 7) ∗ barPay c (2 : Fin 7) ∗ barPay c (3 : Fin 7) ∗ barPay c (4 : Fin 7) ∗ barPay c (5 : Fin 7) ∗ barPay c (6 : Fin 7)) : sProp 𝕄) from rfl)) $$ Hab_pay1
  rw [barPay_0 c, barPay_1 c, barPay_2 c, barPay_3 c, barPay_4 c, barPay_5 c, barPay_6 c]
  icases Hc with ⟨⟨⟨%fp0, Hp0⟩, #Hpr0⟩, ⟨⟨%fp1, Hp1⟩, #Hpr1⟩, ⟨⟨%fp2, Hp2⟩, #Hpr2⟩, ⟨⟨%fp3, Hp3⟩, #Hpr3⟩, ⟨⟨%fp4, Hp4⟩, #Hpr4⟩, ⟨⟨%fp5, Hp5⟩, #Hpr5⟩, ⟨⟨%fp6, Hp6⟩, #Hpr6⟩⟩
  sl_exec (disch := simp only [dev8_eq, dev9_eq, dev10_eq, dev11_eq, dev12_eq, dev13_eq, dev14_eq])
  -- the seven landed slots, restated at the landing buffer's final contents, are the whole buffer again
  ihave Hl0 := (show ((softRd m).payload (((c : Dev nD) : Thread nD τ), SemLoc.dma rcv0) 0 (0 : Fin 7) : sProp 𝕄) ⊢ ((slot0 : Memref sig .tc .vmem S2x2048 .f32).view.loc ((c : Dev nD) : Thread nD τ) ↦[(slot0 : Memref sig .tc .vmem S2x2048 .f32).view.set]{fullShare} commAll m c)
    from (Entails.of_eq (payload_recv m c 0 0)).trans (landed m c 0)) $$ Har0_pay1
  ihave Hl1 := (show ((softRd m).payload (((c : Dev nD) : Thread nD τ), SemLoc.dma rcv1) 0 (0 : Fin 7) : sProp 𝕄) ⊢ ((slot1 : Memref sig .tc .vmem S2x2048 .f32).view.loc ((c : Dev nD) : Thread nD τ) ↦[(slot1 : Memref sig .tc .vmem S2x2048 .f32).view.set]{fullShare} commAll m c)
    from (Entails.of_eq (payload_recv m c 1 0)).trans (landed m c 1)) $$ Har1_pay1
  ihave Hl2 := (show ((softRd m).payload (((c : Dev nD) : Thread nD τ), SemLoc.dma rcv2) 0 (0 : Fin 7) : sProp 𝕄) ⊢ ((slot2 : Memref sig .tc .vmem S2x2048 .f32).view.loc ((c : Dev nD) : Thread nD τ) ↦[(slot2 : Memref sig .tc .vmem S2x2048 .f32).view.set]{fullShare} commAll m c)
    from (Entails.of_eq (payload_recv m c 2 0)).trans (landed m c 2)) $$ Har2_pay1
  ihave Hl3 := (show ((softRd m).payload (((c : Dev nD) : Thread nD τ), SemLoc.dma rcv3) 0 (0 : Fin 7) : sProp 𝕄) ⊢ ((slot3 : Memref sig .tc .vmem S2x2048 .f32).view.loc ((c : Dev nD) : Thread nD τ) ↦[(slot3 : Memref sig .tc .vmem S2x2048 .f32).view.set]{fullShare} commAll m c)
    from (Entails.of_eq (payload_recv m c 3 0)).trans (landed m c 3)) $$ Har3_pay1
  ihave Hl4 := (show ((softRd m).payload (((c : Dev nD) : Thread nD τ), SemLoc.dma rcv4) 0 (0 : Fin 7) : sProp 𝕄) ⊢ ((slot4 : Memref sig .tc .vmem S2x2048 .f32).view.loc ((c : Dev nD) : Thread nD τ) ↦[(slot4 : Memref sig .tc .vmem S2x2048 .f32).view.set]{fullShare} commAll m c)
    from (Entails.of_eq (payload_recv m c 4 0)).trans (landed m c 4)) $$ Har4_pay1
  ihave Hl5 := (show ((softRd m).payload (((c : Dev nD) : Thread nD τ), SemLoc.dma rcv5) 0 (0 : Fin 7) : sProp 𝕄) ⊢ ((slot5 : Memref sig .tc .vmem S2x2048 .f32).view.loc ((c : Dev nD) : Thread nD τ) ↦[(slot5 : Memref sig .tc .vmem S2x2048 .f32).view.set]{fullShare} commAll m c)
    from (Entails.of_eq (payload_recv m c 5 0)).trans (landed m c 5)) $$ Har5_pay1
  ihave Hl6 := (show ((softRd m).payload (((c : Dev nD) : Thread nD τ), SemLoc.dma rcv6) 0 (0 : Fin 7) : sProp 𝕄) ⊢ ((slot6 : Memref sig .tc .vmem S2x2048 .f32).view.loc ((c : Dev nD) : Thread nD τ) ↦[(slot6 : Memref sig .tc .vmem S2x2048 .f32).view.set]{fullShare} commAll m c)
    from (Entails.of_eq (payload_recv m c 6 0)).trans (landed m c 6)) $$ Har6_pay1
  ihave Hcm := (comm_join c (commAll m c)) $$ [Hl0 Hl1 Hl2 Hl3 Hl4 Hl5 Hl6]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    iexact Hl6
  ihave Hcm' := (Entails.of_eq (show (commWhole c (commAll m c) : sProp 𝕄) = _ from (wholePts_eq c cc0_scratch1 (commAll m c)).symm)) $$ Hcm
  -- and the seven shares of the statistics buffer the full share
  ihave Hst2 := (stats_join c (stats m c)) $$ [Has0_pay1 Has1_pay1 Has2_pay1 Has3_pay1 Has4_pay1 Has5_pay1 Has6_pay1]
  · isplitl [Has0_pay1]; · iexact Has0_pay1
    isplitl [Has1_pay1]; · iexact Has1_pay1
    isplitl [Has2_pay1]; · iexact Has2_pay1
    isplitl [Has3_pay1]; · iexact Has3_pay1
    isplitl [Has4_pay1]; · iexact Has4_pay1
    isplitl [Has5_pay1]; · iexact Has5_pay1
    iexact Has6_pay1
  sl_exec
  -- the fourteen own cells, past their one round, close: their counters at zero are the core's again
  imod (Rounds.cell_close ER (softRd m) (Set.mem_univ (K (c, 1))) (fun h => h) (R := 1) (duties_later m (((c : Dev nD) : Thread nD τ), SemLoc.dma snd0))) $$ [Has0] with Hzs0
  · isplitr; · iexact HIs0
    iexact Has0
  imod (Rounds.cell_close ER (softRd m) (Set.mem_univ (K (c, 2))) (fun h => h) (R := 1) (duties_later m (((c : Dev nD) : Thread nD τ), SemLoc.dma snd1))) $$ [Has1] with Hzs1
  · isplitr; · iexact HIs1
    iexact Has1
  imod (Rounds.cell_close ER (softRd m) (Set.mem_univ (K (c, 3))) (fun h => h) (R := 1) (duties_later m (((c : Dev nD) : Thread nD τ), SemLoc.dma snd2))) $$ [Has2] with Hzs2
  · isplitr; · iexact HIs2
    iexact Has2
  imod (Rounds.cell_close ER (softRd m) (Set.mem_univ (K (c, 4))) (fun h => h) (R := 1) (duties_later m (((c : Dev nD) : Thread nD τ), SemLoc.dma snd3))) $$ [Has3] with Hzs3
  · isplitr; · iexact HIs3
    iexact Has3
  imod (Rounds.cell_close ER (softRd m) (Set.mem_univ (K (c, 5))) (fun h => h) (R := 1) (duties_later m (((c : Dev nD) : Thread nD τ), SemLoc.dma snd4))) $$ [Has4] with Hzs4
  · isplitr; · iexact HIs4
    iexact Has4
  imod (Rounds.cell_close ER (softRd m) (Set.mem_univ (K (c, 6))) (fun h => h) (R := 1) (duties_later m (((c : Dev nD) : Thread nD τ), SemLoc.dma snd5))) $$ [Has5] with Hzs5
  · isplitr; · iexact HIs5
    iexact Has5
  imod (Rounds.cell_close ER (softRd m) (Set.mem_univ (K (c, 7))) (fun h => h) (R := 1) (duties_later m (((c : Dev nD) : Thread nD τ), SemLoc.dma snd6))) $$ [Has6] with Hzs6
  · isplitr; · iexact HIs6
    iexact Has6
  imod (Rounds.cell_close ER (softRd m) (Set.mem_univ (K (c, 8))) (fun h => h) (R := 1) (duties_later m (((c : Dev nD) : Thread nD τ), SemLoc.dma rcv0))) $$ [Har0] with Hzr0
  · isplitr; · iexact HIr0
    iexact Har0
  imod (Rounds.cell_close ER (softRd m) (Set.mem_univ (K (c, 9))) (fun h => h) (R := 1) (duties_later m (((c : Dev nD) : Thread nD τ), SemLoc.dma rcv1))) $$ [Har1] with Hzr1
  · isplitr; · iexact HIr1
    iexact Har1
  imod (Rounds.cell_close ER (softRd m) (Set.mem_univ (K (c, 10))) (fun h => h) (R := 1) (duties_later m (((c : Dev nD) : Thread nD τ), SemLoc.dma rcv2))) $$ [Har2] with Hzr2
  · isplitr; · iexact HIr2
    iexact Har2
  imod (Rounds.cell_close ER (softRd m) (Set.mem_univ (K (c, 11))) (fun h => h) (R := 1) (duties_later m (((c : Dev nD) : Thread nD τ), SemLoc.dma rcv3))) $$ [Har3] with Hzr3
  · isplitr; · iexact HIr3
    iexact Har3
  imod (Rounds.cell_close ER (softRd m) (Set.mem_univ (K (c, 12))) (fun h => h) (R := 1) (duties_later m (((c : Dev nD) : Thread nD τ), SemLoc.dma rcv4))) $$ [Har4] with Hzr4
  · isplitr; · iexact HIr4
    iexact Har4
  imod (Rounds.cell_close ER (softRd m) (Set.mem_univ (K (c, 13))) (fun h => h) (R := 1) (duties_later m (((c : Dev nD) : Thread nD τ), SemLoc.dma rcv5))) $$ [Har5] with Hzr5
  · isplitr; · iexact HIr5
    iexact Har5
  imod (Rounds.cell_close ER (softRd m) (Set.mem_univ (K (c, 14))) (fun h => h) (R := 1) (duties_later m (((c : Dev nD) : Thread nD τ), SemLoc.dma rcv6))) $$ [Har6] with Hzr6
  · isplitr; · iexact HIr6
    iexact Har6
  rw [out_written, read_o, wp_ret]; imodintro
  iapply Hk
  unfold bodyPost Φ₁
  ihave Hcm2 := (Entails.of_eq (show _ = (commWhole c (commAll m c) : sProp 𝕄) from wholePts_eq c cc0_scratch1 (commAll m c))) $$ Hcm'
  ihave Hx2 := (Entails.of_eq (wholePts_eq c cc0_stg0_0 (xblk m c))) $$ Hx'
  ihave Hout2 := (Entails.of_eq (wholePts_eq c cc0_stg1_0 _)) $$ Hout'
  isplitl [Hst2 Hcm2 Hzs0 Hzs1 Hzs2 Hzs3 Hzs4 Hzs5 Hzs6 Hzr0 Hzr1 Hzr2 Hzr3 Hzr4 Hzr5 Hzr6]
  · isplitl [Hst2]; · iexists _; iexact Hst2
    isplitl [Hcm2]; · iexists _; iexact Hcm2
    isplitl [Hzs0]; · iexact Hzs0
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    iexact Hzr6
  isplitl [HO]
  · iapply (owesAt_last m ρ c _); iexact HO
  isplitl [Hx2]
  · iexists _; isplitr; · (ipureintro; rfl)
    iexact Hx2
  iexists _; isplitr; · (ipureintro; rfl)
  iexact Hout2

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the launch hands the body at the one point: the invariant and each window's staging buffer. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hst, Hcm⟩, Ho, Hx, Hout⟩
  iapply (sound_body m ρ K c fun _ => bodyPost m ρ c)
  unfold bodyPre
  isplitr []
  · isplitl [Hg Hcr Hlev Hst Hcm]
    · isplitl [Hg]; · iexact Hg
      isplitl [Hcr]; · iexact Hcr
      isplitl [Hlev]; · iexact Hlev
      isplitl [Hst]; · iexact Hst
      iexact Hcm
    isplitl [Ho]; · iexact Ho
    isplitl [Hx] <;> iassumption
  · iintro H; iexact H

end Body

end Cert.Kernel.Hand

end
-- ==== Proof.KernelHand.Launch.lean ====
/-
# The launch: from every device's body to the run of the whole program

All eight devices' bodies, each proved against what the launch deals it, give the run of @main on the mesh: it
terminates on every fair schedule, nothing faults, every device's argument array ends unchanged and its result array
ends at outAt.
-/
import proofs.«900602_g7700000000000603_dist_softmax_colshard_i_m2048_n1024_v7x_i8_f32_1_alg».proof.Proof.KernelHand.Body

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts; the protocol's cells and the duty tokens as minted -/

theorem ownSemFacts : Pipeline.OwnSemFacts cfg0.spec osem := by decide

theorem share_eq (c : Dev nD) (w : Fin cfg0.W) : (dats m ρ 0 c).share w = fullShare := by unfold Dat.share; split <;> rfl

omit [FloatOps F] in
theorem csem_injective : Function.Injective (csem : Fin 15 → SemLoc sig) := by decide

omit [FloatOps F] in
theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- All 120 cells of the protocol. -/
def allCells : Finset (GSem nD τ sig) := Finset.univ.map ⟨kcell, kcell_injective⟩

/-- A device's own cells' duty tokens as minted, 21 of them: the barrier cell's duties 0 .. 6, then the one duty of each
    send cell, then of each receive cell. -/
abbrev tcell : Fin 21 → Fin 15 := fun | 0 => 0 | 1 => 0 | 2 => 0 | 3 => 0 | 4 => 0 | 5 => 0 | 6 => 0 | 7 => 1 | 8 => 2 | 9 => 3 | 10 => 4 | 11 => 5 | 12 => 6 | 13 => 7 | 14 => 8 | 15 => 9 | 16 => 10 | 17 => 11 | 18 => 12 | 19 => 13 | _ => 14
abbrev tduty : Fin 21 → Fin 7 := fun | 0 => 0 | 1 => 1 | 2 => 2 | 3 => 3 | 4 => 4 | 5 => 5 | 6 => 6 | _ => 0
abbrev tokOf (cj : Dev nD × Fin 21) : GSem nD τ sig × ℕ × Fin 7 := (kcell (cj.1, tcell cj.2), 0, tduty cj.2)

omit [FloatOps F] in
theorem tcell_tduty_injective : Function.Injective (fun j : Fin 21 => (tcell j, tduty j)) := by decide

omit [FloatOps F] in
theorem tokOf_injective : Function.Injective (tokOf : Dev nD × Fin 21 → GSem nD τ sig × ℕ × Fin 7) := by
  rintro ⟨c, j⟩ ⟨c', j'⟩ h
  have hk : ((c, tcell j) : Dev nD × Fin 15) = (c', tcell j') := kcell_injective (congrArg (fun x : GSem nD τ sig × ℕ × Fin 7 => x.1) h)
  have hd : tduty j = tduty j' := congrArg (fun x : GSem nD τ sig × ℕ × Fin 7 => x.2.2) h
  have hc : c = c' := congrArg Prod.fst hk
  have ht : tcell j = tcell j' := congrArg Prod.snd hk
  subst hc
  have hj : j = j' := tcell_tduty_injective (Prod.ext ht hd)
  rw [hj]
def allToks : Finset (GSem nD τ sig × ℕ × Fin 7) := Finset.univ.map ⟨tokOf, tokOf_injective⟩

/-- The launch element: the pipeline library's cells and tokens, and the protocol's. -/
def u₀ : UU :=
  (initOf (Pipeline.cells cfgs cellOf_inj) (Pipeline.launchToks cfgs cellOf_inj), initOf allCells allToks)

/-- The duty tokens of device c's own cells. -/
def toks (c : Dev nD) : sProp 𝕄 :=
  iprop(dutyTok ER (((c : Dev nD) : Thread nD τ), SemLoc.reg barS) 0 (0 : Fin 7)
    ∗ dutyTok ER (((c : Dev nD) : Thread nD τ), SemLoc.reg barS) 0 (1 : Fin 7)
    ∗ dutyTok ER (((c : Dev nD) : Thread nD τ), SemLoc.reg barS) 0 (2 : Fin 7)
    ∗ dutyTok ER (((c : Dev nD) : Thread nD τ), SemLoc.reg barS) 0 (3 : Fin 7)
    ∗ dutyTok ER (((c : Dev nD) : Thread nD τ), SemLoc.reg barS) 0 (4 : Fin 7)
    ∗ dutyTok ER (((c : Dev nD) : Thread nD τ), SemLoc.reg barS) 0 (5 : Fin 7)
    ∗ dutyTok ER (((c : Dev nD) : Thread nD τ), SemLoc.reg barS) 0 (6 : Fin 7)
    ∗ dutyTok ER (((c : Dev nD) : Thread nD τ), SemLoc.dma snd0) 0 (0 : Fin 7)
    ∗ dutyTok ER (((c : Dev nD) : Thread nD τ), SemLoc.dma snd1) 0 (0 : Fin 7)
    ∗ dutyTok ER (((c : Dev nD) : Thread nD τ), SemLoc.dma snd2) 0 (0 : Fin 7)
    ∗ dutyTok ER (((c : Dev nD) : Thread nD τ), SemLoc.dma snd3) 0 (0 : Fin 7)
    ∗ dutyTok ER (((c : Dev nD) : Thread nD τ), SemLoc.dma snd4) 0 (0 : Fin 7)
    ∗ dutyTok ER (((c : Dev nD) : Thread nD τ), SemLoc.dma snd5) 0 (0 : Fin 7)
    ∗ dutyTok ER (((c : Dev nD) : Thread nD τ), SemLoc.dma snd6) 0 (0 : Fin 7)
    ∗ dutyTok ER (((c : Dev nD) : Thread nD τ), SemLoc.dma rcv0) 0 (0 : Fin 7)
    ∗ dutyTok ER (((c : Dev nD) : Thread nD τ), SemLoc.dma rcv1) 0 (0 : Fin 7)
    ∗ dutyTok ER (((c : Dev nD) : Thread nD τ), SemLoc.dma rcv2) 0 (0 : Fin 7)
    ∗ dutyTok ER (((c : Dev nD) : Thread nD τ), SemLoc.dma rcv3) 0 (0 : Fin 7)
    ∗ dutyTok ER (((c : Dev nD) : Thread nD τ), SemLoc.dma rcv4) 0 (0 : Fin 7)
    ∗ dutyTok ER (((c : Dev nD) : Thread nD τ), SemLoc.dma rcv5) 0 (0 : Fin 7)
    ∗ dutyTok ER (((c : Dev nD) : Thread nD τ), SemLoc.dma rcv6) 0 (0 : Fin 7))

/-- What the launch element deals device c. -/
def G (c : Dev nD) : sProp 𝕄 :=
  iprop((bigSep Finset.univ fun k : Fin 15 => roundState ER (softRd m) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin21]; rfl
  iintro HX
  imod (Rounds.fund ER (softRd m) allCells allToks) $$ HX with ⟨Hst, Hr, Hat, Htok⟩
  imodintro
  ihave Hst' := (Entails.of_eq (hX fun g => roundState ER (softRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to the devices that pay them -/

omit [FloatOps F] in
/-- The seven send and seven receive semaphores are the kernel's own fourteen; -/
theorem ownSems0_eq (c : Dev nD) : (Pipeline.ownSems0 (Ix := Unit) (Name := ℕ) (U := UU) (Lvl := ℕ) (Val := Elt F) (τ := τ) osem c : sProp 𝕄)
    = iprop(semVal (((c : Dev nD) : Thread nD τ), SemLoc.dma snd0) 0
    ∗ semVal (((c : Dev nD) : Thread nD τ), SemLoc.dma snd1) 0
    ∗ semVal (((c : Dev nD) : Thread nD τ), SemLoc.dma snd2) 0
    ∗ semVal (((c : Dev nD) : Thread nD τ), SemLoc.dma snd3) 0
    ∗ semVal (((c : Dev nD) : Thread nD τ), SemLoc.dma snd4) 0
    ∗ semVal (((c : Dev nD) : Thread nD τ), SemLoc.dma snd5) 0
    ∗ semVal (((c : Dev nD) : Thread nD τ), SemLoc.dma snd6) 0
    ∗ semVal (((c : Dev nD) : Thread nD τ), SemLoc.dma rcv0) 0
    ∗ semVal (((c : Dev nD) : Thread nD τ), SemLoc.dma rcv1) 0
    ∗ semVal (((c : Dev nD) : Thread nD τ), SemLoc.dma rcv2) 0
    ∗ semVal (((c : Dev nD) : Thread nD τ), SemLoc.dma rcv3) 0
    ∗ semVal (((c : Dev nD) : Thread nD τ), SemLoc.dma rcv4) 0
    ∗ semVal (((c : Dev nD) : Thread nD τ), SemLoc.dma rcv5) 0
    ∗ semVal (((c : Dev nD) : Thread nD τ), SemLoc.dma rcv6) 0) := by
  rw [Pipeline.ownSems0_eq_of_list c osem [0, 1, 2, 3, 4, 5, 6, 7, 8, 9, 10, 11, 12, 13] (by decide) (by decide)]; rfl
omit [FloatOps F] in
/-- the barrier semaphore the launch's one unscoped semaphore. -/
theorem unscopedSems0_eq (c : Dev nD) : (unscopedSems0 c : sProp 𝕄) = semVal (((c : Dev nD) : Thread nD τ), SemLoc.reg barS) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_fin15]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (softRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (softRd m) (kcell (c, k)) 0)
      ⊢ (|={Set.univ}=> bigSep Finset.univ fun k => iprop(∃ κ : ℕ, cellInv ER (softRd m) κ (kcell (c, k))) : sProp 𝕄) from by
        rw [← bigSep_sep']
        exact (bigSep_mono fun k _ => (Rounds.body_intro ER (softRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and every cell's round 0 reached. -/
def records (K : Dev nD × Fin 15 → ℕ) : sProp 𝕄 :=
  iprop((bigSep Finset.univ fun ck : Dev nD × Fin 15 => cellInv ER (softRd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) :
    (bigSep Finset.univ fun ck : Dev nD × Fin 15 => (cellInv ER (softRd m) (K ck) (kcell ck) : sProp 𝕄)) ⊢ cellInv ER (softRd m) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

/-- The records, a device's positions and the tokens of the duties it pays are what its body starts from. -/
theorem ghost_intro (K : Dev nD × Fin 15 → ℕ) (c : Dev nD) : iprop(records m K ∗ (positions c ∗ payToks c)) ⊢ G' m c := by
  unfold records G' ghost
  iintro ⟨⟨#HI, #HR⟩, Hpos, Htok⟩
  iexists K
  isplitr
  · unfold invs
    isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (c, 8)); iexact HI
    isplitr; · iapply (inv_at m K (c, 9)); iexact HI
    isplitr; · iapply (inv_at m K (c, 10)); iexact HI
    isplitr; · iapply (inv_at m K (c, 11)); iexact HI
    isplitr; · iapply (inv_at m K (c, 12)); iexact HI
    isplitr; · iapply (inv_at m K (c, 13)); iexact HI
    isplitr; · iapply (inv_at m K (c, 14)); iexact HI
    isplitr; · iapply (inv_at m K (pr c 1, 0)); iexact HI
    isplitr; · iapply (inv_at m K (pr c 2, 0)); iexact HI
    isplitr; · iapply (inv_at m K (pr c 3, 0)); iexact HI
    isplitr; · iapply (inv_at m K (pr c 4, 0)); iexact HI
    isplitr; · iapply (inv_at m K (pr c 5, 0)); iexact HI
    isplitr; · iapply (inv_at m K (pr c 6, 0)); iexact HI
    isplitr; · iapply (inv_at m K (pr c 7, 0)); iexact HI
    isplitr; · iapply (inv_at m K (pr c 1, 8)); iexact HI
    isplitr; · iapply (inv_at m K (pr c 2, 9)); iexact HI
    isplitr; · iapply (inv_at m K (pr c 3, 10)); iexact HI
    isplitr; · iapply (inv_at m K (pr c 4, 11)); iexact HI
    isplitr; · iapply (inv_at m K (pr c 5, 12)); iexact HI
    isplitr; · iapply (inv_at m K (pr c 6, 13)); iexact HI
    iapply (inv_at m K (pr c 7, 14)); iexact HI
  isplitl [Hpos]; · iexact Hpos
  isplitr
  · unfold reacheds
    isplitr; · iapply (reached_at (F := F) (pr c 1, 0)); iexact HR
    isplitr; · iapply (reached_at (F := F) (pr c 2, 0)); iexact HR
    isplitr; · iapply (reached_at (F := F) (pr c 3, 0)); iexact HR
    isplitr; · iapply (reached_at (F := F) (pr c 4, 0)); iexact HR
    isplitr; · iapply (reached_at (F := F) (pr c 5, 0)); iexact HR
    isplitr; · iapply (reached_at (F := F) (pr c 6, 0)); iexact HR
    isplitr; · iapply (reached_at (F := F) (pr c 7, 0)); iexact HR
    isplitr; · iapply (reached_at (F := F) (pr c 1, 8)); iexact HR
    isplitr; · iapply (reached_at (F := F) (pr c 2, 9)); iexact HR
    isplitr; · iapply (reached_at (F := F) (pr c 3, 10)); iexact HR
    isplitr; · iapply (reached_at (F := F) (pr c 4, 11)); iexact HR
    isplitr; · iapply (reached_at (F := F) (pr c 5, 12)); iexact HR
    isplitr; · iapply (reached_at (F := F) (pr c 6, 13)); iexact HR
    isplitr; · iapply (reached_at (F := F) (pr c 7, 14)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (c, 7)); iexact HR
    isplitr; · iapply (reached_at (F := F) (c, 8)); iexact HR
    isplitr; · iapply (reached_at (F := F) (c, 9)); iexact HR
    isplitr; · iapply (reached_at (F := F) (c, 10)); iexact HR
    isplitr; · iapply (reached_at (F := F) (c, 11)); iexact HR
    isplitr; · iapply (reached_at (F := F) (c, 12)); iexact HR
    isplitr; · iapply (reached_at (F := F) (c, 13)); iexact HR
    iapply (reached_at (F := F) (c, 14)); iexact HR
  iexact Htok

/-- The devices in ring order, shifted by o. -/
def prE (o o' : ℕ) (h : o + o' = 8) : Dev nD ≃ Dev nD :=
  ⟨fun c => pr c o, fun c => pr c o', fun c => by show pr (pr c o) o' = c; rw [pr_pr, h, pr_eight], fun c => by show pr (pr c o') o = c; rw [pr_pr, Nat.add_comm, h, pr_eight]⟩

omit [FloatOps F] in
/-- The tokens dealt around the ring: duty j of a device's barrier cell goes to the device that pays it, at distance
    j + 1 after it (the token of the barrier cell at distance o after a device is that cell's duty 7 - o); the token of
    receive cell k to the device whose copy number k lands there, at distance 7 - k after it; the send tokens stay. -/
theorem toks_around : (bigSep Finset.univ fun c : Dev nD => (toks c : sProp 𝕄)) ⊢ bigSep Finset.univ fun c : Dev nD => payToks c := by
  unfold toks payToks
  simp only [bigSep_sep']
  iintro ⟨Hb0, Hb1, Hb2, Hb3, Hb4, Hb5, Hb6, Hs0, Hs1, Hs2, Hs3, Hs4, Hs5, Hs6, Hr0, Hr1, Hr2, Hr3, Hr4, Hr5, Hr6⟩
  ihave Hb0' := (Entails.of_eq (bigSep_univ_equiv (prE 7 1 rfl) (fun c : Dev nD => (dutyTok ER (((c : Dev nD) : Thread nD τ), SemLoc.reg barS) 0 (0 : Fin 7) : sProp 𝕄)))) $$ Hb0
  ihave Hb1' := (Entails.of_eq (bigSep_univ_equiv (prE 6 2 rfl) (fun c : Dev nD => (dutyTok ER (((c : Dev nD) : Thread nD τ), SemLoc.reg barS) 0 (1 : Fin 7) : sProp 𝕄)))) $$ Hb1
  ihave Hb2' := (Entails.of_eq (bigSep_univ_equiv (prE 5 3 rfl) (fun c : Dev nD => (dutyTok ER (((c : Dev nD) : Thread nD τ), SemLoc.reg barS) 0 (2 : Fin 7) : sProp 𝕄)))) $$ Hb2
  ihave Hb3' := (Entails.of_eq (bigSep_univ_equiv (prE 4 4 rfl) (fun c : Dev nD => (dutyTok ER (((c : Dev nD) : Thread nD τ), SemLoc.reg barS) 0 (3 : Fin 7) : sProp 𝕄)))) $$ Hb3
  ihave Hb4' := (Entails.of_eq (bigSep_univ_equiv (prE 3 5 rfl) (fun c : Dev nD => (dutyTok ER (((c : Dev nD) : Thread nD τ), SemLoc.reg barS) 0 (4 : Fin 7) : sProp 𝕄)))) $$ Hb4
  ihave Hb5' := (Entails.of_eq (bigSep_univ_equiv (prE 2 6 rfl) (fun c : Dev nD => (dutyTok ER (((c : Dev nD) : Thread nD τ), SemLoc.reg barS) 0 (5 : Fin 7) : sProp 𝕄)))) $$ Hb5
  ihave Hb6' := (Entails.of_eq (bigSep_univ_equiv (prE 1 7 rfl) (fun c : Dev nD => (dutyTok ER (((c : Dev nD) : Thread nD τ), SemLoc.reg barS) 0 (6 : Fin 7) : sProp 𝕄)))) $$ Hb6
  ihave Hr0' := (Entails.of_eq (bigSep_univ_equiv (prE 1 7 rfl) (fun c : Dev nD => (dutyTok ER (((c : Dev nD) : Thread nD τ), SemLoc.dma rcv0) 0 (0 : Fin 7) : sProp 𝕄)))) $$ Hr0
  ihave Hr1' := (Entails.of_eq (bigSep_univ_equiv (prE 2 6 rfl) (fun c : Dev nD => (dutyTok ER (((c : Dev nD) : Thread nD τ), SemLoc.dma rcv1) 0 (0 : Fin 7) : sProp 𝕄)))) $$ Hr1
  ihave Hr2' := (Entails.of_eq (bigSep_univ_equiv (prE 3 5 rfl) (fun c : Dev nD => (dutyTok ER (((c : Dev nD) : Thread nD τ), SemLoc.dma rcv2) 0 (0 : Fin 7) : sProp 𝕄)))) $$ Hr2
  ihave Hr3' := (Entails.of_eq (bigSep_univ_equiv (prE 4 4 rfl) (fun c : Dev nD => (dutyTok ER (((c : Dev nD) : Thread nD τ), SemLoc.dma rcv3) 0 (0 : Fin 7) : sProp 𝕄)))) $$ Hr3
  ihave Hr4' := (Entails.of_eq (bigSep_univ_equiv (prE 5 3 rfl) (fun c : Dev nD => (dutyTok ER (((c : Dev nD) : Thread nD τ), SemLoc.dma rcv4) 0 (0 : Fin 7) : sProp 𝕄)))) $$ Hr4
  ihave Hr5' := (Entails.of_eq (bigSep_univ_equiv (prE 6 2 rfl) (fun c : Dev nD => (dutyTok ER (((c : Dev nD) : Thread nD τ), SemLoc.dma rcv5) 0 (0 : Fin 7) : sProp 𝕄)))) $$ Hr5
  ihave Hr6' := (Entails.of_eq (bigSep_univ_equiv (prE 7 1 rfl) (fun c : Dev nD => (dutyTok ER (((c : Dev nD) : Thread nD τ), SemLoc.dma rcv6) 0 (0 : Fin 7) : sProp 𝕄)))) $$ Hr6
  isplitl [Hb6']; · iexact Hb6'
  isplitl [Hb5']; · iexact Hb5'
  isplitl [Hb4']; · iexact Hb4'
  isplitl [Hb3']; · iexact Hb3'
  isplitl [Hb2']; · iexact Hb2'
  isplitl [Hb1']; · iexact Hb1'
  isplitl [Hb0']; · iexact Hb0'
  isplitl [Hr0']; · iexact Hr0'
  isplitl [Hr1']; · iexact Hr1'
  isplitl [Hr2']; · iexact Hr2'
  isplitl [Hr3']; · iexact Hr3'
  isplitl [Hr4']; · iexact Hr4'
  isplitl [Hr5']; · iexact Hr5'
  isplitl [Hr6']; · iexact Hr6'
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  iexact Hs6

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (softRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (softRd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (softRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => show _ ⊢ iprop(positions c ∗ payToks c) from Entails.of_eq (by unfold positions; rw [bigSep_fin15])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem cred_tallyAt_add (g : GSem nD τ sig) (a b n : ℕ) (h : a + b = n) :
    iprop(cred (tallyAt g () a) ∗ cred (tallyAt g () b)) ⊢ (cred (tallyAt g () n) : sProp 𝕄) := by
  subst h; rw [← tallyAt_add]; exact (cred_add _ _).2

omit [FloatOps F] in
/-- What the devices owe a device at launch is what it waits for: every peer owes its barrier cell a unit, and the peer
    whose copy number k lands in its slot k owes receive cell k the copy's credit. -/
theorem creds_intro (c : Dev nD) : (Pipeline.launchCred O₀ c : sProp 𝕄) ⊢ creds c := by
  refine (Entails.of_eq (show (Pipeline.launchCred O₀ c : sProp 𝕄) = Pipeline.launchCred (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1 + tallyAt (((pr d 5 : Dev nD) : Thread nD τ), SemLoc.reg barS) () 1 + tallyAt (((pr d 4 : Dev nD) : Thread nD τ), SemLoc.reg barS) () 1 + tallyAt (((pr d 3 : Dev nD) : Thread nD τ), SemLoc.reg barS) () 1 + tallyAt (((pr d 2 : Dev nD) : Thread nD τ), SemLoc.reg barS) () 1 + tallyAt (((pr d 1 : Dev nD) : Thread nD τ), SemLoc.reg barS) () 1) c from rfl)).trans ?_
  iintro H
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1 + tallyAt (((pr d 5 : Dev nD) : Thread nD τ), SemLoc.reg barS) () 1 + tallyAt (((pr d 4 : Dev nD) : Thread nD τ), SemLoc.reg barS) () 1 + tallyAt (((pr d 3 : Dev nD) : Thread nD τ), SemLoc.reg barS) () 1 + tallyAt (((pr d 2 : Dev nD) : Thread nD τ), SemLoc.reg barS) () 1) (fun d => tallyAt (((pr d 1 : Dev nD) : Thread nD τ), SemLoc.reg barS) () 1) c)) $$ H
  icases H with ⟨H, Hb1⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1 + tallyAt (((pr d 5 : Dev nD) : Thread nD τ), SemLoc.reg barS) () 1 + tallyAt (((pr d 4 : Dev nD) : Thread nD τ), SemLoc.reg barS) () 1 + tallyAt (((pr d 3 : Dev nD) : Thread nD τ), SemLoc.reg barS) () 1) (fun d => tallyAt (((pr d 2 : Dev nD) : Thread nD τ), SemLoc.reg barS) () 1) c)) $$ H
  icases H with ⟨H, Hb2⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1 + tallyAt (((pr d 5 : Dev nD) : Thread nD τ), SemLoc.reg barS) () 1 + tallyAt (((pr d 4 : Dev nD) : Thread nD τ), SemLoc.reg barS) () 1) (fun d => tallyAt (((pr d 3 : Dev nD) : Thread nD τ), SemLoc.reg barS) () 1) c)) $$ H
  icases H with ⟨H, Hb3⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1 + tallyAt (((pr d 5 : Dev nD) : Thread nD τ), SemLoc.reg barS) () 1) (fun d => tallyAt (((pr d 4 : Dev nD) : Thread nD τ), SemLoc.reg barS) () 1) c)) $$ H
  icases H with ⟨H, Hb4⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1) (fun d => tallyAt (((pr d 5 : Dev nD) : Thread nD τ), SemLoc.reg barS) () 1) c)) $$ H
  icases H with ⟨H, Hb5⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1) (fun d => tallyAt (((pr d 6 : Dev nD) : Thread nD τ), SemLoc.reg barS) () 1) c)) $$ H
  icases H with ⟨H, Hb6⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N) (fun d => tallyAt (((pr d 7 : Dev nD) : Thread nD τ), SemLoc.reg barS) () 1) c)) $$ H
  icases H with ⟨H, Hb7⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N) (fun d => tallyAt (((pr d 7 : Dev nD) : Thread nD τ), SemLoc.dma rcv6) () N) c)) $$ H
  icases H with ⟨H, Hr6⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N) (fun d => tallyAt (((pr d 6 : Dev nD) : Thread nD τ), SemLoc.dma rcv5) () N) c)) $$ H
  icases H with ⟨H, Hr5⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N) (fun d => tallyAt (((pr d 5 : Dev nD) : Thread nD τ), SemLoc.dma rcv4) () N) c)) $$ H
  icases H with ⟨H, Hr4⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N) (fun d => tallyAt (((pr d 4 : Dev nD) : Thread nD τ), SemLoc.dma rcv3) () N) c)) $$ H
  icases H with ⟨H, Hr3⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N) (fun d => tallyAt (((pr d 3 : Dev nD) : Thread nD τ), SemLoc.dma rcv2) () N) c)) $$ H
  icases H with ⟨H, Hr2⟩
  ihave H := (Entails.of_eq (Pipeline.launchCred_add (fun d => tallyAt (((pr d 1 : Dev nD) : Thread nD τ), SemLoc.dma rcv0) () N) (fun d => tallyAt (((pr d 2 : Dev nD) : Thread nD τ), SemLoc.dma rcv1) () N) c)) $$ H
  icases H with ⟨H, Hr1⟩
  ihave Hb1' := (Pipeline.launchCred_tallyAt (SemLoc.reg barS) (fun d => pr d 1) (fun d => pr d 7) (prE 7 1 rfl).left_inv (prE 1 7 rfl).left_inv () 1 c) $$ Hb1
  ihave Hb2' := (Pipeline.launchCred_tallyAt (SemLoc.reg barS) (fun d => pr d 2) (fun d => pr d 6) (prE 6 2 rfl).left_inv (prE 2 6 rfl).left_inv () 1 c) $$ Hb2
  ihave Hb3' := (Pipeline.launchCred_tallyAt (SemLoc.reg barS) (fun d => pr d 3) (fun d => pr d 5) (prE 5 3 rfl).left_inv (prE 3 5 rfl).left_inv () 1 c) $$ Hb3
  ihave Hb4' := (Pipeline.launchCred_tallyAt (SemLoc.reg barS) (fun d => pr d 4) (fun d => pr d 4) (prE 4 4 rfl).left_inv (prE 4 4 rfl).left_inv () 1 c) $$ Hb4
  ihave Hb5' := (Pipeline.launchCred_tallyAt (SemLoc.reg barS) (fun d => pr d 5) (fun d => pr d 3) (prE 3 5 rfl).left_inv (prE 5 3 rfl).left_inv () 1 c) $$ Hb5
  ihave Hb6' := (Pipeline.launchCred_tallyAt (SemLoc.reg barS) (fun d => pr d 6) (fun d => pr d 2) (prE 2 6 rfl).left_inv (prE 6 2 rfl).left_inv () 1 c) $$ Hb6
  ihave Hb7' := (Pipeline.launchCred_tallyAt (SemLoc.reg barS) (fun d => pr d 7) (fun d => pr d 1) (prE 1 7 rfl).left_inv (prE 7 1 rfl).left_inv () 1 c) $$ Hb7
  ihave Hr0' := (Pipeline.launchCred_tallyAt (SemLoc.dma rcv0) (fun d => pr d 1) (fun d => pr d 7) (prE 7 1 rfl).left_inv (prE 1 7 rfl).left_inv () N c) $$ H
  ihave Hr1' := (Pipeline.launchCred_tallyAt (SemLoc.dma rcv1) (fun d => pr d 2) (fun d => pr d 6) (prE 6 2 rfl).left_inv (prE 2 6 rfl).left_inv () N c) $$ Hr1
  ihave Hr2' := (Pipeline.launchCred_tallyAt (SemLoc.dma rcv2) (fun d => pr d 3) (fun d => pr d 5) (prE 5 3 rfl).left_inv (prE 3 5 rfl).left_inv () N c) $$ Hr2
  ihave Hr3' := (Pipeline.launchCred_tallyAt (SemLoc.dma rcv3) (fun d => pr d 4) (fun d => pr d 4) (prE 4 4 rfl).left_inv (prE 4 4 rfl).left_inv () N c) $$ Hr3
  ihave Hr4' := (Pipeline.launchCred_tallyAt (SemLoc.dma rcv4) (fun d => pr d 5) (fun d => pr d 3) (prE 3 5 rfl).left_inv (prE 5 3 rfl).left_inv () N c) $$ Hr4
  ihave Hr5' := (Pipeline.launchCred_tallyAt (SemLoc.dma rcv5) (fun d => pr d 6) (fun d => pr d 2) (prE 2 6 rfl).left_inv (prE 6 2 rfl).left_inv () N c) $$ Hr5
  ihave Hr6' := (Pipeline.launchCred_tallyAt (SemLoc.dma rcv6) (fun d => pr d 7) (fun d => pr d 1) (prE 1 7 rfl).left_inv (prE 7 1 rfl).left_inv () N c) $$ Hr6
  ihave HB := (cred_tallyAt_add (F := F) (((c : Dev nD) : Thread nD τ), SemLoc.reg barS) 1 1 2 rfl) $$ [Hb1' Hb2']
  · isplitl [Hb1'] <;> iassumption
  ihave HB := (cred_tallyAt_add (F := F) (((c : Dev nD) : Thread nD τ), SemLoc.reg barS) 2 1 3 rfl) $$ [HB Hb3']
  · isplitl [HB] <;> iassumption
  ihave HB := (cred_tallyAt_add (F := F) (((c : Dev nD) : Thread nD τ), SemLoc.reg barS) 3 1 4 rfl) $$ [HB Hb4']
  · isplitl [HB] <;> iassumption
  ihave HB := (cred_tallyAt_add (F := F) (((c : Dev nD) : Thread nD τ), SemLoc.reg barS) 4 1 5 rfl) $$ [HB Hb5']
  · isplitl [HB] <;> iassumption
  ihave HB := (cred_tallyAt_add (F := F) (((c : Dev nD) : Thread nD τ), SemLoc.reg barS) 5 1 6 rfl) $$ [HB Hb6']
  · isplitl [HB] <;> iassumption
  ihave HB := (cred_tallyAt_add (F := F) (((c : Dev nD) : Thread nD τ), SemLoc.reg barS) 6 1 7 rfl) $$ [HB Hb7']
  · isplitl [HB] <;> iassumption
  unfold creds
  isplitl [HB]; · iexact HB
  isplitl [Hr0']; · iexact Hr0'
  isplitl [Hr1']; · iexact Hr1'
  isplitl [Hr2']; · iexact Hr2'
  isplitl [Hr3']; · iexact Hr3'
  isplitl [Hr4']; · iexact Hr4'
  isplitl [Hr5']; · iexact Hr5'
  iexact Hr6'

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ statsWhole commWhole
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ statsWhole commWhole
  iintro ⟨Hst, Hcm, Hsems⟩
  isplitr; · iempintro
  isplitl [Hsems]; · iexact Hsems
  isplitl [Hst]; · iexact Hst
  iexact Hcm

omit [FloatOps F] in
theorem tally_above {g₀ g : GSem nD τ sig} {n : ℕ} {u : Unit} (h : 0 < (tallyAt g₀ () n : CellTallies nD τ sig Unit) g u)
    (h0 : () ∈ L g₀ ∧ 0 < lv g₀ ()) : u ∈ L g ∧ 0 < lv g u := by
  obtain ⟨rfl, rfl⟩ := Pipeline.tallyAt_pos h; exact h0

omit [FloatOps F] in
theorem bar_above (t : Thread nD τ) : 0 < lv (t, SemLoc.reg barS) () := Nat.one_pos
omit [FloatOps F] in
theorem rcv_above (t : Thread nD τ) (q : DmaSem sig) (h : 9 ≤ q.val) : 0 < lv (t, SemLoc.dma q) () := by
  show 0 < (if 9 ≤ q.val then 2 else 0); rw [if_pos h]; decide

omit [FloatOps F] in
/-- Everything a device owes at launch sits on a barrier or a receive cell of a TensorCore: above level 0. -/
theorem owed_above (c : Dev nD) {g : GSem nD τ sig} {u : Unit} (h : 0 < O₀ c g u) : u ∈ L g ∧ 0 < lv g u := by
  unfold O₀ owedCopies at h
  repeat' (rcases Pipeline.add_pos_cases h with h | h)
  all_goals exact tally_above h ⟨by rw [L_tc]; exact Finset.mem_singleton_self _, by first | exact bar_above _ | exact rcv_above _ _ (by decide)⟩

omit [FloatOps F] in
/-- The pipeline's staging cells wait at level 0, below everything owed. -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _) (fun g i hg => by
      have h := owed_above c hg
      refine ⟨h.1, ?_⟩
      show (if 9 ≤ q.val then 2 else 0) < lv g i
      rw [if_neg (by omega)]; exact h.2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the proof data's final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

omit [FloatOps F] in
/-- The result window's one block is the whole result array. -/
theorem out_block_whole (c : Dev nD) (f : Buf (Elt F) ((c : Thread nD τ).loc main_v1)) :
    ((cfg0.win (1 : Fin 2)).blk t₀).view.read (Elt F) f = f :=
  Memref.read_access_unit_zero (Elt F) main_v1
    (show (fun a => (win0_1.index t0_0) a * main_v1.ty.shape.size a) = fun _ => 0 from funext fun a => by fin_cases a <;> decide)
    (fun a => by fin_cases a <;> decide) f

/-- The result array after the run holds the kernel's result: the one write-back, of the whole array, writes what the
    body left in the staging buffer. -/
theorem finalA_o (c : Dev nD) : finalA m ρ c (1 : Fin 2) = outAt m c := by
  have hw : ((cfg0.win (1 : Fin 2)).blk t₀).view.read (Elt F) (finalA m ρ c (1 : Fin 2)) = (dats m ρ 0 c).flushed (1 : Fin 2) t₀ := by
    unfold finalA
    rw [show cfg0.N = (t₀ : Fin cfg0.N).val + 1 from rfl, (dats m ρ 0 c).arrAt_succ (1 : Fin 2) t₀, flush0_1 t₀, if_pos rfl]
    exact View.read_write_univ _ _
  rw [out_block_whole] at hw
  exact hw.trans (funext fun _ => rfl)

/-- The run, with the result named and the argument unchanged. -/
theorem run : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  (θ_run defs _ _).mono (fun _ h c => ⟨(h c (1 : Fin 2)).trans (finalA_o m ρ c), (h c (0 : Fin 2)).trans (finalA_x m ρ c)⟩) (run_main m ρ)

/-- info: 'Cert.Kernel.Hand.glob' depends on axioms: [propext, Classical.choice, Quot.sound] -/
#guard_msgs in #print axioms glob

/-- info: 'Cert.Kernel.Hand.finalA_o' depends on axioms: [propext, Classical.choice, Quot.sound] -/
#guard_msgs in #print axioms finalA_o

end Cert.Kernel.Hand

end
-- ==== Proof.KernelIdealHand.Proto.lean ====
/-
# The protocol of the column-sharded softmax on eight devices

Every device c holds block c (1024 columns) of a 2048 x 8192 array. It computes its block's row maxima m_c and
the row sums s_c of exp (x - m_c), writes exp (x - m_c) to its result block and the pair (m_c, s_c), transposed
to 2 x 2048, to its statistics buffer. It tells each of its seven peers (at ring distance o = 1 .. 7) that it has
entered, on their barrier semaphore, waits for seven such units on its own, then copies its statistics into slot
o - 1 of the landing buffer of the peer at distance o, waits for its seven departures and seven arrivals, and
rescales its result block by exp (m_c - M) / S, with M the maximum and S the rescaled sum over all eight devices.

Cells, per device: the barrier cell (seven duties of one unit each in round 0), seven send cells and seven receive
cells (one duty each, the copy's credit).
-/
import proofs.«900602_g7700000000000603_dist_softmax_colshard_i_m2048_n1024_v7x_i8_f32_1_alg».proof.Proof.Gen.KernelIdeal
import proofs.«900602_g7700000000000603_dist_softmax_colshard_i_m2048_n1024_v7x_i8_f32_1_alg».proof.Proof.Gen.KernelIdeal.Skeleton
import proofs.«900602_g7700000000000603_dist_softmax_colshard_i_m2048_n1024_v7x_i8_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by Fin 7) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peers -/

/-- The device at ring distance o after c. -/
def pr (c : Dev nD) (o : ℕ) : Dev nD := ⟨(c.val + o) % 8, Nat.mod_lt _ (by decide)⟩

theorem pr_pr (c : Dev nD) (a b : ℕ) : pr (pr c a) b = pr c (a + b) := by
  apply Fin.ext; show ((c.val + a) % 8 + b) % 8 = (c.val + (a + b)) % 8; omega
theorem pr_eight (c : Dev nD) : pr c 8 = c := by
  apply Fin.ext; show (c.val + 8) % 8 = c.val; have : c.val < 8 := c.isLt; omega
theorem pr_zero (c : Dev nD) : pr c 0 = c := by
  apply Fin.ext; show (c.val + 0) % 8 = c.val; have : c.val < 8 := c.isLt; omega
theorem pr_inj (o : ℕ) : Function.Injective (fun c : Dev nD => pr c o) := by
  intro a b h; have := congrArg Fin.val h; apply Fin.ext
  have ha : a.val < 8 := a.isLt; have hb : b.val < 8 := b.isLt
  change (a.val + o) % 8 = (b.val + o) % 8 at this; omega

/-- The kernel's device_id chains: signal o and copy o both name the device at distance o. -/
theorem dev1_eq (c : Dev nD) : (⟨k0_dev1 c, k0_dev1_lt c⟩ : Dev nD) = pr c 1 := Fin.ext (k0_dev1_eq c)
theorem dev2_eq (c : Dev nD) : (⟨k0_dev2 c, k0_dev2_lt c⟩ : Dev nD) = pr c 2 := Fin.ext (k0_dev2_eq c)
theorem dev3_eq (c : Dev nD) : (⟨k0_dev3 c, k0_dev3_lt c⟩ : Dev nD) = pr c 3 := Fin.ext (k0_dev3_eq c)
theorem dev4_eq (c : Dev nD) : (⟨k0_dev4 c, k0_dev4_lt c⟩ : Dev nD) = pr c 4 := Fin.ext (k0_dev4_eq c)
theorem dev5_eq (c : Dev nD) : (⟨k0_dev5 c, k0_dev5_lt c⟩ : Dev nD) = pr c 5 := Fin.ext (k0_dev5_eq c)
theorem dev6_eq (c : Dev nD) : (⟨k0_dev6 c, k0_dev6_lt c⟩ : Dev nD) = pr c 6 := Fin.ext (k0_dev6_eq c)
theorem dev7_eq (c : Dev nD) : (⟨k0_dev7 c, k0_dev7_lt c⟩ : Dev nD) = pr c 7 := Fin.ext (k0_dev7_eq c)
theorem dev8_eq (c : Dev nD) : (⟨k0_dev8 c, k0_dev8_lt c⟩ : Dev nD) = pr c 1 := Fin.ext (k0_dev8_eq c)
theorem dev9_eq (c : Dev nD) : (⟨k0_dev9 c, k0_dev9_lt c⟩ : Dev nD) = pr c 2 := Fin.ext (k0_dev9_eq c)
theorem dev10_eq (c : Dev nD) : (⟨k0_dev10 c, k0_dev10_lt c⟩ : Dev nD) = pr c 3 := Fin.ext (k0_dev10_eq c)
theorem dev11_eq (c : Dev nD) : (⟨k0_dev11 c, k0_dev11_lt c⟩ : Dev nD) = pr c 4 := Fin.ext (k0_dev11_eq c)
theorem dev12_eq (c : Dev nD) : (⟨k0_dev12 c, k0_dev12_lt c⟩ : Dev nD) = pr c 5 := Fin.ext (k0_dev12_eq c)
theorem dev13_eq (c : Dev nD) : (⟨k0_dev13 c, k0_dev13_lt c⟩ : Dev nD) = pr c 6 := Fin.ext (k0_dev13_eq c)
theorem dev14_eq (c : Dev nD) : (⟨k0_dev14 c, k0_dev14_lt c⟩ : Dev nD) = pr c 7 := Fin.ext (k0_dev14_eq c)

/-! ## The memrefs and the semaphores -/

abbrev xM : Memref sig .tc .vmem S2048x1024 .f32 := Memref.whole cc0_stg0_0
abbrev oM : Memref sig .tc .vmem S2048x1024 .f32 := Memref.whole cc0_stg1_0
/-- The statistics buffer (row 0 the maxima, row 1 the sums) and the landing buffer of seven such. -/
abbrev sM : Memref sig .tc .vmem S2x2048 .f32 := Memref.whole cc0_scratch0
abbrev cM : Memref sig .tc .vmem S7x2x2048 .f32 := Memref.whole cc0_scratch1

abbrev slot0 : Memref sig .tc .vmem S2x2048 .f32 :=
  (cM.slice (Rect.unit (s := S7x2x2048) ![0, 0, 0] S1x2x2048.size inb_S7x2x2048_S1x2x2048_0_0_0) (fun _ => rfl)).squeeze S2x2048 squeezes_S1x2x2048_S2x2048
abbrev slot1 : Memref sig .tc .vmem S2x2048 .f32 :=
  (cM.slice (Rect.unit (s := S7x2x2048) ![1, 0, 0] S1x2x2048.size inb_S7x2x2048_S1x2x2048_1_0_0) (fun _ => rfl)).squeeze S2x2048 squeezes_S1x2x2048_S2x2048
abbrev slot2 : Memref sig .tc .vmem S2x2048 .f32 :=
  (cM.slice (Rect.unit (s := S7x2x2048) ![2, 0, 0] S1x2x2048.size inb_S7x2x2048_S1x2x2048_2_0_0) (fun _ => rfl)).squeeze S2x2048 squeezes_S1x2x2048_S2x2048
abbrev slot3 : Memref sig .tc .vmem S2x2048 .f32 :=
  (cM.slice (Rect.unit (s := S7x2x2048) ![3, 0, 0] S1x2x2048.size inb_S7x2x2048_S1x2x2048_3_0_0) (fun _ => rfl)).squeeze S2x2048 squeezes_S1x2x2048_S2x2048
abbrev slot4 : Memref sig .tc .vmem S2x2048 .f32 :=
  (cM.slice (Rect.unit (s := S7x2x2048) ![4, 0, 0] S1x2x2048.size inb_S7x2x2048_S1x2x2048_4_0_0) (fun _ => rfl)).squeeze S2x2048 squeezes_S1x2x2048_S2x2048
abbrev slot5 : Memref sig .tc .vmem S2x2048 .f32 :=
  (cM.slice (Rect.unit (s := S7x2x2048) ![5, 0, 0] S1x2x2048.size inb_S7x2x2048_S1x2x2048_5_0_0) (fun _ => rfl)).squeeze S2x2048 squeezes_S1x2x2048_S2x2048
abbrev slot6 : Memref sig .tc .vmem S2x2048 .f32 :=
  (cM.slice (Rect.unit (s := S7x2x2048) ![6, 0, 0] S1x2x2048.size inb_S7x2x2048_S1x2x2048_6_0_0) (fun _ => rfl)).squeeze S2x2048 squeezes_S1x2x2048_S2x2048
/-- Slot k of the landing buffer. -/
abbrev slotM : Fin 7 → Memref sig .tc .vmem S2x2048 .f32 := fun
  | 0 => slot0
  | 1 => slot1
  | 2 => slot2
  | 3 => slot3
  | 4 => slot4
  | 5 => slot5
  | 6 => slot6

abbrev barS : Sem sig := (SemArray.scalar (sig.barrier 0 rfl) : Sems sig S_).sem
abbrev snd0 : DmaSem sig := ((cc0_scratch2.slice (Rect.unit (s := S7) ![0] S1.size inb_S7_S1_0)).squeeze S_ squeezes_S1_S_).sem
abbrev rcv0 : DmaSem sig := ((cc0_scratch3.slice (Rect.unit (s := S7) ![0] S1.size inb_S7_S1_0)).squeeze S_ squeezes_S1_S_).sem
abbrev snd1 : DmaSem sig := ((cc0_scratch2.slice (Rect.unit (s := S7) ![1] S1.size inb_S7_S1_1)).squeeze S_ squeezes_S1_S_).sem
abbrev rcv1 : DmaSem sig := ((cc0_scratch3.slice (Rect.unit (s := S7) ![1] S1.size inb_S7_S1_1)).squeeze S_ squeezes_S1_S_).sem
abbrev snd2 : DmaSem sig := ((cc0_scratch2.slice (Rect.unit (s := S7) ![2] S1.size inb_S7_S1_2)).squeeze S_ squeezes_S1_S_).sem
abbrev rcv2 : DmaSem sig := ((cc0_scratch3.slice (Rect.unit (s := S7) ![2] S1.size inb_S7_S1_2)).squeeze S_ squeezes_S1_S_).sem
abbrev snd3 : DmaSem sig := ((cc0_scratch2.slice (Rect.unit (s := S7) ![3] S1.size inb_S7_S1_3)).squeeze S_ squeezes_S1_S_).sem
abbrev rcv3 : DmaSem sig := ((cc0_scratch3.slice (Rect.unit (s := S7) ![3] S1.size inb_S7_S1_3)).squeeze S_ squeezes_S1_S_).sem
abbrev snd4 : DmaSem sig := ((cc0_scratch2.slice (Rect.unit (s := S7) ![4] S1.size inb_S7_S1_4)).squeeze S_ squeezes_S1_S_).sem
abbrev rcv4 : DmaSem sig := ((cc0_scratch3.slice (Rect.unit (s := S7) ![4] S1.size inb_S7_S1_4)).squeeze S_ squeezes_S1_S_).sem
abbrev snd5 : DmaSem sig := ((cc0_scratch2.slice (Rect.unit (s := S7) ![5] S1.size inb_S7_S1_5)).squeeze S_ squeezes_S1_S_).sem
abbrev rcv5 : DmaSem sig := ((cc0_scratch3.slice (Rect.unit (s := S7) ![5] S1.size inb_S7_S1_5)).squeeze S_ squeezes_S1_S_).sem
abbrev snd6 : DmaSem sig := ((cc0_scratch2.slice (Rect.unit (s := S7) ![6] S1.size inb_S7_S1_6)).squeeze S_ squeezes_S1_S_).sem
abbrev rcv6 : DmaSem sig := ((cc0_scratch3.slice (Rect.unit (s := S7) ![6] S1.size inb_S7_S1_6)).squeeze S_ squeezes_S1_S_).sem
abbrev sndS : Fin 7 → DmaSem sig := fun
  | 0 => snd0
  | 1 => snd1
  | 2 => snd2
  | 3 => snd3
  | 4 => snd4
  | 5 => snd5
  | 6 => snd6
abbrev rcvS : Fin 7 → DmaSem sig := fun
  | 0 => rcv0
  | 1 => rcv1
  | 2 => rcv2
  | 3 => rcv3
  | 4 => rcv4
  | 5 => rcv5
  | 6 => rcv6

theorem sndS_val (k : Fin 7) : (sndS k).val = 2 + k.val := by fin_cases k <;> rfl
theorem rcvS_val (k : Fin 7) : (rcvS k).val = 9 + k.val := by fin_cases k <;> rfl

abbrev barCell (c : Dev nD) : GSem nD τ sig := ((c : Thread nD τ), .reg barS)
abbrev sendCell (c : Dev nD) (k : Fin 7) : GSem nD τ sig := ((c : Thread nD τ), .dma (sndS k))
abbrev recvCell (c : Dev nD) (k : Fin 7) : GSem nD τ sig := ((c : Thread nD τ), .dma (rcvS k))

/-- A copy's credit: the same for every slot (and for the statistics buffer, of the same shape). -/
abbrev N : ℕ := (slot0 : Memref sig .tc .vmem S2x2048 .f32).view.dmaCredit
theorem N_pos : 0 < N := View.dmaCredit_pos _ (by decide)

end Cert.KernelIdeal.Hand

end
-- ==== Proof.KernelIdealHand.Sched.lean ====
/-
# The schedule: what each signal and each copy hands the cell's owner

Round 0 only. Device y's barrier cell has seven duties of one unit; duty j is paid by the device pr y (j + 1), the
target of y's copy number j, and hands y that device's landing slot j (at some contents) together with the fact that
the slot's receive cell has reached round 0: exactly what y's copy into it needs. A send cell's one duty returns the
share of the statistics buffer lent to the copy; a receive cell's one duty hands its owner the landing slot holding
the sender's statistics.
-/
import proofs.«900602_g7700000000000603_dist_softmax_colshard_i_m2048_n1024_v7x_i8_f32_1_alg».proof.Proof.KernelIdealHand.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device c's block of x as the kernel finds it in its staging buffer. -/
def xblk (c : Dev nD) : (cc0_stg0_0 : Ref sig .tc).ty.Contents (Elt F) :=
  (win0_0.blk (0 : Fin 1)).view.read (Elt F) (m ((c : Thread nD τ).loc main_arg0))

/-- Its statistics: row 0 the row maxima of its block, row 1 the row sums of exp (x - max). -/
def stats (c : Dev nD) : (cc0_scratch0 : Ref sig .tc).ty.Contents (Elt F) := k0_pay5 (xblk m c)

/-- exp (x - max) over its block: what the first store leaves in the result's staging buffer. -/
def eblk (c : Dev nD) : (cc0_stg1_0 : Ref sig .tc).ty.Contents (Elt F) := k0_pay4 (xblk m c)

/-- The landing buffer of device c once all seven copies have landed: slot k holds the statistics of the device
    whose copy number k is addressed to c, the device at distance 7 - k after c. -/
def commAll (c : Dev nD) : (cc0_scratch1 : Ref sig .tc).ty.Contents (Elt F) := fun i =>
  stats m (pr c (7 - (i 0).val)) (fun a => match a with
    | ⟨0, _⟩ => ⟨(i 1).val, (i 1).isLt⟩
    | ⟨1, _⟩ => ⟨(i 2).val, (i 2).isLt⟩)

/-! ## What the closing loads read, and the result -/

/-- Row 0 (the maxima) and row 1 (the sums) of a statistics buffer, as the closing loads read them. -/
def row0 (f : (cc0_scratch0 : Ref sig .tc).ty.Contents (Elt F)) : Vec F S1x2048 .f32 :=
  (sM : Memref sig .tc .vmem S2x2048 .f32).view.readAt (Elt F) (Rect.unit (s := S2x2048) ![0, 0] S1x2048.size inb_S2x2048_S1x2048_0_0).toLoadRect f
def row1 (f : (cc0_scratch0 : Ref sig .tc).ty.Contents (Elt F)) : Vec F S1x2048 .f32 :=
  (sM : Memref sig .tc .vmem S2x2048 .f32).view.readAt (Elt F) (Rect.unit (s := S2x2048) ![1, 0] S1x2048.size inb_S2x2048_S1x2048_1_0).toLoadRect f
/-- The seven landed maxima and the seven landed sums, as the closing loads read them off the landing buffer. -/
def colM (g : (cc0_scratch1 : Ref sig .tc).ty.Contents (Elt F)) : Vec F S7x1x2048 .f32 :=
  (cM : Memref sig .tc .vmem S7x2x2048 .f32).view.readAt (Elt F) (Rect.unit (s := S7x2x2048) ![0, 0, 0] S7x1x2048.size inb_S7x2x2048_S7x1x2048_0_0_0).toLoadRect g
def colS (g : (cc0_scratch1 : Ref sig .tc).ty.Contents (Elt F)) : Vec F S7x1x2048 .f32 :=
  (cM : Memref sig .tc .vmem S7x2x2048 .f32).view.readAt (Elt F) (Rect.unit (s := S7x2x2048) ![0, 1, 0] S7x1x2048.size inb_S7x2x2048_S7x1x2048_0_1_0).toLoadRect g

/-- The kernel's result on device c: exp (x - m_c) rescaled by exp (m_c - M) / S, from its own statistics and the
    seven landed ones. -/
def outAt (c : Dev nD) : (cc0_stg1_0 : Ref sig .tc).ty.Contents (Elt F) :=
  k0_pay1 (row0 (stats m c)) (row1 (stats m c)) (colM (commAll m c)) (colS (commAll m c)) (eblk m c)

/-! ## Shares of the statistics buffer lent to the seven copies -/

/-- What is left of the full share after k halvings to the right. -/
def rsh : ℕ → PosShare TreeShare
  | 0 => fullShare
  | n + 1 => (rsh n).right
/-- Copy k borrows the left half of what is left after k halvings; the last one takes the rest. -/
def qs (k : Fin 7) : PosShare TreeShare := if k.val < 6 then (rsh k.val).left else rsh 6

/-! ## The points-to assertions -/

/-- Slot k of device c's landing buffer, at the whole buffer's contents f. -/
def slotPts (c : Dev nD) (k : Fin 7) (f : Buf (Elt F) ((c : Thread nD τ).loc cc0_scratch1)) : sProp 𝕄 := match k with
  | 0 => (slot0 : Memref sig .tc .vmem S2x2048 .f32).view.loc (c : Thread nD τ) ↦[(slot0 : Memref sig .tc .vmem S2x2048 .f32).view.set]{fullShare} f
  | 1 => (slot1 : Memref sig .tc .vmem S2x2048 .f32).view.loc (c : Thread nD τ) ↦[(slot1 : Memref sig .tc .vmem S2x2048 .f32).view.set]{fullShare} f
  | 2 => (slot2 : Memref sig .tc .vmem S2x2048 .f32).view.loc (c : Thread nD τ) ↦[(slot2 : Memref sig .tc .vmem S2x2048 .f32).view.set]{fullShare} f
  | 3 => (slot3 : Memref sig .tc .vmem S2x2048 .f32).view.loc (c : Thread nD τ) ↦[(slot3 : Memref sig .tc .vmem S2x2048 .f32).view.set]{fullShare} f
  | 4 => (slot4 : Memref sig .tc .vmem S2x2048 .f32).view.loc (c : Thread nD τ) ↦[(slot4 : Memref sig .tc .vmem S2x2048 .f32).view.set]{fullShare} f
  | 5 => (slot5 : Memref sig .tc .vmem S2x2048 .f32).view.loc (c : Thread nD τ) ↦[(slot5 : Memref sig .tc .vmem S2x2048 .f32).view.set]{fullShare} f
  | 6 => (slot6 : Memref sig .tc .vmem S2x2048 .f32).view.loc (c : Thread nD τ) ↦[(slot6 : Memref sig .tc .vmem S2x2048 .f32).view.set]{fullShare} f

/-- A share of device c's statistics buffer at its statistics. -/
def statsPts (c : Dev nD) (q : PosShare TreeShare) : sProp 𝕄 :=
  (sM : Memref sig .tc .vmem S2x2048 .f32).view.loc (c : Thread nD τ) ↦[(sM : Memref sig .tc .vmem S2x2048 .f32).view.set]{q} stats m c

omit [FloatOps F] in
instance slotPts_storable (c : Dev nD) (k : Fin 7) (f) : BI.Storable (upEmb : UEmb _ 𝕄) (slotPts (F := F) c k f) := by
  unfold slotPts; fin_cases k <;> infer_instance
instance statsPts_storable (c : Dev nD) (q) : BI.Storable (upEmb : UEmb _ 𝕄) (statsPts (F := F) m c q) := by unfold statsPts; infer_instance

/-! ## The schedule -/

/-- What duty j of y's barrier cell hands y. -/
def barPay (y : Dev nD) (j : Fin 7) : sProp 𝕄 :=
  iprop((∃ f, slotPts (pr y (j.val + 1)) j f) ∗ reached ER (recvCell (pr y (j.val + 1)) j) 0)
/-- What the one duty of receive cell k hands its owner c: slot k rewritten by the copy of the statistics of the device
    at distance 7 - k after c, over whatever the slot held (the form the copy's rule leaves; Landing restates it at
    commAll). -/
def recvPay (c : Dev nD) (k : Fin 7) : sProp 𝕄 := match k with
  | 0 => iprop(∃ fd : Buf (Elt F) ((c : Thread nD τ).loc cc0_scratch1), (slot0 : Memref sig .tc .vmem S2x2048 .f32).view.loc (c : Thread nD τ) ↦[(slot0 : Memref sig .tc .vmem S2x2048 .f32).view.set]{fullShare}
      ((slot0 : Memref sig .tc .vmem S2x2048 .f32).view.write (Elt F) fd ((sM : Memref sig .tc .vmem S2x2048 .f32).view.read (Elt F) (stats m (pr c 7))) Finset.univ))
  | 1 => iprop(∃ fd : Buf (Elt F) ((c : Thread nD τ).loc cc0_scratch1), (slot1 : Memref sig .tc .vmem S2x2048 .f32).view.loc (c : Thread nD τ) ↦[(slot1 : Memref sig .tc .vmem S2x2048 .f32).view.set]{fullShare}
      ((slot1 : Memref sig .tc .vmem S2x2048 .f32).view.write (Elt F) fd ((sM : Memref sig .tc .vmem S2x2048 .f32).view.read (Elt F) (stats m (pr c 6))) Finset.univ))
  | 2 => iprop(∃ fd : Buf (Elt F) ((c : Thread nD τ).loc cc0_scratch1), (slot2 : Memref sig .tc .vmem S2x2048 .f32).view.loc (c : Thread nD τ) ↦[(slot2 : Memref sig .tc .vmem S2x2048 .f32).view.set]{fullShare}
      ((slot2 : Memref sig .tc .vmem S2x2048 .f32).view.write (Elt F) fd ((sM : Memref sig .tc .vmem S2x2048 .f32).view.read (Elt F) (stats m (pr c 5))) Finset.univ))
  | 3 => iprop(∃ fd : Buf (Elt F) ((c : Thread nD τ).loc cc0_scratch1), (slot3 : Memref sig .tc .vmem S2x2048 .f32).view.loc (c : Thread nD τ) ↦[(slot3 : Memref sig .tc .vmem S2x2048 .f32).view.set]{fullShare}
      ((slot3 : Memref sig .tc .vmem S2x2048 .f32).view.write (Elt F) fd ((sM : Memref sig .tc .vmem S2x2048 .f32).view.read (Elt F) (stats m (pr c 4))) Finset.univ))
  | 4 => iprop(∃ fd : Buf (Elt F) ((c : Thread nD τ).loc cc0_scratch1), (slot4 : Memref sig .tc .vmem S2x2048 .f32).view.loc (c : Thread nD τ) ↦[(slot4 : Memref sig .tc .vmem S2x2048 .f32).view.set]{fullShare}
      ((slot4 : Memref sig .tc .vmem S2x2048 .f32).view.write (Elt F) fd ((sM : Memref sig .tc .vmem S2x2048 .f32).view.read (Elt F) (stats m (pr c 3))) Finset.univ))
  | 5 => iprop(∃ fd : Buf (Elt F) ((c : Thread nD τ).loc cc0_scratch1), (slot5 : Memref sig .tc .vmem S2x2048 .f32).view.loc (c : Thread nD τ) ↦[(slot5 : Memref sig .tc .vmem S2x2048 .f32).view.set]{fullShare}
      ((slot5 : Memref sig .tc .vmem S2x2048 .f32).view.write (Elt F) fd ((sM : Memref sig .tc .vmem S2x2048 .f32).view.read (Elt F) (stats m (pr c 2))) Finset.univ))
  | 6 => iprop(∃ fd : Buf (Elt F) ((c : Thread nD τ).loc cc0_scratch1), (slot6 : Memref sig .tc .vmem S2x2048 .f32).view.loc (c : Thread nD τ) ↦[(slot6 : Memref sig .tc .vmem S2x2048 .f32).view.set]{fullShare}
      ((slot6 : Memref sig .tc .vmem S2x2048 .f32).view.write (Elt F) fd ((sM : Memref sig .tc .vmem S2x2048 .f32).view.read (Elt F) (stats m (pr c 1))) Finset.univ))
def sendPay (c : Dev nD) (k : Fin 7) : sProp 𝕄 := statsPts m c (qs k)

/-- The slot a DMA semaphore of the two scratch arrays serves: sends are 2 .. 8, receives 9 .. 15. -/
def slotOf (q : DmaSem sig) : Fin 7 := ⟨(q.val + 5) % 7, Nat.mod_lt _ (by decide)⟩

theorem slotOf_snd (k : Fin 7) : slotOf (sndS k) = k := by fin_cases k <;> rfl
theorem slotOf_rcv (k : Fin 7) : slotOf (rcvS k) = k := by fin_cases k <;> rfl

def softRd : Rounds.Schedule (GSem nD τ sig) (Fin 7) 𝕄 where
  duties g r :=
    if r = 0 ∧ g.1.2 = .tc then
      (match g.2 with
        | .reg s => if s = barS then Finset.univ else ∅
        | .dma q => if 2 ≤ q.val then {0} else ∅)
    else ∅
  unitless _ := False
  amount g _ _ := match g.2 with
    | .reg _ => 1
    | .dma _ => N
  payload g _ d := match g.2 with
    | .reg s => if s = barS then barPay g.1.1 d else iprop(emp)
    | .dma q => if 9 ≤ q.val then recvPay m g.1.1 (slotOf q) else if 2 ≤ q.val then sendPay m g.1.1 (slotOf q) else iprop(emp)
  amount_pos g _ _ _ := by
    rcases hg : g.2 with s | q
    · simp only [hg]; exact Nat.one_pos
    · simp only [hg]; exact N_pos

instance softRd_payload_storable (g : GSem nD τ sig) (r : ℕ) (d : Fin 7) :
    BI.Storable (upEmb : UEmb _ 𝕄) ((softRd (F := F) m).payload g r d) := by
  show BI.Storable upEmb (match g.2 with
    | .reg s => if s = barS then barPay g.1.1 d else iprop(emp)
    | .dma q => if 9 ≤ q.val then recvPay m g.1.1 (slotOf q) else if 2 ≤ q.val then sendPay m g.1.1 (slotOf q) else iprop(emp))
  unfold barPay sendPay
  (repeat' split) <;> first | infer_instance | (unfold recvPay; split <;> infer_instance)

end Cert.KernelIdeal.Hand

end
-- ==== Proof.KernelIdealHand.Tables.lean ====
/-
# The schedule's tables, entry by entry

Each cell's duties, amounts, expected units and payloads in round 0, stated with the table entry on the left and,
for the payloads, the assertion itself on the right, one statement per slot.
-/
import proofs.«900602_g7700000000000603_dist_softmax_colshard_i_m2048_n1024_v7x_i8_f32_1_alg».proof.Proof.KernelIdealHand.Sched

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Tables
variable (c : Dev nD)

omit [FloatOps F] in
theorem sndS_two_le (k : Fin 7) : 2 ≤ (sndS k).val := by rw [sndS_val]; omega
omit [FloatOps F] in
theorem rcvS_nine_le (k : Fin 7) : 9 ≤ (rcvS k).val := by rw [rcvS_val]; omega
omit [FloatOps F] in
theorem sndS_lt_nine (k : Fin 7) : ¬ 9 ≤ (sndS k).val := by rw [sndS_val]; have := k.isLt; omega

theorem duties_bar : (softRd (F := F) m).duties (barCell c) 0 = Finset.univ := by
  show (if (0 : ℕ) = 0 ∧ (Dev.tc c : Thread nD τ).2 = .tc then (if barS = barS then Finset.univ else ∅) else ∅) = _
  rw [if_pos ⟨rfl, rfl⟩, if_pos rfl]
theorem duties_send (k : Fin 7) : (softRd (F := F) m).duties (sendCell c k) 0 = {0} := by
  show (if (0 : ℕ) = 0 ∧ (Dev.tc c : Thread nD τ).2 = .tc then (if 2 ≤ (sndS k).val then ({0} : Finset (Fin 7)) else ∅) else ∅) = _
  rw [if_pos ⟨rfl, rfl⟩, if_pos (sndS_two_le k)]
theorem duties_recv (k : Fin 7) : (softRd (F := F) m).duties (recvCell c k) 0 = {0} := by
  show (if (0 : ℕ) = 0 ∧ (Dev.tc c : Thread nD τ).2 = .tc then (if 2 ≤ (rcvS k).val then ({0} : Finset (Fin 7)) else ∅) else ∅) = _
  rw [if_pos ⟨rfl, rfl⟩, if_pos (le_trans (by decide) (rcvS_nine_le k))]
theorem duties_later (g : GSem nD τ sig) : ∀ r, 1 ≤ r → (softRd (F := F) m).duties g r = ∅ :=
  fun r hr => by
    show (if r = 0 ∧ g.1.2 = .tc then _ else ∅) = _
    rw [if_neg fun h => by omega]

theorem amount_bar (d : Fin 7) : (softRd (F := F) m).amount (barCell c) 0 d = 1 := rfl
theorem amount_send (k : Fin 7) (d : Fin 7) : (softRd (F := F) m).amount (sendCell c k) 0 d = N := rfl
theorem amount_recv (k : Fin 7) (d : Fin 7) : (softRd (F := F) m).amount (recvCell c k) 0 d = N := rfl

theorem expect_bar : (softRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send (k : Fin 7) : (softRd (F := F) m).expect (sendCell c k) 0 = N := by
  unfold Schedule.expect Schedule.amountOf; rw [duties_send, Finset.sum_singleton, amount_send]
theorem expect_recv (k : Fin 7) : (softRd (F := F) m).expect (recvCell c k) 0 = N := by
  unfold Schedule.expect Schedule.amountOf; rw [duties_recv, Finset.sum_singleton, amount_recv]

theorem payload_bar (j : Fin 7) : (softRd (F := F) m).payload (barCell c) 0 j = barPay c j := by
  show (if barS = barS then barPay c j else iprop(emp)) = _
  rw [if_pos rfl]
theorem payload_send (k : Fin 7) (d : Fin 7) : (softRd (F := F) m).payload (sendCell c k) 0 d = sendPay m c k := by
  show (if 9 ≤ (sndS k).val then recvPay m c (slotOf (sndS k)) else if 2 ≤ (sndS k).val then sendPay m c (slotOf (sndS k)) else iprop(emp)) = _
  rw [if_neg (sndS_lt_nine k), if_pos (sndS_two_le k), slotOf_snd]
theorem payload_recv (k : Fin 7) (d : Fin 7) : (softRd (F := F) m).payload (recvCell c k) 0 d = recvPay m c k := by
  show (if 9 ≤ (rcvS k).val then recvPay m c (slotOf (rcvS k)) else _) = _
  rw [if_pos (rcvS_nine_le k), slotOf_rcv]

end Tables

end Cert.KernelIdeal.Hand

end
-- ==== Proof.KernelIdealHand.Ghost.lean ====
/-
# What a device holds when its body starts, and the proof data of the launch

The fifteen cells of a device by number (0 the barrier cell, 1 + k send cell k, 8 + k receive cell k); the
invariants a device's body opens (its own fifteen, the barrier cells of its seven peers, and of each peer the one
receive cell its copy credits); its positions, the rounds it knows reached and the tokens of the duties it pays;
what it owes at launch (a unit to each peer's barrier cell, a copy's credit to one receive cell of each); the
levels (barrier cells below receive cells, everything else at the bottom).
-/
import proofs.«900602_g7700000000000603_dist_softmax_colshard_i_m2048_n1024_v7x_i8_f32_1_alg».proof.Proof.KernelIdealHand.Tables

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells by number -/

abbrev csem : Fin 15 → SemLoc sig := fun
  | 0 => .reg barS
  | 1 => .dma snd0
  | 2 => .dma snd1
  | 3 => .dma snd2
  | 4 => .dma snd3
  | 5 => .dma snd4
  | 6 => .dma snd5
  | 7 => .dma snd6
  | 8 => .dma rcv0
  | 9 => .dma rcv1
  | 10 => .dma rcv2
  | 11 => .dma rcv3
  | 12 => .dma rcv4
  | 13 => .dma rcv5
  | 14 => .dma rcv6
abbrev kcell (ck : Dev nD × Fin 15) : GSem nD τ sig := ((ck.1 : Thread nD τ), csem ck.2)

/-- The kernel's own (scoped) semaphores as the launch theorem indexes them: the seven send, the seven receive. -/
abbrev osem : Fin 14 → SemLoc sig := fun
  | 0 => .dma snd0
  | 1 => .dma snd1
  | 2 => .dma snd2
  | 3 => .dma snd3
  | 4 => .dma snd4
  | 5 => .dma snd5
  | 6 => .dma snd6
  | 7 => .dma rcv0
  | 8 => .dma rcv1
  | 9 => .dma rcv2
  | 10 => .dma rcv3
  | 11 => .dma rcv4
  | 12 => .dma rcv5
  | 13 => .dma rcv6

/-! ## The two scratch buffers whole -/

def statsWhole (c : Dev nD) (f : Buf (Elt F) ((c : Thread nD τ).loc cc0_scratch0)) : sProp 𝕄 :=
  (((c : Thread nD τ).loc cc0_scratch0) ↦{fullShare} f : sProp 𝕄)
def commWhole (c : Dev nD) (f : Buf (Elt F) ((c : Thread nD τ).loc cc0_scratch1)) : sProp 𝕄 :=
  (((c : Thread nD τ).loc cc0_scratch1) ↦{fullShare} f : sProp 𝕄)

/-! ## The invariants, the ghost state, the start -/

variable (K : Dev nD × Fin 15 → ℕ)

/-- The cells' invariants device c's body opens, under the names K the launch allocated them at. -/
def invs (c : Dev nD) : sProp 𝕄 :=
  iprop(cellInv ER (softRd m) (K (c, 0)) (((c : Dev nD) : Thread nD τ), SemLoc.reg barS)
    ∗ cellInv ER (softRd m) (K (c, 1)) (((c : Dev nD) : Thread nD τ), SemLoc.dma snd0)
    ∗ cellInv ER (softRd m) (K (c, 2)) (((c : Dev nD) : Thread nD τ), SemLoc.dma snd1)
    ∗ cellInv ER (softRd m) (K (c, 3)) (((c : Dev nD) : Thread nD τ), SemLoc.dma snd2)
    ∗ cellInv ER (softRd m) (K (c, 4)) (((c : Dev nD) : Thread nD τ), SemLoc.dma snd3)
    ∗ cellInv ER (softRd m) (K (c, 5)) (((c : Dev nD) : Thread nD τ), SemLoc.dma snd4)
    ∗ cellInv ER (softRd m) (K (c, 6)) (((c : Dev nD) : Thread nD τ), SemLoc.dma snd5)
    ∗ cellInv ER (softRd m) (K (c, 7)) (((c : Dev nD) : Thread nD τ), SemLoc.dma snd6)
    ∗ cellInv ER (softRd m) (K (c, 8)) (((c : Dev nD) : Thread nD τ), SemLoc.dma rcv0)
    ∗ cellInv ER (softRd m) (K (c, 9)) (((c : Dev nD) : Thread nD τ), SemLoc.dma rcv1)
    ∗ cellInv ER (softRd m) (K (c, 10)) (((c : Dev nD) : Thread nD τ), SemLoc.dma rcv2)
    ∗ cellInv ER (softRd m) (K (c, 11)) (((c : Dev nD) : Thread nD τ), SemLoc.dma rcv3)
    ∗ cellInv ER (softRd m) (K (c, 12)) (((c : Dev nD) : Thread nD τ), SemLoc.dma rcv4)
    ∗ cellInv ER (softRd m) (K (c, 13)) (((c : Dev nD) : Thread nD τ), SemLoc.dma rcv5)
    ∗ cellInv ER (softRd m) (K (c, 14)) (((c : Dev nD) : Thread nD τ), SemLoc.dma rcv6)
    ∗ cellInv ER (softRd m) (K (pr c 1, 0)) (((pr c 1 : Dev nD) : Thread nD τ), SemLoc.reg barS)
    ∗ cellInv ER (softRd m) (K (pr c 2, 0)) (((pr c 2 : Dev nD) : Thread nD τ), SemLoc.reg barS)
    ∗ cellInv ER (softRd m) (K (pr c 3, 0)) (((pr c 3 : Dev nD) : Thread nD τ), SemLoc.reg barS)
    ∗ cellInv ER (softRd m) (K (pr c 4, 0)) (((pr c 4 : Dev nD) : Thread nD τ), SemLoc.reg barS)
    ∗ cellInv ER (softRd m) (K (pr c 5, 0)) (((pr c 5 : Dev nD) : Thread nD τ), SemLoc.reg barS)
    ∗ cellInv ER (softRd m) (K (pr c 6, 0)) (((pr c 6 : Dev nD) : Thread nD τ), SemLoc.reg barS)
    ∗ cellInv ER (softRd m) (K (pr c 7, 0)) (((pr c 7 : Dev nD) : Thread nD τ), SemLoc.reg barS)
    ∗ cellInv ER (softRd m) (K (pr c 1, 8)) (((pr c 1 : Dev nD) : Thread nD τ), SemLoc.dma rcv0)
    ∗ cellInv ER (softRd m) (K (pr c 2, 9)) (((pr c 2 : Dev nD) : Thread nD τ), SemLoc.dma rcv1)
    ∗ cellInv ER (softRd m) (K (pr c 3, 10)) (((pr c 3 : Dev nD) : Thread nD τ), SemLoc.dma rcv2)
    ∗ cellInv ER (softRd m) (K (pr c 4, 11)) (((pr c 4 : Dev nD) : Thread nD τ), SemLoc.dma rcv3)
    ∗ cellInv ER (softRd m) (K (pr c 5, 12)) (((pr c 5 : Dev nD) : Thread nD τ), SemLoc.dma rcv4)
    ∗ cellInv ER (softRd m) (K (pr c 6, 13)) (((pr c 6 : Dev nD) : Thread nD τ), SemLoc.dma rcv5)
    ∗ cellInv ER (softRd m) (K (pr c 7, 14)) (((pr c 7 : Dev nD) : Thread nD τ), SemLoc.dma rcv6))

instance invs_persistent (c : Dev nD) : BI.Persistent (invs m K c) := by unfold invs; infer_instance

/-- Its positions at round 0 of its fifteen cells. -/
def positions (c : Dev nD) : sProp 𝕄 :=
  iprop(atPos ER (((c : Dev nD) : Thread nD τ), SemLoc.reg barS) 0 ∅ 0
    ∗ atPos ER (((c : Dev nD) : Thread nD τ), SemLoc.dma snd0) 0 ∅ 0
    ∗ atPos ER (((c : Dev nD) : Thread nD τ), SemLoc.dma snd1) 0 ∅ 0
    ∗ atPos ER (((c : Dev nD) : Thread nD τ), SemLoc.dma snd2) 0 ∅ 0
    ∗ atPos ER (((c : Dev nD) : Thread nD τ), SemLoc.dma snd3) 0 ∅ 0
    ∗ atPos ER (((c : Dev nD) : Thread nD τ), SemLoc.dma snd4) 0 ∅ 0
    ∗ atPos ER (((c : Dev nD) : Thread nD τ), SemLoc.dma snd5) 0 ∅ 0
    ∗ atPos ER (((c : Dev nD) : Thread nD τ), SemLoc.dma snd6) 0 ∅ 0
    ∗ atPos ER (((c : Dev nD) : Thread nD τ), SemLoc.dma rcv0) 0 ∅ 0
    ∗ atPos ER (((c : Dev nD) : Thread nD τ), SemLoc.dma rcv1) 0 ∅ 0
    ∗ atPos ER (((c : Dev nD) : Thread nD τ), SemLoc.dma rcv2) 0 ∅ 0
    ∗ atPos ER (((c : Dev nD) : Thread nD τ), SemLoc.dma rcv3) 0 ∅ 0
    ∗ atPos ER (((c : Dev nD) : Thread nD τ), SemLoc.dma rcv4) 0 ∅ 0
    ∗ atPos ER (((c : Dev nD) : Thread nD τ), SemLoc.dma rcv5) 0 ∅ 0
    ∗ atPos ER (((c : Dev nD) : Thread nD τ), SemLoc.dma rcv6) 0 ∅ 0)

/-- Round 0 reached: of the cells it pays (peers' barrier cells, peers' receive cells, its own send cells) and of its
    own receive cells (which it tells its peers of). -/
def reacheds (c : Dev nD) : sProp 𝕄 :=
  iprop(reached ER (((pr c 1 : Dev nD) : Thread nD τ), SemLoc.reg barS) 0
    ∗ reached ER (((pr c 2 : Dev nD) : Thread nD τ), SemLoc.reg barS) 0
    ∗ reached ER (((pr c 3 : Dev nD) : Thread nD τ), SemLoc.reg barS) 0
    ∗ reached ER (((pr c 4 : Dev nD) : Thread nD τ), SemLoc.reg barS) 0
    ∗ reached ER (((pr c 5 : Dev nD) : Thread nD τ), SemLoc.reg barS) 0
    ∗ reached ER (((pr c 6 : Dev nD) : Thread nD τ), SemLoc.reg barS) 0
    ∗ reached ER (((pr c 7 : Dev nD) : Thread nD τ), SemLoc.reg barS) 0
    ∗ reached ER (((pr c 1 : Dev nD) : Thread nD τ), SemLoc.dma rcv0) 0
    ∗ reached ER (((pr c 2 : Dev nD) : Thread nD τ), SemLoc.dma rcv1) 0
    ∗ reached ER (((pr c 3 : Dev nD) : Thread nD τ), SemLoc.dma rcv2) 0
    ∗ reached ER (((pr c 4 : Dev nD) : Thread nD τ), SemLoc.dma rcv3) 0
    ∗ reached ER (((pr c 5 : Dev nD) : Thread nD τ), SemLoc.dma rcv4) 0
    ∗ reached ER (((pr c 6 : Dev nD) : Thread nD τ), SemLoc.dma rcv5) 0
    ∗ reached ER (((pr c 7 : Dev nD) : Thread nD τ), SemLoc.dma rcv6) 0
    ∗ reached ER (((c : Dev nD) : Thread nD τ), SemLoc.dma snd0) 0
    ∗ reached ER (((c : Dev nD) : Thread nD τ), SemLoc.dma snd1) 0
    ∗ reached ER (((c : Dev nD) : Thread nD τ), SemLoc.dma snd2) 0
    ∗ reached ER (((c : Dev nD) : Thread nD τ), SemLoc.dma snd3) 0
    ∗ reached ER (((c : Dev nD) : Thread nD τ), SemLoc.dma snd4) 0
    ∗ reached ER (((c : Dev nD) : Thread nD τ), SemLoc.dma snd5) 0
    ∗ reached ER (((c : Dev nD) : Thread nD τ), SemLoc.dma snd6) 0
    ∗ reached ER (((c : Dev nD) : Thread nD τ), SemLoc.dma rcv0) 0
    ∗ reached ER (((c : Dev nD) : Thread nD τ), SemLoc.dma rcv1) 0
    ∗ reached ER (((c : Dev nD) : Thread nD τ), SemLoc.dma rcv2) 0
    ∗ reached ER (((c : Dev nD) : Thread nD τ), SemLoc.dma rcv3) 0
    ∗ reached ER (((c : Dev nD) : Thread nD τ), SemLoc.dma rcv4) 0
    ∗ reached ER (((c : Dev nD) : Thread nD τ), SemLoc.dma rcv5) 0
    ∗ reached ER (((c : Dev nD) : Thread nD τ), SemLoc.dma rcv6) 0)

instance reacheds_persistent (c : Dev nD) : BI.Persistent (reacheds (F := F) c) := by unfold reacheds; infer_instance

/-- The tokens of the duties it pays: on the barrier cell of the peer at distance o the duty 7 - o; on that peer's
    receive cell o - 1 the one duty; on each of its own send cells the one duty. -/
def payToks (c : Dev nD) : sProp 𝕄 :=
  iprop(dutyTok ER (((pr c 1 : Dev nD) : Thread nD τ), SemLoc.reg barS) 0 (6 : Fin 7)
    ∗ dutyTok ER (((pr c 2 : Dev nD) : Thread nD τ), SemLoc.reg barS) 0 (5 : Fin 7)
    ∗ dutyTok ER (((pr c 3 : Dev nD) : Thread nD τ), SemLoc.reg barS) 0 (4 : Fin 7)
    ∗ dutyTok ER (((pr c 4 : Dev nD) : Thread nD τ), SemLoc.reg barS) 0 (3 : Fin 7)
    ∗ dutyTok ER (((pr c 5 : Dev nD) : Thread nD τ), SemLoc.reg barS) 0 (2 : Fin 7)
    ∗ dutyTok ER (((pr c 6 : Dev nD) : Thread nD τ), SemLoc.reg barS) 0 (1 : Fin 7)
    ∗ dutyTok ER (((pr c 7 : Dev nD) : Thread nD τ), SemLoc.reg barS) 0 (0 : Fin 7)
    ∗ dutyTok ER (((pr c 1 : Dev nD) : Thread nD τ), SemLoc.dma rcv0) 0 (0 : Fin 7)
    ∗ dutyTok ER (((pr c 2 : Dev nD) : Thread nD τ), SemLoc.dma rcv1) 0 (0 : Fin 7)
    ∗ dutyTok ER (((pr c 3 : Dev nD) : Thread nD τ), SemLoc.dma rcv2) 0 (0 : Fin 7)
    ∗ dutyTok ER (((pr c 4 : Dev nD) : Thread nD τ), SemLoc.dma rcv3) 0 (0 : Fin 7)
    ∗ dutyTok ER (((pr c 5 : Dev nD) : Thread nD τ), SemLoc.dma rcv4) 0 (0 : Fin 7)
    ∗ dutyTok ER (((pr c 6 : Dev nD) : Thread nD τ), SemLoc.dma rcv5) 0 (0 : Fin 7)
    ∗ dutyTok ER (((pr c 7 : Dev nD) : Thread nD τ), SemLoc.dma rcv6) 0 (0 : Fin 7)
    ∗ dutyTok ER (((c : Dev nD) : Thread nD τ), SemLoc.dma snd0) 0 (0 : Fin 7)
    ∗ dutyTok ER (((c : Dev nD) : Thread nD τ), SemLoc.dma snd1) 0 (0 : Fin 7)
    ∗ dutyTok ER (((c : Dev nD) : Thread nD τ), SemLoc.dma snd2) 0 (0 : Fin 7)
    ∗ dutyTok ER (((c : Dev nD) : Thread nD τ), SemLoc.dma snd3) 0 (0 : Fin 7)
    ∗ dutyTok ER (((c : Dev nD) : Thread nD τ), SemLoc.dma snd4) 0 (0 : Fin 7)
    ∗ dutyTok ER (((c : Dev nD) : Thread nD τ), SemLoc.dma snd5) 0 (0 : Fin 7)
    ∗ dutyTok ER (((c : Dev nD) : Thread nD τ), SemLoc.dma snd6) 0 (0 : Fin 7))

def ghost (c : Dev nD) : sProp 𝕄 := iprop(invs m K c ∗ positions c ∗ reacheds c ∗ payToks c)

/-- The credit dealt at launch: seven units on its barrier cell, a copy's credit on each receive cell. -/
def creds (c : Dev nD) : sProp 𝕄 :=
  iprop(cred (tallyAt (((c : Dev nD) : Thread nD τ), SemLoc.reg barS) () 7)
    ∗ cred (tallyAt (((c : Dev nD) : Thread nD τ), SemLoc.dma rcv0) () N)
    ∗ cred (tallyAt (((c : Dev nD) : Thread nD τ), SemLoc.dma rcv1) () N)
    ∗ cred (tallyAt (((c : Dev nD) : Thread nD τ), SemLoc.dma rcv2) () N)
    ∗ cred (tallyAt (((c : Dev nD) : Thread nD τ), SemLoc.dma rcv3) () N)
    ∗ cred (tallyAt (((c : Dev nD) : Thread nD τ), SemLoc.dma rcv4) () N)
    ∗ cred (tallyAt (((c : Dev nD) : Thread nD τ), SemLoc.dma rcv5) () N)
    ∗ cred (tallyAt (((c : Dev nD) : Thread nD τ), SemLoc.dma rcv6) () N))

/-! ## What a device owes at launch; the levels -/

/-- The copies' credits: to receive cell k of the peer at distance k + 1. -/
def owedCopies (c : Dev nD) : CellTallies nD τ sig Unit :=
  tallyAt (((pr c 1 : Dev nD) : Thread nD τ), SemLoc.dma rcv0) () N + tallyAt (((pr c 2 : Dev nD) : Thread nD τ), SemLoc.dma rcv1) () N + tallyAt (((pr c 3 : Dev nD) : Thread nD τ), SemLoc.dma rcv2) () N + tallyAt (((pr c 4 : Dev nD) : Thread nD τ), SemLoc.dma rcv3) () N + tallyAt (((pr c 5 : Dev nD) : Thread nD τ), SemLoc.dma rcv4) () N + tallyAt (((pr c 6 : Dev nD) : Thread nD τ), SemLoc.dma rcv5) () N + tallyAt (((pr c 7 : Dev nD) : Thread nD τ), SemLoc.dma rcv6) () N
/-- With the seven barrier units. -/
def O₀ (c : Dev nD) : CellTallies nD τ sig Unit :=
  owedCopies c + tallyAt (((pr c 7 : Dev nD) : Thread nD τ), SemLoc.reg barS) () 1 + tallyAt (((pr c 6 : Dev nD) : Thread nD τ), SemLoc.reg barS) () 1 + tallyAt (((pr c 5 : Dev nD) : Thread nD τ), SemLoc.reg barS) () 1 + tallyAt (((pr c 4 : Dev nD) : Thread nD τ), SemLoc.reg barS) () 1 + tallyAt (((pr c 3 : Dev nD) : Thread nD τ), SemLoc.reg barS) () 1 + tallyAt (((pr c 2 : Dev nD) : Thread nD τ), SemLoc.reg barS) () 1 + tallyAt (((pr c 1 : Dev nD) : Thread nD τ), SemLoc.reg barS) () 1

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- What device c's body starts from. -/
def start (c : Dev nD) : sProp 𝕄 := iprop((∃ K, ghost m K c) ∗ creds c ∗ levAts L lv)

def Φ₀ (c : Dev nD) : sProp 𝕄 := iprop(start m c ∗ (∃ f, statsWhole c f) ∗ (∃ f, commWhole c f))
/-- After the point: the two scratch buffers whole again, the fourteen own cells at zero, closed. -/
def Φ₁ (c : Dev nD) : sProp 𝕄 :=
  iprop((∃ f, statsWhole c f)
    ∗ (∃ f, commWhole c f)
    ∗ semVal (((c : Dev nD) : Thread nD τ), SemLoc.dma snd0) 0
    ∗ semVal (((c : Dev nD) : Thread nD τ), SemLoc.dma snd1) 0
    ∗ semVal (((c : Dev nD) : Thread nD τ), SemLoc.dma snd2) 0
    ∗ semVal (((c : Dev nD) : Thread nD τ), SemLoc.dma snd3) 0
    ∗ semVal (((c : Dev nD) : Thread nD τ), SemLoc.dma snd4) 0
    ∗ semVal (((c : Dev nD) : Thread nD τ), SemLoc.dma snd5) 0
    ∗ semVal (((c : Dev nD) : Thread nD τ), SemLoc.dma snd6) 0
    ∗ semVal (((c : Dev nD) : Thread nD τ), SemLoc.dma rcv0) 0
    ∗ semVal (((c : Dev nD) : Thread nD τ), SemLoc.dma rcv1) 0
    ∗ semVal (((c : Dev nD) : Thread nD τ), SemLoc.dma rcv2) 0
    ∗ semVal (((c : Dev nD) : Thread nD τ), SemLoc.dma rcv3) 0
    ∗ semVal (((c : Dev nD) : Thread nD τ), SemLoc.dma rcv4) 0
    ∗ semVal (((c : Dev nD) : Thread nD τ), SemLoc.dma rcv5) 0
    ∗ semVal (((c : Dev nD) : Thread nD τ), SemLoc.dma rcv6) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Hand

end
-- ==== Proof.KernelIdealHand.Bufs.lean ====
/-
# Cutting the landing buffer into its seven slots and the statistics buffer into seven shares, and back

The landing buffer of 7 x 2 x 2048 words is the disjoint union of its seven slots of 2 x 2048; a points-to of the whole
buffer is the seven slots' points-tos at the same contents. The statistics buffer is lent to the seven copies by
shares: the full share is the seven shares qs 0 .. qs 6. A slot rewritten by a copy of the statistics s holds, on the
slot, s: the landing restated at the contents commAll.
-/
import proofs.«900602_g7700000000000603_dist_softmax_colshard_i_m2048_n1024_v7x_i8_f32_1_alg».proof.Proof.KernelIdealHand.Ghost

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The seven slots' element sets -/

/-- A slot's element set is the unit rectangle of a slot's size at its offset. -/
theorem slot_view_set (k : ℕ) (inb : ∀ a, (![k, 0, 0] : Fin 3 → Nat) a + S1x2x2048.size a ≤ S7x2x2048.size a) :
    (((cM : Memref sig .tc .vmem S7x2x2048 .f32).slice (Rect.unit (s := S7x2x2048) ![k, 0, 0] S1x2x2048.size inb)
        (fun _ => rfl)).squeeze S2x2048 squeezes_S1x2x2048_S2x2048).view.set
      = (Rect.unit (s := S7x2x2048) ![k, 0, 0] S1x2x2048.size inb).set :=
  (View.set_reshape _ _).trans (View.set_slice_whole cc0_scratch1 _)

/-- An index of the landing buffer lies in the unit rectangle of a slot's size at [k, 0, 0] exactly when its first
    coordinate is k: the other two coordinates run over their whole axes. -/
theorem mem_slotRect {k : ℕ} {inb : ∀ a, (![k, 0, 0] : Fin 3 → Nat) a + S1x2x2048.size a ≤ S7x2x2048.size a}
    {i : S7x2x2048.Idx} :
    i ∈ (Rect.unit (s := S7x2x2048) ![k, 0, 0] S1x2x2048.size inb).set ↔ (i 0).val = k := by
  rw [Rect.mem_set_unit]
  constructor
  · intro h
    have h0 := h 0
    change k ≤ (i 0).val ∧ (i 0).val < k + 1 at h0
    omega
  · intro h a
    fin_cases a
    · change k ≤ (i 0).val ∧ (i 0).val < k + 1
      omega
    · have h1 : (i 1).val < 2 := (i 1).isLt
      change 0 ≤ (i 1).val ∧ (i 1).val < 0 + 2
      omega
    · have h2 : (i 2).val < 2048 := (i 2).isLt
      change 0 ≤ (i 2).val ∧ (i 2).val < 0 + 2048
      omega

/-- Membership in a slot's element set, as a condition on the first coordinate. -/
theorem mem_slot {k : ℕ} {inb : ∀ a, (![k, 0, 0] : Fin 3 → Nat) a + S1x2x2048.size a ≤ S7x2x2048.size a}
    {i : (cc0_scratch1 : Ref sig .tc).ty.Idx} :
    i ∈ (((cM : Memref sig .tc .vmem S7x2x2048 .f32).slice (Rect.unit (s := S7x2x2048) ![k, 0, 0] S1x2x2048.size inb)
        (fun _ => rfl)).squeeze S2x2048 squeezes_S1x2x2048_S2x2048).view.set ↔ (i 0).val = k := by
  rw [slot_view_set]; exact mem_slotRect

omit [FloatOps F] in
/-- A buffer whose elements fall into seven classes 0 .. 6, each class an element set: the whole buffer's points-to is
    the seven sets' points-tos at the same contents. -/
theorem pointsTo_seven_fibres {ℓ : Loc nD τ sig} (p : Idx ℓ → ℕ) (hp : ∀ i, p i < 7)
    {A0 A1 A2 A3 A4 A5 A6 : Finset (Idx ℓ)}
    (h0 : ∀ i, i ∈ A0 ↔ p i = 0) (h1 : ∀ i, i ∈ A1 ↔ p i = 1) (h2 : ∀ i, i ∈ A2 ↔ p i = 2)
    (h3 : ∀ i, i ∈ A3 ↔ p i = 3) (h4 : ∀ i, i ∈ A4 ↔ p i = 4) (h5 : ∀ i, i ∈ A5 ↔ p i = 5)
    (h6 : ∀ i, i ∈ A6 ↔ p i = 6) (q : PosShare TreeShare) (f : Buf (Elt F) ℓ) :
    (ℓ ↦{q} f : sProp 𝕄) = iprop((ℓ ↦[A6]{q} f) ∗ (ℓ ↦[A5]{q} f) ∗ (ℓ ↦[A4]{q} f) ∗ (ℓ ↦[A3]{q} f) ∗ (ℓ ↦[A2]{q} f)
      ∗ (ℓ ↦[A1]{q} f) ∗ ℓ ↦[A0]{q} f) := by
  have hcov : (Finset.univ : Finset (Idx ℓ)) = A6 ∪ (A5 ∪ (A4 ∪ (A3 ∪ (A2 ∪ (A1 ∪ A0))))) := by
    ext i
    simp only [Finset.mem_univ, Finset.mem_union, h0, h1, h2, h3, h4, h5, h6, true_iff]
    have := hp i
    omega
  have d6 : Disjoint A6 (A5 ∪ (A4 ∪ (A3 ∪ (A2 ∪ (A1 ∪ A0))))) := by
    rw [Finset.disjoint_left]; intro i hi hj
    simp only [Finset.mem_union, h0, h1, h2, h3, h4, h5, h6] at hi hj
    omega
  have d5 : Disjoint A5 (A4 ∪ (A3 ∪ (A2 ∪ (A1 ∪ A0)))) := by
    rw [Finset.disjoint_left]; intro i hi hj
    simp only [Finset.mem_union, h0, h1, h2, h3, h4, h5, h6] at hi hj
    omega
  have d4 : Disjoint A4 (A3 ∪ (A2 ∪ (A1 ∪ A0))) := by
    rw [Finset.disjoint_left]; intro i hi hj
    simp only [Finset.mem_union, h0, h1, h2, h3, h4, h5, h6] at hi hj
    omega
  have d3 : Disjoint A3 (A2 ∪ (A1 ∪ A0)) := by
    rw [Finset.disjoint_left]; intro i hi hj
    simp only [Finset.mem_union, h0, h1, h2, h3, h4, h5, h6] at hi hj
    omega
  have d2 : Disjoint A2 (A1 ∪ A0) := by
    rw [Finset.disjoint_left]; intro i hi hj
    simp only [Finset.mem_union, h0, h1, h2, h3, h4, h5, h6] at hi hj
    omega
  have d1 : Disjoint A1 A0 := by
    rw [Finset.disjoint_left]; intro i hi hj
    simp only [h0, h1] at hi hj
    omega
  have un : ∀ {I J : Finset (Idx ℓ)}, Disjoint I J →
      (ℓ ↦[I ∪ J]{q} f : sProp 𝕄) = iprop((ℓ ↦[I]{q} f) ∗ ℓ ↦[J]{q} f) := fun h =>
    BI.equiv_iff.mp ⟨(pointsTo_union h).1, (pointsTo_union h).2⟩
  rw [hcov, un d6, un d5, un d4, un d3, un d2, un d1]

/-! ## A slot rewritten by a copy -/

omit [FloatOps F] in
/-- A slot rewritten whole by a copy of a statistics buffer s holds, at an index i of the slot, s at the index's last
    two coordinates: i is the slot's element under the index y of those two coordinates. -/
theorem slot_write_apply (k : ℕ) (inb : ∀ a, (![k, 0, 0] : Fin 3 → Nat) a + S1x2x2048.size a ≤ S7x2x2048.size a)
    (fd : (cc0_scratch1 : Ref sig .tc).ty.Contents (Elt F)) (s : (cc0_scratch0 : Ref sig .tc).ty.Contents (Elt F))
    (i : (cc0_scratch1 : Ref sig .tc).ty.Idx) (y : (cc0_scratch0 : Ref sig .tc).ty.Idx)
    (h0 : (i 0).val = k) (h1 : (y 0).val = (i 1).val) (h2 : (y 1).val = (i 2).val) :
    (((cM : Memref sig .tc .vmem S7x2x2048 .f32).slice (Rect.unit (s := S7x2x2048) ![k, 0, 0] S1x2x2048.size inb)
        (fun _ => rfl)).squeeze S2x2048 squeezes_S1x2x2048_S2x2048).view.write (Elt F) fd
        ((sM : Memref sig .tc .vmem S2x2048 .f32).view.read (Elt F) s) Finset.univ i = s y := by
  have he : (((cM : Memref sig .tc .vmem S7x2x2048 .f32).slice (Rect.unit (s := S7x2x2048) ![k, 0, 0] S1x2x2048.size inb)
        (fun _ => rfl)).squeeze S2x2048 squeezes_S1x2x2048_S2x2048).view.emb y = i := by
    funext a; apply Fin.ext
    show ((Rect.unit (s := S7x2x2048) ![k, 0, 0] S1x2x2048.size inb).emb
      (Shape.reshapeEquiv squeezes_S1x2x2048_S2x2048.numel_eq y) a : ℕ) = (i a).val
    rw [Shape.reshapeEquiv_cons_one (n := 2) (d := ![2, 2048]) _ y, Rect.emb_apply]
    fin_cases a
    · show k + 1 * 0 = (i 0).val
      omega
    · show 0 + 1 * (y 0).val = (i 1).val
      omega
    · show 0 + 1 * (y 1).val = (i 2).val
      omega
  rw [← he, View.write_emb_of_mem _ _ (Finset.mem_univ _)]
  rfl

/-! ## The seven shares -/

theorem qs_zero : qs 0 = (rsh 0).left := if_pos (by decide)
theorem qs_one : qs 1 = (rsh 1).left := if_pos (by decide)
theorem qs_two : qs 2 = (rsh 2).left := if_pos (by decide)
theorem qs_three : qs 3 = (rsh 3).left := if_pos (by decide)
theorem qs_four : qs 4 = (rsh 4).left := if_pos (by decide)
theorem qs_five : qs 5 = (rsh 5).left := if_pos (by decide)
theorem qs_six : qs 6 = rsh 6 := if_neg (by decide)

omit [FloatOps F] in
/-- One halving: what is left after n halvings is its left half together with what is left after n + 1. -/
theorem pointsTo_rsh (ℓ : Loc nD τ sig) (I : Finset (Idx ℓ)) (f : Buf (Elt F) ℓ) (n : ℕ) :
    (ℓ ↦[I]{rsh n} f : sProp 𝕄) = iprop((ℓ ↦[I]{(rsh n).left} f) ∗ ℓ ↦[I]{rsh (n + 1)} f) :=
  have h : (ℓ ↦[I]{rsh n} f : sProp 𝕄) ⊣⊢ iprop((ℓ ↦[I]{(rsh n).left} f) ∗ ℓ ↦[I]{(rsh n).right} f) :=
    pointsTo_share (PosShare.mem_left_op_right (rsh n))
  BI.equiv_iff.mp ⟨h.1, h.2⟩

omit [FloatOps F] in
/-- The full share of any element set is the seven shares qs 0 .. qs 6 of it. -/
theorem pointsTo_seven_shares (ℓ : Loc nD τ sig) (I : Finset (Idx ℓ)) (f : Buf (Elt F) ℓ) :
    (ℓ ↦[I]{fullShare} f : sProp 𝕄) = iprop((ℓ ↦[I]{qs 0} f) ∗ (ℓ ↦[I]{qs 1} f) ∗ (ℓ ↦[I]{qs 2} f) ∗ (ℓ ↦[I]{qs 3} f)
      ∗ (ℓ ↦[I]{qs 4} f) ∗ (ℓ ↦[I]{qs 5} f) ∗ ℓ ↦[I]{qs 6} f) := by
  rw [qs_zero, qs_one, qs_two, qs_three, qs_four, qs_five, qs_six]
  show (ℓ ↦[I]{rsh 0} f : sProp 𝕄) = _
  rw [pointsTo_rsh ℓ I f 0, pointsTo_rsh ℓ I f 1, pointsTo_rsh ℓ I f 2, pointsTo_rsh ℓ I f 3, pointsTo_rsh ℓ I f 4,
    pointsTo_rsh ℓ I f 5]

omit [FloatOps F] in
/-- The statistics buffer's view is the whole buffer. -/
theorem sM_set : (sM : Memref sig .tc .vmem S2x2048 .f32).view.set = Finset.univ := View.set_whole cc0_scratch0

omit [FloatOps F] in
/-- The whole landing buffer is its seven slots (listed last slot first, the order the signals hand them out). -/
theorem comm_split (c : Dev nD) (f : Buf (Elt F) ((c : Thread nD τ).loc cc0_scratch1)) :
    commWhole c f ⊢ (iprop(((slot6 : Memref sig .tc .vmem S2x2048 .f32).view.loc ((c : Dev nD) : Thread nD τ) ↦[(slot6 : Memref sig .tc .vmem S2x2048 .f32).view.set]{fullShare} f)
      ∗ ((slot5 : Memref sig .tc .vmem S2x2048 .f32).view.loc ((c : Dev nD) : Thread nD τ) ↦[(slot5 : Memref sig .tc .vmem S2x2048 .f32).view.set]{fullShare} f)
      ∗ ((slot4 : Memref sig .tc .vmem S2x2048 .f32).view.loc ((c : Dev nD) : Thread nD τ) ↦[(slot4 : Memref sig .tc .vmem S2x2048 .f32).view.set]{fullShare} f)
      ∗ ((slot3 : Memref sig .tc .vmem S2x2048 .f32).view.loc ((c : Dev nD) : Thread nD τ) ↦[(slot3 : Memref sig .tc .vmem S2x2048 .f32).view.set]{fullShare} f)
      ∗ ((slot2 : Memref sig .tc .vmem S2x2048 .f32).view.loc ((c : Dev nD) : Thread nD τ) ↦[(slot2 : Memref sig .tc .vmem S2x2048 .f32).view.set]{fullShare} f)
      ∗ ((slot1 : Memref sig .tc .vmem S2x2048 .f32).view.loc ((c : Dev nD) : Thread nD τ) ↦[(slot1 : Memref sig .tc .vmem S2x2048 .f32).view.set]{fullShare} f)
      ∗ ((slot0 : Memref sig .tc .vmem S2x2048 .f32).view.loc ((c : Dev nD) : Thread nD τ) ↦[(slot0 : Memref sig .tc .vmem S2x2048 .f32).view.set]{fullShare} f)) : sProp 𝕄) := by
  unfold commWhole
  exact Entails.of_eq (pointsTo_seven_fibres (ℓ := ((c : Dev nD) : Thread nD τ).loc cc0_scratch1)
    (fun i => (i 0).val) (fun i => (i 0).isLt)
    (A0 := (slot0 : Memref sig .tc .vmem S2x2048 .f32).view.set) (A1 := (slot1 : Memref sig .tc .vmem S2x2048 .f32).view.set)
    (A2 := (slot2 : Memref sig .tc .vmem S2x2048 .f32).view.set) (A3 := (slot3 : Memref sig .tc .vmem S2x2048 .f32).view.set)
    (A4 := (slot4 : Memref sig .tc .vmem S2x2048 .f32).view.set) (A5 := (slot5 : Memref sig .tc .vmem S2x2048 .f32).view.set)
    (A6 := (slot6 : Memref sig .tc .vmem S2x2048 .f32).view.set)
    (fun i => mem_slot) (fun i => mem_slot) (fun i => mem_slot) (fun i => mem_slot) (fun i => mem_slot)
    (fun i => mem_slot) (fun i => mem_slot) fullShare f)

omit [FloatOps F] in
/-- Seven slots at one contents are the whole landing buffer. -/
theorem comm_join (c : Dev nD) (f : Buf (Elt F) ((c : Thread nD τ).loc cc0_scratch1)) :
    (iprop(((slot0 : Memref sig .tc .vmem S2x2048 .f32).view.loc ((c : Dev nD) : Thread nD τ) ↦[(slot0 : Memref sig .tc .vmem S2x2048 .f32).view.set]{fullShare} f)
      ∗ ((slot1 : Memref sig .tc .vmem S2x2048 .f32).view.loc ((c : Dev nD) : Thread nD τ) ↦[(slot1 : Memref sig .tc .vmem S2x2048 .f32).view.set]{fullShare} f)
      ∗ ((slot2 : Memref sig .tc .vmem S2x2048 .f32).view.loc ((c : Dev nD) : Thread nD τ) ↦[(slot2 : Memref sig .tc .vmem S2x2048 .f32).view.set]{fullShare} f)
      ∗ ((slot3 : Memref sig .tc .vmem S2x2048 .f32).view.loc ((c : Dev nD) : Thread nD τ) ↦[(slot3 : Memref sig .tc .vmem S2x2048 .f32).view.set]{fullShare} f)
      ∗ ((slot4 : Memref sig .tc .vmem S2x2048 .f32).view.loc ((c : Dev nD) : Thread nD τ) ↦[(slot4 : Memref sig .tc .vmem S2x2048 .f32).view.set]{fullShare} f)
      ∗ ((slot5 : Memref sig .tc .vmem S2x2048 .f32).view.loc ((c : Dev nD) : Thread nD τ) ↦[(slot5 : Memref sig .tc .vmem S2x2048 .f32).view.set]{fullShare} f)
      ∗ ((slot6 : Memref sig .tc .vmem S2x2048 .f32).view.loc ((c : Dev nD) : Thread nD τ) ↦[(slot6 : Memref sig .tc .vmem S2x2048 .f32).view.set]{fullShare} f)) : sProp 𝕄) ⊢ commWhole c f := by
  unfold commWhole
  have hlt : ∀ i : Idx (((c : Dev nD) : Thread nD τ).loc cc0_scratch1), (i 0).val < 7 := fun i => (i 0).isLt
  exact Entails.of_eq (pointsTo_seven_fibres (ℓ := ((c : Dev nD) : Thread nD τ).loc cc0_scratch1)
    (fun i => 6 - (i 0).val) (fun i => by omega)
    (A0 := (slot6 : Memref sig .tc .vmem S2x2048 .f32).view.set) (A1 := (slot5 : Memref sig .tc .vmem S2x2048 .f32).view.set)
    (A2 := (slot4 : Memref sig .tc .vmem S2x2048 .f32).view.set) (A3 := (slot3 : Memref sig .tc .vmem S2x2048 .f32).view.set)
    (A4 := (slot2 : Memref sig .tc .vmem S2x2048 .f32).view.set) (A5 := (slot1 : Memref sig .tc .vmem S2x2048 .f32).view.set)
    (A6 := (slot0 : Memref sig .tc .vmem S2x2048 .f32).view.set)
    (fun i => mem_slot.trans (by have := hlt i; omega)) (fun i => mem_slot.trans (by have := hlt i; omega))
    (fun i => mem_slot.trans (by have := hlt i; omega)) (fun i => mem_slot.trans (by have := hlt i; omega))
    (fun i => mem_slot.trans (by have := hlt i; omega)) (fun i => mem_slot.trans (by have := hlt i; omega))
    (fun i => mem_slot.trans (by have := hlt i; omega)) fullShare f).symm

omit [FloatOps F] in
/-- The full share of the statistics buffer is the seven shares lent to the copies. -/
theorem stats_split (c : Dev nD) (f : Buf (Elt F) ((c : Thread nD τ).loc cc0_scratch0)) :
    statsWhole c f ⊢ (iprop(((sM : Memref sig .tc .vmem S2x2048 .f32).view.loc ((c : Dev nD) : Thread nD τ) ↦[(sM : Memref sig .tc .vmem S2x2048 .f32).view.set]{qs 0} f)
      ∗ ((sM : Memref sig .tc .vmem S2x2048 .f32).view.loc ((c : Dev nD) : Thread nD τ) ↦[(sM : Memref sig .tc .vmem S2x2048 .f32).view.set]{qs 1} f)
      ∗ ((sM : Memref sig .tc .vmem S2x2048 .f32).view.loc ((c : Dev nD) : Thread nD τ) ↦[(sM : Memref sig .tc .vmem S2x2048 .f32).view.set]{qs 2} f)
      ∗ ((sM : Memref sig .tc .vmem S2x2048 .f32).view.loc ((c : Dev nD) : Thread nD τ) ↦[(sM : Memref sig .tc .vmem S2x2048 .f32).view.set]{qs 3} f)
      ∗ ((sM : Memref sig .tc .vmem S2x2048 .f32).view.loc ((c : Dev nD) : Thread nD τ) ↦[(sM : Memref sig .tc .vmem S2x2048 .f32).view.set]{qs 4} f)
      ∗ ((sM : Memref sig .tc .vmem S2x2048 .f32).view.loc ((c : Dev nD) : Thread nD τ) ↦[(sM : Memref sig .tc .vmem S2x2048 .f32).view.set]{qs 5} f)
      ∗ ((sM : Memref sig .tc .vmem S2x2048 .f32).view.loc ((c : Dev nD) : Thread nD τ) ↦[(sM : Memref sig .tc .vmem S2x2048 .f32).view.set]{qs 6} f)) : sProp 𝕄) := by
  unfold statsWhole
  rw [sM_set]
  exact Entails.of_eq (pointsTo_seven_shares _ _ f)

omit [FloatOps F] in
theorem stats_join (c : Dev nD) (f : Buf (Elt F) ((c : Thread nD τ).loc cc0_scratch0)) :
    (iprop(((sM : Memref sig .tc .vmem S2x2048 .f32).view.loc ((c : Dev nD) : Thread nD τ) ↦[(sM : Memref sig .tc .vmem S2x2048 .f32).view.set]{qs 0} f)
      ∗ ((sM : Memref sig .tc .vmem S2x2048 .f32).view.loc ((c : Dev nD) : Thread nD τ) ↦[(sM : Memref sig .tc .vmem S2x2048 .f32).view.set]{qs 1} f)
      ∗ ((sM : Memref sig .tc .vmem S2x2048 .f32).view.loc ((c : Dev nD) : Thread nD τ) ↦[(sM : Memref sig .tc .vmem S2x2048 .f32).view.set]{qs 2} f)
      ∗ ((sM : Memref sig .tc .vmem S2x2048 .f32).view.loc ((c : Dev nD) : Thread nD τ) ↦[(sM : Memref sig .tc .vmem S2x2048 .f32).view.set]{qs 3} f)
      ∗ ((sM : Memref sig .tc .vmem S2x2048 .f32).view.loc ((c : Dev nD) : Thread nD τ) ↦[(sM : Memref sig .tc .vmem S2x2048 .f32).view.set]{qs 4} f)
      ∗ ((sM : Memref sig .tc .vmem S2x2048 .f32).view.loc ((c : Dev nD) : Thread nD τ) ↦[(sM : Memref sig .tc .vmem S2x2048 .f32).view.set]{qs 5} f)
      ∗ ((sM : Memref sig .tc .vmem S2x2048 .f32).view.loc ((c : Dev nD) : Thread nD τ) ↦[(sM : Memref sig .tc .vmem S2x2048 .f32).view.set]{qs 6} f)) : sProp 𝕄) ⊢ statsWhole c f := by
  unfold statsWhole
  rw [sM_set]
  exact Entails.of_eq (pointsTo_seven_shares _ _ f).symm

/-- What receive cell k hands its owner, restated: slot k at the contents commAll. -/
theorem landed (c : Dev nD) (k : Fin 7) : recvPay m c k ⊢ slotPts c k (commAll m c) := by
  have key : ∀ (j : ℕ) (inb : ∀ a, (![j, 0, 0] : Fin 3 → Nat) a + S1x2x2048.size a ≤ S7x2x2048.size a) (o : ℕ)
      (ho : 7 - j = o) (fd : Buf (Elt F) (((c : Dev nD) : Thread nD τ).loc cc0_scratch1)),
      ((((cM : Memref sig .tc .vmem S7x2x2048 .f32).slice (Rect.unit (s := S7x2x2048) ![j, 0, 0] S1x2x2048.size inb)
          (fun _ => rfl)).squeeze S2x2048 squeezes_S1x2x2048_S2x2048).view.loc ((c : Dev nD) : Thread nD τ)
        ↦[(((cM : Memref sig .tc .vmem S7x2x2048 .f32).slice (Rect.unit (s := S7x2x2048) ![j, 0, 0] S1x2x2048.size inb)
          (fun _ => rfl)).squeeze S2x2048 squeezes_S1x2x2048_S2x2048).view.set]{fullShare}
          ((((cM : Memref sig .tc .vmem S7x2x2048 .f32).slice (Rect.unit (s := S7x2x2048) ![j, 0, 0] S1x2x2048.size inb)
            (fun _ => rfl)).squeeze S2x2048 squeezes_S1x2x2048_S2x2048).view.write (Elt F) fd
            ((sM : Memref sig .tc .vmem S2x2048 .f32).view.read (Elt F) (stats m (pr c o))) Finset.univ) : sProp 𝕄)
        = ((((cM : Memref sig .tc .vmem S7x2x2048 .f32).slice (Rect.unit (s := S7x2x2048) ![j, 0, 0] S1x2x2048.size inb)
          (fun _ => rfl)).squeeze S2x2048 squeezes_S1x2x2048_S2x2048).view.loc ((c : Dev nD) : Thread nD τ)
        ↦[(((cM : Memref sig .tc .vmem S7x2x2048 .f32).slice (Rect.unit (s := S7x2x2048) ![j, 0, 0] S1x2x2048.size inb)
          (fun _ => rfl)).squeeze S2x2048 squeezes_S1x2x2048_S2x2048).view.set]{fullShare} commAll m c) := by
    intro j inb o ho fd
    refine pointsTo_congr fun i hi => ?_
    have h0 : (i 0).val = j := mem_slot.mp hi
    show _ = stats m (pr c (7 - (i 0).val)) _
    rw [h0, ho]
    exact slot_write_apply j inb fd _ i _ h0 rfl rfl
  fin_cases k
  · exact exists_elim fun fd => Entails.of_eq (key 0 _ 7 rfl fd)
  · exact exists_elim fun fd => Entails.of_eq (key 1 _ 6 rfl fd)
  · exact exists_elim fun fd => Entails.of_eq (key 2 _ 5 rfl fd)
  · exact exists_elim fun fd => Entails.of_eq (key 3 _ 4 rfl fd)
  · exact exists_elim fun fd => Entails.of_eq (key 4 _ 3 rfl fd)
  · exact exists_elim fun fd => Entails.of_eq (key 5 _ 2 rfl fd)
  · exact exists_elim fun fd => Entails.of_eq (key 6 _ 1 rfl fd)

end Cert.KernelIdeal.Hand

end
-- ==== Proof.KernelIdealHand.Body.lean ====
/-
# One device's body, stepped from what it holds at the start to what it leaves
-/
import proofs.«900602_g7700000000000603_dist_softmax_colshard_i_m2048_n1024_v7x_i8_f32_1_alg».proof.Proof.KernelIdealHand.Bufs
import proofs.«900602_g7700000000000603_dist_softmax_colshard_i_m2048_n1024_v7x_i8_f32_1_alg».proof.Proof.Gen.KernelIdeal.Points

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic

local notation "𝕄" => MT nD τ sig Unit (Elt F) ℕ UU ℕ

variable (m : (ℓ : Loc nD τ sig) → Buf (Elt F) ℓ) (ρ : Dev nD → PrngReg)

/-! ## The schedule's tables at each slot, as the run reads them -/

theorem duties_bar' (c : Dev nD) : (softRd (F := F) m).duties (((c : Dev nD) : Thread nD τ), SemLoc.reg barS) 0 = {0, 1, 2, 3, 4, 5, 6} := by
  rw [duties_bar]; decide
theorem amount_bar' (c : Dev nD) (d : Fin 7) : (softRd (F := F) m).amount (((c : Dev nD) : Thread nD τ), SemLoc.reg barS) 0 d = 1 := rfl
theorem expect_bar' (c : Dev nD) : (softRd (F := F) m).expect (((c : Dev nD) : Thread nD τ), SemLoc.reg barS) 0 = 7 := expect_bar m c
theorem duties_snd0 (c : Dev nD) : (softRd (F := F) m).duties (((c : Dev nD) : Thread nD τ), SemLoc.dma snd0) 0 = {0} := duties_send m c 0
theorem duties_snd1 (c : Dev nD) : (softRd (F := F) m).duties (((c : Dev nD) : Thread nD τ), SemLoc.dma snd1) 0 = {0} := duties_send m c 1
theorem duties_snd2 (c : Dev nD) : (softRd (F := F) m).duties (((c : Dev nD) : Thread nD τ), SemLoc.dma snd2) 0 = {0} := duties_send m c 2
theorem duties_snd3 (c : Dev nD) : (softRd (F := F) m).duties (((c : Dev nD) : Thread nD τ), SemLoc.dma snd3) 0 = {0} := duties_send m c 3
theorem duties_snd4 (c : Dev nD) : (softRd (F := F) m).duties (((c : Dev nD) : Thread nD τ), SemLoc.dma snd4) 0 = {0} := duties_send m c 4
theorem duties_snd5 (c : Dev nD) : (softRd (F := F) m).duties (((c : Dev nD) : Thread nD τ), SemLoc.dma snd5) 0 = {0} := duties_send m c 5
theorem duties_snd6 (c : Dev nD) : (softRd (F := F) m).duties (((c : Dev nD) : Thread nD τ), SemLoc.dma snd6) 0 = {0} := duties_send m c 6
theorem duties_rcv0 (c : Dev nD) : (softRd (F := F) m).duties (((c : Dev nD) : Thread nD τ), SemLoc.dma rcv0) 0 = {0} := duties_recv m c 0
theorem duties_rcv1 (c : Dev nD) : (softRd (F := F) m).duties (((c : Dev nD) : Thread nD τ), SemLoc.dma rcv1) 0 = {0} := duties_recv m c 1
theorem duties_rcv2 (c : Dev nD) : (softRd (F := F) m).duties (((c : Dev nD) : Thread nD τ), SemLoc.dma rcv2) 0 = {0} := duties_recv m c 2
theorem duties_rcv3 (c : Dev nD) : (softRd (F := F) m).duties (((c : Dev nD) : Thread nD τ), SemLoc.dma rcv3) 0 = {0} := duties_recv m c 3
theorem duties_rcv4 (c : Dev nD) : (softRd (F := F) m).duties (((c : Dev nD) : Thread nD τ), SemLoc.dma rcv4) 0 = {0} := duties_recv m c 4
theorem duties_rcv5 (c : Dev nD) : (softRd (F := F) m).duties (((c : Dev nD) : Thread nD τ), SemLoc.dma rcv5) 0 = {0} := duties_recv m c 5
theorem duties_rcv6 (c : Dev nD) : (softRd (F := F) m).duties (((c : Dev nD) : Thread nD τ), SemLoc.dma rcv6) 0 = {0} := duties_recv m c 6
theorem amount_snd0 (c : Dev nD) (d : Fin 7) : (softRd (F := F) m).amount (((c : Dev nD) : Thread nD τ), SemLoc.dma snd0) 0 d = N := rfl
theorem amount_snd1 (c : Dev nD) (d : Fin 7) : (softRd (F := F) m).amount (((c : Dev nD) : Thread nD τ), SemLoc.dma snd1) 0 d = N := rfl
theorem amount_snd2 (c : Dev nD) (d : Fin 7) : (softRd (F := F) m).amount (((c : Dev nD) : Thread nD τ), SemLoc.dma snd2) 0 d = N := rfl
theorem amount_snd3 (c : Dev nD) (d : Fin 7) : (softRd (F := F) m).amount (((c : Dev nD) : Thread nD τ), SemLoc.dma snd3) 0 d = N := rfl
theorem amount_snd4 (c : Dev nD) (d : Fin 7) : (softRd (F := F) m).amount (((c : Dev nD) : Thread nD τ), SemLoc.dma snd4) 0 d = N := rfl
theorem amount_snd5 (c : Dev nD) (d : Fin 7) : (softRd (F := F) m).amount (((c : Dev nD) : Thread nD τ), SemLoc.dma snd5) 0 d = N := rfl
theorem amount_snd6 (c : Dev nD) (d : Fin 7) : (softRd (F := F) m).amount (((c : Dev nD) : Thread nD τ), SemLoc.dma snd6) 0 d = N := rfl
theorem amount_rcv0 (c : Dev nD) (d : Fin 7) : (softRd (F := F) m).amount (((c : Dev nD) : Thread nD τ), SemLoc.dma rcv0) 0 d = N := rfl
theorem amount_rcv1 (c : Dev nD) (d : Fin 7) : (softRd (F := F) m).amount (((c : Dev nD) : Thread nD τ), SemLoc.dma rcv1) 0 d = N := rfl
theorem amount_rcv2 (c : Dev nD) (d : Fin 7) : (softRd (F := F) m).amount (((c : Dev nD) : Thread nD τ), SemLoc.dma rcv2) 0 d = N := rfl
theorem amount_rcv3 (c : Dev nD) (d : Fin 7) : (softRd (F := F) m).amount (((c : Dev nD) : Thread nD τ), SemLoc.dma rcv3) 0 d = N := rfl
theorem amount_rcv4 (c : Dev nD) (d : Fin 7) : (softRd (F := F) m).amount (((c : Dev nD) : Thread nD τ), SemLoc.dma rcv4) 0 d = N := rfl
theorem amount_rcv5 (c : Dev nD) (d : Fin 7) : (softRd (F := F) m).amount (((c : Dev nD) : Thread nD τ), SemLoc.dma rcv5) 0 d = N := rfl
theorem amount_rcv6 (c : Dev nD) (d : Fin 7) : (softRd (F := F) m).amount (((c : Dev nD) : Thread nD τ), SemLoc.dma rcv6) 0 d = N := rfl
theorem expect_snd0 (c : Dev nD) : (softRd (F := F) m).expect (((c : Dev nD) : Thread nD τ), SemLoc.dma snd0) 0 = N := expect_send m c 0
theorem expect_snd1 (c : Dev nD) : (softRd (F := F) m).expect (((c : Dev nD) : Thread nD τ), SemLoc.dma snd1) 0 = N := expect_send m c 1
theorem expect_snd2 (c : Dev nD) : (softRd (F := F) m).expect (((c : Dev nD) : Thread nD τ), SemLoc.dma snd2) 0 = N := expect_send m c 2
theorem expect_snd3 (c : Dev nD) : (softRd (F := F) m).expect (((c : Dev nD) : Thread nD τ), SemLoc.dma snd3) 0 = N := expect_send m c 3
theorem expect_snd4 (c : Dev nD) : (softRd (F := F) m).expect (((c : Dev nD) : Thread nD τ), SemLoc.dma snd4) 0 = N := expect_send m c 4
theorem expect_snd5 (c : Dev nD) : (softRd (F := F) m).expect (((c : Dev nD) : Thread nD τ), SemLoc.dma snd5) 0 = N := expect_send m c 5
theorem expect_snd6 (c : Dev nD) : (softRd (F := F) m).expect (((c : Dev nD) : Thread nD τ), SemLoc.dma snd6) 0 = N := expect_send m c 6
theorem expect_rcv0 (c : Dev nD) : (softRd (F := F) m).expect (((c : Dev nD) : Thread nD τ), SemLoc.dma rcv0) 0 = N := expect_recv m c 0
theorem expect_rcv1 (c : Dev nD) : (softRd (F := F) m).expect (((c : Dev nD) : Thread nD τ), SemLoc.dma rcv1) 0 = N := expect_recv m c 1
theorem expect_rcv2 (c : Dev nD) : (softRd (F := F) m).expect (((c : Dev nD) : Thread nD τ), SemLoc.dma rcv2) 0 = N := expect_recv m c 2
theorem expect_rcv3 (c : Dev nD) : (softRd (F := F) m).expect (((c : Dev nD) : Thread nD τ), SemLoc.dma rcv3) 0 = N := expect_recv m c 3
theorem expect_rcv4 (c : Dev nD) : (softRd (F := F) m).expect (((c : Dev nD) : Thread nD τ), SemLoc.dma rcv4) 0 = N := expect_recv m c 4
theorem expect_rcv5 (c : Dev nD) : (softRd (F := F) m).expect (((c : Dev nD) : Thread nD τ), SemLoc.dma rcv5) 0 = N := expect_recv m c 5
theorem expect_rcv6 (c : Dev nD) : (softRd (F := F) m).expect (((c : Dev nD) : Thread nD τ), SemLoc.dma rcv6) 0 = N := expect_recv m c 6
theorem payload_sig1 (c : Dev nD) : (softRd (F := F) m).payload (((pr c 1 : Dev nD) : Thread nD τ), SemLoc.reg barS) 0 (6 : Fin 7)
    = iprop((∃ f, ((slot6 : Memref sig .tc .vmem S2x2048 .f32).view.loc ((c : Dev nD) : Thread nD τ) ↦[(slot6 : Memref sig .tc .vmem S2x2048 .f32).view.set]{fullShare} f)) ∗ reached ER (((c : Dev nD) : Thread nD τ), SemLoc.dma rcv6) 0) := by
  rw [payload_bar]; unfold barPay
  rw [show pr (pr c 1) ((6 : Fin 7).val + 1) = c from by rw [pr_pr]; exact pr_eight c]
  rfl
theorem payload_sig2 (c : Dev nD) : (softRd (F := F) m).payload (((pr c 2 : Dev nD) : Thread nD τ), SemLoc.reg barS) 0 (5 : Fin 7)
    = iprop((∃ f, ((slot5 : Memref sig .tc .vmem S2x2048 .f32).view.loc ((c : Dev nD) : Thread nD τ) ↦[(slot5 : Memref sig .tc .vmem S2x2048 .f32).view.set]{fullShare} f)) ∗ reached ER (((c : Dev nD) : Thread nD τ), SemLoc.dma rcv5) 0) := by
  rw [payload_bar]; unfold barPay
  rw [show pr (pr c 2) ((5 : Fin 7).val + 1) = c from by rw [pr_pr]; exact pr_eight c]
  rfl
theorem payload_sig3 (c : Dev nD) : (softRd (F := F) m).payload (((pr c 3 : Dev nD) : Thread nD τ), SemLoc.reg barS) 0 (4 : Fin 7)
    = iprop((∃ f, ((slot4 : Memref sig .tc .vmem S2x2048 .f32).view.loc ((c : Dev nD) : Thread nD τ) ↦[(slot4 : Memref sig .tc .vmem S2x2048 .f32).view.set]{fullShare} f)) ∗ reached ER (((c : Dev nD) : Thread nD τ), SemLoc.dma rcv4) 0) := by
  rw [payload_bar]; unfold barPay
  rw [show pr (pr c 3) ((4 : Fin 7).val + 1) = c from by rw [pr_pr]; exact pr_eight c]
  rfl
theorem payload_sig4 (c : Dev nD) : (softRd (F := F) m).payload (((pr c 4 : Dev nD) : Thread nD τ), SemLoc.reg barS) 0 (3 : Fin 7)
    = iprop((∃ f, ((slot3 : Memref sig .tc .vmem S2x2048 .f32).view.loc ((c : Dev nD) : Thread nD τ) ↦[(slot3 : Memref sig .tc .vmem S2x2048 .f32).view.set]{fullShare} f)) ∗ reached ER (((c : Dev nD) : Thread nD τ), SemLoc.dma rcv3) 0) := by
  rw [payload_bar]; unfold barPay
  rw [show pr (pr c 4) ((3 : Fin 7).val + 1) = c from by rw [pr_pr]; exact pr_eight c]
  rfl
theorem payload_sig5 (c : Dev nD) : (softRd (F := F) m).payload (((pr c 5 : Dev nD) : Thread nD τ), SemLoc.reg barS) 0 (2 : Fin 7)
    = iprop((∃ f, ((slot2 : Memref sig .tc .vmem S2x2048 .f32).view.loc ((c : Dev nD) : Thread nD τ) ↦[(slot2 : Memref sig .tc .vmem S2x2048 .f32).view.set]{fullShare} f)) ∗ reached ER (((c : Dev nD) : Thread nD τ), SemLoc.dma rcv2) 0) := by
  rw [payload_bar]; unfold barPay
  rw [show pr (pr c 5) ((2 : Fin 7).val + 1) = c from by rw [pr_pr]; exact pr_eight c]
  rfl
theorem payload_sig6 (c : Dev nD) : (softRd (F := F) m).payload (((pr c 6 : Dev nD) : Thread nD τ), SemLoc.reg barS) 0 (1 : Fin 7)
    = iprop((∃ f, ((slot1 : Memref sig .tc .vmem S2x2048 .f32).view.loc ((c : Dev nD) : Thread nD τ) ↦[(slot1 : Memref sig .tc .vmem S2x2048 .f32).view.set]{fullShare} f)) ∗ reached ER (((c : Dev nD) : Thread nD τ), SemLoc.dma rcv1) 0) := by
  rw [payload_bar]; unfold barPay
  rw [show pr (pr c 6) ((1 : Fin 7).val + 1) = c from by rw [pr_pr]; exact pr_eight c]
  rfl
theorem payload_sig7 (c : Dev nD) : (softRd (F := F) m).payload (((pr c 7 : Dev nD) : Thread nD τ), SemLoc.reg barS) 0 (0 : Fin 7)
    = iprop((∃ f, ((slot0 : Memref sig .tc .vmem S2x2048 .f32).view.loc ((c : Dev nD) : Thread nD τ) ↦[(slot0 : Memref sig .tc .vmem S2x2048 .f32).view.set]{fullShare} f)) ∗ reached ER (((c : Dev nD) : Thread nD τ), SemLoc.dma rcv0) 0) := by
  rw [payload_bar]; unfold barPay
  rw [show pr (pr c 7) ((0 : Fin 7).val + 1) = c from by rw [pr_pr]; exact pr_eight c]
  rfl
theorem payload_snd0 (c : Dev nD) (d : Fin 7) : (softRd (F := F) m).payload (((c : Dev nD) : Thread nD τ), SemLoc.dma snd0) 0 d = ((sM : Memref sig .tc .vmem S2x2048 .f32).view.loc ((c : Dev nD) : Thread nD τ) ↦[(sM : Memref sig .tc .vmem S2x2048 .f32).view.set]{qs 0} stats m c) :=
  payload_send m c 0 d
theorem payload_snd1 (c : Dev nD) (d : Fin 7) : (softRd (F := F) m).payload (((c : Dev nD) : Thread nD τ), SemLoc.dma snd1) 0 d = ((sM : Memref sig .tc .vmem S2x2048 .f32).view.loc ((c : Dev nD) : Thread nD τ) ↦[(sM : Memref sig .tc .vmem S2x2048 .f32).view.set]{qs 1} stats m c) :=
  payload_send m c 1 d
theorem payload_snd2 (c : Dev nD) (d : Fin 7) : (softRd (F := F) m).payload (((c : Dev nD) : Thread nD τ), SemLoc.dma snd2) 0 d = ((sM : Memref sig .tc .vmem S2x2048 .f32).view.loc ((c : Dev nD) : Thread nD τ) ↦[(sM : Memref sig .tc .vmem S2x2048 .f32).view.set]{qs 2} stats m c) :=
  payload_send m c 2 d
theorem payload_snd3 (c : Dev nD) (d : Fin 7) : (softRd (F := F) m).payload (((c : Dev nD) : Thread nD τ), SemLoc.dma snd3) 0 d = ((sM : Memref sig .tc .vmem S2x2048 .f32).view.loc ((c : Dev nD) : Thread nD τ) ↦[(sM : Memref sig .tc .vmem S2x2048 .f32).view.set]{qs 3} stats m c) :=
  payload_send m c 3 d
theorem payload_snd4 (c : Dev nD) (d : Fin 7) : (softRd (F := F) m).payload (((c : Dev nD) : Thread nD τ), SemLoc.dma snd4) 0 d = ((sM : Memref sig .tc .vmem S2x2048 .f32).view.loc ((c : Dev nD) : Thread nD τ) ↦[(sM : Memref sig .tc .vmem S2x2048 .f32).view.set]{qs 4} stats m c) :=
  payload_send m c 4 d
theorem payload_snd5 (c : Dev nD) (d : Fin 7) : (softRd (F := F) m).payload (((c : Dev nD) : Thread nD τ), SemLoc.dma snd5) 0 d = ((sM : Memref sig .tc .vmem S2x2048 .f32).view.loc ((c : Dev nD) : Thread nD τ) ↦[(sM : Memref sig .tc .vmem S2x2048 .f32).view.set]{qs 5} stats m c) :=
  payload_send m c 5 d
theorem payload_snd6 (c : Dev nD) (d : Fin 7) : (softRd (F := F) m).payload (((c : Dev nD) : Thread nD τ), SemLoc.dma snd6) 0 d = ((sM : Memref sig .tc .vmem S2x2048 .f32).view.loc ((c : Dev nD) : Thread nD τ) ↦[(sM : Memref sig .tc .vmem S2x2048 .f32).view.set]{qs 6} stats m c) :=
  payload_send m c 6 d
theorem payload_rcvTo0 (c : Dev nD) (d : Fin 7) : (softRd (F := F) m).payload (((pr c 1 : Dev nD) : Thread nD τ), SemLoc.dma rcv0) 0 d
    = iprop(∃ fd : Buf (Elt F) ((((pr c 1 : Dev nD) : Thread nD τ)).loc cc0_scratch1), (slot0 : Memref sig .tc .vmem S2x2048 .f32).view.loc ((pr c 1 : Dev nD) : Thread nD τ) ↦[(slot0 : Memref sig .tc .vmem S2x2048 .f32).view.set]{fullShare}
      ((slot0 : Memref sig .tc .vmem S2x2048 .f32).view.write (Elt F) fd ((sM : Memref sig .tc .vmem S2x2048 .f32).view.read (Elt F) (stats m c)) Finset.univ)) := by
  refine (payload_recv m (pr c 1) 0 d).trans ?_
  show iprop(∃ fd : Buf (Elt F) ((((pr c 1 : Dev nD) : Thread nD τ)).loc cc0_scratch1), (slot0 : Memref sig .tc .vmem S2x2048 .f32).view.loc ((pr c 1 : Dev nD) : Thread nD τ) ↦[(slot0 : Memref sig .tc .vmem S2x2048 .f32).view.set]{fullShare}
      ((slot0 : Memref sig .tc .vmem S2x2048 .f32).view.write (Elt F) fd ((sM : Memref sig .tc .vmem S2x2048 .f32).view.read (Elt F) (stats m (pr (pr c 1) 7))) Finset.univ)) = _
  rw [show pr (pr c 1) 7 = c from by rw [pr_pr]; exact pr_eight c]
theorem payload_rcvTo1 (c : Dev nD) (d : Fin 7) : (softRd (F := F) m).payload (((pr c 2 : Dev nD) : Thread nD τ), SemLoc.dma rcv1) 0 d
    = iprop(∃ fd : Buf (Elt F) ((((pr c 2 : Dev nD) : Thread nD τ)).loc cc0_scratch1), (slot1 : Memref sig .tc .vmem S2x2048 .f32).view.loc ((pr c 2 : Dev nD) : Thread nD τ) ↦[(slot1 : Memref sig .tc .vmem S2x2048 .f32).view.set]{fullShare}
      ((slot1 : Memref sig .tc .vmem S2x2048 .f32).view.write (Elt F) fd ((sM : Memref sig .tc .vmem S2x2048 .f32).view.read (Elt F) (stats m c)) Finset.univ)) := by
  refine (payload_recv m (pr c 2) 1 d).trans ?_
  show iprop(∃ fd : Buf (Elt F) ((((pr c 2 : Dev nD) : Thread nD τ)).loc cc0_scratch1), (slot1 : Memref sig .tc .vmem S2x2048 .f32).view.loc ((pr c 2 : Dev nD) : Thread nD τ) ↦[(slot1 : Memref sig .tc .vmem S2x2048 .f32).view.set]{fullShare}
      ((slot1 : Memref sig .tc .vmem S2x2048 .f32).view.write (Elt F) fd ((sM : Memref sig .tc .vmem S2x2048 .f32).view.read (Elt F) (stats m (pr (pr c 2) 6))) Finset.univ)) = _
  rw [show pr (pr c 2) 6 = c from by rw [pr_pr]; exact pr_eight c]
theorem payload_rcvTo2 (c : Dev nD) (d : Fin 7) : (softRd (F := F) m).payload (((pr c 3 : Dev nD) : Thread nD τ), SemLoc.dma rcv2) 0 d
    = iprop(∃ fd : Buf (Elt F) ((((pr c 3 : Dev nD) : Thread nD τ)).loc cc0_scratch1), (slot2 : Memref sig .tc .vmem S2x2048 .f32).view.loc ((pr c 3 : Dev nD) : Thread nD τ) ↦[(slot2 : Memref sig .tc .vmem S2x2048 .f32).view.set]{fullShare}
      ((slot2 : Memref sig .tc .vmem S2x2048 .f32).view.write (Elt F) fd ((sM : Memref sig .tc .vmem S2x2048 .f32).view.read (Elt F) (stats m c)) Finset.univ)) := by
  refine (payload_recv m (pr c 3) 2 d).trans ?_
  show iprop(∃ fd : Buf (Elt F) ((((pr c 3 : Dev nD) : Thread nD τ)).loc cc0_scratch1), (slot2 : Memref sig .tc .vmem S2x2048 .f32).view.loc ((pr c 3 : Dev nD) : Thread nD τ) ↦[(slot2 : Memref sig .tc .vmem S2x2048 .f32).view.set]{fullShare}
      ((slot2 : Memref sig .tc .vmem S2x2048 .f32).view.write (Elt F) fd ((sM : Memref sig .tc .vmem S2x2048 .f32).view.read (Elt F) (stats m (pr (pr c 3) 5))) Finset.univ)) = _
  rw [show pr (pr c 3) 5 = c from by rw [pr_pr]; exact pr_eight c]
theorem payload_rcvTo3 (c : Dev nD) (d : Fin 7) : (softRd (F := F) m).payload (((pr c 4 : Dev nD) : Thread nD τ), SemLoc.dma rcv3) 0 d
    = iprop(∃ fd : Buf (Elt F) ((((pr c 4 : Dev nD) : Thread nD τ)).loc cc0_scratch1), (slot3 : Memref sig .tc .vmem S2x2048 .f32).view.loc ((pr c 4 : Dev nD) : Thread nD τ) ↦[(slot3 : Memref sig .tc .vmem S2x2048 .f32).view.set]{fullShare}
      ((slot3 : Memref sig .tc .vmem S2x2048 .f32).view.write (Elt F) fd ((sM : Memref sig .tc .vmem S2x2048 .f32).view.read (Elt F) (stats m c)) Finset.univ)) := by
  refine (payload_recv m (pr c 4) 3 d).trans ?_
  show iprop(∃ fd : Buf (Elt F) ((((pr c 4 : Dev nD) : Thread nD τ)).loc cc0_scratch1), (slot3 : Memref sig .tc .vmem S2x2048 .f32).view.loc ((pr c 4 : Dev nD) : Thread nD τ) ↦[(slot3 : Memref sig .tc .vmem S2x2048 .f32).view.set]{fullShare}
      ((slot3 : Memref sig .tc .vmem S2x2048 .f32).view.write (Elt F) fd ((sM : Memref sig .tc .vmem S2x2048 .f32).view.read (Elt F) (stats m (pr (pr c 4) 4))) Finset.univ)) = _
  rw [show pr (pr c 4) 4 = c from by rw [pr_pr]; exact pr_eight c]
theorem payload_rcvTo4 (c : Dev nD) (d : Fin 7) : (softRd (F := F) m).payload (((pr c 5 : Dev nD) : Thread nD τ), SemLoc.dma rcv4) 0 d
    = iprop(∃ fd : Buf (Elt F) ((((pr c 5 : Dev nD) : Thread nD τ)).loc cc0_scratch1), (slot4 : Memref sig .tc .vmem S2x2048 .f32).view.loc ((pr c 5 : Dev nD) : Thread nD τ) ↦[(slot4 : Memref sig .tc .vmem S2x2048 .f32).view.set]{fullShare}
      ((slot4 : Memref sig .tc .vmem S2x2048 .f32).view.write (Elt F) fd ((sM : Memref sig .tc .vmem S2x2048 .f32).view.read (Elt F) (stats m c)) Finset.univ)) := by
  refine (payload_recv m (pr c 5) 4 d).trans ?_
  show iprop(∃ fd : Buf (Elt F) ((((pr c 5 : Dev nD) : Thread nD τ)).loc cc0_scratch1), (slot4 : Memref sig .tc .vmem S2x2048 .f32).view.loc ((pr c 5 : Dev nD) : Thread nD τ) ↦[(slot4 : Memref sig .tc .vmem S2x2048 .f32).view.set]{fullShare}
      ((slot4 : Memref sig .tc .vmem S2x2048 .f32).view.write (Elt F) fd ((sM : Memref sig .tc .vmem S2x2048 .f32).view.read (Elt F) (stats m (pr (pr c 5) 3))) Finset.univ)) = _
  rw [show pr (pr c 5) 3 = c from by rw [pr_pr]; exact pr_eight c]
theorem payload_rcvTo5 (c : Dev nD) (d : Fin 7) : (softRd (F := F) m).payload (((pr c 6 : Dev nD) : Thread nD τ), SemLoc.dma rcv5) 0 d
    = iprop(∃ fd : Buf (Elt F) ((((pr c 6 : Dev nD) : Thread nD τ)).loc cc0_scratch1), (slot5 : Memref sig .tc .vmem S2x2048 .f32).view.loc ((pr c 6 : Dev nD) : Thread nD τ) ↦[(slot5 : Memref sig .tc .vmem S2x2048 .f32).view.set]{fullShare}
      ((slot5 : Memref sig .tc .vmem S2x2048 .f32).view.write (Elt F) fd ((sM : Memref sig .tc .vmem S2x2048 .f32).view.read (Elt F) (stats m c)) Finset.univ)) := by
  refine (payload_recv m (pr c 6) 5 d).trans ?_
  show iprop(∃ fd : Buf (Elt F) ((((pr c 6 : Dev nD) : Thread nD τ)).loc cc0_scratch1), (slot5 : Memref sig .tc .vmem S2x2048 .f32).view.loc ((pr c 6 : Dev nD) : Thread nD τ) ↦[(slot5 : Memref sig .tc .vmem S2x2048 .f32).view.set]{fullShare}
      ((slot5 : Memref sig .tc .vmem S2x2048 .f32).view.write (Elt F) fd ((sM : Memref sig .tc .vmem S2x2048 .f32).view.read (Elt F) (stats m (pr (pr c 6) 2))) Finset.univ)) = _
  rw [show pr (pr c 6) 2 = c from by rw [pr_pr]; exact pr_eight c]
theorem payload_rcvTo6 (c : Dev nD) (d : Fin 7) : (softRd (F := F) m).payload (((pr c 7 : Dev nD) : Thread nD τ), SemLoc.dma rcv6) 0 d
    = iprop(∃ fd : Buf (Elt F) ((((pr c 7 : Dev nD) : Thread nD τ)).loc cc0_scratch1), (slot6 : Memref sig .tc .vmem S2x2048 .f32).view.loc ((pr c 7 : Dev nD) : Thread nD τ) ↦[(slot6 : Memref sig .tc .vmem S2x2048 .f32).view.set]{fullShare}
      ((slot6 : Memref sig .tc .vmem S2x2048 .f32).view.write (Elt F) fd ((sM : Memref sig .tc .vmem S2x2048 .f32).view.read (Elt F) (stats m c)) Finset.univ)) := by
  refine (payload_recv m (pr c 7) 6 d).trans ?_
  show iprop(∃ fd : Buf (Elt F) ((((pr c 7 : Dev nD) : Thread nD τ)).loc cc0_scratch1), (slot6 : Memref sig .tc .vmem S2x2048 .f32).view.loc ((pr c 7 : Dev nD) : Thread nD τ) ↦[(slot6 : Memref sig .tc .vmem S2x2048 .f32).view.set]{fullShare}
      ((slot6 : Memref sig .tc .vmem S2x2048 .f32).view.write (Elt F) fd ((sM : Memref sig .tc .vmem S2x2048 .f32).view.read (Elt F) (stats m (pr (pr c 7) 1))) Finset.univ)) = _
  rw [show pr (pr c 7) 1 = c from by rw [pr_pr]; exact pr_eight c]

attribute [local sl_rounds] duties_bar' amount_bar' expect_bar' duties_snd0 duties_rcv0 amount_snd0 amount_rcv0 expect_snd0 expect_rcv0 payload_snd0 payload_rcvTo0 duties_snd1 duties_rcv1 amount_snd1 amount_rcv1 expect_snd1 expect_rcv1 payload_snd1 payload_rcvTo1 duties_snd2 duties_rcv2 amount_snd2 amount_rcv2 expect_snd2 expect_rcv2 payload_snd2 payload_rcvTo2 duties_snd3 duties_rcv3 amount_snd3 amount_rcv3 expect_snd3 expect_rcv3 payload_snd3 payload_rcvTo3 duties_snd4 duties_rcv4 amount_snd4 amount_rcv4 expect_snd4 expect_rcv4 payload_snd4 payload_rcvTo4 duties_snd5 duties_rcv5 amount_snd5 amount_rcv5 expect_snd5 expect_rcv5 payload_snd5 payload_rcvTo5 duties_snd6 duties_rcv6 amount_snd6 amount_rcv6 expect_snd6 expect_rcv6 payload_snd6 payload_rcvTo6 payload_sig1 payload_sig2 payload_sig3 payload_sig4 payload_sig5 payload_sig6 payload_sig7
attribute [local sl_canon] dev1_eq dev2_eq dev3_eq dev4_eq dev5_eq dev6_eq dev7_eq dev8_eq dev9_eq dev10_eq dev11_eq dev12_eq dev13_eq dev14_eq

/-! ## The body -/

omit [FloatOps F] in
theorem tallyAt_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h

omit [FloatOps F] in
/-- At its barrier wait a device owes only its seven copies' credits: receive cells, above its barrier cell. -/
theorem mayWait_bar (c : Dev nD) :
    (levAts L lv : sProp 𝕄) ⊢ MayWait (c : Thread nD τ) (.reg barS) ()
      (tallyAt (((pr c 1 : Dev nD) : Thread nD τ), SemLoc.dma rcv0) () N + tallyAt (((pr c 2 : Dev nD) : Thread nD τ), SemLoc.dma rcv1) () N + tallyAt (((pr c 3 : Dev nD) : Thread nD τ), SemLoc.dma rcv2) () N + tallyAt (((pr c 4 : Dev nD) : Thread nD τ), SemLoc.dma rcv3) () N + tallyAt (((pr c 5 : Dev nD) : Thread nD τ), SemLoc.dma rcv4) () N + tallyAt (((pr c 6 : Dev nD) : Thread nD τ), SemLoc.dma rcv5) () N + tallyAt (((pr c 7 : Dev nD) : Thread nD τ), SemLoc.dma rcv6) () N) :=
  Pipeline.mayWait_of_levAts (by rw [L_tc]; exact Finset.mem_singleton_self _) (fun g i hg => by
    repeat' (rcases Pipeline.add_pos_cases hg with hg | hg)
    all_goals (obtain ⟨rfl, rfl⟩ := Pipeline.tallyAt_pos hg; exact ⟨by rw [L_tc]; exact Finset.mem_singleton_self _, by show (1 : ℕ) < 2; decide⟩))

omit [FloatOps F] in
theorem hz2 : (![0, 0] : Fin 2 → Nat) = fun _ => 0 := funext fun a => by fin_cases a <;> rfl

abbrev rX : Rect S2048x1024 := Rect.unit (s := S2048x1024) ![0, 0] S2048x1024.size inb_S2048x1024_S2048x1024_0_0
abbrev rS : Rect S2x2048 := Rect.unit (s := S2x2048) ![0, 0] S2x2048.size inb_S2x2048_S2x2048_0_0

omit [FloatOps F] in
/-- A load of the whole block reads the buffer's contents. -/
theorem read_x (f : (cc0_stg0_0 : Ref sig .tc).ty.Contents (Elt F)) :
    (Memref.whole cc0_stg0_0 : Memref sig .tc .vmem S2048x1024 .f32).view.readAt (Elt F) rX.toLoadRect f = f :=
  Memref.readAt_unit_zero (Elt F) cc0_stg0_0 hz2 _ f
omit [FloatOps F] in
theorem read_o (f : (cc0_stg1_0 : Ref sig .tc).ty.Contents (Elt F)) :
    (Memref.whole cc0_stg1_0 : Memref sig .tc .vmem S2048x1024 .f32).view.readAt (Elt F) rX.toLoadRect f = f :=
  Memref.readAt_unit_zero (Elt F) cc0_stg1_0 hz2 _ f
omit [FloatOps F] in
/-- One store of a whole buffer leaves the stored value, whatever it held. -/
theorem out_written (f w : (cc0_stg1_0 : Ref sig .tc).ty.Contents (Elt F)) :
    (Memref.whole cc0_stg1_0 : Memref sig .tc .vmem S2048x1024 .f32).view.writes (Elt F) f [⟨rX, w⟩] = w := by
  rw [View.writes_singleton]; exact Memref.write_access_unit_zero_univ (Elt F) cc0_stg1_0 hz2 _ f w
omit [FloatOps F] in
theorem stats_written (f w : (cc0_scratch0 : Ref sig .tc).ty.Contents (Elt F)) :
    (Memref.whole cc0_scratch0 : Memref sig .tc .vmem S2x2048 .f32).view.writes (Elt F) f [⟨rS, w⟩] = w := by
  rw [View.writes_singleton]; exact Memref.write_access_unit_zero_univ (Elt F) cc0_scratch0 hz2 _ f w

omit [FloatOps F] in
theorem barPay_0 (c : Dev nD) : barPay (F := F) c (0 : Fin 7)
    = iprop((∃ f, ((slot0 : Memref sig .tc .vmem S2x2048 .f32).view.loc ((pr c 1 : Dev nD) : Thread nD τ) ↦[(slot0 : Memref sig .tc .vmem S2x2048 .f32).view.set]{fullShare} f)) ∗ reached ER (((pr c 1 : Dev nD) : Thread nD τ), SemLoc.dma rcv0) 0) := rfl
omit [FloatOps F] in
theorem barPay_1 (c : Dev nD) : barPay (F := F) c (1 : Fin 7)
    = iprop((∃ f, ((slot1 : Memref sig .tc .vmem S2x2048 .f32).view.loc ((pr c 2 : Dev nD) : Thread nD τ) ↦[(slot1 : Memref sig .tc .vmem S2x2048 .f32).view.set]{fullShare} f)) ∗ reached ER (((pr c 2 : Dev nD) : Thread nD τ), SemLoc.dma rcv1) 0) := rfl
omit [FloatOps F] in
theorem barPay_2 (c : Dev nD) : barPay (F := F) c (2 : Fin 7)
    = iprop((∃ f, ((slot2 : Memref sig .tc .vmem S2x2048 .f32).view.loc ((pr c 3 : Dev nD) : Thread nD τ) ↦[(slot2 : Memref sig .tc .vmem S2x2048 .f32).view.set]{fullShare} f)) ∗ reached ER (((pr c 3 : Dev nD) : Thread nD τ), SemLoc.dma rcv2) 0) := rfl
omit [FloatOps F] in
theorem barPay_3 (c : Dev nD) : barPay (F := F) c (3 : Fin 7)
    = iprop((∃ f, ((slot3 : Memref sig .tc .vmem S2x2048 .f32).view.loc ((pr c 4 : Dev nD) : Thread nD τ) ↦[(slot3 : Memref sig .tc .vmem S2x2048 .f32).view.set]{fullShare} f)) ∗ reached ER (((pr c 4 : Dev nD) : Thread nD τ), SemLoc.dma rcv3) 0) := rfl
omit [FloatOps F] in
theorem barPay_4 (c : Dev nD) : barPay (F := F) c (4 : Fin 7)
    = iprop((∃ f, ((slot4 : Memref sig .tc .vmem S2x2048 .f32).view.loc ((pr c 5 : Dev nD) : Thread nD τ) ↦[(slot4 : Memref sig .tc .vmem S2x2048 .f32).view.set]{fullShare} f)) ∗ reached ER (((pr c 5 : Dev nD) : Thread nD τ), SemLoc.dma rcv4) 0) := rfl
omit [FloatOps F] in
theorem barPay_5 (c : Dev nD) : barPay (F := F) c (5 : Fin 7)
    = iprop((∃ f, ((slot5 : Memref sig .tc .vmem S2x2048 .f32).view.loc ((pr c 6 : Dev nD) : Thread nD τ) ↦[(slot5 : Memref sig .tc .vmem S2x2048 .f32).view.set]{fullShare} f)) ∗ reached ER (((pr c 6 : Dev nD) : Thread nD τ), SemLoc.dma rcv5) 0) := rfl
omit [FloatOps F] in
theorem barPay_6 (c : Dev nD) : barPay (F := F) c (6 : Fin 7)
    = iprop((∃ f, ((slot6 : Memref sig .tc .vmem S2x2048 .f32).view.loc ((pr c 7 : Dev nD) : Thread nD τ) ↦[(slot6 : Memref sig .tc .vmem S2x2048 .f32).view.set]{fullShare} f)) ∗ reached ER (((pr c 7 : Dev nD) : Thread nD τ), SemLoc.dma rcv6) 0) := rfl

section Body

variable (K : Dev nD × Fin 15 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds c ∗ levAts L lv ∗ (∃ f, statsWhole c f) ∗ (∃ f, commWhole c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xblk m c) ∗ stg c cc0_stg1_0 (outAt m c))

omit [FloatOps F] in
/-- A whole buffer's points-to, spelt through the whole memref's view. -/
theorem wholePts_eq (c : Dev nD) (b : Ref sig .tc) (f : Buf (Elt F) ((c : Thread nD τ).loc b)) :
    ((Memref.whole b : Memref sig .tc b.space b.ty.shape b.ty.elt).view.loc (c : Thread nD τ) ↦[(Memref.whole b : Memref sig .tc b.space b.ty.shape b.ty.elt).view.set]{fullShare} f : sProp 𝕄)
      = (((c : Thread nD τ).loc b) ↦{fullShare} f : sProp 𝕄) := by
  rw [View.set_whole]

/-- Owing nothing, under any waits, is what the point leaves owed. -/
theorem owesAt_last (c : Dev nD) (W' : Waits sig Unit) :
    (owes (c : Thread nD τ) 0 W' : sProp 𝕄) ⊢ (dats m ρ 0 c).owesAt () t₀.succ := by
  unfold Dat.owesAt Pipeline.owesWithin
  rw [show (dats m ρ 0 c).owed t₀.succ = 0 from rfl]
  iintro HO
  iexists W'
  isplitr; · ipureintro; exact fun _ _ => Or.inl trivial
  iexact HO

theorem fetch_0 (t : Fin cfg0.N) : (cfg0.win (0 : Fin 2)).fetch t = true := by rw [fin_N t]; rfl

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs positions reacheds payToks creds
  iintro ⟨⟨⟨⟨⟨#HIb, #HIs0, #HIs1, #HIs2, #HIs3, #HIs4, #HIs5, #HIs6, #HIr0, #HIr1, #HIr2, #HIr3, #HIr4, #HIr5, #HIr6, #HIpb1, #HIpb2, #HIpb3, #HIpb4, #HIpb5, #HIpb6, #HIpb7, #HIpr0, #HIpr1, #HIpr2, #HIpr3, #HIpr4, #HIpr5, #HIpr6⟩, ⟨Hab, Has0, Has1, Has2, Has3, Has4, Has5, Has6, Har0, Har1, Har2, Har3, Har4, Har5, Har6⟩, ⟨#Hrpb1, #Hrpb2, #Hrpb3, #Hrpb4, #Hrpb5, #Hrpb6, #Hrpb7, #Hrpr0, #Hrpr1, #Hrpr2, #Hrpr3, #Hrpr4, #Hrpr5, #Hrpr6, #Hrs0, #Hrs1, #Hrs2, #Hrs3, #Hrs4, #Hrs5, #Hrs6, #Hrr0, #Hrr1, #Hrr2, #Hrr3, #Hrr4, #Hrr5, #Hrr6⟩, ⟨Htb1, Htb2, Htb3, Htb4, Htb5, Htb6, Htb7, Htr0, Htr1, Htr2, Htr3, Htr4, Htr5, Htr6, Hts0, Hts1, Hts2, Hts3, Hts4, Hts5, Hts6⟩⟩, ⟨Hcb, Hcr0, Hcr1, Hcr2, Hcr3, Hcr4, Hcr5, Hcr6⟩, #Hlev, ⟨%fs0, Hst⟩, ⟨%fc0, Hcm⟩⟩, Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ owedCopies statsWhole
  ihave Hsl := (comm_split c fc0) $$ Hcm
  icases Hsl with ⟨Hsl6, Hsl5, Hsl4, Hsl3, Hsl2, Hsl1, Hsl0⟩
  ihave Hx' := (Entails.of_eq (wholePts_eq c cc0_stg0_0 (xblk m c)).symm) $$ Hx
  ihave Hout' := (Entails.of_eq (wholePts_eq c cc0_stg1_0 g1).symm) $$ Hout
  ihave Hst' := (Entails.of_eq (wholePts_eq c cc0_scratch0 fs0).symm) $$ Hst
  have hmw := mayWait_bar (F := F) c
  sl_unfold [cc0_body]
  sl_exec
  -- the statistics are stored; the barrier's seven units are in: the peers' landing slots come with them
  rw [stats_written, out_written, read_x, show k0_pay5 (xblk m c) = stats m c from rfl, show k0_pay4 (xblk m c) = eblk m c from rfl]
  ihave Hst := (Entails.of_eq (show _ = statsWhole (F := F) c (stats m c) from wholePts_eq c cc0_scratch0 (stats m c))) $$ Hst'
  ihave Hq := (stats_split c (stats m c)) $$ Hst
  icases Hq with ⟨Hq0, Hq1, Hq2, Hq3, Hq4, Hq5, Hq6⟩
  rw [payload_bar m c (0 : Fin 7), payload_bar m c (1 : Fin 7), payload_bar m c (2 : Fin 7), payload_bar m c (3 : Fin 7), payload_bar m c (4 : Fin 7), payload_bar m c (5 : Fin 7), payload_bar m c (6 : Fin 7)]
  ihave Hc := (Entails.of_eq (show _ = (iprop(barPay c (0 : Fin 7) ∗ barPay c (1 : Fin 7) ∗ barPay c (2 : Fin 7) ∗ barPay c (3 : Fin 7) ∗ barPay c (4 : Fin 7) ∗ barPay c (5 : Fin 7) ∗ barPay c (6 : Fin 7)) : sProp 𝕄) from rfl)) $$ Hab_pay1
  rw [barPay_0 c, barPay_1 c, barPay_2 c, barPay_3 c, barPay_4 c, barPay_5 c, barPay_6 c]
  icases Hc with ⟨⟨⟨%fp0, Hp0⟩, #Hpr0⟩, ⟨⟨%fp1, Hp1⟩, #Hpr1⟩, ⟨⟨%fp2, Hp2⟩, #Hpr2⟩, ⟨⟨%fp3, Hp3⟩, #Hpr3⟩, ⟨⟨%fp4, Hp4⟩, #Hpr4⟩, ⟨⟨%fp5, Hp5⟩, #Hpr5⟩, ⟨⟨%fp6, Hp6⟩, #Hpr6⟩⟩
  sl_exec (disch := simp only [dev8_eq, dev9_eq, dev10_eq, dev11_eq, dev12_eq, dev13_eq, dev14_eq])
  -- the seven landed slots, restated at the landing buffer's final contents, are the whole buffer again
  ihave Hl0 := (show ((softRd m).payload (((c : Dev nD) : Thread nD τ), SemLoc.dma rcv0) 0 (0 : Fin 7) : sProp 𝕄) ⊢ ((slot0 : Memref sig .tc .vmem S2x2048 .f32).view.loc ((c : Dev nD) : Thread nD τ) ↦[(slot0 : Memref sig .tc .vmem S2x2048 .f32).view.set]{fullShare} commAll m c)
    from (Entails.of_eq (payload_recv m c 0 0)).trans (landed m c 0)) $$ Har0_pay1
  ihave Hl1 := (show ((softRd m).payload (((c : Dev nD) : Thread nD τ), SemLoc.dma rcv1) 0 (0 : Fin 7) : sProp 𝕄) ⊢ ((slot1 : Memref sig .tc .vmem S2x2048 .f32).view.loc ((c : Dev nD) : Thread nD τ) ↦[(slot1 : Memref sig .tc .vmem S2x2048 .f32).view.set]{fullShare} commAll m c)
    from (Entails.of_eq (payload_recv m c 1 0)).trans (landed m c 1)) $$ Har1_pay1
  ihave Hl2 := (show ((softRd m).payload (((c : Dev nD) : Thread nD τ), SemLoc.dma rcv2) 0 (0 : Fin 7) : sProp 𝕄) ⊢ ((slot2 : Memref sig .tc .vmem S2x2048 .f32).view.loc ((c : Dev nD) : Thread nD τ) ↦[(slot2 : Memref sig .tc .vmem S2x2048 .f32).view.set]{fullShare} commAll m c)
    from (Entails.of_eq (payload_recv m c 2 0)).trans (landed m c 2)) $$ Har2_pay1
  ihave Hl3 := (show ((softRd m).payload (((c : Dev nD) : Thread nD τ), SemLoc.dma rcv3) 0 (0 : Fin 7) : sProp 𝕄) ⊢ ((slot3 : Memref sig .tc .vmem S2x2048 .f32).view.loc ((c : Dev nD) : Thread nD τ) ↦[(slot3 : Memref sig .tc .vmem S2x2048 .f32).view.set]{fullShare} commAll m c)
    from (Entails.of_eq (payload_recv m c 3 0)).trans (landed m c 3)) $$ Har3_pay1
  ihave Hl4 := (show ((softRd m).payload (((c : Dev nD) : Thread nD τ), SemLoc.dma rcv4) 0 (0 : Fin 7) : sProp 𝕄) ⊢ ((slot4 : Memref sig .tc .vmem S2x2048 .f32).view.loc ((c : Dev nD) : Thread nD τ) ↦[(slot4 : Memref sig .tc .vmem S2x2048 .f32).view.set]{fullShare} commAll m c)
    from (Entails.of_eq (payload_recv m c 4 0)).trans (landed m c 4)) $$ Har4_pay1
  ihave Hl5 := (show ((softRd m).payload (((c : Dev nD) : Thread nD τ), SemLoc.dma rcv5) 0 (0 : Fin 7) : sProp 𝕄) ⊢ ((slot5 : Memref sig .tc .vmem S2x2048 .f32).view.loc ((c : Dev nD) : Thread nD τ) ↦[(slot5 : Memref sig .tc .vmem S2x2048 .f32).view.set]{fullShare} commAll m c)
    from (Entails.of_eq (payload_recv m c 5 0)).trans (landed m c 5)) $$ Har5_pay1
  ihave Hl6 := (show ((softRd m).payload (((c : Dev nD) : Thread nD τ), SemLoc.dma rcv6) 0 (0 : Fin 7) : sProp 𝕄) ⊢ ((slot6 : Memref sig .tc .vmem S2x2048 .f32).view.loc ((c : Dev nD) : Thread nD τ) ↦[(slot6 : Memref sig .tc .vmem S2x2048 .f32).view.set]{fullShare} commAll m c)
    from (Entails.of_eq (payload_recv m c 6 0)).trans (landed m c 6)) $$ Har6_pay1
  ihave Hcm := (comm_join c (commAll m c)) $$ [Hl0 Hl1 Hl2 Hl3 Hl4 Hl5 Hl6]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    iexact Hl6
  ihave Hcm' := (Entails.of_eq (show (commWhole c (commAll m c) : sProp 𝕄) = _ from (wholePts_eq c cc0_scratch1 (commAll m c)).symm)) $$ Hcm
  -- and the seven shares of the statistics buffer the full share
  ihave Hst2 := (stats_join c (stats m c)) $$ [Has0_pay1 Has1_pay1 Has2_pay1 Has3_pay1 Has4_pay1 Has5_pay1 Has6_pay1]
  · isplitl [Has0_pay1]; · iexact Has0_pay1
    isplitl [Has1_pay1]; · iexact Has1_pay1
    isplitl [Has2_pay1]; · iexact Has2_pay1
    isplitl [Has3_pay1]; · iexact Has3_pay1
    isplitl [Has4_pay1]; · iexact Has4_pay1
    isplitl [Has5_pay1]; · iexact Has5_pay1
    iexact Has6_pay1
  sl_exec
  -- the fourteen own cells, past their one round, close: their counters at zero are the core's again
  imod (Rounds.cell_close ER (softRd m) (Set.mem_univ (K (c, 1))) (fun h => h) (R := 1) (duties_later m (((c : Dev nD) : Thread nD τ), SemLoc.dma snd0))) $$ [Has0] with Hzs0
  · isplitr; · iexact HIs0
    iexact Has0
  imod (Rounds.cell_close ER (softRd m) (Set.mem_univ (K (c, 2))) (fun h => h) (R := 1) (duties_later m (((c : Dev nD) : Thread nD τ), SemLoc.dma snd1))) $$ [Has1] with Hzs1
  · isplitr; · iexact HIs1
    iexact Has1
  imod (Rounds.cell_close ER (softRd m) (Set.mem_univ (K (c, 3))) (fun h => h) (R := 1) (duties_later m (((c : Dev nD) : Thread nD τ), SemLoc.dma snd2))) $$ [Has2] with Hzs2
  · isplitr; · iexact HIs2
    iexact Has2
  imod (Rounds.cell_close ER (softRd m) (Set.mem_univ (K (c, 4))) (fun h => h) (R := 1) (duties_later m (((c : Dev nD) : Thread nD τ), SemLoc.dma snd3))) $$ [Has3] with Hzs3
  · isplitr; · iexact HIs3
    iexact Has3
  imod (Rounds.cell_close ER (softRd m) (Set.mem_univ (K (c, 5))) (fun h => h) (R := 1) (duties_later m (((c : Dev nD) : Thread nD τ), SemLoc.dma snd4))) $$ [Has4] with Hzs4
  · isplitr; · iexact HIs4
    iexact Has4
  imod (Rounds.cell_close ER (softRd m) (Set.mem_univ (K (c, 6))) (fun h => h) (R := 1) (duties_later m (((c : Dev nD) : Thread nD τ), SemLoc.dma snd5))) $$ [Has5] with Hzs5
  · isplitr; · iexact HIs5
    iexact Has5
  imod (Rounds.cell_close ER (softRd m) (Set.mem_univ (K (c, 7))) (fun h => h) (R := 1) (duties_later m (((c : Dev nD) : Thread nD τ), SemLoc.dma snd6))) $$ [Has6] with Hzs6
  · isplitr; · iexact HIs6
    iexact Has6
  imod (Rounds.cell_close ER (softRd m) (Set.mem_univ (K (c, 8))) (fun h => h) (R := 1) (duties_later m (((c : Dev nD) : Thread nD τ), SemLoc.dma rcv0))) $$ [Har0] with Hzr0
  · isplitr; · iexact HIr0
    iexact Har0
  imod (Rounds.cell_close ER (softRd m) (Set.mem_univ (K (c, 9))) (fun h => h) (R := 1) (duties_later m (((c : Dev nD) : Thread nD τ), SemLoc.dma rcv1))) $$ [Har1] with Hzr1
  · isplitr; · iexact HIr1
    iexact Har1
  imod (Rounds.cell_close ER (softRd m) (Set.mem_univ (K (c, 10))) (fun h => h) (R := 1) (duties_later m (((c : Dev nD) : Thread nD τ), SemLoc.dma rcv2))) $$ [Har2] with Hzr2
  · isplitr; · iexact HIr2
    iexact Har2
  imod (Rounds.cell_close ER (softRd m) (Set.mem_univ (K (c, 11))) (fun h => h) (R := 1) (duties_later m (((c : Dev nD) : Thread nD τ), SemLoc.dma rcv3))) $$ [Har3] with Hzr3
  · isplitr; · iexact HIr3
    iexact Har3
  imod (Rounds.cell_close ER (softRd m) (Set.mem_univ (K (c, 12))) (fun h => h) (R := 1) (duties_later m (((c : Dev nD) : Thread nD τ), SemLoc.dma rcv4))) $$ [Har4] with Hzr4
  · isplitr; · iexact HIr4
    iexact Har4
  imod (Rounds.cell_close ER (softRd m) (Set.mem_univ (K (c, 13))) (fun h => h) (R := 1) (duties_later m (((c : Dev nD) : Thread nD τ), SemLoc.dma rcv5))) $$ [Har5] with Hzr5
  · isplitr; · iexact HIr5
    iexact Har5
  imod (Rounds.cell_close ER (softRd m) (Set.mem_univ (K (c, 14))) (fun h => h) (R := 1) (duties_later m (((c : Dev nD) : Thread nD τ), SemLoc.dma rcv6))) $$ [Har6] with Hzr6
  · isplitr; · iexact HIr6
    iexact Har6
  rw [out_written, read_o, wp_ret]; imodintro
  iapply Hk
  unfold bodyPost Φ₁
  ihave Hcm2 := (Entails.of_eq (show _ = (commWhole c (commAll m c) : sProp 𝕄) from wholePts_eq c cc0_scratch1 (commAll m c))) $$ Hcm'
  ihave Hx2 := (Entails.of_eq (wholePts_eq c cc0_stg0_0 (xblk m c))) $$ Hx'
  ihave Hout2 := (Entails.of_eq (wholePts_eq c cc0_stg1_0 _)) $$ Hout'
  isplitl [Hst2 Hcm2 Hzs0 Hzs1 Hzs2 Hzs3 Hzs4 Hzs5 Hzs6 Hzr0 Hzr1 Hzr2 Hzr3 Hzr4 Hzr5 Hzr6]
  · isplitl [Hst2]; · iexists _; iexact Hst2
    isplitl [Hcm2]; · iexists _; iexact Hcm2
    isplitl [Hzs0]; · iexact Hzs0
    isplitl [Hzs1]; · iexact Hzs1
    isplitl [Hzs2]; · iexact Hzs2
    isplitl [Hzs3]; · iexact Hzs3
    isplitl [Hzs4]; · iexact Hzs4
    isplitl [Hzs5]; · iexact Hzs5
    isplitl [Hzs6]; · iexact Hzs6
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    iexact Hzr6
  isplitl [HO]
  · iapply (owesAt_last m ρ c _); iexact HO
  isplitl [Hx2]
  · iexists _; isplitr; · (ipureintro; rfl)
    iexact Hx2
  iexists _; isplitr; · (ipureintro; rfl)
  iexact Hout2

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the launch hands the body at the one point: the invariant and each window's staging buffer. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hst, Hcm⟩, Ho, Hx, Hout⟩
  iapply (sound_body m ρ K c fun _ => bodyPost m ρ c)
  unfold bodyPre
  isplitr []
  · isplitl [Hg Hcr Hlev Hst Hcm]
    · isplitl [Hg]; · iexact Hg
      isplitl [Hcr]; · iexact Hcr
      isplitl [Hlev]; · iexact Hlev
      isplitl [Hst]; · iexact Hst
      iexact Hcm
    isplitl [Ho]; · iexact Ho
    isplitl [Hx] <;> iassumption
  · iintro H; iexact H

end Body

end Cert.KernelIdeal.Hand

end
-- ==== Proof.KernelIdealHand.Launch.lean ====
/-
# The launch: from every device's body to the run of the whole program

All eight devices' bodies, each proved against what the launch deals it, give the run of @main on the mesh: it
terminates on every fair schedule, nothing faults, every device's argument array ends unchanged and its result array
ends at outAt.
-/
import proofs.«900602_g7700000000000603_dist_softmax_colshard_i_m2048_n1024_v7x_i8_f32_1_alg».proof.Proof.KernelIdealHand.Body

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts; the protocol's cells and the duty tokens as minted -/

theorem ownSemFacts : Pipeline.OwnSemFacts cfg0.spec osem := by decide

theorem share_eq (c : Dev nD) (w : Fin cfg0.W) : (dats m ρ 0 c).share w = fullShare := by unfold Dat.share; split <;> rfl

omit [FloatOps F] in
theorem csem_injective : Function.Injective (csem : Fin 15 → SemLoc sig) := by decide

omit [FloatOps F] in
theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- All 120 cells of the protocol. -/
def allCells : Finset (GSem nD τ sig) := Finset.univ.map ⟨kcell, kcell_injective⟩

/-- A device's own cells' duty tokens as minted, 21 of them: the barrier cell's duties 0 .. 6, then the one duty of each
    send cell, then of each receive cell. -/
abbrev tcell : Fin 21 → Fin 15 := fun | 0 => 0 | 1 => 0 | 2 => 0 | 3 => 0 | 4 => 0 | 5 => 0 | 6 => 0 | 7 => 1 | 8 => 2 | 9 => 3 | 10 => 4 | 11 => 5 | 12 => 6 | 13 => 7 | 14 => 8 | 15 => 9 | 16 => 10 | 17 => 11 | 18 => 12 | 19 => 13 | _ => 14
abbrev tduty : Fin 21 → Fin 7 := fun | 0 => 0 | 1 => 1 | 2 => 2 | 3 => 3 | 4 => 4 | 5 => 5 | 6 => 6 | _ => 0
abbrev tokOf (cj : Dev nD × Fin 21) : GSem nD τ sig × ℕ × Fin 7 := (kcell (cj.1, tcell cj.2), 0, tduty cj.2)

omit [FloatOps F] in
theorem tcell_tduty_injective : Function.Injective (fun j : Fin 21 => (tcell j, tduty j)) := by decide

omit [FloatOps F] in
theorem tokOf_injective : Function.Injective (tokOf : Dev nD × Fin 21 → GSem nD τ sig × ℕ × Fin 7) := by
  rintro ⟨c, j⟩ ⟨c', j'⟩ h
  have hk : ((c, tcell j) : Dev nD × Fin 15) = (c', tcell j') := kcell_injective (congrArg (fun x : GSem nD τ sig × ℕ × Fin 7 => x.1) h)
  have hd : tduty j = tduty j' := congrArg (fun x : GSem nD τ sig × ℕ × Fin 7 => x.2.2) h
  have hc : c = c' := congrArg Prod.fst hk
  have ht : tcell j = tcell j' := congrArg Prod.snd hk
  subst hc
  have hj : j = j' := tcell_tduty_injective (Prod.ext ht hd)
  rw [hj]
def allToks : Finset (GSem nD τ sig × ℕ × Fin 7) := Finset.univ.map ⟨tokOf, tokOf_injective⟩

/-- The launch element: the pipeline library's cells and tokens, and the protocol's. -/
def u₀ : UU :=
  (initOf (Pipeline.cells cfgs cellOf_inj) (Pipeline.launchToks cfgs cellOf_inj), initOf allCells allToks)

/-- The duty tokens of device c's own cells. -/
def toks (c : Dev nD) : sProp 𝕄 :=
  iprop(dutyTok ER (((c : Dev nD) : Thread nD τ), SemLoc.reg barS) 0 (0 : Fin 7)
    ∗ dutyTok ER (((c : Dev nD) : Thread nD τ), SemLoc.reg barS) 0 (1 : Fin 7)
    ∗ dutyTok ER (((c : Dev nD) : Thread nD τ), SemLoc.reg barS) 0 (2 : Fin 7)
    ∗ dutyTok ER (((c : Dev nD) : Thread nD τ), SemLoc.reg barS) 0 (3 : Fin 7)
    ∗ dutyTok ER (((c : Dev nD) : Thread nD τ), SemLoc.reg barS) 0 (4 : Fin 7)
    ∗ dutyTok ER (((c : Dev nD) : Thread nD τ), SemLoc.reg barS) 0 (5 : Fin 7)
    ∗ dutyTok ER (((c : Dev nD) : Thread nD τ), SemLoc.reg barS) 0 (6 : Fin 7)
    ∗ dutyTok ER (((c : Dev nD) : Thread nD τ), SemLoc.dma snd0) 0 (0 : Fin 7)
    ∗ dutyTok ER (((c : Dev nD) : Thread nD τ), SemLoc.dma snd1) 0 (0 : Fin 7)
    ∗ dutyTok ER (((c : Dev nD) : Thread nD τ), SemLoc.dma snd2) 0 (0 : Fin 7)
    ∗ dutyTok ER (((c : Dev nD) : Thread nD τ), SemLoc.dma snd3) 0 (0 : Fin 7)
    ∗ dutyTok ER (((c : Dev nD) : Thread nD τ), SemLoc.dma snd4) 0 (0 : Fin 7)
    ∗ dutyTok ER (((c : Dev nD) : Thread nD τ), SemLoc.dma snd5) 0 (0 : Fin 7)
    ∗ dutyTok ER (((c : Dev nD) : Thread nD τ), SemLoc.dma snd6) 0 (0 : Fin 7)
    ∗ dutyTok ER (((c : Dev nD) : Thread nD τ), SemLoc.dma rcv0) 0 (0 : Fin 7)
    ∗ dutyTok ER (((c : Dev nD) : Thread nD τ), SemLoc.dma rcv1) 0 (0 : Fin 7)
    ∗ dutyTok ER (((c : Dev nD) : Thread nD τ), SemLoc.dma rcv2) 0 (0 : Fin 7)
    ∗ dutyTok ER (((c : Dev nD) : Thread nD τ), SemLoc.dma rcv3) 0 (0 : Fin 7)
    ∗ dutyTok ER (((c : Dev nD) : Thread nD τ), SemLoc.dma rcv4) 0 (0 : Fin 7)
    ∗ dutyTok ER (((c : Dev nD) : Thread nD τ), SemLoc.dma rcv5) 0 (0 : Fin 7)
    ∗ dutyTok ER (((c : Dev nD) : Thread nD τ), SemLoc.dma rcv6) 0 (0 : Fin 7))

/-- What the launch element deals device c. -/
def G (c : Dev nD) : sProp 𝕄 :=
  iprop((bigSep Finset.univ fun k : Fin 15 => roundState ER (softRd m) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin21]; rfl
  iintro HX
  imod (Rounds.fund ER (softRd m) allCells allToks) $$ HX with ⟨Hst, Hr, Hat, Htok⟩
  imodintro
  ihave Hst' := (Entails.of_eq (hX fun g => roundState ER (softRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to the devices that pay them -/

omit [FloatOps F] in
/-- The seven send and seven receive semaphores are the kernel's own fourteen; -/
theorem ownSems0_eq (c : Dev nD) : (Pipeline.ownSems0 (Ix := Unit) (Name := ℕ) (U := UU) (Lvl := ℕ) (Val := Elt F) (τ := τ) osem c : sProp 𝕄)
    = iprop(semVal (((c : Dev nD) : Thread nD τ), SemLoc.dma snd0) 0
    ∗ semVal (((c : Dev nD) : Thread nD τ), SemLoc.dma snd1) 0
    ∗ semVal (((c : Dev nD) : Thread nD τ), SemLoc.dma snd2) 0
    ∗ semVal (((c : Dev nD) : Thread nD τ), SemLoc.dma snd3) 0
    ∗ semVal (((c : Dev nD) : Thread nD τ), SemLoc.dma snd4) 0
    ∗ semVal (((c : Dev nD) : Thread nD τ), SemLoc.dma snd5) 0
    ∗ semVal (((c : Dev nD) : Thread nD τ), SemLoc.dma snd6) 0
    ∗ semVal (((c : Dev nD) : Thread nD τ), SemLoc.dma rcv0) 0
    ∗ semVal (((c : Dev nD) : Thread nD τ), SemLoc.dma rcv1) 0
    ∗ semVal (((c : Dev nD) : Thread nD τ), SemLoc.dma rcv2) 0
    ∗ semVal (((c : Dev nD) : Thread nD τ), SemLoc.dma rcv3) 0
    ∗ semVal (((c : Dev nD) : Thread nD τ), SemLoc.dma rcv4) 0
    ∗ semVal (((c : Dev nD) : Thread nD τ), SemLoc.dma rcv5) 0
    ∗ semVal (((c : Dev nD) : Thread nD τ), SemLoc.dma rcv6) 0) := by
  rw [Pipeline.ownSems0_eq_of_list c osem [0, 1, 2, 3, 4, 5, 6, 7, 8, 9, 10, 11, 12, 13] (by decide) (by decide)]; rfl
omit [FloatOps F] in
/-- the barrier semaphore the launch's one unscoped semaphore. -/
theorem unscopedSems0_eq (c : Dev nD) : (unscopedSems0 c : sProp 𝕄) = semVal (((c : Dev nD) : Thread nD τ), SemLoc.reg barS) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_fin15]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (softRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (softRd m) (kcell (c, k)) 0)
      ⊢ (|={Set.univ}=> bigSep Finset.univ fun k => iprop(∃ κ : ℕ, cellInv ER (softRd m) κ (kcell (c, k))) : sProp 𝕄) from by
        rw [← bigSep_sep']
        exact (bigSep_mono fun k _ => (Rounds.body_intro ER (softRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and every cell's round 0 reached. -/
def records (K : Dev nD × Fin 15 → ℕ) : sProp 𝕄 :=
  iprop((bigSep Finset.univ fun ck : Dev nD × Fin 15 => cellInv ER (softRd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) :
    (bigSep Finset.univ fun ck : Dev nD × Fin 15 => (cellInv ER (softRd m) (K ck) (kcell ck) : sProp 𝕄)) ⊢ cellInv ER (softRd m) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

/-- The records, a device's positions and the tokens of the duties it pays are what its body starts from. -/
theorem ghost_intro (K : Dev nD × Fin 15 → ℕ) (c : Dev nD) : iprop(records m K ∗ (positions c ∗ payToks c)) ⊢ G' m c := by
  unfold records G' ghost
  iintro ⟨⟨#HI, #HR⟩, Hpos, Htok⟩
  iexists K
  isplitr
  · unfold invs
    isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (c, 8)); iexact HI
    isplitr; · iapply (inv_at m K (c, 9)); iexact HI
    isplitr; · iapply (inv_at m K (c, 10)); iexact HI
    isplitr; · iapply (inv_at m K (c, 11)); iexact HI
    isplitr; · iapply (inv_at m K (c, 12)); iexact HI
    isplitr; · iapply (inv_at m K (c, 13)); iexact HI
    isplitr; · iapply (inv_at m K (c, 14)); iexact HI
    isplitr; · iapply (inv_at m K (pr c 1, 0)); iexact HI
    isplitr; · iapply (inv_at m K (pr c 2, 0)); iexact HI
    isplitr; · iapply (inv_at m K (pr c 3, 0)); iexact HI
    isplitr; · iapply (inv_at m K (pr c 4, 0)); iexact HI
    isplitr; · iapply (inv_at m K (pr c 5, 0)); iexact HI
    isplitr; · iapply (inv_at m K (pr c 6, 0)); iexact HI
    isplitr; · iapply (inv_at m K (pr c 7, 0)); iexact HI
    isplitr; · iapply (inv_at m K (pr c 1, 8)); iexact HI
    isplitr; · iapply (inv_at m K (pr c 2, 9)); iexact HI
    isplitr; · iapply (inv_at m K (pr c 3, 10)); iexact HI
    isplitr; · iapply (inv_at m K (pr c 4, 11)); iexact HI
    isplitr; · iapply (inv_at m K (pr c 5, 12)); iexact HI
    isplitr; · iapply (inv_at m K (pr c 6, 13)); iexact HI
    iapply (inv_at m K (pr c 7, 14)); iexact HI
  isplitl [Hpos]; · iexact Hpos
  isplitr
  · unfold reacheds
    isplitr; · iapply (reached_at (F := F) (pr c 1, 0)); iexact HR
    isplitr; · iapply (reached_at (F := F) (pr c 2, 0)); iexact HR
    isplitr; · iapply (reached_at (F := F) (pr c 3, 0)); iexact HR
    isplitr; · iapply (reached_at (F := F) (pr c 4, 0)); iexact HR
    isplitr; · iapply (reached_at (F := F) (pr c 5, 0)); iexact HR
    isplitr; · iapply (reached_at (F := F) (pr c 6, 0)); iexact HR
    isplitr; · iapply (reached_at (F := F) (pr c 7, 0)); iexact HR
    isplitr; · iapply (reached_at (F := F) (pr c 1, 8)); iexact HR
    isplitr; · iapply (reached_at (F := F) (pr c 2, 9)); iexact HR
    isplitr; · iapply (reached_at (F := F) (pr c 3, 10)); iexact HR
    isplitr; · iapply (reached_at (F := F) (pr c 4, 11)); iexact HR
    isplitr; · iapply (reached_at (F := F) (pr c 5, 12)); iexact HR
    isplitr; · iapply (reached_at (F := F) (pr c 6, 13)); iexact HR
    isplitr; · iapply (reached_at (F := F) (pr c 7, 14)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (c, 7)); iexact HR
    isplitr; · iapply (reached_at (F := F) (c, 8)); iexact HR
    isplitr; · iapply (reached_at (F := F) (c, 9)); iexact HR
    isplitr; · iapply (reached_at (F := F) (c, 10)); iexact HR
    isplitr; · iapply (reached_at (F := F) (c, 11)); iexact HR
    isplitr; · iapply (reached_at (F := F) (c, 12)); iexact HR
    isplitr; · iapply (reached_at (F := F) (c, 13)); iexact HR
    iapply (reached_at (F := F) (c, 14)); iexact HR
  iexact Htok

/-- The devices in ring order, shifted by o. -/
def prE (o o' : ℕ) (h : o + o' = 8) : Dev nD ≃ Dev nD :=
  ⟨fun c => pr c o, fun c => pr c o', fun c => by show pr (pr c o) o' = c; rw [pr_pr, h, pr_eight], fun c => by show pr (pr c o') o = c; rw [pr_pr, Nat.add_comm, h, pr_eight]⟩

omit [FloatOps F] in
/-- The tokens dealt around the ring: duty j of a device's barrier cell goes to the device that pays it, at distance
    j + 1 after it (the token of the barrier cell at distance o after a device is that cell's duty 7 - o); the token of
    receive cell k to the device whose copy number k lands there, at distance 7 - k after it; the send tokens stay. -/
theorem toks_around : (bigSep Finset.univ fun c : Dev nD => (toks c : sProp 𝕄)) ⊢ bigSep Finset.univ fun c : Dev nD => payToks c := by
  unfold toks payToks
  simp only [bigSep_sep']
  iintro ⟨Hb0, Hb1, Hb2, Hb3, Hb4, Hb5, Hb6, Hs0, Hs1, Hs2, Hs3, Hs4, Hs5, Hs6, Hr0, Hr1, Hr2, Hr3, Hr4, Hr5, Hr6⟩
  ihave Hb0' := (Entails.of_eq (bigSep_univ_equiv (prE 7 1 rfl) (fun c : Dev nD => (dutyTok ER (((c : Dev nD) : Thread nD τ), SemLoc.reg barS) 0 (0 : Fin 7) : sProp 𝕄)))) $$ Hb0
  ihave Hb1' := (Entails.of_eq (bigSep_univ_equiv (prE 6 2 rfl) (fun c : Dev nD => (dutyTok ER (((c : Dev nD) : Thread nD τ), SemLoc.reg barS) 0 (1 : Fin 7) : sProp 𝕄)))) $$ Hb1
  ihave Hb2' := (Entails.of_eq (bigSep_univ_equiv (prE 5 3 rfl) (fun c : Dev nD => (dutyTok ER (((c : Dev nD) : Thread nD τ), SemLoc.reg barS) 0 (2 : Fin 7) : sProp 𝕄)))) $$ Hb2
  ihave Hb3' := (Entails.of_eq (bigSep_univ_equiv (prE 4 4 rfl) (fun c : Dev nD => (dutyTok ER (((c : Dev nD) : Thread nD τ), SemLoc.reg barS) 0 (3 : Fin 7) : sProp 𝕄)))) $$ Hb3
  ihave Hb4' := (Entails.of_eq (bigSep_univ_equiv (prE 3 5 rfl) (fun c : Dev nD => (dutyTok ER (((c : Dev nD) : Thread nD τ), SemLoc.reg barS) 0 (4 : Fin 7) : sProp 𝕄)))) $$ Hb4
  ihave Hb5' := (Entails.of_eq (bigSep_univ_equiv (prE 2 6 rfl) (fun c : Dev nD => (dutyTok ER (((c : Dev nD) : Thread nD τ), SemLoc.reg barS) 0 (5 : Fin 7) : sProp 𝕄)))) $$ Hb5
  ihave Hb6' := (Entails.of_eq (bigSep_univ_equiv (prE 1 7 rfl) (fun c : Dev nD => (dutyTok ER (((c : Dev nD) : Thread nD τ), SemLoc.reg barS) 0 (6 : Fin 7) : sProp 𝕄)))) $$ Hb6
  ihave Hr0' := (Entails.of_eq (bigSep_univ_equiv (prE 1 7 rfl) (fun c : Dev nD => (dutyTok ER (((c : Dev nD) : Thread nD τ), SemLoc.dma rcv0) 0 (0 : Fin 7) : sProp 𝕄)))) $$ Hr0
  ihave Hr1' := (Entails.of_eq (bigSep_univ_equiv (prE 2 6 rfl) (fun c : Dev nD => (dutyTok ER (((c : Dev nD) : Thread nD τ), SemLoc.dma rcv1) 0 (0 : Fin 7) : sProp 𝕄)))) $$ Hr1
  ihave Hr2' := (Entails.of_eq (bigSep_univ_equiv (prE 3 5 rfl) (fun c : Dev nD => (dutyTok ER (((c : Dev nD) : Thread nD τ), SemLoc.dma rcv2) 0 (0 : Fin 7) : sProp 𝕄)))) $$ Hr2
  ihave Hr3' := (Entails.of_eq (bigSep_univ_equiv (prE 4 4 rfl) (fun c : Dev nD => (dutyTok ER (((c : Dev nD) : Thread nD τ), SemLoc.dma rcv3) 0 (0 : Fin 7) : sProp 𝕄)))) $$ Hr3
  ihave Hr4' := (Entails.of_eq (bigSep_univ_equiv (prE 5 3 rfl) (fun c : Dev nD => (dutyTok ER (((c : Dev nD) : Thread nD τ), SemLoc.dma rcv4) 0 (0 : Fin 7) : sProp 𝕄)))) $$ Hr4
  ihave Hr5' := (Entails.of_eq (bigSep_univ_equiv (prE 6 2 rfl) (fun c : Dev nD => (dutyTok ER (((c : Dev nD) : Thread nD τ), SemLoc.dma rcv5) 0 (0 : Fin 7) : sProp 𝕄)))) $$ Hr5
  ihave Hr6' := (Entails.of_eq (bigSep_univ_equiv (prE 7 1 rfl) (fun c : Dev nD => (dutyTok ER (((c : Dev nD) : Thread nD τ), SemLoc.dma rcv6) 0 (0 : Fin 7) : sProp 𝕄)))) $$ Hr6
  isplitl [Hb6']; · iexact Hb6'
  isplitl [Hb5']; · iexact Hb5'
  isplitl [Hb4']; · iexact Hb4'
  isplitl [Hb3']; · iexact Hb3'
  isplitl [Hb2']; · iexact Hb2'
  isplitl [Hb1']; · iexact Hb1'
  isplitl [Hb0']; · iexact Hb0'
  isplitl [Hr0']; · iexact Hr0'
  isplitl [Hr1']; · iexact Hr1'
  isplitl [Hr2']; · iexact Hr2'
  isplitl [Hr3']; · iexact Hr3'
  isplitl [Hr4']; · iexact Hr4'
  isplitl [Hr5']; · iexact Hr5'
  isplitl [Hr6']; · iexact Hr6'
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  iexact Hs6

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (softRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (softRd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (softRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => show _ ⊢ iprop(positions c ∗ payToks c) from Entails.of_eq (by unfold positions; rw [bigSep_fin15])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem cred_tallyAt_add (g : GSem nD τ sig) (a b n : ℕ) (h : a + b = n) :
    iprop(cred (tallyAt g () a) ∗ cred (tallyAt g () b)) ⊢ (cred (tallyAt g () n) : sProp 𝕄) := by
  subst h; rw [← tallyAt_add]; exact (cred_add _ _).2

omit [FloatOps F] in
/-- What the devices owe a device at launch is what it waits for: every peer owes its barrier cell a unit, and the peer
    whose copy number k lands in its slot k owes receive cell k the copy's credit. -/
theorem creds_intro (c : Dev nD) : (Pipeline.launchCred O₀ c : sProp 𝕄) ⊢ creds c := by
  refine (Entails.of_eq (show (Pipeline.launchCred O₀ c : sProp 𝕄) = Pipeline.launchCred (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1 + tallyAt (((pr d 5 : Dev nD) : Thread nD τ), SemLoc.reg barS) () 1 + tallyAt (((pr d 4 : Dev nD) : Thread nD τ), SemLoc.reg barS) () 1 + tallyAt (((pr d 3 : Dev nD) : Thread nD τ), SemLoc.reg barS) () 1 + tallyAt (((pr d 2 : Dev nD) : Thread nD τ), SemLoc.reg barS) () 1 + tallyAt (((pr d 1 : Dev nD) : Thread nD τ), SemLoc.reg barS) () 1) c from rfl)).trans ?_
  iintro H
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1 + tallyAt (((pr d 5 : Dev nD) : Thread nD τ), SemLoc.reg barS) () 1 + tallyAt (((pr d 4 : Dev nD) : Thread nD τ), SemLoc.reg barS) () 1 + tallyAt (((pr d 3 : Dev nD) : Thread nD τ), SemLoc.reg barS) () 1 + tallyAt (((pr d 2 : Dev nD) : Thread nD τ), SemLoc.reg barS) () 1) (fun d => tallyAt (((pr d 1 : Dev nD) : Thread nD τ), SemLoc.reg barS) () 1) c)) $$ H
  icases H with ⟨H, Hb1⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1 + tallyAt (((pr d 5 : Dev nD) : Thread nD τ), SemLoc.reg barS) () 1 + tallyAt (((pr d 4 : Dev nD) : Thread nD τ), SemLoc.reg barS) () 1 + tallyAt (((pr d 3 : Dev nD) : Thread nD τ), SemLoc.reg barS) () 1) (fun d => tallyAt (((pr d 2 : Dev nD) : Thread nD τ), SemLoc.reg barS) () 1) c)) $$ H
  icases H with ⟨H, Hb2⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1 + tallyAt (((pr d 5 : Dev nD) : Thread nD τ), SemLoc.reg barS) () 1 + tallyAt (((pr d 4 : Dev nD) : Thread nD τ), SemLoc.reg barS) () 1) (fun d => tallyAt (((pr d 3 : Dev nD) : Thread nD τ), SemLoc.reg barS) () 1) c)) $$ H
  icases H with ⟨H, Hb3⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1 + tallyAt (((pr d 5 : Dev nD) : Thread nD τ), SemLoc.reg barS) () 1) (fun d => tallyAt (((pr d 4 : Dev nD) : Thread nD τ), SemLoc.reg barS) () 1) c)) $$ H
  icases H with ⟨H, Hb4⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1 + tallyAt (((pr d 6 : Dev nD) : Thread nD τ), SemLoc.reg barS) () 1) (fun d => tallyAt (((pr d 5 : Dev nD) : Thread nD τ), SemLoc.reg barS) () 1) c)) $$ H
  icases H with ⟨H, Hb5⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N + tallyAt (((pr d 7 : Dev nD) : Thread nD τ), SemLoc.reg barS) () 1) (fun d => tallyAt (((pr d 6 : Dev nD) : Thread nD τ), SemLoc.reg barS) () 1) c)) $$ H
  icases H with ⟨H, Hb6⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N + tallyAt (((pr d 7 : Dev nD) : Thread nD τ), SemLoc.dma rcv6) () N) (fun d => tallyAt (((pr d 7 : Dev nD) : Thread nD τ), SemLoc.reg barS) () 1) c)) $$ H
  icases H with ⟨H, Hb7⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N + tallyAt (((pr d 6 : Dev nD) : Thread nD τ), SemLoc.dma rcv5) () N) (fun d => tallyAt (((pr d 7 : Dev nD) : Thread nD τ), SemLoc.dma rcv6) () N) c)) $$ H
  icases H with ⟨H, Hr6⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N + tallyAt (((pr d 5 : Dev nD) : Thread nD τ), SemLoc.dma rcv4) () N) (fun d => tallyAt (((pr d 6 : Dev nD) : Thread nD τ), SemLoc.dma rcv5) () N) c)) $$ H
  icases H with ⟨H, Hr5⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N + tallyAt (((pr d 4 : Dev nD) : Thread nD τ), SemLoc.dma rcv3) () N) (fun d => tallyAt (((pr d 5 : Dev nD) : Thread nD τ), SemLoc.dma rcv4) () N) c)) $$ H
  icases H with ⟨H, Hr4⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N + tallyAt (((pr d 3 : Dev nD) : Thread nD τ), SemLoc.dma rcv2) () N) (fun d => tallyAt (((pr d 4 : Dev nD) : Thread nD τ), SemLoc.dma rcv3) () N) c)) $$ H
  icases H with ⟨H, Hr3⟩
  ihave H := (Entails.of_eq (Pipeline.launchCred_add (fun d => tallyAt (((pr d 1 : Dev nD) : Thread nD τ), SemLoc.dma rcv0) () N + tallyAt (((pr d 2 : Dev nD) : Thread nD τ), SemLoc.dma rcv1) () N) (fun d => tallyAt (((pr d 3 : Dev nD) : Thread nD τ), SemLoc.dma rcv2) () N) c)) $$ H
  icases H with ⟨H, Hr2⟩
  ihave H := (Entails.of_eq (Pipeline.launchCred_add (fun d => tallyAt (((pr d 1 : Dev nD) : Thread nD τ), SemLoc.dma rcv0) () N) (fun d => tallyAt (((pr d 2 : Dev nD) : Thread nD τ), SemLoc.dma rcv1) () N) c)) $$ H
  icases H with ⟨H, Hr1⟩
  ihave Hb1' := (Pipeline.launchCred_tallyAt (SemLoc.reg barS) (fun d => pr d 1) (fun d => pr d 7) (prE 7 1 rfl).left_inv (prE 1 7 rfl).left_inv () 1 c) $$ Hb1
  ihave Hb2' := (Pipeline.launchCred_tallyAt (SemLoc.reg barS) (fun d => pr d 2) (fun d => pr d 6) (prE 6 2 rfl).left_inv (prE 2 6 rfl).left_inv () 1 c) $$ Hb2
  ihave Hb3' := (Pipeline.launchCred_tallyAt (SemLoc.reg barS) (fun d => pr d 3) (fun d => pr d 5) (prE 5 3 rfl).left_inv (prE 3 5 rfl).left_inv () 1 c) $$ Hb3
  ihave Hb4' := (Pipeline.launchCred_tallyAt (SemLoc.reg barS) (fun d => pr d 4) (fun d => pr d 4) (prE 4 4 rfl).left_inv (prE 4 4 rfl).left_inv () 1 c) $$ Hb4
  ihave Hb5' := (Pipeline.launchCred_tallyAt (SemLoc.reg barS) (fun d => pr d 5) (fun d => pr d 3) (prE 3 5 rfl).left_inv (prE 5 3 rfl).left_inv () 1 c) $$ Hb5
  ihave Hb6' := (Pipeline.launchCred_tallyAt (SemLoc.reg barS) (fun d => pr d 6) (fun d => pr d 2) (prE 2 6 rfl).left_inv (prE 6 2 rfl).left_inv () 1 c) $$ Hb6
  ihave Hb7' := (Pipeline.launchCred_tallyAt (SemLoc.reg barS) (fun d => pr d 7) (fun d => pr d 1) (prE 1 7 rfl).left_inv (prE 7 1 rfl).left_inv () 1 c) $$ Hb7
  ihave Hr0' := (Pipeline.launchCred_tallyAt (SemLoc.dma rcv0) (fun d => pr d 1) (fun d => pr d 7) (prE 7 1 rfl).left_inv (prE 1 7 rfl).left_inv () N c) $$ H
  ihave Hr1' := (Pipeline.launchCred_tallyAt (SemLoc.dma rcv1) (fun d => pr d 2) (fun d => pr d 6) (prE 6 2 rfl).left_inv (prE 2 6 rfl).left_inv () N c) $$ Hr1
  ihave Hr2' := (Pipeline.launchCred_tallyAt (SemLoc.dma rcv2) (fun d => pr d 3) (fun d => pr d 5) (prE 5 3 rfl).left_inv (prE 3 5 rfl).left_inv () N c) $$ Hr2
  ihave Hr3' := (Pipeline.launchCred_tallyAt (SemLoc.dma rcv3) (fun d => pr d 4) (fun d => pr d 4) (prE 4 4 rfl).left_inv (prE 4 4 rfl).left_inv () N c) $$ Hr3
  ihave Hr4' := (Pipeline.launchCred_tallyAt (SemLoc.dma rcv4) (fun d => pr d 5) (fun d => pr d 3) (prE 3 5 rfl).left_inv (prE 5 3 rfl).left_inv () N c) $$ Hr4
  ihave Hr5' := (Pipeline.launchCred_tallyAt (SemLoc.dma rcv5) (fun d => pr d 6) (fun d => pr d 2) (prE 2 6 rfl).left_inv (prE 6 2 rfl).left_inv () N c) $$ Hr5
  ihave Hr6' := (Pipeline.launchCred_tallyAt (SemLoc.dma rcv6) (fun d => pr d 7) (fun d => pr d 1) (prE 1 7 rfl).left_inv (prE 7 1 rfl).left_inv () N c) $$ Hr6
  ihave HB := (cred_tallyAt_add (F := F) (((c : Dev nD) : Thread nD τ), SemLoc.reg barS) 1 1 2 rfl) $$ [Hb1' Hb2']
  · isplitl [Hb1'] <;> iassumption
  ihave HB := (cred_tallyAt_add (F := F) (((c : Dev nD) : Thread nD τ), SemLoc.reg barS) 2 1 3 rfl) $$ [HB Hb3']
  · isplitl [HB] <;> iassumption
  ihave HB := (cred_tallyAt_add (F := F) (((c : Dev nD) : Thread nD τ), SemLoc.reg barS) 3 1 4 rfl) $$ [HB Hb4']
  · isplitl [HB] <;> iassumption
  ihave HB := (cred_tallyAt_add (F := F) (((c : Dev nD) : Thread nD τ), SemLoc.reg barS) 4 1 5 rfl) $$ [HB Hb5']
  · isplitl [HB] <;> iassumption
  ihave HB := (cred_tallyAt_add (F := F) (((c : Dev nD) : Thread nD τ), SemLoc.reg barS) 5 1 6 rfl) $$ [HB Hb6']
  · isplitl [HB] <;> iassumption
  ihave HB := (cred_tallyAt_add (F := F) (((c : Dev nD) : Thread nD τ), SemLoc.reg barS) 6 1 7 rfl) $$ [HB Hb7']
  · isplitl [HB] <;> iassumption
  unfold creds
  isplitl [HB]; · iexact HB
  isplitl [Hr0']; · iexact Hr0'
  isplitl [Hr1']; · iexact Hr1'
  isplitl [Hr2']; · iexact Hr2'
  isplitl [Hr3']; · iexact Hr3'
  isplitl [Hr4']; · iexact Hr4'
  isplitl [Hr5']; · iexact Hr5'
  iexact Hr6'

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ statsWhole commWhole
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ statsWhole commWhole
  iintro ⟨Hst, Hcm, Hsems⟩
  isplitr; · iempintro
  isplitl [Hsems]; · iexact Hsems
  isplitl [Hst]; · iexact Hst
  iexact Hcm

omit [FloatOps F] in
theorem tally_above {g₀ g : GSem nD τ sig} {n : ℕ} {u : Unit} (h : 0 < (tallyAt g₀ () n : CellTallies nD τ sig Unit) g u)
    (h0 : () ∈ L g₀ ∧ 0 < lv g₀ ()) : u ∈ L g ∧ 0 < lv g u := by
  obtain ⟨rfl, rfl⟩ := Pipeline.tallyAt_pos h; exact h0

omit [FloatOps F] in
theorem bar_above (t : Thread nD τ) : 0 < lv (t, SemLoc.reg barS) () := Nat.one_pos
omit [FloatOps F] in
theorem rcv_above (t : Thread nD τ) (q : DmaSem sig) (h : 9 ≤ q.val) : 0 < lv (t, SemLoc.dma q) () := by
  show 0 < (if 9 ≤ q.val then 2 else 0); rw [if_pos h]; decide

omit [FloatOps F] in
/-- Everything a device owes at launch sits on a barrier or a receive cell of a TensorCore: above level 0. -/
theorem owed_above (c : Dev nD) {g : GSem nD τ sig} {u : Unit} (h : 0 < O₀ c g u) : u ∈ L g ∧ 0 < lv g u := by
  unfold O₀ owedCopies at h
  repeat' (rcases Pipeline.add_pos_cases h with h | h)
  all_goals exact tally_above h ⟨by rw [L_tc]; exact Finset.mem_singleton_self _, by first | exact bar_above _ | exact rcv_above _ _ (by decide)⟩

omit [FloatOps F] in
/-- The pipeline's staging cells wait at level 0, below everything owed. -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _) (fun g i hg => by
      have h := owed_above c hg
      refine ⟨h.1, ?_⟩
      show (if 9 ≤ q.val then 2 else 0) < lv g i
      rw [if_neg (by omega)]; exact h.2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the proof data's final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

omit [FloatOps F] in
/-- The result window's one block is the whole result array. -/
theorem out_block_whole (c : Dev nD) (f : Buf (Elt F) ((c : Thread nD τ).loc main_v1)) :
    ((cfg0.win (1 : Fin 2)).blk t₀).view.read (Elt F) f = f :=
  Memref.read_access_unit_zero (Elt F) main_v1
    (show (fun a => (win0_1.index t0_0) a * main_v1.ty.shape.size a) = fun _ => 0 from funext fun a => by fin_cases a <;> decide)
    (fun a => by fin_cases a <;> decide) f

/-- The result array after the run holds the kernel's result: the one write-back, of the whole array, writes what the
    body left in the staging buffer. -/
theorem finalA_o (c : Dev nD) : finalA m ρ c (1 : Fin 2) = outAt m c := by
  have hw : ((cfg0.win (1 : Fin 2)).blk t₀).view.read (Elt F) (finalA m ρ c (1 : Fin 2)) = (dats m ρ 0 c).flushed (1 : Fin 2) t₀ := by
    unfold finalA
    rw [show cfg0.N = (t₀ : Fin cfg0.N).val + 1 from rfl, (dats m ρ 0 c).arrAt_succ (1 : Fin 2) t₀, flush0_1 t₀, if_pos rfl]
    exact View.read_write_univ _ _
  rw [out_block_whole] at hw
  exact hw.trans (funext fun _ => rfl)

/-- The run, with the result named and the argument unchanged. -/
theorem run : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  (θ_run defs _ _).mono (fun _ h c => ⟨(h c (1 : Fin 2)).trans (finalA_o m ρ c), (h c (0 : Fin 2)).trans (finalA_x m ρ c)⟩) (run_main m ρ)

/-- info: 'Cert.KernelIdeal.Hand.glob' depends on axioms: [propext, Classical.choice, Quot.sound] -/
#guard_msgs in #print axioms glob

/-- info: 'Cert.KernelIdeal.Hand.finalA_o' depends on axioms: [propext, Classical.choice, Quot.sound] -/
#guard_msgs in #print axioms finalA_o

end Cert.KernelIdeal.Hand

end
-- ==== Proof.SoftmaxSpec.lean ====
/-
# Softmax of one row cut into eight blocks: the two formulas

One row of the 2048 x 8192 array, as eight blocks of 1024 extended reals. The kernel's formula on block c: with
bmax d the maximum of block d and bsum d the sum of exp (x - bmax d) over block d, the overall maximum gmax c is
taken over the seven other blocks in the order their statistics sit in c's landing slots and then c's own, the
overall sum gsum c rescales each block's sum by exp (bmax d - gmax c), and the entry is
exp (x - bmax c) * (exp (bmax c - gmax c) / gsum c). The reference's formula on the whole row: exp (x - rmax)
divided by the sum of exp (x - rmax) over the 8192 entries (started from zero). Over finite entries they agree.
-/
import Idealize.ShloMosaic.PureOps.Ideal
import Mathlib.Data.Finset.Fold
import Mathlib.Data.Fintype.BigOperators
import Mathlib.Logic.Equiv.Fin.Basic
import Mathlib.Algebra.Order.BigOperators.Group.Finset
import Mathlib.Analysis.Complex.Exponential

noncomputable section

namespace Cert.SoftmaxSpec

open Idealize.ShloMosaic

variable (x : Fin 8 → Fin 1024 → EReal)

/-- The maximum of block d, folded from the bottom element. -/
def bmax (d : Fin 8) : EReal := (Finset.univ : Finset (Fin 1024)).fold max ⊥ (x d)
/-- The sum over block d of exp (x - bmax d). -/
def bsum (d : Fin 8) : EReal := ∑ j : Fin 1024, Ideal.exp (x d j - bmax x d)
/-- The block whose statistics sit in landing slot k of block c: the one at ring distance 7 - k after c. -/
def src (c : Fin 8) (k : Fin 7) : Fin 8 := ⟨(c.val + (7 - k.val)) % 8, Nat.mod_lt _ (by decide)⟩
def gmax (c : Fin 8) : EReal :=
  max ((Finset.univ : Finset (Fin 7)).fold max ⊥ (fun k => bmax x (src c k))) (bmax x c)
def gsum (c : Fin 8) : EReal :=
  (∑ k : Fin 7, bsum x (src c k) * Ideal.exp (bmax x (src c k) - gmax x c)) + bsum x c * Ideal.exp (bmax x c - gmax x c)
/-- The kernel's entry at column j of block c. -/
def kout (c : Fin 8) (j : Fin 1024) : EReal :=
  Ideal.exp (x c j - bmax x c) * Ideal.div (Ideal.exp (bmax x c - gmax x c)) (gsum x c)

/-- The row flattened: entry J lies in block J / 1024 at column J % 1024. -/
def flat (J : Fin 8192) : EReal :=
  x ⟨J.val / 1024, Nat.div_lt_of_lt_mul (by have := J.isLt; omega)⟩ ⟨J.val % 1024, Nat.mod_lt _ (by decide)⟩
def rmax : EReal := (Finset.univ : Finset (Fin 8192)).fold max ⊥ (flat x)
/-- The reference's entry at J. -/
def rout (J : Fin 8192) : EReal :=
  Ideal.div (Ideal.exp (flat x J - rmax x)) (0 + ∑ J' : Fin 8192, Ideal.exp (flat x J' - rmax x))

/-! ## Facts that do not depend on the row -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, folded from the bottom element, of a nonempty finite family of reals is a real. -/
theorem fold_max_real {ι : Type*} (s : Finset ι) (hs : s.Nonempty) (f : ι → EReal)
    (hf : ∀ i ∈ s, ∃ r : ℝ, f i = (r : EReal)) : ∃ r : ℝ, s.fold max ⊥ f = (r : EReal) := by
  have htop : s.fold max ⊥ f ≠ ⊤ := by
    refine ((Finset.fold_max_lt (⊤ : EReal)).2 ⟨bot_lt_top, fun i hi => ?_⟩).ne
    obtain ⟨r, hr⟩ := hf i hi
    rw [hr]; exact EReal.coe_lt_top r
  have hbot : s.fold max ⊥ f ≠ ⊥ := by
    obtain ⟨i, hi⟩ := hs
    obtain ⟨r, hr⟩ := hf i hi
    refine ((Finset.lt_fold_max (⊥ : EReal)).2 (Or.inr ⟨i, hi, ?_⟩)).ne'
    rw [hr]; exact EReal.bot_lt_coe r
  exact ⟨_, (EReal.coe_toReal htop hbot).symm⟩

/-- exp of a difference of two reals, computed in the extended reals, is the real exponential. -/
theorem exp_sub_coe (a b : ℝ) : Ideal.exp ((a : EReal) - (b : EReal)) = ((Real.exp (a - b) : ℝ) : EReal) := by
  rw [← EReal.coe_sub, Ideal.exp_coe]

/-- The seven landing slots of block c hold the seven other blocks, each once. -/
theorem image_src : ∀ c : Fin 8, (Finset.univ : Finset (Fin 7)).image (src c) = Finset.univ.erase c := by
  decide

theorem src_injective : ∀ (c : Fin 8) (k k' : Fin 7), src c k = src c k' → k = k' := by decide

/-- Every block is c itself or sits in one of c's landing slots. -/
theorem src_cover : ∀ c d : Fin 8, d = c ∨ ∃ k : Fin 7, src c k = d := by decide

/-- A sum over the seven landing slots of c, plus c's own term, is the sum over all eight blocks. -/
theorem sum_src_add {M : Type*} [AddCommMonoid M] (f : Fin 8 → M) (c : Fin 8) :
    (∑ k : Fin 7, f (src c k)) + f c = ∑ d, f d := by
  rw [← Finset.sum_erase_add _ _ (Finset.mem_univ c), ← image_src c, Finset.sum_image]
  intro k _ k' _ h
  exact src_injective c k k' h

/-! ## The flattened row -/

/-- The flattened entry at d * 1024 + j is the entry j of block d. -/
theorem flat_mk (d : Fin 8) (j : Fin 1024) (h : d.val * 1024 + j.val < 8192) :
    flat x ⟨d.val * 1024 + j.val, h⟩ = x d j := by
  have h1 : (d.val * 1024 + j.val) / 1024 = d.val := by have := j.isLt; omega
  have h2 : (d.val * 1024 + j.val) % 1024 = j.val := by have := j.isLt; omega
  unfold flat
  congr 1 <;> exact Fin.ext (by simpa using ‹_›)

/-- A sum over the flattened row is the sum over the blocks of the sums over each block. -/
theorem sum_flat {M : Type*} [AddCommMonoid M] (g : EReal → M) :
    ∑ J : Fin 8192, g (flat x J) = ∑ d : Fin 8, ∑ j : Fin 1024, g (x d j) := by
  rw [← Fintype.sum_prod_type' (fun d j => g (x d j))]
  exact Fintype.sum_equiv (finProdFinEquiv (m := 8) (n := 1024)).symm _ _ (fun J => rfl)

/-! ## The maxima -/

theorem le_bmax (d : Fin 8) (j : Fin 1024) : x d j ≤ bmax x d :=
  (Finset.le_fold_max _).2 (Or.inr ⟨j, Finset.mem_univ _, le_rfl⟩)

theorem bmax_le_rmax (d : Fin 8) : bmax x d ≤ rmax x := by
  refine (Finset.fold_max_le _).2 ⟨bot_le, fun j _ => ?_⟩
  have hlt : d.val * 1024 + j.val < 8192 := by have := d.isLt; have := j.isLt; omega
  rw [← flat_mk x d j hlt]
  exact (Finset.le_fold_max _).2 (Or.inr ⟨_, Finset.mem_univ _, le_rfl⟩)

theorem bmax_le_gmax (c d : Fin 8) : bmax x d ≤ gmax x c := by
  rcases src_cover c d with rfl | ⟨k, rfl⟩
  · exact le_max_right _ _
  · exact le_trans ((Finset.le_fold_max _).2 (Or.inr ⟨k, Finset.mem_univ _, le_rfl⟩)) (le_max_left _ _)

/-- The overall maximum the kernel forms on block c is the maximum of the whole row. -/
theorem gmax_eq_rmax (c : Fin 8) : gmax x c = rmax x := by
  apply le_antisymm
  · exact max_le ((Finset.fold_max_le _).2 ⟨bot_le, fun k _ => bmax_le_rmax x _⟩) (bmax_le_rmax x c)
  · refine (Finset.fold_max_le _).2 ⟨bot_le, fun J _ => ?_⟩
    exact le_trans (le_bmax x _ _) (bmax_le_gmax x c _)

/-- Over finite entries the two formulas agree, entry by entry. -/
theorem kout_eq_rout (hfin : ∀ d j, ∃ r : ℝ, x d j = (r : EReal)) (c : Fin 8) (j : Fin 1024) :
    kout x c j = rout x ⟨c.val * 1024 + j.val, by have := c.isLt; have := j.isLt; omega⟩ := by
  choose y hy using hfin
  -- the block maxima and the row maximum are reals
  have hbr : ∀ d, ∃ r : ℝ, bmax x d = (r : EReal) := fun d =>
    fold_max_real _ Finset.univ_nonempty _ (fun j _ => ⟨y d j, hy d j⟩)
  choose b hb using hbr
  obtain ⟨m, hm⟩ : ∃ r : ℝ, rmax x = (r : EReal) :=
    fold_max_real _ Finset.univ_nonempty _ (fun J _ => ⟨_, hy _ _⟩)
  have hg : gmax x c = (m : EReal) := (gmax_eq_rmax x c).trans hm
  -- each block's sum is a real sum
  have hS : ∀ d, bsum x d = ((∑ j, Real.exp (y d j - b d) : ℝ) : EReal) := by
    intro d
    unfold bsum
    rw [coe_sum]
    refine Finset.sum_congr rfl fun j _ => ?_
    rw [hy, hb, exp_sub_coe]
  -- rescaled to the row maximum, it is the sum of exp (x - m) over the block
  have hT : ∀ d, bsum x d * Ideal.exp (bmax x d - gmax x c)
      = ((∑ j, Real.exp (y d j - m) : ℝ) : EReal) := by
    intro d
    rw [hS, hb, hg, exp_sub_coe, ← EReal.coe_mul, Finset.sum_mul]
    congr 1
    refine Finset.sum_congr rfl fun j _ => ?_
    rw [← Real.exp_add]
    congr 1
    ring
  -- so the kernel's overall sum is the sum of exp (x - m) over the whole row
  have hG : gsum x c = ((∑ d, ∑ j, Real.exp (y d j - m) : ℝ) : EReal) := by
    unfold gsum
    simp only [hT]
    rw [← coe_sum, ← EReal.coe_add, sum_src_add (fun d => ∑ j, Real.exp (y d j - m)) c]
  -- and so is the reference's
  have hR : (0 : EReal) + ∑ J' : Fin 8192, Ideal.exp (flat x J' - rmax x)
      = ((∑ d, ∑ j, Real.exp (y d j - m) : ℝ) : EReal) := by
    rw [zero_add, sum_flat x (fun v => Ideal.exp (v - rmax x)), coe_sum]
    refine Finset.sum_congr rfl fun d _ => ?_
    rw [coe_sum]
    refine Finset.sum_congr rfl fun j _ => ?_
    rw [hy, hm, exp_sub_coe]
  -- that sum is positive
  have hZ : (∑ d, ∑ j, Real.exp (y d j - m) : ℝ) ≠ 0 := by
    apply ne_of_gt
    exact Finset.sum_pos (fun d _ => Finset.sum_pos (fun j _ => Real.exp_pos _) Finset.univ_nonempty)
      Finset.univ_nonempty
  unfold kout rout
  rw [hR, hG, Ideal.div_coe hZ, Ideal.div_coe hZ, flat_mk, hy, hb, hg, hm, exp_sub_coe, exp_sub_coe, exp_sub_coe,
    ← EReal.coe_mul, ← EReal.coe_mul, ← EReal.coe_mul]
  congr 1
  rw [← mul_assoc, ← Real.exp_add]
  congr 2
  ring

end Cert.SoftmaxSpec

end
-- ==== Proof.KernelAt.lean ====
/-
# The kernel's result, entry by entry

Read at the extended reals, entry (r, j) of device c's result is the kernel's softmax formula (SoftmaxSpec.kout) of
row r of the array as the eight devices hold it.

The road: each stored value of the kernel is read at an index. The row maxima of a block, exp (x - maximum), the
row sums, and the 2 x 2048 statistics (row 0 the maxima, row 1 the sums); the four closing loads (the device's own two
rows, the seven landed maxima and the seven landed sums); the closing arithmetic (overall maximum, rescaled overall
sum, the quotient broadcast along the row); then the landing buffer's slot k as the statistics of the device at ring
distance 7 - k, and the device's block as its argument array.
-/
import proofs.«900602_g7700000000000603_dist_softmax_colshard_i_m2048_n1024_v7x_i8_f32_1_alg».proof.Proof.KernelIdealHand.Sched
import proofs.«900602_g7700000000000603_dist_softmax_colshard_i_m2048_n1024_v7x_i8_f32_1_alg».proof.Proof.SoftmaxSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ValueAt

open Cert.KernelIdeal Cert.KernelIdeal.Gen Cert.KernelIdeal.Hand
open Idealize.ShloMosaic Idealize.ShloMosaic.TcCoe Idealize.SL.Sem
open Idealize.ShloMosaic.ValueIdx

/-! ## Layout operations of a column kept as a unit axis -/

section Layout
variable {α : Type}

/-- A vector of a entries cast to a column [a, 1] reads, at (i, u), entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its unit axis to [a, b] reads, at (i, j), the column's entry i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The block's statistics, entry by entry -/

/-- The maximum of row p of a block, folded from the bottom element. -/
def rowMax (X : FVec Ideal S2048x1024 .f32) (p : Fin 2048) : EReal :=
  (Finset.univ : Finset (Fin 1024)).fold max ⊥ (fun q => X (ix2 p q))

/-- The word of minus infinity reads as the bottom element. -/
theorem ofBits_negInf : Ideal.ofBits .f32 0xFF800000#32 = ⊥ := by simp [Ideal.ofBits, Ideal.ieee]

/-- Row p of the block with column k inserted. -/
theorem lift_row (h : S2048x1024.Reduces [1] S2048) (p : Fin 2048) (k : Fin 1024) :
    h.lift (ix1 p) k = ix2 p k := by
  funext c; apply Fin.ext
  match c with
  | ⟨0, _⟩ => rfl
  | ⟨1, _⟩ => rfl

/-- The row maxima kept as a column: entry (p, u) is the maximum of row p. -/
theorem pay3_apply (X : FVec Ideal S2048x1024 .f32) (p : Fin 2048) (u : Fin 1) :
    k0_pay3 (F := Ideal) X (ix2 p u) = rowMax X p := by
  unfold k0_pay3 k0_pay2
  refine (shapeCast_a_a1_apply _ _ p u).trans ?_
  refine (Ideal.multiReduction_maximumf_single _ _ reduces_S2048x1024_S2048 _ _ (ix1 p)).trans ?_
  rw [shapeCast_self]
  show (Finset.univ : Finset (Fin 1024)).fold max (Ideal.ofBits .f32 0xFF800000#32) (fun k => X (reduces_S2048x1024_S2048.lift (ix1 p) k)) = _
  rw [ofBits_negInf]
  unfold rowMax
  congr 1
  funext k
  exact congrArg X (lift_row _ p k)

/-- The sum over row p of exp (x - the row's maximum). -/
def rowSum (X : FVec Ideal S2048x1024 .f32) (p : Fin 2048) : EReal :=
  ∑ q : Fin 1024, Ideal.exp (X (ix2 p q) - rowMax X p)

/-- exp (x - row maximum), entry by entry. -/
theorem pay4_apply (X : FVec Ideal S2048x1024 .f32) (p : Fin 2048) (q : Fin 1024) :
    k0_pay4 (F := Ideal) X (ix2 p q) = Ideal.exp (X (ix2 p q) - rowMax X p) := by
  unfold k0_pay4
  show Ideal.exp (k0_pay2 (F := Ideal) X (ix2 p q) - broadcastTo S2048x1024 (k0_pay3 (F := Ideal) X) broadcasts_S2048x1_S2048x1024 (ix2 p q)) = _
  rw [broadcastTo_a1_ab_apply, pay3_apply]
  unfold k0_pay2
  rw [shapeCast_self]

/-- The row sums kept as a column: entry (p, u) is the sum over row p. -/
theorem rowSum_col (X : FVec Ideal S2048x1024 .f32) (p : Fin 2048) (u : Fin 1) :
    shapeCast S2048x1 (multiReduction (F := Ideal) .add [1] S2048 (k0_pay4 (F := Ideal) X) 0x00000000#32 reduces_S2048x1024_S2048 (.inl rfl) rfl)
      shapeCasts_S2048_S2048x1 (ix2 p u) = rowSum X p := by
  refine (shapeCast_a_a1_apply _ _ p u).trans ?_
  refine (Ideal.multiReduction_add_single _ _ reduces_S2048x1024_S2048 _ _ (ix1 p)).trans ?_
  unfold rowSum
  show ∑ k : Fin 1024, k0_pay4 (F := Ideal) X (reduces_S2048x1024_S2048.lift (ix1 p) k) = _
  refine Finset.sum_congr rfl fun k _ => ?_
  exact (congrArg (k0_pay4 (F := Ideal) X) (lift_row _ p k)).trans (pay4_apply X p k)

section Layout
variable {α : Type}

/-- Two columns [a, 1] set side by side: column 0 of the result is the first … -/
theorem concatenate_cols_left {a : ℕ} (x₁ x₂ : (⟨2, ![a, 1]⟩ : Shape).Idx → α)
    (h : Shape.Concatenates [(⟨2, ![a, 1]⟩ : Shape), ⟨2, ![a, 1]⟩] ⟨2, ![a, 2]⟩ 1) (i : Fin a) :
    concatenate ⟨2, ![a, 2]⟩ 1 [⟨⟨2, ![a, 1]⟩, x₁⟩, ⟨⟨2, ![a, 1]⟩, x₂⟩] h (ix2 i (0 : Fin 2)) = x₁ (ix2 i (0 : Fin 1)) :=
  concatenate_pair_apply_left (t := ⟨2, ![a, 2]⟩) (s₁ := ⟨2, ![a, 1]⟩) (s₂ := ⟨2, ![a, 1]⟩) 1 x₁ x₂ h (ix2 i (0 : Fin 2)) rfl (ix2 i (0 : Fin 1))
    (fun b => by match b with | ⟨0, _⟩ => rfl | ⟨1, _⟩ => rfl)

/-- … and column 1 the second. -/
theorem concatenate_cols_right {a : ℕ} (x₁ x₂ : (⟨2, ![a, 1]⟩ : Shape).Idx → α)
    (h : Shape.Concatenates [(⟨2, ![a, 1]⟩ : Shape), ⟨2, ![a, 1]⟩] ⟨2, ![a, 2]⟩ 1) (i : Fin a) :
    concatenate ⟨2, ![a, 2]⟩ 1 [⟨⟨2, ![a, 1]⟩, x₁⟩, ⟨⟨2, ![a, 1]⟩, x₂⟩] h (ix2 i (1 : Fin 2)) = x₂ (ix2 i (0 : Fin 1)) :=
  concatenate_pair_apply_right (t := ⟨2, ![a, 2]⟩) (s₁ := ⟨2, ![a, 1]⟩) (s₂ := ⟨2, ![a, 1]⟩) 1 x₁ x₂ h (ix2 i (1 : Fin 2)) rfl rfl (ix2 i (0 : Fin 1))
    (fun b hb => by match b with | ⟨0, _⟩ => rfl | ⟨1, _⟩ => exact absurd rfl hb) rfl

end Layout

/-- The statistics: row 0 holds the row maxima … -/
theorem pay5_apply_zero (X : FVec Ideal S2048x1024 .f32) (p : Fin 2048) :
    k0_pay5 (F := Ideal) X (ix2 (0 : Fin 2) p) = rowMax X p := by
  unfold k0_pay5
  rw [shapeCast_self]
  refine (transpose_ix2_apply _ _ (0 : Fin 2) p).trans ?_
  refine (concatenate_cols_left _ _ _ p).trans ?_
  exact pay3_apply X p 0

/-- … and row 1 the row sums. -/
theorem pay5_apply_one (X : FVec Ideal S2048x1024 .f32) (p : Fin 2048) :
    k0_pay5 (F := Ideal) X (ix2 (1 : Fin 2) p) = rowSum X p := by
  unfold k0_pay5
  rw [shapeCast_self]
  refine (transpose_ix2_apply _ _ (1 : Fin 2) p).trans ?_
  refine (concatenate_cols_right _ _ _ p).trans ?_
  exact rowSum_col X p 0

/-! ## The buffers as the closing loads read them -/

section Reads

/-- Row 0 of a statistics buffer, as loaded: entry (u, p) is the buffer's entry (0, p). -/
theorem row0_apply (f : (cc0_scratch0 : Ref sig .tc).ty.Contents (Elt Ideal)) (u : Fin 1) (p : Fin 2048) :
    row0 (F := Ideal) f (ix2 u p) = (f : S2x2048.Idx → EReal) (ix2 (0 : Fin 2) p) := by
  have e : (Rect.unit (s := S2x2048) ![0, 0] S1x2048.size inb_S2x2048_S1x2048_0_0).toLoadRect.idx (ix2 u p) = ix2 (0 : Fin 2) p := by
    funext a; apply Fin.ext
    match a with
    | ⟨0, _⟩ => show 0 + 1 * u.val = 0; omega
    | ⟨1, _⟩ => show 0 + 1 * p.val = p.val; omega
  exact congrArg (f : S2x2048.Idx → EReal) e

/-- Row 1 of a statistics buffer, as loaded: entry (u, p) is the buffer's entry (1, p). -/
theorem row1_apply (f : (cc0_scratch0 : Ref sig .tc).ty.Contents (Elt Ideal)) (u : Fin 1) (p : Fin 2048) :
    row1 (F := Ideal) f (ix2 u p) = (f : S2x2048.Idx → EReal) (ix2 (1 : Fin 2) p) := by
  have e : (Rect.unit (s := S2x2048) ![1, 0] S1x2048.size inb_S2x2048_S1x2048_1_0).toLoadRect.idx (ix2 u p) = ix2 (1 : Fin 2) p := by
    funext a; apply Fin.ext
    match a with
    | ⟨0, _⟩ => show 1 + 1 * u.val = 1; omega
    | ⟨1, _⟩ => show 0 + 1 * p.val = p.val; omega
  exact congrArg (f : S2x2048.Idx → EReal) e

/-- The landed maxima, as loaded: entry (k, u, p) is the landing buffer's entry (k, 0, p). -/
theorem colM_apply (g : (cc0_scratch1 : Ref sig .tc).ty.Contents (Elt Ideal)) (k : Fin 7) (u : Fin 1) (p : Fin 2048) :
    colM (F := Ideal) g (ix3 k u p) = (g : S7x2x2048.Idx → EReal) (ix3 k (0 : Fin 2) p) := by
  have e : (Rect.unit (s := S7x2x2048) ![0, 0, 0] S7x1x2048.size inb_S7x2x2048_S7x1x2048_0_0_0).toLoadRect.idx (ix3 k u p) = ix3 k (0 : Fin 2) p := by
    funext a; apply Fin.ext
    match a with
    | ⟨0, _⟩ => show 0 + 1 * k.val = k.val; omega
    | ⟨1, _⟩ => show 0 + 1 * u.val = 0; omega
    | ⟨2, _⟩ => show 0 + 1 * p.val = p.val; omega
  exact congrArg (g : S7x2x2048.Idx → EReal) e

/-- The landed sums, as loaded: entry (k, u, p) is the landing buffer's entry (k, 1, p). -/
theorem colS_apply (g : (cc0_scratch1 : Ref sig .tc).ty.Contents (Elt Ideal)) (k : Fin 7) (u : Fin 1) (p : Fin 2048) :
    colS (F := Ideal) g (ix3 k u p) = (g : S7x2x2048.Idx → EReal) (ix3 k (1 : Fin 2) p) := by
  have e : (Rect.unit (s := S7x2x2048) ![0, 1, 0] S7x1x2048.size inb_S7x2x2048_S7x1x2048_0_1_0).toLoadRect.idx (ix3 k u p) = ix3 k (1 : Fin 2) p := by
    funext a; apply Fin.ext
    match a with
    | ⟨0, _⟩ => show 0 + 1 * k.val = k.val; omega
    | ⟨1, _⟩ => show 1 + 1 * u.val = 1; omega
    | ⟨2, _⟩ => show 0 + 1 * p.val = p.val; omega
  exact congrArg (g : S7x2x2048.Idx → EReal) e

end Reads

section Devices
variable (m : (ℓ : Loc nD τ sig) → Buf (Elt Ideal) ℓ)

/-- The block a device finds in its staging buffer is its argument array. -/
theorem xblk_eq (c : Dev nD) :
    (xblk (F := Ideal) m c : S2048x1024.Idx → EReal) = (m ((c : Thread nD τ).loc main_arg0) : S2048x1024.Idx → EReal) := by
  funext y
  unfold xblk
  refine congrArg (m ((c : Thread nD τ).loc main_arg0) : S2048x1024.Idx → EReal) (funext fun a => Fin.ext ?_)
  show 0 * _ + 1 * (y a).val = (y a).val
  rw [Nat.zero_mul, Nat.zero_add, Nat.one_mul]

/-- Slot k of the landing buffer holds the statistics of the device at ring distance 7 - k. -/
theorem commAll_apply (c : Dev nD) (k : Fin 7) (i : Fin 2) (p : Fin 2048) :
    (commAll (F := Ideal) m c : S7x2x2048.Idx → EReal) (ix3 k i p) = (stats (F := Ideal) m (pr c (7 - k.val)) : S2x2048.Idx → EReal) (ix2 i p) := by
  unfold commAll
  refine congrArg (stats (F := Ideal) m (pr c (7 - k.val)) : S2x2048.Idx → EReal) (funext fun a => Fin.ext ?_)
  match a with
  | ⟨0, _⟩ => rfl
  | ⟨1, _⟩ => rfl

end Devices

/-! ## The closing arithmetic, entry by entry -/

section Layout
variable {α : Type}

/-- A row [1, 1, b] broadcast over a leading axis to [a, 1, b] reads, at (k, u, c), the row at c. -/
theorem broadcastTo_11b_a1b_apply {a b : ℕ} (v : (⟨3, ![1, 1, b]⟩ : Shape).Idx → α)
    (h : (⟨3, ![1, 1, b]⟩ : Shape).Broadcasts ⟨3, ![a, 1, b]⟩) (k : Fin a) (u : Fin 1) (c : Fin b) :
    broadcastTo ⟨3, ![a, 1, b]⟩ v h (ix3 k u c) = v (ix3 (0 : Fin 1) (0 : Fin 1) c) := by
  refine broadcastTo_apply v h (ix3 k u c) (ix3 (0 : Fin 1) (0 : Fin 1) c) fun ax => ?_
  match ax with
  | ⟨0, _⟩ => rfl
  | ⟨1, _⟩ => rfl
  | ⟨2, _⟩ =>
    show c.val = if b = 1 then 0 else c.val
    split
    · have := c.isLt; omega
    · rfl

end Layout

/-- exp of a vector, at an index. -/
theorem exp_apply {s : Shape} {φ : FTy} (a : FVec Ideal s φ) (i : s.Idx) : exp a i = Ideal.exp (a i) := rfl

/-- Entry (u, p) of a row of statistics with slot k inserted. -/
theorem lift_slot (h : S7x1x2048.Reduces [0] S1x2048) (u : Fin 1) (p : Fin 2048) (k : Fin 7) :
    h.lift (ix2 u p) k = ix3 k u p := by
  funext c; apply Fin.ext
  match c with
  | ⟨0, _⟩ => rfl
  | ⟨1, _⟩ => rfl
  | ⟨2, _⟩ => rfl

/-- The maximum over the seven slots, at (u, p). -/
theorem slotMax_apply (M : FVec Ideal S7x1x2048 .f32) (hφ : FKind.Formats .f32)
    (hacc : (0xFF800000#32 : BitVec 32) = 0xFF800000#32) (u : Fin 1) (p : Fin 2048) :
    multiReduction (F := Ideal) .maximumf [0] S1x2048 M 0xFF800000#32 reduces_S7x1x2048_S1x2048 hφ hacc (ix2 u p)
      = (Finset.univ : Finset (Fin 7)).fold max ⊥ (fun k => M (ix3 k u p)) := by
  refine (Ideal.multiReduction_maximumf_single M _ reduces_S7x1x2048_S1x2048 hφ hacc (ix2 u p)).trans ?_
  show (Finset.univ : Finset (Fin 7)).fold max (Ideal.ofBits .f32 0xFF800000#32) (fun k => M (reduces_S7x1x2048_S1x2048.lift (ix2 u p) k)) = _
  rw [ofBits_negInf]
  congr 1
  funext k
  exact congrArg M (lift_slot _ u p k)

/-- The sum over the seven slots, at (u, p). -/
theorem slotSum_apply (V : FVec Ideal S7x1x2048 .f32) (hφ : FKind.Formats .f32)
    (hacc : (0x00000000#32 : BitVec 32) = 0x00000000#32) (u : Fin 1) (p : Fin 2048) :
    multiReduction (F := Ideal) .add [0] S1x2048 V 0x00000000#32 reduces_S7x1x2048_S1x2048 hφ hacc (ix2 u p)
      = ∑ k : Fin 7, V (ix3 k u p) := by
  refine (Ideal.multiReduction_add_single V _ reduces_S7x1x2048_S1x2048 hφ hacc (ix2 u p)).trans ?_
  show ∑ k : Fin 7, V (reduces_S7x1x2048_S1x2048.lift (ix2 u p) k) = _
  exact Finset.sum_congr rfl fun k _ => congrArg V (lift_slot _ u p k)

/-- The overall maximum at row p: over the seven landed maxima, then the device's own. -/
def allMax (a : FVec Ideal S1x2048 .f32) (M : FVec Ideal S7x1x2048 .f32) (p : Fin 2048) : EReal :=
  max ((Finset.univ : Finset (Fin 7)).fold max ⊥ (fun k => M (ix3 k (0 : Fin 1) p))) (a (ix2 (0 : Fin 1) p))

/-- The overall sum at row p: each landed sum rescaled to the overall maximum, then the device's own. -/
def allSum (a b : FVec Ideal S1x2048 .f32) (M S : FVec Ideal S7x1x2048 .f32) (p : Fin 2048) : EReal :=
  (∑ k : Fin 7, S (ix3 k (0 : Fin 1) p) * Ideal.exp (M (ix3 k (0 : Fin 1) p) - allMax a M p))
    + b (ix2 (0 : Fin 1) p) * Ideal.exp (a (ix2 (0 : Fin 1) p) - allMax a M p)

/-- The closing arithmetic at (p, q): exp (x - own maximum) times exp (own maximum - overall maximum) over the overall sum. -/
theorem pay1_apply (a b : FVec Ideal S1x2048 .f32) (M S : FVec Ideal S7x1x2048 .f32) (E : FVec Ideal S2048x1024 .f32)
    (p : Fin 2048) (q : Fin 1024) :
    k0_pay1 (F := Ideal) a b M S E (ix2 p q)
      = E (ix2 p q) * Ideal.div (Ideal.exp (a (ix2 (0 : Fin 1) p) - allMax a M p)) (allSum a b M S p) := by
  unfold k0_pay1
  refine (mulf_apply _ _ (ix2 p q)).trans ?_
  rw [shapeCast_self]
  refine congrArg (E (ix2 p q) * ·) ?_
  refine (broadcastTo_a1_ab_apply _ _ p q).trans ?_
  refine (transpose_ix2_apply _ _ p (0 : Fin 1)).trans ?_
  simp only [divf_apply, exp_apply, subf_apply, addf_apply, mulf_apply, maximumf_apply]
  rw [slotMax_apply M _ _ (0 : Fin 1) p, slotSum_apply _ _ _ (0 : Fin 1) p]
  unfold allSum allMax
  refine congrArg (fun t => Ideal.div _ (t + _)) (Finset.sum_congr rfl fun k _ => ?_)
  show S (ix3 k (0 : Fin 1) p) * Ideal.exp (M (ix3 k (0 : Fin 1) p) - broadcastTo S7x1x2048 _ broadcasts_S1x1x2048_S7x1x2048 (ix3 k (0 : Fin 1) p)) = _
  rw [broadcastTo_11b_a1b_apply _ _ k (0 : Fin 1) p, shapeCast_ab_1ab_apply _ _ (0 : Fin 1) (0 : Fin 1) p, maximumf_apply,
    slotMax_apply M _ _ (0 : Fin 1) p]

/-! ## The result on device c -/

/-- The two spellings of a rank-2 index by its coordinates agree. -/
theorem pair_eq_ix2 {n0 n1 : ℕ} (r : Fin n0) (j : Fin n1) : (Shape.pair (d := ![n0, n1]) r j) = ix2 r j := by
  funext b; apply Fin.ext
  match b with
  | ⟨0, _⟩ => rfl
  | ⟨1, _⟩ => rfl

/-- The device whose statistics sit in landing slot k of device c. -/
theorem pr_eq_src (c : Dev nD) (k : Fin 7) : pr c (7 - k.val) = Cert.SoftmaxSpec.src c k := rfl

section Final
variable (m : (ℓ : Loc nD τ sig) → Buf (Elt Ideal) ℓ)

/-- Row r of the array as the eight devices hold it: block d, column j. -/
def rowK (r : Fin 2048) : Fin 8 → Fin 1024 → EReal := fun d j =>
  (m ((Dev.tc d : Thread nD τ).loc main_arg0) : S2048x1024.Idx → EReal) (Shape.pair r j)

/-- Entry (r, q) of device d's block is entry q of block d of row r. -/
theorem xblk_apply (d : Dev nD) (r : Fin 2048) (q : Fin 1024) :
    (xblk (F := Ideal) m d : S2048x1024.Idx → EReal) (ix2 r q) = rowK m r d q := by
  rw [xblk_eq]
  exact congrArg (m ((Dev.tc d : Thread nD τ).loc main_arg0) : S2048x1024.Idx → EReal) (pair_eq_ix2 r q).symm

/-- The maximum of row r of device d's block is the maximum of block d of row r. -/
theorem rowMax_xblk (d : Dev nD) (r : Fin 2048) :
    rowMax (xblk (F := Ideal) m d) r = Cert.SoftmaxSpec.bmax (rowK m r) d := by
  unfold rowMax Cert.SoftmaxSpec.bmax
  congr 1
  funext q
  exact xblk_apply m d r q

/-- The sum over row r of device d's block is the sum over block d of row r. -/
theorem rowSum_xblk (d : Dev nD) (r : Fin 2048) :
    rowSum (xblk (F := Ideal) m d) r = Cert.SoftmaxSpec.bsum (rowK m r) d := by
  unfold rowSum Cert.SoftmaxSpec.bsum
  refine Finset.sum_congr rfl fun q _ => ?_
  rw [rowMax_xblk, xblk_apply]

/-- Device d's statistics: row 0 the maxima … -/
theorem stats_zero (d : Dev nD) (r : Fin 2048) :
    (stats (F := Ideal) m d : S2x2048.Idx → EReal) (ix2 (0 : Fin 2) r) = Cert.SoftmaxSpec.bmax (rowK m r) d :=
  (pay5_apply_zero (xblk (F := Ideal) m d) r).trans (rowMax_xblk m d r)

/-- … row 1 the sums. -/
theorem stats_one (d : Dev nD) (r : Fin 2048) :
    (stats (F := Ideal) m d : S2x2048.Idx → EReal) (ix2 (1 : Fin 2) r) = Cert.SoftmaxSpec.bsum (rowK m r) d :=
  (pay5_apply_one (xblk (F := Ideal) m d) r).trans (rowSum_xblk m d r)

/-- The device's own maximum and sum, as the closing loads read them. -/
theorem own_max (c : Dev nD) (r : Fin 2048) :
    row0 (F := Ideal) (stats (F := Ideal) m c) (ix2 (0 : Fin 1) r) = Cert.SoftmaxSpec.bmax (rowK m r) c :=
  (row0_apply _ 0 r).trans (stats_zero m c r)
theorem own_sum (c : Dev nD) (r : Fin 2048) :
    row1 (F := Ideal) (stats (F := Ideal) m c) (ix2 (0 : Fin 1) r) = Cert.SoftmaxSpec.bsum (rowK m r) c :=
  (row1_apply _ 0 r).trans (stats_one m c r)

/-- The landed maxima and sums, as the closing loads read them. -/
theorem landed_max (c : Dev nD) (k : Fin 7) (r : Fin 2048) :
    colM (F := Ideal) (commAll (F := Ideal) m c) (ix3 k (0 : Fin 1) r) = Cert.SoftmaxSpec.bmax (rowK m r) (Cert.SoftmaxSpec.src c k) :=
  (colM_apply _ k 0 r).trans ((commAll_apply m c k 0 r).trans (stats_zero m _ r))
theorem landed_sum (c : Dev nD) (k : Fin 7) (r : Fin 2048) :
    colS (F := Ideal) (commAll (F := Ideal) m c) (ix3 k (0 : Fin 1) r) = Cert.SoftmaxSpec.bsum (rowK m r) (Cert.SoftmaxSpec.src c k) :=
  (colS_apply _ k 0 r).trans ((commAll_apply m c k 1 r).trans (stats_one m _ r))

/-- The overall maximum the kernel takes is the formula's. -/
theorem allMax_eq (c : Dev nD) (r : Fin 2048) :
    allMax (row0 (F := Ideal) (stats (F := Ideal) m c)) (colM (F := Ideal) (commAll (F := Ideal) m c)) r
      = Cert.SoftmaxSpec.gmax (rowK m r) c := by
  unfold allMax Cert.SoftmaxSpec.gmax
  rw [own_max]
  congr 2
  funext k
  exact landed_max m c k r

/-- The overall sum the kernel takes is the formula's. -/
theorem allSum_eq (c : Dev nD) (r : Fin 2048) :
    allSum (row0 (F := Ideal) (stats (F := Ideal) m c)) (row1 (F := Ideal) (stats (F := Ideal) m c))
        (colM (F := Ideal) (commAll (F := Ideal) m c)) (colS (F := Ideal) (commAll (F := Ideal) m c)) r
      = Cert.SoftmaxSpec.gsum (rowK m r) c := by
  unfold allSum Cert.SoftmaxSpec.gsum
  rw [allMax_eq, own_max, own_sum]
  congr 1
  refine Finset.sum_congr rfl fun k _ => ?_
  rw [landed_max, landed_sum]

/-- Entry (r, j) of device c's result is the kernel's formula of row r. -/
theorem outAt_apply (c : Dev nD) (r : Fin 2048) (j : Fin 1024) :
    (outAt (F := Ideal) m c : S2048x1024.Idx → EReal) (Shape.pair r j) = Cert.SoftmaxSpec.kout (rowK m r) c j := by
  rw [pair_eq_ix2]
  unfold outAt Cert.SoftmaxSpec.kout
  refine (pay1_apply _ _ _ _ _ r j).trans ?_
  rw [allMax_eq, allSum_eq, own_max]
  congr 1
  refine (pay4_apply (xblk (F := Ideal) m c) r j).trans ?_
  rw [rowMax_xblk, xblk_apply]

end Final

end Cert.KernelIdeal.ValueAt

end
-- ==== Proof.RefSide.lean ====
/-
The reference's generated run and its read-at-an-index lemmas, gathered under one import for the value modules.
-/
import proofs.«900602_g7700000000000603_dist_softmax_colshard_i_m2048_n1024_v7x_i8_f32_1_alg».proof.Defs
import proofs.«900602_g7700000000000603_dist_softmax_colshard_i_m2048_n1024_v7x_i8_f32_1_alg».proof.Proof.Gen.ReferenceIdeal
import proofs.«900602_g7700000000000603_dist_softmax_colshard_i_m2048_n1024_v7x_i8_f32_1_alg».proof.Proof.Gen.ReferenceIdeal.Run
import proofs.«900602_g7700000000000603_dist_softmax_colshard_i_m2048_n1024_v7x_i8_f32_1_alg».proof.Proof.Gen.ReferenceIdeal.Read
-- ==== Proof.RefAt.lean ====
/-
# The reference's result, entry by entry, and finiteness of the inputs

Read at the extended reals, entry (r, J) of the reference's result is the reference's softmax formula
(SoftmaxSpec.rout) of row r of its whole array, seen as eight blocks of 1024. The precondition says every entry of
every device's block is a real number.
-/
import proofs.«900602_g7700000000000603_dist_softmax_colshard_i_m2048_n1024_v7x_i8_f32_1_alg».proof.Proof.RefSide
import proofs.«900602_g7700000000000603_dist_softmax_colshard_i_m2048_n1024_v7x_i8_f32_1_alg».proof.Proof.SoftmaxSpec
import proofs.«900602_g7700000000000603_dist_softmax_colshard_i_m2048_n1024_v7x_i8_f32_1_alg».proof.Proof.Gen.Pre_finite_inputs_Kernel
import Idealize.ShloMosaic.Lib.ValueIdx
import Idealize.ShloMosaic.Lib.Pipeline.Value
import Idealize.ShloMosaic.Lib.ReduceAll
import Idealize.ShloMosaic.PureOps.Ideal.Laws

noncomputable section

namespace Cert.ReferenceIdeal.ValueAt

open Cert.ReferenceIdeal Cert.ReferenceIdeal.Gen
open Idealize.ShloMosaic Idealize.ShloMosaic.TcCoe Idealize.SL.Sem
open Idealize.ShloMosaic.ValueIdx

/-- Row r of the whole array, as eight blocks of 1024 columns. -/
def rowW (X : (⟨S2048x8192, .f32⟩ : BufTy).Contents (Elt Ideal)) (r : Fin 2048) : Fin 8 → Fin 1024 → EReal := fun d j =>
  (X : S2048x8192.Idx → EReal) (Shape.pair r (⟨d.val * 1024 + j.val, by have := d.isLt; have := j.isLt; omega⟩ : Fin 8192))

/-- The flattened row of blocks is the row of the whole array: J is (J / 1024) * 1024 + J % 1024. -/
theorem flat_rowW (X : (⟨S2048x8192, .f32⟩ : BufTy).Contents (Elt Ideal)) (r : Fin 2048) (J : Fin 8192) :
    Cert.SoftmaxSpec.flat (rowW X r) J = (X : S2048x8192.Idx → EReal) (Shape.pair r J) := by
  unfold Cert.SoftmaxSpec.flat rowW
  exact congrArg (fun J' : Fin 8192 => (X : S2048x8192.Idx → EReal) (Shape.pair r J')) (Fin.ext (Nat.div_add_mod' J.val 1024))

/-- The whole array's shape with its column axis dropped is the shape of one column. -/
private theorem reduces_cols : S2048x8192.Reduces [1] S2048 := by decide

/-- The row index r with the column k put back on the dropped axis is (r, k). -/
private theorem lift_row (r : Fin 2048) (k : Fin (S2048x8192.size 1)) :
    reduces_cols.lift (ix1 r) k = Shape.pair r (⟨k.val, k.isLt⟩ : Fin 8192) := by
  funext c; apply Fin.ext
  fin_cases c <;> rfl

/-- The reference's maximum over the columns, at row r, is the maximum of the flattened row folded from the bottom
    element: the initial value, minus infinity, is the bottom element of the extended reals. -/
theorem rowmax_apply (X : (⟨S2048x8192, .f32⟩ : BufTy).Contents (Elt Ideal)) (r : Fin 2048) :
    (Read.val_main_v0 (F := Ideal) X : S2048.Idx → EReal) (ix1 r) = Cert.SoftmaxSpec.rmax (rowW X r) := by
  unfold Read.val_main_v0
  refine (Host.reduce_eq_fold_single (FloatOps.maximumf (F := Ideal) (φ := .f32)) (X : S2048x8192.Idx → EReal)
    (Read.val_main_cst (F := Ideal)) reducesTo_S2048x8192_S2048_d1 reduces_cols h_S_ (ix1 r)).trans ?_
  have hb : (Read.val_main_cst (F := Ideal)) (Shape.Idx.first h_S_) = (⊥ : EReal) := by
    show Ideal.ofBits .f32 0xFF800000#32 = ⊥
    simp [Ideal.ofBits, Ideal.ieee]
  have hf : ((X : S2048x8192.Idx → EReal) ∘ reduces_cols.lift (ix1 r)) = Cert.SoftmaxSpec.flat (rowW X r) :=
    funext fun k => (congrArg X (lift_row r k)).trans (flat_rowW X r ⟨k.val, k.isLt⟩).symm
  show Finset.fold max ((Read.val_main_cst (F := Ideal)) (Shape.Idx.first h_S_))
      ((X : S2048x8192.Idx → EReal) ∘ reduces_cols.lift (ix1 r)) (Finset.univ : Finset (Fin 8192))
    = Finset.fold max ⊥ (Cert.SoftmaxSpec.flat (rowW X r)) (Finset.univ : Finset (Fin 8192))
  rw [hb, hf]
  rfl

/-- The reference's exponential at (r, J): exp of the entry minus the row's maximum. -/
theorem exp_apply (X : (⟨S2048x8192, .f32⟩ : BufTy).Contents (Elt Ideal)) (r : Fin 2048) (J : Fin 8192) :
    (Read.val_main_v4 (F := Ideal) X : S2048x8192.Idx → EReal) (Shape.pair r J)
      = Ideal.exp (Cert.SoftmaxSpec.flat (rowW X r) J - Cert.SoftmaxSpec.rmax (rowW X r)) := by
  have hi : Read.idx_main_v1 (Read.idx_main_v2 (Shape.pair r J : S2048x8192.Idx)) = ix1 r :=
    funext fun a => Fin.ext (by match a with | ⟨0, _⟩ => rfl)
  rw [Read.val_main_v4_apply, Read.val_main_v3_apply, Read.val_main_v2_apply, Read.val_main_v1_apply, hi,
    rowmax_apply, flat_rowW]
  rfl

/-- Entry (r, J) of the reference's result is the reference's formula of row r. -/
theorem ref_apply (X : (⟨S2048x8192, .f32⟩ : BufTy).Contents (Elt Ideal)) (r : Fin 2048) (J : Fin 8192) :
    (Cert.ReferenceIdeal.Read.val_main_v8 (F := Ideal) X : S2048x8192.Idx → EReal) (Shape.pair r J)
      = Cert.SoftmaxSpec.rout (rowW X r) J := by
  have h7 : Read.idx_main_v6 (Read.idx_main_v7 (Shape.pair r J : S2048x8192.Idx)) = ix1 r :=
    funext fun a => Fin.ext (by match a with | ⟨0, _⟩ => rfl)
  have h5 : ∀ k : Fin 8192, Read.idx_main_v5 (ix1 r) k = (Shape.pair r k : S2048x8192.Idx) :=
    fun k => funext fun a => Fin.ext (by match a with | ⟨0, _⟩ => rfl | ⟨1, _⟩ => rfl)
  rw [Read.val_main_v8_apply, Read.val_main_v7_apply, Read.val_main_v6_apply, h7, Read.val_main_v5_apply, exp_apply]
  simp only [h5, exp_apply, Read.val_main_cst_0_apply]
  show Ideal.div _ (Ideal.ofBits .f32 0x00000000#32 + _) = _
  rw [Ideal.ofBits_zero_f32]
  rfl

end Cert.ReferenceIdeal.ValueAt

namespace Cert.KernelIdeal.ValueAt

open Idealize.ShloMosaic Idealize.ShloMosaic.TcCoe Idealize.SL.Sem

/-- The rank-0 shape has one index. -/
instance subsingleton_scalarIdx : Subsingleton Cert.Pre_finite_inputs_Kernel.S_.Idx := ⟨fun a b => funext fun d => d.elim0⟩

/-- An array all of whose entries have absolute value below plus infinity has real entries: an extended real x with
    max x (-x) < ⊤ is neither ⊤ nor ⊥. -/
theorem real_of_all_finite [hPre : Cert.Pre_finite_inputs_Kernel.Facts]
    (y : FVec Ideal Cert.Pre_finite_inputs_Kernel.S2048x1024 .f32)
    (h : Cert.Pre_finite_inputs_Kernel.fn (F := Ideal) y = (fun _ => 1#1))
    (i : Cert.Pre_finite_inputs_Kernel.S2048x1024.Idx) : ∃ x : ℝ, (y i : EReal) = (x : EReal) := by
  have h0 := congrFun h ValueIdx.ix0
  dsimp only [Cert.Pre_finite_inputs_Kernel.fn] at h0
  have hi := Host.reduce_andi_all _ _ _ _ _ h0 i
  have htop : Ideal.ofBits .f32 0x7F800000#32 = ⊤ := by simp [Ideal.ofBits, Ideal.ieee]
  have hc : Ideal.cmp .olt (max (y i : EReal) (-(y i : EReal))) (Ideal.ofBits .f32 0x7F800000#32) = 1#1 := hi
  rw [htop] at hc
  have hc' : BitVec.ofBool (decide (max (y i : EReal) (-(y i : EReal)) < ⊤)) = 1#1 := hc
  have hb : ∀ b : Bool, BitVec.ofBool b = 1#1 → b = true := fun b => by cases b <;> decide
  have hlt : max (y i : EReal) (-(y i : EReal)) < ⊤ := of_decide_eq_true (hb _ hc')
  obtain ⟨h1, h2⟩ := max_lt_iff.1 hlt
  have hne_top : (y i : EReal) ≠ ⊤ := ne_of_lt h1
  have hne_bot : (y i : EReal) ≠ ⊥ := by
    intro hh
    rw [hh] at h2
    simp at h2
  exact ⟨(y i : EReal).toReal, (EReal.coe_toReal hne_top hne_bot).symm⟩

/-- Under the precondition every entry of every device's block is a real number. -/
theorem finite_of_pre [hPre : Cert.Pre_finite_inputs_Kernel.Facts]
    (m : (ℓ : Loc Cert.KernelIdeal.nD Cert.KernelIdeal.τ Cert.KernelIdeal.sig) → Buf (Elt Ideal) ℓ)
    (hpre : ∀ c : Dev Cert.KernelIdeal.nD,
      (Cert.Pre_finite_inputs_Kernel.fn (F := Ideal) (m ((c.tc : Thread Cert.KernelIdeal.nD Cert.KernelIdeal.τ).loc Cert.KernelIdeal.main_arg0))) = (fun _ => 1#1))
    (c : Dev Cert.KernelIdeal.nD) (i : Cert.KernelIdeal.S2048x1024.Idx) :
    ∃ x : ℝ, (m ((c.tc : Thread Cert.KernelIdeal.nD Cert.KernelIdeal.τ).loc Cert.KernelIdeal.main_arg0) : Cert.KernelIdeal.S2048x1024.Idx → EReal) i = (x : EReal) :=
  real_of_all_finite _ (hpre c) i

end Cert.KernelIdeal.ValueAt

end
-- ==== Proof.ValueBridge.lean ====
/-
# The kernel's result is its block of the reference's

Under the precondition, from memories where each device's argument buffer is its block of the reference's whole
array, device c's result is block c of the reference's result: entry by entry the kernel's formula and the
reference's formula of the same row agree over finite entries.
-/
import proofs.«900602_g7700000000000603_dist_softmax_colshard_i_m2048_n1024_v7x_i8_f32_1_alg».proof.Proof.KernelAt
import proofs.«900602_g7700000000000603_dist_softmax_colshard_i_m2048_n1024_v7x_i8_f32_1_alg».proof.Proof.RefAt
import Idealize.ShloMosaic.Lib.Layout

noncomputable section

namespace Cert.KernelIdeal.ValueAt

open Cert.KernelIdeal Cert.KernelIdeal.Gen Cert.KernelIdeal.Hand
open Idealize.ShloMosaic Idealize.ShloMosaic.TcCoe Idealize.SL.Sem

/-- Device d's argument buffer is block d of the whole array, so the row the eight devices hold is the row of the whole
    array: block d's column j is the whole's column d * 1024 + j, same row. -/
theorem rowK_eq_rowW (m : (ℓ : Loc nD τ sig) → Buf (Elt Ideal) ℓ)
    (X : (⟨Cert.ReferenceIdeal.S2048x8192, .f32⟩ : BufTy).Contents (Elt Ideal))
    (hblk : ∀ c : Dev nD, m ((c.tc : Thread nD τ).loc main_arg0) = Layout.block ⟨2, ![2048, 1024]⟩ ⟨2, ![2048, 8192]⟩ 1 8 c X)
    (r : Fin 2048) : rowK m r = Cert.ReferenceIdeal.ValueAt.rowW X r := by
  funext d j
  unfold rowK Cert.ReferenceIdeal.ValueAt.rowW
  rw [hblk d, Layout.block_apply]
  exact congrArg (X : Cert.ReferenceIdeal.S2048x8192.Idx → EReal)
    (Layout.idx_cols_pair (dS := ![2048, 1024]) (dT := ![2048, 8192]) (k := 8) (by decide) d r j)

theorem outAt_eq_block [hPre : Cert.Pre_finite_inputs_Kernel.Facts]
    (m : (ℓ : Loc nD τ sig) → Buf (Elt Ideal) ℓ)
    (X : (⟨Cert.ReferenceIdeal.S2048x8192, .f32⟩ : BufTy).Contents (Elt Ideal))
    (hpre : ∀ c : Dev nD, (Cert.Pre_finite_inputs_Kernel.fn (F := Ideal) (m ((c.tc : Thread nD τ).loc main_arg0))) = (fun _ => 1#1))
    (hblk : ∀ c : Dev nD, m ((c.tc : Thread nD τ).loc main_arg0) = Layout.block ⟨2, ![2048, 1024]⟩ ⟨2, ![2048, 8192]⟩ 1 8 c X)
    (c : Dev nD) :
    outAt (F := Ideal) m c
      = Layout.block ⟨2, ![2048, 1024]⟩ ⟨2, ![2048, 8192]⟩ 1 8 c (Cert.ReferenceIdeal.Read.val_main_v8 (F := Ideal) X) := by
  have hT : Layout.Tiles ⟨2, ![2048, 1024]⟩ ⟨2, ![2048, 8192]⟩ 1 8 := by decide
  funext i
  obtain ⟨r, j, rfl⟩ : ∃ (r : Fin 2048) (j : Fin 1024), i = Shape.pair r j := ⟨i 0, i 1, (Shape.pair_eta i).symm⟩
  have hfin : ∀ d j', ∃ x : ℝ, rowK m r d j' = (x : EReal) := fun d j' => finite_of_pre m hpre d (Shape.pair r j')
  have hL : (outAt (F := Ideal) m c : S2048x1024.Idx → EReal) (Shape.pair r j) = Cert.SoftmaxSpec.kout (rowK m r) c j :=
    outAt_apply m c r j
  have hR : (Cert.ReferenceIdeal.Read.val_main_v8 (F := Ideal) X : Cert.ReferenceIdeal.S2048x8192.Idx → EReal)
      (hT.idx c (Shape.pair r j)) = Cert.SoftmaxSpec.rout (Cert.ReferenceIdeal.ValueAt.rowW X r)
        ⟨c.val * 1024 + j.val, by have hc : c.val < 8 := c.isLt; have := j.isLt; omega⟩ :=
    (congrArg (Cert.ReferenceIdeal.Read.val_main_v8 (F := Ideal) X : Cert.ReferenceIdeal.S2048x8192.Idx → EReal)
      (Layout.idx_cols_pair hT c r j)).trans (Cert.ReferenceIdeal.ValueAt.ref_apply X r _)
  rw [Layout.block_apply]
  refine hL.trans (Eq.trans ?_ hR.symm)
  rw [← rowK_eq_rowW m X hblk r]
  exact Cert.SoftmaxSpec.kout_eq_rout (rowK m r) hfin c j

end Cert.KernelIdeal.ValueAt

end
-- ==== Proof.lean ====
/-
The certificate of the column-sharded softmax on eight devices.

Each device holds a block of 1024 columns; it computes its block's row maxima and row sums of exponentials, exchanges
them with its seven peers after a handshake on the barrier semaphore, and rescales its block. Both printed programs
(the word-level kernel and its reading over the extended reals) run, fault nowhere and leave their argument unchanged
(the launch, from each device's body stepped once at a symbolic device); the reference runs (its generated run);
nothing was rewritten by the ideal pass; and over finite inputs every device's result is its block of the
reference's softmax (the two formulas agree row by row).
-/
import proofs.«900602_g7700000000000603_dist_softmax_colshard_i_m2048_n1024_v7x_i8_f32_1_alg».proof.Defs
import proofs.«900602_g7700000000000603_dist_softmax_colshard_i_m2048_n1024_v7x_i8_f32_1_alg».proof.Proof.Gen.Kernel
import proofs.«900602_g7700000000000603_dist_softmax_colshard_i_m2048_n1024_v7x_i8_f32_1_alg».proof.Proof.Gen.KernelIdeal
import proofs.«900602_g7700000000000603_dist_softmax_colshard_i_m2048_n1024_v7x_i8_f32_1_alg».proof.Proof.Gen.ReferenceIdeal
import proofs.«900602_g7700000000000603_dist_softmax_colshard_i_m2048_n1024_v7x_i8_f32_1_alg».proof.Proof.Gen.Pre_finite_inputs_Kernel
import proofs.«900602_g7700000000000603_dist_softmax_colshard_i_m2048_n1024_v7x_i8_f32_1_alg».proof.Proof.Gen.Pre_finite_inputs_ReferenceIdeal
import proofs.«900602_g7700000000000603_dist_softmax_colshard_i_m2048_n1024_v7x_i8_f32_1_alg».proof.Proof.Gen.ReferenceIdeal.Run
import proofs.«900602_g7700000000000603_dist_softmax_colshard_i_m2048_n1024_v7x_i8_f32_1_alg».proof.Proof.Gen.ReferenceIdeal.Read
import proofs.«900602_g7700000000000603_dist_softmax_colshard_i_m2048_n1024_v7x_i8_f32_1_alg».proof.Proof.KernelHand.Launch
import proofs.«900602_g7700000000000603_dist_softmax_colshard_i_m2048_n1024_v7x_i8_f32_1_alg».proof.Proof.KernelIdealHand.Launch
import proofs.«900602_g7700000000000603_dist_softmax_colshard_i_m2048_n1024_v7x_i8_f32_1_alg».proof.Proof.ValueBridge
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs_Kernel := Cert.Pre_finite_inputs_Kernel.Gen.facts) := fun m ρ _ =>
  (θ_run (Cert.Kernel.defs (F := Bits)) _ _).mono (fun _ h c => (h c).2) (Cert.Kernel.Hand.run (F := Bits) m ρ)

theorem frame_pi : Cert.frame_KernelIdeal (hKernelIdeal := Cert.KernelIdeal.Gen.facts) (hPre_finite_inputs_Kernel := Cert.Pre_finite_inputs_Kernel.Gen.facts) := fun m ρ _ =>
  (θ_run (Cert.KernelIdeal.defs (F := Ideal)) _ _).mono (fun _ h c => (h c).2) (Cert.KernelIdeal.Hand.run (F := Ideal) m ρ)

theorem frame_ri : Cert.frame_ReferenceIdeal (hReferenceIdeal := Cert.ReferenceIdeal.Gen.facts) (hPre_finite_inputs_ReferenceIdeal := Cert.Pre_finite_inputs_ReferenceIdeal.Gen.facts) := fun m ρ _ =>
  (θ_run (Cert.ReferenceIdeal.defs (F := Ideal)) _ _).mono (fun _ h c => (h c).2) (Cert.ReferenceIdeal.Value.run (F := Ideal) m ρ)

/-- Every device's result is its block of the reference's: the kernel's run names each result (outAt), the reference's
    run names its own, and over finite inputs the first is the block of the second. -/
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m ρ m' ρ' hpre hagree
  refine ⟨Cert.ReferenceIdeal.Read.val_main_v8 (F := Ideal) (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (Cert.KernelIdeal.ValueAt.outAt_eq_block m _ hpre hagree c), (h c).2⟩)
      (Cert.KernelIdeal.Hand.run (F := Ideal) m ρ)
  · exact (θ_run (Cert.ReferenceIdeal.defs (F := Ideal)) _ _).mono
      (fun _ h => ⟨(h 0).1.trans (Cert.ReferenceIdeal.Read.val_main_v8_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, trivial, algebraic⟩

/-- info: 'Cert.Proof.claim' depends on axioms: [propext, Classical.choice, Quot.sound] -/
#guard_msgs in #print axioms claim

end Cert.Proof

end
